-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S16x32x256 : Shape := ⟨3, ![16, 32, 256]⟩
abbrev S32x256 : Shape := ⟨2, ![32, 256]⟩
abbrev S16 : Shape := ⟨1, ![16]⟩
abbrev S_ : Shape := ⟨0, ![]⟩
abbrev S1 : Shape := ⟨1, ![1]⟩
abbrev S1x32x256 : Shape := ⟨3, ![1, 32, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S16x32x256, .f32⟩
  | .local _ .vmem, ⟨3, _⟩ => ⟨S32x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_193 : BitVec 32 := 0#32
  let c0_i32_191 : BitVec 32 := 0#32
  let c1_i32_192 : BitVec 32 := 1#32
  let v317 : BitVec 32 := Scalar.muli c0_i32_191 c1_i32_192
  let v318 : BitVec 32 := Scalar.addi c0_i32_193 v317
  v318.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_193 : BitVec 32 := 0#32
  let c1_i32_191 : BitVec 32 := 1#32
  let c1_i32_192 : BitVec 32 := 1#32
  let v317 : BitVec 32 := Scalar.muli c1_i32_191 c1_i32_192
  let v318 : BitVec 32 := Scalar.addi c0_i32_193 v317
  v318.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_193 : BitVec 32 := 0#32
  let c2_i32_191 : BitVec 32 := 2#32
  let c1_i32_192 : BitVec 32 := 1#32
  let v317 : BitVec 32 := Scalar.muli c2_i32_191 c1_i32_192
  let v318 : BitVec 32 := Scalar.addi c0_i32_193 v317
  v318.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_193 : BitVec 32 := 0#32
  let c3_i32_191 : BitVec 32 := 3#32
  let c1_i32_192 : BitVec 32 := 1#32
  let v317 : BitVec 32 := Scalar.muli c3_i32_191 c1_i32_192
  let v318 : BitVec 32 := Scalar.addi c0_i32_193 v317
  v318.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_193 : BitVec 32 := 0#32
  let c4_i32_191 : BitVec 32 := 4#32
  let c1_i32_192 : BitVec 32 := 1#32
  let v317 : BitVec 32 := Scalar.muli c4_i32_191 c1_i32_192
  let v318 : BitVec 32 := Scalar.addi c0_i32_193 v317
  v318.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_193 : BitVec 32 := 0#32
  let c5_i32_191 : BitVec 32 := 5#32
  let c1_i32_192 : BitVec 32 := 1#32
  let v317 : BitVec 32 := Scalar.muli c5_i32_191 c1_i32_192
  let v318 : BitVec 32 := Scalar.addi c0_i32_193 v317
  v318.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_193 : BitVec 32 := 0#32
  let c6_i32_191 : BitVec 32 := 6#32
  let c1_i32_192 : BitVec 32 := 1#32
  let v317 : BitVec 32 := Scalar.muli c6_i32_191 c1_i32_192
  let v318 : BitVec 32 := Scalar.addi c0_i32_193 v317
  v318.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_193 : BitVec 32 := 0#32
  let c7_i32_191 : BitVec 32 := 7#32
  let c1_i32_192 : BitVec 32 := 1#32
  let v317 : BitVec 32 := Scalar.muli c7_i32_191 c1_i32_192
  let v318 : BitVec 32 := Scalar.addi c0_i32_193 v317
  v318.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_193 : BitVec 32 := 0#32
  let c8_i32_191 : BitVec 32 := 8#32
  let c1_i32_192 : BitVec 32 := 1#32
  let v317 : BitVec 32 := Scalar.muli c8_i32_191 c1_i32_192
  let v318 : BitVec 32 := Scalar.addi c0_i32_193 v317
  v318.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_193 : BitVec 32 := 0#32
  let c9_i32_191 : BitVec 32 := 9#32
  let c1_i32_192 : BitVec 32 := 1#32
  let v317 : BitVec 32 := Scalar.muli c9_i32_191 c1_i32_192
  let v318 : BitVec 32 := Scalar.addi c0_i32_193 v317
  v318.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_193 : BitVec 32 := 0#32
  let c10_i32_191 : BitVec 32 := 10#32
  let c1_i32_192 : BitVec 32 := 1#32
  let v317 : BitVec 32 := Scalar.muli c10_i32_191 c1_i32_192
  let v318 : BitVec 32 := Scalar.addi c0_i32_193 v317
  v318.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_193 : BitVec 32 := 0#32
  let c11_i32_191 : BitVec 32 := 11#32
  let c1_i32_192 : BitVec 32 := 1#32
  let v317 : BitVec 32 := Scalar.muli c11_i32_191 c1_i32_192
  let v318 : BitVec 32 := Scalar.addi c0_i32_193 v317
  v318.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_193 : BitVec 32 := 0#32
  let c12_i32_191 : BitVec 32 := 12#32
  let c1_i32_192 : BitVec 32 := 1#32
  let v317 : BitVec 32 := Scalar.muli c12_i32_191 c1_i32_192
  let v318 : BitVec 32 := Scalar.addi c0_i32_193 v317
  v318.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_193 : BitVec 32 := 0#32
  let c13_i32_191 : BitVec 32 := 13#32
  let c1_i32_192 : BitVec 32 := 1#32
  let v317 : BitVec 32 := Scalar.muli c13_i32_191 c1_i32_192
  let v318 : BitVec 32 := Scalar.addi c0_i32_193 v317
  v318.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_193 : BitVec 32 := 0#32
  let c14_i32_191 : BitVec 32 := 14#32
  let c1_i32_192 : BitVec 32 := 1#32
  let v317 : BitVec 32 := Scalar.muli c14_i32_191 c1_i32_192
  let v318 : BitVec 32 := Scalar.addi c0_i32_193 v317
  v318.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_193 : BitVec 32 := 0#32
  let c15_i32_191 : BitVec 32 := 15#32
  let c1_i32_192 : BitVec 32 := 1#32
  let v317 : BitVec 32 := Scalar.muli c15_i32_191 c1_i32_192
  let v318 : BitVec 32 := Scalar.addi c0_i32_193 v317
  v318.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v52 : BitVec 1 := Scalar.cmpi .ne v2 c0_i32_18
  let v53 : BitVec 32 := Scalar.extui v52
  let c0_i32_19 : BitVec 32 := 0#32
  let v54 : BitVec 1 := Scalar.cmpi .ne v53 c0_i32_19
  v54

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev17 : Nat :=
  let c0_i32_193 : BitVec 32 := 0#32
  let c0_i32_191 : BitVec 32 := 0#32
  let c1_i32_192 : BitVec 32 := 1#32
  let v317 : BitVec 32 := Scalar.muli c0_i32_191 c1_i32_192
  let v318 : BitVec 32 := Scalar.addi c0_i32_193 v317
  v318.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v55 : BitVec 1 := Scalar.cmpi .ne v2 c1_i32_20
  let v56 : BitVec 32 := Scalar.extui v55
  let c0_i32_21 : BitVec 32 := 0#32
  let v57 : BitVec 1 := Scalar.cmpi .ne v56 c0_i32_21
  v57

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev18 : Nat :=
  let c0_i32_193 : BitVec 32 := 0#32
  let c1_i32_191 : BitVec 32 := 1#32
  let c1_i32_192 : BitVec 32 := 1#32
  let v317 : BitVec 32 := Scalar.muli c1_i32_191 c1_i32_192
  let v318 : BitVec 32 := Scalar.addi c0_i32_193 v317
  v318.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_22 : BitVec 32 := 2#32
  let v58 : BitVec 1 := Scalar.cmpi .ne v2 c2_i32_22
  let v59 : BitVec 32 := Scalar.extui v58
  let c0_i32_23 : BitVec 32 := 0#32
  let v60 : BitVec 1 := Scalar.cmpi .ne v59 c0_i32_23
  v60

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev19 : Nat :=
  let c0_i32_193 : BitVec 32 := 0#32
  let c2_i32_191 : BitVec 32 := 2#32
  let c1_i32_192 : BitVec 32 := 1#32
  let v317 : BitVec 32 := Scalar.muli c2_i32_191 c1_i32_192
  let v318 : BitVec 32 := Scalar.addi c0_i32_193 v317
  v318.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_24 : BitVec 32 := 3#32
  let v61 : BitVec 1 := Scalar.cmpi .ne v2 c3_i32_24
  let v62 : BitVec 32 := Scalar.extui v61
  let c0_i32_25 : BitVec 32 := 0#32
  let v63 : BitVec 1 := Scalar.cmpi .ne v62 c0_i32_25
  v63

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev20 : Nat :=
  let c0_i32_193 : BitVec 32 := 0#32
  let c3_i32_191 : BitVec 32 := 3#32
  let c1_i32_192 : BitVec 32 := 1#32
  let v317 : BitVec 32 := Scalar.muli c3_i32_191 c1_i32_192
  let v318 : BitVec 32 := Scalar.addi c0_i32_193 v317
  v318.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_26 : BitVec 32 := 4#32
  let v64 : BitVec 1 := Scalar.cmpi .ne v2 c4_i32_26
  let v65 : BitVec 32 := Scalar.extui v64
  let c0_i32_27 : BitVec 32 := 0#32
  let v66 : BitVec 1 := Scalar.cmpi .ne v65 c0_i32_27
  v66

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev21 : Nat :=
  let c0_i32_193 : BitVec 32 := 0#32
  let c4_i32_191 : BitVec 32 := 4#32
  let c1_i32_192 : BitVec 32 := 1#32
  let v317 : BitVec 32 := Scalar.muli c4_i32_191 c1_i32_192
  let v318 : BitVec 32 := Scalar.addi c0_i32_193 v317
  v318.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_28 : BitVec 32 := 5#32
  let v67 : BitVec 1 := Scalar.cmpi .ne v2 c5_i32_28
  let v68 : BitVec 32 := Scalar.extui v67
  let c0_i32_29 : BitVec 32 := 0#32
  let v69 : BitVec 1 := Scalar.cmpi .ne v68 c0_i32_29
  v69

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev22 : Nat :=
  let c0_i32_193 : BitVec 32 := 0#32
  let c5_i32_191 : BitVec 32 := 5#32
  let c1_i32_192 : BitVec 32 := 1#32
  let v317 : BitVec 32 := Scalar.muli c5_i32_191 c1_i32_192
  let v318 : BitVec 32 := Scalar.addi c0_i32_193 v317
  v318.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_30 : BitVec 32 := 6#32
  let v70 : BitVec 1 := Scalar.cmpi .ne v2 c6_i32_30
  let v71 : BitVec 32 := Scalar.extui v70
  let c0_i32_31 : BitVec 32 := 0#32
  let v72 : BitVec 1 := Scalar.cmpi .ne v71 c0_i32_31
  v72

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev23 : Nat :=
  let c0_i32_193 : BitVec 32 := 0#32
  let c6_i32_191 : BitVec 32 := 6#32
  let c1_i32_192 : BitVec 32 := 1#32
  let v317 : BitVec 32 := Scalar.muli c6_i32_191 c1_i32_192
  let v318 : BitVec 32 := Scalar.addi c0_i32_193 v317
  v318.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_32 : BitVec 32 := 7#32
  let v73 : BitVec 1 := Scalar.cmpi .ne v2 c7_i32_32
  let v74 : BitVec 32 := Scalar.extui v73
  let c0_i32_33 : BitVec 32 := 0#32
  let v75 : BitVec 1 := Scalar.cmpi .ne v74 c0_i32_33
  v75

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev24 : Nat :=
  let c0_i32_193 : BitVec 32 := 0#32
  let c7_i32_191 : BitVec 32 := 7#32
  let c1_i32_192 : BitVec 32 := 1#32
  let v317 : BitVec 32 := Scalar.muli c7_i32_191 c1_i32_192
  let v318 : BitVec 32 := Scalar.addi c0_i32_193 v317
  v318.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_34 : BitVec 32 := 8#32
  let v76 : BitVec 1 := Scalar.cmpi .ne v2 c8_i32_34
  let v77 : BitVec 32 := Scalar.extui v76
  let c0_i32_35 : BitVec 32 := 0#32
  let v78 : BitVec 1 := Scalar.cmpi .ne v77 c0_i32_35
  v78

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev25 : Nat :=
  let c0_i32_193 : BitVec 32 := 0#32
  let c8_i32_191 : BitVec 32 := 8#32
  let c1_i32_192 : BitVec 32 := 1#32
  let v317 : BitVec 32 := Scalar.muli c8_i32_191 c1_i32_192
  let v318 : BitVec 32 := Scalar.addi c0_i32_193 v317
  v318.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_36 : BitVec 32 := 9#32
  let v79 : BitVec 1 := Scalar.cmpi .ne v2 c9_i32_36
  let v80 : BitVec 32 := Scalar.extui v79
  let c0_i32_37 : BitVec 32 := 0#32
  let v81 : BitVec 1 := Scalar.cmpi .ne v80 c0_i32_37
  v81

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev26 : Nat :=
  let c0_i32_193 : BitVec 32 := 0#32
  let c9_i32_191 : BitVec 32 := 9#32
  let c1_i32_192 : BitVec 32 := 1#32
  let v317 : BitVec 32 := Scalar.muli c9_i32_191 c1_i32_192
  let v318 : BitVec 32 := Scalar.addi c0_i32_193 v317
  v318.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_38 : BitVec 32 := 10#32
  let v82 : BitVec 1 := Scalar.cmpi .ne v2 c10_i32_38
  let v83 : BitVec 32 := Scalar.extui v82
  let c0_i32_39 : BitVec 32 := 0#32
  let v84 : BitVec 1 := Scalar.cmpi .ne v83 c0_i32_39
  v84

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev27 : Nat :=
  let c0_i32_193 : BitVec 32 := 0#32
  let c10_i32_191 : BitVec 32 := 10#32
  let c1_i32_192 : BitVec 32 := 1#32
  let v317 : BitVec 32 := Scalar.muli c10_i32_191 c1_i32_192
  let v318 : BitVec 32 := Scalar.addi c0_i32_193 v317
  v318.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_40 : BitVec 32 := 11#32
  let v85 : BitVec 1 := Scalar.cmpi .ne v2 c11_i32_40
  let v86 : BitVec 32 := Scalar.extui v85
  let c0_i32_41 : BitVec 32 := 0#32
  let v87 : BitVec 1 := Scalar.cmpi .ne v86 c0_i32_41
  v87

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev28 : Nat :=
  let c0_i32_193 : BitVec 32 := 0#32
  let c11_i32_191 : BitVec 32 := 11#32
  let c1_i32_192 : BitVec 32 := 1#32
  let v317 : BitVec 32 := Scalar.muli c11_i32_191 c1_i32_192
  let v318 : BitVec 32 := Scalar.addi c0_i32_193 v317
  v318.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_42 : BitVec 32 := 12#32
  let v88 : BitVec 1 := Scalar.cmpi .ne v2 c12_i32_42
  let v89 : BitVec 32 := Scalar.extui v88
  let c0_i32_43 : BitVec 32 := 0#32
  let v90 : BitVec 1 := Scalar.cmpi .ne v89 c0_i32_43
  v90

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev29 : Nat :=
  let c0_i32_193 : BitVec 32 := 0#32
  let c12_i32_191 : BitVec 32 := 12#32
  let c1_i32_192 : BitVec 32 := 1#32
  let v317 : BitVec 32 := Scalar.muli c12_i32_191 c1_i32_192
  let v318 : BitVec 32 := Scalar.addi c0_i32_193 v317
  v318.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_44 : BitVec 32 := 13#32
  let v91 : BitVec 1 := Scalar.cmpi .ne v2 c13_i32_44
  let v92 : BitVec 32 := Scalar.extui v91
  let c0_i32_45 : BitVec 32 := 0#32
  let v93 : BitVec 1 := Scalar.cmpi .ne v92 c0_i32_45
  v93

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev30 : Nat :=
  let c0_i32_193 : BitVec 32 := 0#32
  let c13_i32_191 : BitVec 32 := 13#32
  let c1_i32_192 : BitVec 32 := 1#32
  let v317 : BitVec 32 := Scalar.muli c13_i32_191 c1_i32_192
  let v318 : BitVec 32 := Scalar.addi c0_i32_193 v317
  v318.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_46 : BitVec 32 := 14#32
  let v94 : BitVec 1 := Scalar.cmpi .ne v2 c14_i32_46
  let v95 : BitVec 32 := Scalar.extui v94
  let c0_i32_47 : BitVec 32 := 0#32
  let v96 : BitVec 1 := Scalar.cmpi .ne v95 c0_i32_47
  v96

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev31 : Nat :=
  let c0_i32_193 : BitVec 32 := 0#32
  let c14_i32_191 : BitVec 32 := 14#32
  let c1_i32_192 : BitVec 32 := 1#32
  let v317 : BitVec 32 := Scalar.muli c14_i32_191 c1_i32_192
  let v318 : BitVec 32 := Scalar.addi c0_i32_193 v317
  v318.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_48 : BitVec 32 := 15#32
  let v97 : BitVec 1 := Scalar.cmpi .ne v2 c15_i32_48
  let v98 : BitVec 32 := Scalar.extui v97
  let c0_i32_49 : BitVec 32 := 0#32
  let v99 : BitVec 1 := Scalar.cmpi .ne v98 c0_i32_49
  v99

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_194 : BitVec 32 := 0#32
  let c0_i32_195 : BitVec 32 := 0#32
  ![v2.toNat, 0, 0]
def k0_dev32 : Nat :=
  let c0_i32_193 : BitVec 32 := 0#32
  let c15_i32_191 : BitVec 32 := 15#32
  let c1_i32_192 : BitVec 32 := 1#32
  let v317 : BitVec 32 := Scalar.muli c15_i32_191 c1_i32_192
  let v318 : BitVec 32 := Scalar.addi c0_i32_193 v317
  v318.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v100 : BitVec 32 := Scalar.muli v2 c32_i32
  let v101 : Index := Scalar.indexCast v100
  let c0 : Index := 0#32
  ![v101.toNat, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v104 : Index := Scalar.indexCast v2
  let c0_50 : Index := 0#32
  let c0_51 : Index := 0#32
  ![v104.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_90 : BitVec 32 := 0#32
  let v169 : BitVec 1 := Scalar.cmpi .ne v2 c0_i32_90
  let v170 : BitVec 32 := Scalar.extui v169
  let c0_i32_91 : BitVec 32 := 0#32
  let v171 : BitVec 1 := Scalar.cmpi .ne v170 c0_i32_91
  v171

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev33 : Nat :=
  let c0_i32_194 : BitVec 32 := 0#32
  let c0_i32_192 : BitVec 32 := 0#32
  let c1_i32_193 : BitVec 32 := 1#32
  let v318 : BitVec 32 := Scalar.muli c0_i32_192 c1_i32_193
  let v319 : BitVec 32 := Scalar.addi c0_i32_194 v318
  v319.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_92 : BitVec 32 := 1#32
  let v172 : BitVec 1 := Scalar.cmpi .ne v2 c1_i32_92
  let v173 : BitVec 32 := Scalar.extui v172
  let c0_i32_93 : BitVec 32 := 0#32
  let v174 : BitVec 1 := Scalar.cmpi .ne v173 c0_i32_93
  v174

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev34 : Nat :=
  let c0_i32_194 : BitVec 32 := 0#32
  let c1_i32_192 : BitVec 32 := 1#32
  let c1_i32_193 : BitVec 32 := 1#32
  let v318 : BitVec 32 := Scalar.muli c1_i32_192 c1_i32_193
  let v319 : BitVec 32 := Scalar.addi c0_i32_194 v318
  v319.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_94 : BitVec 32 := 2#32
  let v175 : BitVec 1 := Scalar.cmpi .ne v2 c2_i32_94
  let v176 : BitVec 32 := Scalar.extui v175
  let c0_i32_95 : BitVec 32 := 0#32
  let v177 : BitVec 1 := Scalar.cmpi .ne v176 c0_i32_95
  v177

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev35 : Nat :=
  let c0_i32_194 : BitVec 32 := 0#32
  let c2_i32_192 : BitVec 32 := 2#32
  let c1_i32_193 : BitVec 32 := 1#32
  let v318 : BitVec 32 := Scalar.muli c2_i32_192 c1_i32_193
  let v319 : BitVec 32 := Scalar.addi c0_i32_194 v318
  v319.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_96 : BitVec 32 := 3#32
  let v178 : BitVec 1 := Scalar.cmpi .ne v2 c3_i32_96
  let v179 : BitVec 32 := Scalar.extui v178
  let c0_i32_97 : BitVec 32 := 0#32
  let v180 : BitVec 1 := Scalar.cmpi .ne v179 c0_i32_97
  v180

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev36 : Nat :=
  let c0_i32_194 : BitVec 32 := 0#32
  let c3_i32_192 : BitVec 32 := 3#32
  let c1_i32_193 : BitVec 32 := 1#32
  let v318 : BitVec 32 := Scalar.muli c3_i32_192 c1_i32_193
  let v319 : BitVec 32 := Scalar.addi c0_i32_194 v318
  v319.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v181 : BitVec 1 := Scalar.cmpi .ne v2 c4_i32_98
  let v182 : BitVec 32 := Scalar.extui v181
  let c0_i32_99 : BitVec 32 := 0#32
  let v183 : BitVec 1 := Scalar.cmpi .ne v182 c0_i32_99
  v183

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev37 : Nat :=
  let c0_i32_194 : BitVec 32 := 0#32
  let c4_i32_192 : BitVec 32 := 4#32
  let c1_i32_193 : BitVec 32 := 1#32
  let v318 : BitVec 32 := Scalar.muli c4_i32_192 c1_i32_193
  let v319 : BitVec 32 := Scalar.addi c0_i32_194 v318
  v319.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_100 : BitVec 32 := 5#32
  let v184 : BitVec 1 := Scalar.cmpi .ne v2 c5_i32_100
  let v185 : BitVec 32 := Scalar.extui v184
  let c0_i32_101 : BitVec 32 := 0#32
  let v186 : BitVec 1 := Scalar.cmpi .ne v185 c0_i32_101
  v186

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev38 : Nat :=
  let c0_i32_194 : BitVec 32 := 0#32
  let c5_i32_192 : BitVec 32 := 5#32
  let c1_i32_193 : BitVec 32 := 1#32
  let v318 : BitVec 32 := Scalar.muli c5_i32_192 c1_i32_193
  let v319 : BitVec 32 := Scalar.addi c0_i32_194 v318
  v319.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_102 : BitVec 32 := 6#32
  let v187 : BitVec 1 := Scalar.cmpi .ne v2 c6_i32_102
  let v188 : BitVec 32 := Scalar.extui v187
  let c0_i32_103 : BitVec 32 := 0#32
  let v189 : BitVec 1 := Scalar.cmpi .ne v188 c0_i32_103
  v189

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev39 : Nat :=
  let c0_i32_194 : BitVec 32 := 0#32
  let c6_i32_192 : BitVec 32 := 6#32
  let c1_i32_193 : BitVec 32 := 1#32
  let v318 : BitVec 32 := Scalar.muli c6_i32_192 c1_i32_193
  let v319 : BitVec 32 := Scalar.addi c0_i32_194 v318
  v319.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_104 : BitVec 32 := 7#32
  let v190 : BitVec 1 := Scalar.cmpi .ne v2 c7_i32_104
  let v191 : BitVec 32 := Scalar.extui v190
  let c0_i32_105 : BitVec 32 := 0#32
  let v192 : BitVec 1 := Scalar.cmpi .ne v191 c0_i32_105
  v192

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev40 : Nat :=
  let c0_i32_194 : BitVec 32 := 0#32
  let c7_i32_192 : BitVec 32 := 7#32
  let c1_i32_193 : BitVec 32 := 1#32
  let v318 : BitVec 32 := Scalar.muli c7_i32_192 c1_i32_193
  let v319 : BitVec 32 := Scalar.addi c0_i32_194 v318
  v319.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_106 : BitVec 32 := 8#32
  let v193 : BitVec 1 := Scalar.cmpi .ne v2 c8_i32_106
  let v194 : BitVec 32 := Scalar.extui v193
  let c0_i32_107 : BitVec 32 := 0#32
  let v195 : BitVec 1 := Scalar.cmpi .ne v194 c0_i32_107
  v195

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev41 : Nat :=
  let c0_i32_194 : BitVec 32 := 0#32
  let c8_i32_192 : BitVec 32 := 8#32
  let c1_i32_193 : BitVec 32 := 1#32
  let v318 : BitVec 32 := Scalar.muli c8_i32_192 c1_i32_193
  let v319 : BitVec 32 := Scalar.addi c0_i32_194 v318
  v319.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_108 : BitVec 32 := 9#32
  let v196 : BitVec 1 := Scalar.cmpi .ne v2 c9_i32_108
  let v197 : BitVec 32 := Scalar.extui v196
  let c0_i32_109 : BitVec 32 := 0#32
  let v198 : BitVec 1 := Scalar.cmpi .ne v197 c0_i32_109
  v198

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev42 : Nat :=
  let c0_i32_194 : BitVec 32 := 0#32
  let c9_i32_192 : BitVec 32 := 9#32
  let c1_i32_193 : BitVec 32 := 1#32
  let v318 : BitVec 32 := Scalar.muli c9_i32_192 c1_i32_193
  let v319 : BitVec 32 := Scalar.addi c0_i32_194 v318
  v319.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_110 : BitVec 32 := 10#32
  let v199 : BitVec 1 := Scalar.cmpi .ne v2 c10_i32_110
  let v200 : BitVec 32 := Scalar.extui v199
  let c0_i32_111 : BitVec 32 := 0#32
  let v201 : BitVec 1 := Scalar.cmpi .ne v200 c0_i32_111
  v201

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev43 : Nat :=
  let c0_i32_194 : BitVec 32 := 0#32
  let c10_i32_192 : BitVec 32 := 10#32
  let c1_i32_193 : BitVec 32 := 1#32
  let v318 : BitVec 32 := Scalar.muli c10_i32_192 c1_i32_193
  let v319 : BitVec 32 := Scalar.addi c0_i32_194 v318
  v319.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_112 : BitVec 32 := 11#32
  let v202 : BitVec 1 := Scalar.cmpi .ne v2 c11_i32_112
  let v203 : BitVec 32 := Scalar.extui v202
  let c0_i32_113 : BitVec 32 := 0#32
  let v204 : BitVec 1 := Scalar.cmpi .ne v203 c0_i32_113
  v204

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev44 : Nat :=
  let c0_i32_194 : BitVec 32 := 0#32
  let c11_i32_192 : BitVec 32 := 11#32
  let c1_i32_193 : BitVec 32 := 1#32
  let v318 : BitVec 32 := Scalar.muli c11_i32_192 c1_i32_193
  let v319 : BitVec 32 := Scalar.addi c0_i32_194 v318
  v319.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_114 : BitVec 32 := 12#32
  let v205 : BitVec 1 := Scalar.cmpi .ne v2 c12_i32_114
  let v206 : BitVec 32 := Scalar.extui v205
  let c0_i32_115 : BitVec 32 := 0#32
  let v207 : BitVec 1 := Scalar.cmpi .ne v206 c0_i32_115
  v207

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev45 : Nat :=
  let c0_i32_194 : BitVec 32 := 0#32
  let c12_i32_192 : BitVec 32 := 12#32
  let c1_i32_193 : BitVec 32 := 1#32
  let v318 : BitVec 32 := Scalar.muli c12_i32_192 c1_i32_193
  let v319 : BitVec 32 := Scalar.addi c0_i32_194 v318
  v319.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_116 : BitVec 32 := 13#32
  let v208 : BitVec 1 := Scalar.cmpi .ne v2 c13_i32_116
  let v209 : BitVec 32 := Scalar.extui v208
  let c0_i32_117 : BitVec 32 := 0#32
  let v210 : BitVec 1 := Scalar.cmpi .ne v209 c0_i32_117
  v210

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev46 : Nat :=
  let c0_i32_194 : BitVec 32 := 0#32
  let c13_i32_192 : BitVec 32 := 13#32
  let c1_i32_193 : BitVec 32 := 1#32
  let v318 : BitVec 32 := Scalar.muli c13_i32_192 c1_i32_193
  let v319 : BitVec 32 := Scalar.addi c0_i32_194 v318
  v319.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_118 : BitVec 32 := 14#32
  let v211 : BitVec 1 := Scalar.cmpi .ne v2 c14_i32_118
  let v212 : BitVec 32 := Scalar.extui v211
  let c0_i32_119 : BitVec 32 := 0#32
  let v213 : BitVec 1 := Scalar.cmpi .ne v212 c0_i32_119
  v213

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev47 : Nat :=
  let c0_i32_194 : BitVec 32 := 0#32
  let c14_i32_192 : BitVec 32 := 14#32
  let c1_i32_193 : BitVec 32 := 1#32
  let v318 : BitVec 32 := Scalar.muli c14_i32_192 c1_i32_193
  let v319 : BitVec 32 := Scalar.addi c0_i32_194 v318
  v319.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_120 : BitVec 32 := 15#32
  let v214 : BitVec 1 := Scalar.cmpi .ne v2 c15_i32_120
  let v215 : BitVec 32 := Scalar.extui v214
  let c0_i32_121 : BitVec 32 := 0#32
  let v216 : BitVec 1 := Scalar.cmpi .ne v215 c0_i32_121
  v216

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v317 : BitVec 32 := Scalar.muli v2 c32_i32_190
  let c0_i32_195 : BitVec 32 := 0#32
  ![v317.toNat, 0]
def k0_dev48 : Nat :=
  let c0_i32_194 : BitVec 32 := 0#32
  let c15_i32_192 : BitVec 32 := 15#32
  let c1_i32_193 : BitVec 32 := 1#32
  let v318 : BitVec 32 := Scalar.muli c15_i32_192 c1_i32_193
  let v319 : BitVec 32 := Scalar.addi c0_i32_194 v318
  v319.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_15 : (15#32 : BitVec 32).msb = false
  inb_S16_S1_0 : ∀ a, (![0] : Fin 1 → Nat) a + S1.size a ≤ S16.size a
  squeezes_S1_S_ : S1.Squeezes S_
  squeezes_S1x32x256_S32x256 : S1x32x256.Squeezes S32x256
  inb_S512x256_S32x256_0_0 : ∀ a, (![0, 0] : Fin 2 → Nat) a + S32x256.size a ≤ S512x256.size a
  inb_S16_S1_1 : ∀ a, (![1] : Fin 1 → Nat) a + S1.size a ≤ S16.size a
  inb_S512x256_S32x256_32_0 : ∀ a, (![32, 0] : Fin 2 → Nat) a + S32x256.size a ≤ S512x256.size a
  inb_S16_S1_2 : ∀ a, (![2] : Fin 1 → Nat) a + S1.size a ≤ S16.size a
  inb_S512x256_S32x256_64_0 : ∀ a, (![64, 0] : Fin 2 → Nat) a + S32x256.size a ≤ S512x256.size a
  inb_S16_S1_3 : ∀ a, (![3] : Fin 1 → Nat) a + S1.size a ≤ S16.size a
  inb_S512x256_S32x256_96_0 : ∀ a, (![96, 0] : Fin 2 → Nat) a + S32x256.size a ≤ S512x256.size a
  inb_S16_S1_4 : ∀ a, (![4] : Fin 1 → Nat) a + S1.size a ≤ S16.size a
  inb_S512x256_S32x256_128_0 : ∀ a, (![128, 0] : Fin 2 → Nat) a + S32x256.size a ≤ S512x256.size a
  inb_S16_S1_5 : ∀ a, (![5] : Fin 1 → Nat) a + S1.size a ≤ S16.size a
  inb_S512x256_S32x256_160_0 : ∀ a, (![160, 0] : Fin 2 → Nat) a + S32x256.size a ≤ S512x256.size a
  inb_S16_S1_6 : ∀ a, (![6] : Fin 1 → Nat) a + S1.size a ≤ S16.size a
  inb_S512x256_S32x256_192_0 : ∀ a, (![192, 0] : Fin 2 → Nat) a + S32x256.size a ≤ S512x256.size a
  inb_S16_S1_7 : ∀ a, (![7] : Fin 1 → Nat) a + S1.size a ≤ S16.size a
  inb_S512x256_S32x256_224_0 : ∀ a, (![224, 0] : Fin 2 → Nat) a + S32x256.size a ≤ S512x256.size a
  inb_S16_S1_8 : ∀ a, (![8] : Fin 1 → Nat) a + S1.size a ≤ S16.size a
  inb_S512x256_S32x256_256_0 : ∀ a, (![256, 0] : Fin 2 → Nat) a + S32x256.size a ≤ S512x256.size a
  inb_S16_S1_9 : ∀ a, (![9] : Fin 1 → Nat) a + S1.size a ≤ S16.size a
  inb_S512x256_S32x256_288_0 : ∀ a, (![288, 0] : Fin 2 → Nat) a + S32x256.size a ≤ S512x256.size a
  inb_S16_S1_10 : ∀ a, (![10] : Fin 1 → Nat) a + S1.size a ≤ S16.size a
  inb_S512x256_S32x256_320_0 : ∀ a, (![320, 0] : Fin 2 → Nat) a + S32x256.size a ≤ S512x256.size a
  inb_S16_S1_11 : ∀ a, (![11] : Fin 1 → Nat) a + S1.size a ≤ S16.size a
  inb_S512x256_S32x256_352_0 : ∀ a, (![352, 0] : Fin 2 → Nat) a + S32x256.size a ≤ S512x256.size a
  inb_S16_S1_12 : ∀ a, (![12] : Fin 1 → Nat) a + S1.size a ≤ S16.size a
  inb_S512x256_S32x256_384_0 : ∀ a, (![384, 0] : Fin 2 → Nat) a + S32x256.size a ≤ S512x256.size a
  inb_S16_S1_13 : ∀ a, (![13] : Fin 1 → Nat) a + S1.size a ≤ S16.size a
  inb_S512x256_S32x256_416_0 : ∀ a, (![416, 0] : Fin 2 → Nat) a + S32x256.size a ≤ S512x256.size a
  inb_S16_S1_14 : ∀ a, (![14] : Fin 1 → Nat) a + S1.size a ≤ S16.size a
  inb_S512x256_S32x256_448_0 : ∀ a, (![448, 0] : Fin 2 → Nat) a + S32x256.size a ≤ S512x256.size a
  inb_S16_S1_15 : ∀ a, (![15] : Fin 1 → Nat) a + S1.size a ≤ S16.size a
  inb_S512x256_S32x256_480_0 : ∀ a, (![480, 0] : Fin 2 → Nat) a + S32x256.size a ≤ S512x256.size a
  h_S32x256 : 0 < S32x256.numel
  shapeCasts_S32x256_S32x256 : S32x256.ShapeCasts S32x256
  h_S1x32x256 : 0 < S1x32x256.numel
  shapeCasts_S1x32x256_S32x256 : S1x32x256.ShapeCasts S32x256
  shapeCasts_S32x256_S1x32x256 : S32x256.ShapeCasts S1x32x256
  inb_S16x32x256_S1x32x256_0_0_0 : ∀ a, (![0, 0, 0] : Fin 3 → Nat) a + S1x32x256.size a ≤ S16x32x256.size a
  inb_S16x32x256_S1x32x256_1_0_0 : ∀ a, (![1, 0, 0] : Fin 3 → Nat) a + S1x32x256.size a ≤ S16x32x256.size a
  inb_S16x32x256_S1x32x256_2_0_0 : ∀ a, (![2, 0, 0] : Fin 3 → Nat) a + S1x32x256.size a ≤ S16x32x256.size a
  inb_S16x32x256_S1x32x256_3_0_0 : ∀ a, (![3, 0, 0] : Fin 3 → Nat) a + S1x32x256.size a ≤ S16x32x256.size a
  inb_S16x32x256_S1x32x256_4_0_0 : ∀ a, (![4, 0, 0] : Fin 3 → Nat) a + S1x32x256.size a ≤ S16x32x256.size a
  inb_S16x32x256_S1x32x256_5_0_0 : ∀ a, (![5, 0, 0] : Fin 3 → Nat) a + S1x32x256.size a ≤ S16x32x256.size a
  inb_S16x32x256_S1x32x256_6_0_0 : ∀ a, (![6, 0, 0] : Fin 3 → Nat) a + S1x32x256.size a ≤ S16x32x256.size a
  inb_S16x32x256_S1x32x256_7_0_0 : ∀ a, (![7, 0, 0] : Fin 3 → Nat) a + S1x32x256.size a ≤ S16x32x256.size a
  inb_S16x32x256_S1x32x256_8_0_0 : ∀ a, (![8, 0, 0] : Fin 3 → Nat) a + S1x32x256.size a ≤ S16x32x256.size a
  inb_S16x32x256_S1x32x256_9_0_0 : ∀ a, (![9, 0, 0] : Fin 3 → Nat) a + S1x32x256.size a ≤ S16x32x256.size a
  inb_S16x32x256_S1x32x256_10_0_0 : ∀ a, (![10, 0, 0] : Fin 3 → Nat) a + S1x32x256.size a ≤ S16x32x256.size a
  inb_S16x32x256_S1x32x256_11_0_0 : ∀ a, (![11, 0, 0] : Fin 3 → Nat) a + S1x32x256.size a ≤ S16x32x256.size a
  inb_S16x32x256_S1x32x256_12_0_0 : ∀ a, (![12, 0, 0] : Fin 3 → Nat) a + S1x32x256.size a ≤ S16x32x256.size a
  inb_S16x32x256_S1x32x256_13_0_0 : ∀ a, (![13, 0, 0] : Fin 3 → Nat) a + S1x32x256.size a ≤ S16x32x256.size a
  inb_S16x32x256_S1x32x256_14_0_0 : ∀ a, (![14, 0, 0] : Fin 3 → Nat) a + S1x32x256.size a ≤ S16x32x256.size a
  inb_S16x32x256_S1x32x256_15_0_0 : ∀ a, (![15, 0, 0] : Fin 3 → Nat) a + S1x32x256.size a ≤ S16x32x256.size a
  inb_S16x32x256_S16x32x256_0_0_0 : ∀ a, (![0, 0, 0] : Fin 3 → Nat) a + S16x32x256.size a ≤ S16x32x256.size a
  h_S16x32x256 : 0 < S16x32x256.numel
  reduces_S16x32x256_S32x256 : S16x32x256.Reduces [0] S32x256
  inb_S32x256_S32x256_0_0 : ∀ a, (![0, 0] : Fin 2 → Nat) a + S32x256.size a ≤ S32x256.size a
  hcc0_scratch2 : 2 + S16.numel ≤ 66
  hcc0_scratch3 : 18 + S16.numel ≤ 66
  hcc0_scratch4 : 34 + S16.numel ≤ 66
  hcc0_scratch5 : 50 + S16.numel ≤ 66
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_off1_inb : ∀ d0 : Dev nD, ∀ (k0_h17 : k0_cond17 d0 = 1#1), ∀ a, (k0_off1 d0) a + S1.size a ≤ S16.size a
  k0_off2_inb : ∀ d0 : Dev nD, ∀ (k0_h17 : k0_cond17 d0 = 1#1), ∀ a, (k0_off2 d0) a + S1x32x256.size a ≤ S16x32x256.size a
  k0_dev17_lt : ∀ d0 : Dev nD, ∀ (k0_h17 : k0_cond17 d0 = 1#1), k0_dev17 < nD
  k0_off3_inb : ∀ d0 : Dev nD, ∀ (k0_h18 : k0_cond18 d0 = 1#1), ∀ a, (k0_off3 d0) a + S1.size a ≤ S16.size a
  k0_off4_inb : ∀ d0 : Dev nD, ∀ (k0_h18 : k0_cond18 d0 = 1#1), ∀ a, (k0_off4 d0) a + S1x32x256.size a ≤ S16x32x256.size a
  k0_dev18_lt : ∀ d0 : Dev nD, ∀ (k0_h18 : k0_cond18 d0 = 1#1), k0_dev18 < nD
  k0_off5_inb : ∀ d0 : Dev nD, ∀ (k0_h19 : k0_cond19 d0 = 1#1), ∀ a, (k0_off5 d0) a + S1.size a ≤ S16.size a
  k0_off6_inb : ∀ d0 : Dev nD, ∀ (k0_h19 : k0_cond19 d0 = 1#1), ∀ a, (k0_off6 d0) a + S1x32x256.size a ≤ S16x32x256.size a
  k0_dev19_lt : ∀ d0 : Dev nD, ∀ (k0_h19 : k0_cond19 d0 = 1#1), k0_dev19 < nD
  k0_off7_inb : ∀ d0 : Dev nD, ∀ (k0_h20 : k0_cond20 d0 = 1#1), ∀ a, (k0_off7 d0) a + S1.size a ≤ S16.size a
  k0_off8_inb : ∀ d0 : Dev nD, ∀ (k0_h20 : k0_cond20 d0 = 1#1), ∀ a, (k0_off8 d0) a + S1x32x256.size a ≤ S16x32x256.size a
  k0_dev20_lt : ∀ d0 : Dev nD, ∀ (k0_h20 : k0_cond20 d0 = 1#1), k0_dev20 < nD
  k0_off9_inb : ∀ d0 : Dev nD, ∀ (k0_h21 : k0_cond21 d0 = 1#1), ∀ a, (k0_off9 d0) a + S1.size a ≤ S16.size a
  k0_off10_inb : ∀ d0 : Dev nD, ∀ (k0_h21 : k0_cond21 d0 = 1#1), ∀ a, (k0_off10 d0) a + S1x32x256.size a ≤ S16x32x256.size a
  k0_dev21_lt : ∀ d0 : Dev nD, ∀ (k0_h21 : k0_cond21 d0 = 1#1), k0_dev21 < nD
  k0_off11_inb : ∀ d0 : Dev nD, ∀ (k0_h22 : k0_cond22 d0 = 1#1), ∀ a, (k0_off11 d0) a + S1.size a ≤ S16.size a
  k0_off12_inb : ∀ d0 : Dev nD, ∀ (k0_h22 : k0_cond22 d0 = 1#1), ∀ a, (k0_off12 d0) a + S1x32x256.size a ≤ S16x32x256.size a
  k0_dev22_lt : ∀ d0 : Dev nD, ∀ (k0_h22 : k0_cond22 d0 = 1#1), k0_dev22 < nD
  k0_off13_inb : ∀ d0 : Dev nD, ∀ (k0_h23 : k0_cond23 d0 = 1#1), ∀ a, (k0_off13 d0) a + S1.size a ≤ S16.size a
  k0_off14_inb : ∀ d0 : Dev nD, ∀ (k0_h23 : k0_cond23 d0 = 1#1), ∀ a, (k0_off14 d0) a + S1x32x256.size a ≤ S16x32x256.size a
  k0_dev23_lt : ∀ d0 : Dev nD, ∀ (k0_h23 : k0_cond23 d0 = 1#1), k0_dev23 < nD
  k0_off15_inb : ∀ d0 : Dev nD, ∀ (k0_h24 : k0_cond24 d0 = 1#1), ∀ a, (k0_off15 d0) a + S1.size a ≤ S16.size a
  k0_off16_inb : ∀ d0 : Dev nD, ∀ (k0_h24 : k0_cond24 d0 = 1#1), ∀ a, (k0_off16 d0) a + S1x32x256.size a ≤ S16x32x256.size a
  k0_dev24_lt : ∀ d0 : Dev nD, ∀ (k0_h24 : k0_cond24 d0 = 1#1), k0_dev24 < nD
  k0_off17_inb : ∀ d0 : Dev nD, ∀ (k0_h25 : k0_cond25 d0 = 1#1), ∀ a, (k0_off17 d0) a + S1.size a ≤ S16.size a
  k0_off18_inb : ∀ d0 : Dev nD, ∀ (k0_h25 : k0_cond25 d0 = 1#1), ∀ a, (k0_off18 d0) a + S1x32x256.size a ≤ S16x32x256.size a
  k0_dev25_lt : ∀ d0 : Dev nD, ∀ (k0_h25 : k0_cond25 d0 = 1#1), k0_dev25 < nD
  k0_off19_inb : ∀ d0 : Dev nD, ∀ (k0_h26 : k0_cond26 d0 = 1#1), ∀ a, (k0_off19 d0) a + S1.size a ≤ S16.size a
  k0_off20_inb : ∀ d0 : Dev nD, ∀ (k0_h26 : k0_cond26 d0 = 1#1), ∀ a, (k0_off20 d0) a + S1x32x256.size a ≤ S16x32x256.size a
  k0_dev26_lt : ∀ d0 : Dev nD, ∀ (k0_h26 : k0_cond26 d0 = 1#1), k0_dev26 < nD
  k0_off21_inb : ∀ d0 : Dev nD, ∀ (k0_h27 : k0_cond27 d0 = 1#1), ∀ a, (k0_off21 d0) a + S1.size a ≤ S16.size a
  k0_off22_inb : ∀ d0 : Dev nD, ∀ (k0_h27 : k0_cond27 d0 = 1#1), ∀ a, (k0_off22 d0) a + S1x32x256.size a ≤ S16x32x256.size a
  k0_dev27_lt : ∀ d0 : Dev nD, ∀ (k0_h27 : k0_cond27 d0 = 1#1), k0_dev27 < nD
  k0_off23_inb : ∀ d0 : Dev nD, ∀ (k0_h28 : k0_cond28 d0 = 1#1), ∀ a, (k0_off23 d0) a + S1.size a ≤ S16.size a
  k0_off24_inb : ∀ d0 : Dev nD, ∀ (k0_h28 : k0_cond28 d0 = 1#1), ∀ a, (k0_off24 d0) a + S1x32x256.size a ≤ S16x32x256.size a
  k0_dev28_lt : ∀ d0 : Dev nD, ∀ (k0_h28 : k0_cond28 d0 = 1#1), k0_dev28 < nD
  k0_off25_inb : ∀ d0 : Dev nD, ∀ (k0_h29 : k0_cond29 d0 = 1#1), ∀ a, (k0_off25 d0) a + S1.size a ≤ S16.size a
  k0_off26_inb : ∀ d0 : Dev nD, ∀ (k0_h29 : k0_cond29 d0 = 1#1), ∀ a, (k0_off26 d0) a + S1x32x256.size a ≤ S16x32x256.size a
  k0_dev29_lt : ∀ d0 : Dev nD, ∀ (k0_h29 : k0_cond29 d0 = 1#1), k0_dev29 < nD
  k0_off27_inb : ∀ d0 : Dev nD, ∀ (k0_h30 : k0_cond30 d0 = 1#1), ∀ a, (k0_off27 d0) a + S1.size a ≤ S16.size a
  k0_off28_inb : ∀ d0 : Dev nD, ∀ (k0_h30 : k0_cond30 d0 = 1#1), ∀ a, (k0_off28 d0) a + S1x32x256.size a ≤ S16x32x256.size a
  k0_dev30_lt : ∀ d0 : Dev nD, ∀ (k0_h30 : k0_cond30 d0 = 1#1), k0_dev30 < nD
  k0_off29_inb : ∀ d0 : Dev nD, ∀ (k0_h31 : k0_cond31 d0 = 1#1), ∀ a, (k0_off29 d0) a + S1.size a ≤ S16.size a
  k0_off30_inb : ∀ d0 : Dev nD, ∀ (k0_h31 : k0_cond31 d0 = 1#1), ∀ a, (k0_off30 d0) a + S1x32x256.size a ≤ S16x32x256.size a
  k0_dev31_lt : ∀ d0 : Dev nD, ∀ (k0_h31 : k0_cond31 d0 = 1#1), k0_dev31 < nD
  k0_off31_inb : ∀ d0 : Dev nD, ∀ (k0_h32 : k0_cond32 d0 = 1#1), ∀ a, (k0_off31 d0) a + S1.size a ≤ S16.size a
  k0_off32_inb : ∀ d0 : Dev nD, ∀ (k0_h32 : k0_cond32 d0 = 1#1), ∀ a, (k0_off32 d0) a + S1x32x256.size a ≤ S16x32x256.size a
  k0_dev32_lt : ∀ d0 : Dev nD, ∀ (k0_h32 : k0_cond32 d0 = 1#1), k0_dev32 < nD
  k0_off33_inb : ∀ d0 : Dev nD, ∀ a, (k0_off33 d0) a + S32x256.size a ≤ S512x256.size a
  k0_off34_inb : ∀ d0 : Dev nD, ∀ a, (k0_off34 d0) a + S1x32x256.size a ≤ S16x32x256.size a
  k0_off35_inb : ∀ d0 : Dev nD, ∀ (k0_h49 : k0_cond49 d0 = 1#1), ∀ a, (k0_off35 d0) a + S1.size a ≤ S16.size a
  k0_off36_inb : ∀ d0 : Dev nD, ∀ (k0_h49 : k0_cond49 d0 = 1#1), ∀ a, (k0_off36 d0) a + S32x256.size a ≤ S512x256.size a
  k0_dev33_lt : ∀ d0 : Dev nD, ∀ (k0_h49 : k0_cond49 d0 = 1#1), k0_dev33 < nD
  k0_off37_inb : ∀ d0 : Dev nD, ∀ (k0_h50 : k0_cond50 d0 = 1#1), ∀ a, (k0_off37 d0) a + S1.size a ≤ S16.size a
  k0_off38_inb : ∀ d0 : Dev nD, ∀ (k0_h50 : k0_cond50 d0 = 1#1), ∀ a, (k0_off38 d0) a + S32x256.size a ≤ S512x256.size a
  k0_dev34_lt : ∀ d0 : Dev nD, ∀ (k0_h50 : k0_cond50 d0 = 1#1), k0_dev34 < nD
  k0_off39_inb : ∀ d0 : Dev nD, ∀ (k0_h51 : k0_cond51 d0 = 1#1), ∀ a, (k0_off39 d0) a + S1.size a ≤ S16.size a
  k0_off40_inb : ∀ d0 : Dev nD, ∀ (k0_h51 : k0_cond51 d0 = 1#1), ∀ a, (k0_off40 d0) a + S32x256.size a ≤ S512x256.size a
  k0_dev35_lt : ∀ d0 : Dev nD, ∀ (k0_h51 : k0_cond51 d0 = 1#1), k0_dev35 < nD
  k0_off41_inb : ∀ d0 : Dev nD, ∀ (k0_h52 : k0_cond52 d0 = 1#1), ∀ a, (k0_off41 d0) a + S1.size a ≤ S16.size a
  k0_off42_inb : ∀ d0 : Dev nD, ∀ (k0_h52 : k0_cond52 d0 = 1#1), ∀ a, (k0_off42 d0) a + S32x256.size a ≤ S512x256.size a
  k0_dev36_lt : ∀ d0 : Dev nD, ∀ (k0_h52 : k0_cond52 d0 = 1#1), k0_dev36 < nD
  k0_off43_inb : ∀ d0 : Dev nD, ∀ (k0_h53 : k0_cond53 d0 = 1#1), ∀ a, (k0_off43 d0) a + S1.size a ≤ S16.size a
  k0_off44_inb : ∀ d0 : Dev nD, ∀ (k0_h53 : k0_cond53 d0 = 1#1), ∀ a, (k0_off44 d0) a + S32x256.size a ≤ S512x256.size a
  k0_dev37_lt : ∀ d0 : Dev nD, ∀ (k0_h53 : k0_cond53 d0 = 1#1), k0_dev37 < nD
  k0_off45_inb : ∀ d0 : Dev nD, ∀ (k0_h54 : k0_cond54 d0 = 1#1), ∀ a, (k0_off45 d0) a + S1.size a ≤ S16.size a
  k0_off46_inb : ∀ d0 : Dev nD, ∀ (k0_h54 : k0_cond54 d0 = 1#1), ∀ a, (k0_off46 d0) a + S32x256.size a ≤ S512x256.size a
  k0_dev38_lt : ∀ d0 : Dev nD, ∀ (k0_h54 : k0_cond54 d0 = 1#1), k0_dev38 < nD
  k0_off47_inb : ∀ d0 : Dev nD, ∀ (k0_h55 : k0_cond55 d0 = 1#1), ∀ a, (k0_off47 d0) a + S1.size a ≤ S16.size a
  k0_off48_inb : ∀ d0 : Dev nD, ∀ (k0_h55 : k0_cond55 d0 = 1#1), ∀ a, (k0_off48 d0) a + S32x256.size a ≤ S512x256.size a
  k0_dev39_lt : ∀ d0 : Dev nD, ∀ (k0_h55 : k0_cond55 d0 = 1#1), k0_dev39 < nD
  k0_off49_inb : ∀ d0 : Dev nD, ∀ (k0_h56 : k0_cond56 d0 = 1#1), ∀ a, (k0_off49 d0) a + S1.size a ≤ S16.size a
  k0_off50_inb : ∀ d0 : Dev nD, ∀ (k0_h56 : k0_cond56 d0 = 1#1), ∀ a, (k0_off50 d0) a + S32x256.size a ≤ S512x256.size a
  k0_dev40_lt : ∀ d0 : Dev nD, ∀ (k0_h56 : k0_cond56 d0 = 1#1), k0_dev40 < nD
  k0_off51_inb : ∀ d0 : Dev nD, ∀ (k0_h57 : k0_cond57 d0 = 1#1), ∀ a, (k0_off51 d0) a + S1.size a ≤ S16.size a
  k0_off52_inb : ∀ d0 : Dev nD, ∀ (k0_h57 : k0_cond57 d0 = 1#1), ∀ a, (k0_off52 d0) a + S32x256.size a ≤ S512x256.size a
  k0_dev41_lt : ∀ d0 : Dev nD, ∀ (k0_h57 : k0_cond57 d0 = 1#1), k0_dev41 < nD
  k0_off53_inb : ∀ d0 : Dev nD, ∀ (k0_h58 : k0_cond58 d0 = 1#1), ∀ a, (k0_off53 d0) a + S1.size a ≤ S16.size a
  k0_off54_inb : ∀ d0 : Dev nD, ∀ (k0_h58 : k0_cond58 d0 = 1#1), ∀ a, (k0_off54 d0) a + S32x256.size a ≤ S512x256.size a
  k0_dev42_lt : ∀ d0 : Dev nD, ∀ (k0_h58 : k0_cond58 d0 = 1#1), k0_dev42 < nD
  k0_off55_inb : ∀ d0 : Dev nD, ∀ (k0_h59 : k0_cond59 d0 = 1#1), ∀ a, (k0_off55 d0) a + S1.size a ≤ S16.size a
  k0_off56_inb : ∀ d0 : Dev nD, ∀ (k0_h59 : k0_cond59 d0 = 1#1), ∀ a, (k0_off56 d0) a + S32x256.size a ≤ S512x256.size a
  k0_dev43_lt : ∀ d0 : Dev nD, ∀ (k0_h59 : k0_cond59 d0 = 1#1), k0_dev43 < nD
  k0_off57_inb : ∀ d0 : Dev nD, ∀ (k0_h60 : k0_cond60 d0 = 1#1), ∀ a, (k0_off57 d0) a + S1.size a ≤ S16.size a
  k0_off58_inb : ∀ d0 : Dev nD, ∀ (k0_h60 : k0_cond60 d0 = 1#1), ∀ a, (k0_off58 d0) a + S32x256.size a ≤ S512x256.size a
  k0_dev44_lt : ∀ d0 : Dev nD, ∀ (k0_h60 : k0_cond60 d0 = 1#1), k0_dev44 < nD
  k0_off59_inb : ∀ d0 : Dev nD, ∀ (k0_h61 : k0_cond61 d0 = 1#1), ∀ a, (k0_off59 d0) a + S1.size a ≤ S16.size a
  k0_off60_inb : ∀ d0 : Dev nD, ∀ (k0_h61 : k0_cond61 d0 = 1#1), ∀ a, (k0_off60 d0) a + S32x256.size a ≤ S512x256.size a
  k0_dev45_lt : ∀ d0 : Dev nD, ∀ (k0_h61 : k0_cond61 d0 = 1#1), k0_dev45 < nD
  k0_off61_inb : ∀ d0 : Dev nD, ∀ (k0_h62 : k0_cond62 d0 = 1#1), ∀ a, (k0_off61 d0) a + S1.size a ≤ S16.size a
  k0_off62_inb : ∀ d0 : Dev nD, ∀ (k0_h62 : k0_cond62 d0 = 1#1), ∀ a, (k0_off62 d0) a + S32x256.size a ≤ S512x256.size a
  k0_dev46_lt : ∀ d0 : Dev nD, ∀ (k0_h62 : k0_cond62 d0 = 1#1), k0_dev46 < nD
  k0_off63_inb : ∀ d0 : Dev nD, ∀ (k0_h63 : k0_cond63 d0 = 1#1), ∀ a, (k0_off63 d0) a + S1.size a ≤ S16.size a
  k0_off64_inb : ∀ d0 : Dev nD, ∀ (k0_h63 : k0_cond63 d0 = 1#1), ∀ a, (k0_off64 d0) a + S32x256.size a ≤ S512x256.size a
  k0_dev47_lt : ∀ d0 : Dev nD, ∀ (k0_h63 : k0_cond63 d0 = 1#1), k0_dev47 < nD
  k0_off65_inb : ∀ d0 : Dev nD, ∀ (k0_h64 : k0_cond64 d0 = 1#1), ∀ a, (k0_off65 d0) a + S1.size a ≤ S16.size a
  k0_off66_inb : ∀ d0 : Dev nD, ∀ (k0_h64 : k0_cond64 d0 = 1#1), ∀ a, (k0_off66 d0) a + S32x256.size a ≤ S512x256.size a
  k0_dev48_lt : ∀ d0 : Dev nD, ∀ (k0_h64 : k0_cond64 d0 = 1#1), k0_dev48 < nD
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3
abbrev cc0_scratch4 : DmaSems sig S16 := SemArray.consecutive 34 S16 hcc0_scratch4
abbrev cc0_scratch5 : DmaSems sig S16 := SemArray.consecutive 50 S16 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S16x512x256 : Shape := ⟨3, ![16, 512, 256]⟩
abbrev S_ : Shape := ⟨0, ![]⟩
abbrev S512x256 : Shape := ⟨2, ![512, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S16x512x256, .f32⟩
  | .hbm, ⟨2, _⟩ => ⟨S_, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  shapeCasts_S8192x256_S16x512x256 : S8192x256.ShapeCasts S16x512x256
  reducesTo_S16x512x256_S512x256_d0 : S16x512x256.ReducesTo [0] S512x256
  h_S_ : 0 < S_.numel
  bcast_S_S512x256 : S_.BroadcastsInDim S512x256 (![] : Fin 0 → Fin S512x256.rank)

variable [Facts₀]

class Facts : Prop extends Facts₀ where

variable [Facts]
-- ==== Proof.Spec.lean ====
/-
  What the kernel computes, as pure functions of the sixteen devices' input blocks.

  Device `c` holds a block `x c` of 512 rows. Rows `32·c … 32·c+31` of EVERY device's block are gathered on
  device `c` (slot `d` of its receive buffer holds those rows of `x d`); device `c` sums the sixteen slots
  and applies `s ↦ tanh s · s · s + max(s,0)³` pointwise, which is its chunk of 32 rows; every device then
  collects all sixteen chunks, chunk `k` in rows `32·k … 32·k+31` of its result.
-/
import proofs.«900783_g7700000000000784_dist_f_of_ar_i_m512_n256_v7x_i16_f32_1_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Row `r` of the 32-row band `c` inside a 512-row block. -/
def bandRow (c : Fin 16) (r : Fin 32) : Fin 512 := ⟨c.val * 32 + r.val, by have := c.isLt; have := r.isLt; omega⟩

/-- The band a row of a 512-row block lies in, and its row inside that band. -/
def bandOf (r : Fin 512) : Fin 16 := ⟨r.val / 32, by have := r.isLt; omega⟩
def rowIn (r : Fin 512) : Fin 32 := ⟨r.val % 32, Nat.mod_lt _ (by decide)⟩

theorem bandRow_bandOf_rowIn (r : Fin 512) : bandRow (bandOf r) (rowIn r) = r :=
  Fin.ext (by show r.val / 32 * 32 + r.val % 32 = r.val; omega)
theorem bandOf_bandRow (c : Fin 16) (r : Fin 32) : bandOf (bandRow c r) = c :=
  Fin.ext (by have := r.isLt; show (c.val * 32 + r.val) / 32 = c.val; omega)
theorem rowIn_bandRow (c : Fin 16) (r : Fin 32) : rowIn (bandRow c r) = r :=
  Fin.ext (by have := r.isLt; show (c.val * 32 + r.val) % 32 = r.val; omega)

/-- Band `c` of a block: its rows `32·c … 32·c+31`. -/
def band (v : Vec F S512x256 .f32) (c : Fin 16) : Vec F S32x256 .f32 := fun i => v (ix2 (bandRow c (i 0)) (i 1))

/-- The receive buffer of device `c` once every slot has landed: slot `d` is band `c` of device `d`'s block. -/
def recvOf (x : Fin 16 → Vec F S512x256 .f32) (c : Fin 16) : Vec F S16x32x256 .f32 :=
  fun i => x (i 0) (ix2 (bandRow c (i 1)) (i 2))

/-- Device `c`'s chunk: the pointwise function of the sum of its sixteen slots (the body's arithmetic `k0_pay2`). -/
def chunkOf (x : Fin 16 → Vec F S512x256 .f32) (c : Fin 16) : Vec F S32x256 .f32 := k0_pay2 (recvOf x c)

/-- Every device's result: chunk `k` in band `k`. -/
def outOf (x : Fin 16 → Vec F S512x256 .f32) : Vec F S512x256 .f32 :=
  fun i => chunkOf x (bandOf (i 0)) (ix2 (rowIn (i 0)) (i 1))

theorem band_outOf (x : Fin 16 → Vec F S512x256 .f32) (k : Fin 16) : band (outOf x) k = chunkOf x k := by
  funext i
  obtain ⟨p, q, rfl⟩ : ∃ (p : Fin 32) (q : Fin 256), i = ix2 p q := ⟨i 0, i 1, eq_ix2 i⟩
  show chunkOf x (bandOf (bandRow k p)) (ix2 (rowIn (bandRow k p)) q) = chunkOf x k (ix2 p q)
  rw [bandOf_bandRow, rowIn_bandRow]

end Cert.KernelIdeal.Spec

end
-- ==== Proof.Proto.lean ====
/-
  The protocol of the sixteen-device exchange, as a schedule of semaphore rounds.

  Every device `c` owns one barrier cell and, for every peer index `j`, four transfer cells: the send and the
  receive cell of the first exchange (band `j` of `c`'s block goes to slot `c` of device `j`) and those of the
  second (chunk `c` goes to band `c` of device `j`'s result). Everything happens in round 0:
  * the barrier cell of `c` has one duty per peer `d ≠ c`, one unit each, paid by `d`'s signal, which hands `c`
    the right to write slot `c` of `d`'s receive buffer and band `c` of `d`'s result buffer;
  * a send cell has one duty, paid when the source has been read; it returns the source (a band of the input
    block for the first exchange; a share of the chunk buffer for the second);
  * a receive cell has one duty, paid when the destination has been written; it hands the owner the slot
    (first exchange) or the band (second) AT ITS FINAL CONTENTS, the pure functions of `Spec`.
-/
import proofs.«900783_g7700000000000784_dist_f_of_ar_i_m512_n256_v7x_i16_f32_1_alg».proof.Proof.Spec
import proofs.«900783_g7700000000000784_dist_f_of_ar_i_m512_n256_v7x_i16_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The buffers and their parts -/

abbrev xM : Memref sig .tc .vmem S512x256 .f32 := Memref.whole cc0_stg0_0
abbrev oM : Memref sig .tc .vmem S512x256 .f32 := Memref.whole cc0_stg1_0
abbrev rM : Memref sig .tc .vmem S16x32x256 .f32 := Memref.whole cc0_scratch0
abbrev kM : Memref sig .tc .vmem S32x256 .f32 := Memref.whole cc0_scratch1

theorem band_inb (j : Fin 16) : ∀ a, (![32 * j.val, 0] : Fin 2 → Nat) a + S32x256.size a ≤ S512x256.size a := by
  intro a; have := j.isLt
  match a with
  | ⟨0, _⟩ => show 32 * j.val + 32 ≤ 512; omega
  | ⟨1, _⟩ => show 0 + 256 ≤ 256; omega
theorem slot_inb (j : Fin 16) : ∀ a, (![j.val, 0, 0] : Fin 3 → Nat) a + S1x32x256.size a ≤ S16x32x256.size a := by
  intro a; have := j.isLt
  match a with
  | ⟨0, _⟩ => show j.val + 1 ≤ 16; omega
  | ⟨1, _⟩ => show 0 + 32 ≤ 32; omega
  | ⟨2, _⟩ => show 0 + 256 ≤ 256; omega

/-- Rows `32·j … 32·j+31` of a 512-row buffer; slot `j` of the receive buffer. -/
abbrev bandRect (j : Fin 16) : Rect S512x256 := Rect.unit (s := S512x256) ![32 * j.val, 0] S32x256.size (band_inb j)
abbrev slotRect (j : Fin 16) : Rect S16x32x256 := Rect.unit (s := S16x32x256) ![j.val, 0, 0] S1x32x256.size (slot_inb j)

abbrev xband (j : Fin 16) : Memref sig .tc .vmem S32x256 .f32 := (xM).slice (bandRect j) (fun _ => rfl)
abbrev oband (j : Fin 16) : Memref sig .tc .vmem S32x256 .f32 := (oM).slice (bandRect j) (fun _ => rfl)
abbrev rslot (j : Fin 16) : Memref sig .tc .vmem S32x256 .f32 :=
  ((rM).slice (slotRect j) (fun _ => rfl)).squeeze S32x256 squeezes_S1x32x256_S32x256

/-! ## The cells -/

abbrev barS : Sem sig := (SemArray.scalar (sig.barrier 0 rfl) : Sems sig S_).sem

/-- The DMA semaphore `j` of family `a`: 0 the first exchange's send semaphores, 1 its receive semaphores,
    2 and 3 the second exchange's. (The two staging semaphores come first.) -/
def dsem (a : Fin 4) (j : Fin 16) : DmaSem sig := ⟨2 + 16 * a.val + j.val, by have := a.isLt; have := j.isLt; show 2 + 16 * a.val + j.val < 66; omega⟩

/-- The family and index of a DMA semaphore (none for the two staging semaphores). -/
def famOf (s : DmaSem sig) : Option (Fin 4 × Fin 16) :=
  if h : 2 ≤ s.val then some (⟨(s.val - 2) / 16, by have : s.val < 66 := s.isLt; omega⟩, ⟨(s.val - 2) % 16, Nat.mod_lt _ (by decide)⟩) else none

abbrev barCell (c : Dev nD) : GSem nD τ sig := ((c : Thread nD τ), .reg barS)
abbrev cell (a : Fin 4) (c : Dev nD) (j : Fin 16) : GSem nD τ sig := ((c : Thread nD τ), .dma (dsem a j))

/-- The credit of one 32 × 256 transfer. -/
abbrev N1 : ℕ := (kM : Memref sig .tc .vmem S32x256 .f32).view.dmaCredit
theorem N1_pos : 0 < N1 := View.dmaCredit_pos _ (by decide)

/-! ## Contents -/

/-- Device `d`'s input block as its staging buffer holds it. -/
def xin (d : Dev nD) : Vec F S512x256 .f32 :=
  (win0_0.blk (0 : Fin 1)).view.read (Elt F) ((s₀ m ρ).mem ((d : Thread nD τ).loc main_arg0))

/-- The sixteen shares of the chunk buffer: the leaves of the depth-four binary splitting of the full share. -/
def shr (j : Fin 16) : PosShare TreeShare :=
  let b (n : Nat) (q : PosShare TreeShare) : PosShare TreeShare := if j.val / n % 2 = 0 then q.left else q.right
  b 1 (b 2 (b 4 (b 8 fullShare)))

/-! ## Points-to assertions of the parts -/

def xbandPts (c : Dev nD) (j : Fin 16) (f : Buf (Elt F) ((c : Thread nD τ).loc cc0_stg0_0)) : sProp 𝕄 :=
  (xband j).view.loc (c : Thread nD τ) ↦[(xband j).view.set]{fullShare} f
def obandPts (c : Dev nD) (j : Fin 16) (f : Buf (Elt F) ((c : Thread nD τ).loc cc0_stg1_0)) : sProp 𝕄 :=
  (oband j).view.loc (c : Thread nD τ) ↦[(oband j).view.set]{fullShare} f
def slotPts (c : Dev nD) (j : Fin 16) (f : Buf (Elt F) ((c : Thread nD τ).loc cc0_scratch0)) : sProp 𝕄 :=
  (rslot j).view.loc (c : Thread nD τ) ↦[(rslot j).view.set]{fullShare} f
def chunkPts (c : Dev nD) (q : PosShare TreeShare) (f : Buf (Elt F) ((c : Thread nD τ).loc cc0_scratch1)) : sProp 𝕄 :=
  (kM : Memref sig .tc .vmem S32x256 .f32).view.loc (c : Thread nD τ) ↦[(kM : Memref sig .tc .vmem S32x256 .f32).view.set]{q} f

/-! ## The schedule -/

/-- What device `d`'s signal hands the owner `c` of a barrier cell: the right to write slot `c` of `d`'s
    receive buffer and band `c` of `d`'s result buffer. -/
def barPay (c d : Dev nD) : sProp 𝕄 := iprop((∃ f, slotPts d c f) ∗ (∃ f, obandPts d c f))

/-- What the one duty of a transfer cell of device `c` hands its owner. -/
def dmaPay (c : Dev nD) (a : Fin 4) (j : Fin 16) : sProp 𝕄 :=
  match a with
  | 0 => xbandPts c j (xin m ρ c)
  | 1 => slotPts c j (recvOf (xin m ρ) c)
  | 2 => chunkPts c (shr j) (chunkOf (xin m ρ) c)
  | 3 => obandPts c j (outOf (xin m ρ))

def Rd : Rounds.Schedule (GSem nD τ sig) (Dev nD) 𝕄 where
  duties g r :=
    if r = 0 ∧ g.1.2 = .tc then
      match g.2 with
      | .reg s => if s = barS then Finset.univ.erase g.1.1 else ∅
      | .dma s => match famOf s with
        | some (_, j) => if j = g.1.1 then ∅ else {(0 : Dev nD)}
        | none => ∅
    else ∅
  unitless _ := False
  amount g _ _ := match g.2 with | .reg _ => 1 | .dma _ => N1
  payload g _ d := match g.2 with
    | .reg _ => barPay g.1.1 d
    | .dma s => match famOf s with
      | some (a, j) => dmaPay m ρ g.1.1 a j
      | none => iprop(emp)
  amount_pos g _ _ _ := by
    cases g.2 with
    | reg _ => exact Nat.one_pos
    | dma _ => exact N1_pos

end Cert.KernelIdeal.Proto

end
-- ==== Proof.State.lean ====
/-
  What each device owes and holds when the exchange starts, and the pipeline's proof data.

  Device `c` owes every peer `j ≠ c`: one unit on `j`'s barrier cell, and one transfer's credit on `j`'s
  receive cell `c` of each exchange. It holds the tokens of exactly those duties and of its own send cells'
  duties, the launch credit of its own barrier and receive cells, and its positions at round 0 of all its cells.
  Levels: a barrier cell below a first-exchange receive cell below a second-exchange receive cell; everything a
  device waits on while it still owes lies below what it owes.
-/
import proofs.«900783_g7700000000000784_dist_f_of_ar_i_m512_n256_v7x_i16_f32_1_alg».proof.Proof.Proto

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the exchange's cells, indexed -/

/-- A device's cells: its barrier cell (`none`) and its transfer cells by family and index. -/
abbrev CIx : Type := Dev nD × Option (Fin 4 × Fin 16)
abbrev kcell (ck : CIx) : GSem nD τ sig := match ck.2 with
  | none => barCell ck.1
  | some (a, j) => cell a ck.1 j

/-- The cells' invariants under the names the launch allocated them at, and that every cell has reached round 0. -/
def records (K : CIx → ℕ) : sProp 𝕄 :=
  iprop((bigSep Finset.univ fun ck : CIx => cellInv ER (Rd m ρ) (K ck) (kcell ck))
    ∗ bigSep Finset.univ fun ck : CIx => reached ER (kcell ck) 0)

instance records_persistent (K : CIx → ℕ) : BI.Persistent (records m ρ K) := by unfold records; infer_instance

/-! ## What a device owes at launch; the levels -/

def owedTo (c j : Dev nD) : CellTallies nD τ sig Unit :=
  tallyAt (barCell j) () 1 + tallyAt (cell 1 j c) () N1 + tallyAt (cell 3 j c) () N1
def O₀ (c : Dev nD) : CellTallies nD τ sig Unit := ∑ j ∈ Finset.univ.erase c, owedTo c j

def L (g : GSem nD τ sig) : Finset Unit := if g.1.2 = .tc then {()} else ∅
/-- barrier cells at 1, first-exchange receive cells at 2, second-exchange receive cells at 3, the rest at 0. -/
def lv (g : GSem nD τ sig) (_ : Unit) : ℕ := match g.2 with
  | .reg _ => 1
  | .dma s => match famOf s with
    | some (1, _) => 2
    | some (3, _) => 3
    | _ => 0

/-! ## The ghost state a device starts from -/

/-- The tokens of the duties device `c` pays, peer by peer. -/
def payToks (c : Dev nD) : sProp 𝕄 :=
  bigSep (Finset.univ.erase c) fun j => iprop(dutyTok ER (barCell j) 0 c ∗ dutyTok ER (cell 1 j c) 0 0 ∗ dutyTok ER (cell 3 j c) 0 0
    ∗ dutyTok ER (cell 0 c j) 0 0 ∗ dutyTok ER (cell 2 c j) 0 0)

/-- Its positions at round 0 of every one of its cells. -/
def positions (c : Dev nD) : sProp 𝕄 := bigSep Finset.univ fun i : Option (Fin 4 × Fin 16) => atPos ER (kcell (c, i)) 0 ∅ 0

/-- The launch credit of its barrier cell and of its receive cells. -/
def creds (c : Dev nD) : sProp 𝕄 :=
  iprop(cred (tallyAt (barCell c) () 15) ∗ bigSep (Finset.univ.erase c) fun k => iprop(cred (tallyAt (cell 1 c k) () N1) ∗ cred (tallyAt (cell 3 c k) () N1)))

def ghost (K : CIx → ℕ) (c : Dev nD) : sProp 𝕄 := iprop(records m ρ K ∗ positions c ∗ payToks c)

def start (c : Dev nD) : sProp 𝕄 := iprop((∃ K, ghost m ρ K c) ∗ creds c ∗ levAts L lv)

/-- Before the body: that, and the two scratch buffers at some contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After it: the two scratch buffers back, and every transfer cell of the device closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun aj : Fin 4 × Fin 16 => semVal (cell aj.1 c aj.2) 0)

/-! ## The pipeline's proof data: one point; the input block stays, the result block ends at `outOf` -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outOf (xin m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: `Φ₀`, what it owes, and the two staging buffers (the input block fetched; the
    result block at whatever it held). -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends in: `Φ₁`, nothing owed, the input block unchanged and the result block at `outOf`. -/
def bodyPost (c : Dev nD) : sProp 𝕄 :=
  iprop(Φ₁ c ∗ (dats m ρ 0 c).owesAt () t₀.succ ∗ stg c cc0_stg0_0 (xin m ρ c) ∗ stg c cc0_stg1_0 (outOf (xin m ρ)))

/-- The body, as the region calls it. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5

end Cert.KernelIdeal.Proto

end
-- ==== Proof.Tables.lean ====
/-
  The schedule's table read off cell by cell, the levels, and what a device still owes as the exchange proceeds.

  Round 0 of a barrier cell of `c` has the fifteen peers as duties, one unit each; round 0 of a transfer cell
  `(a, c, j)` with `j ≠ c` has one duty of one transfer's credit; no cell has a later round. What a device owes
  is kept as three sums over the peers it has yet to signal, yet to send its band to, and yet to send its chunk
  to; a wait is allowed when every cell left in those sums lies at a level above the cell waited on.
-/
import proofs.«900783_g7700000000000784_dist_f_of_ar_i_m512_n256_v7x_i16_f32_1_alg».proof.Proof.State

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore numbering -/

omit [FloatOps F] in
/-- Semaphore `2 + 16·a + j` decodes to family `a`, index `j`: quotient and remainder by 16 of `16·a + j`. -/
theorem famOf_dsem (a : Fin 4) (j : Fin 16) : famOf (dsem a j) = some (a, j) := by
  have ha := a.isLt; have hj := j.isLt
  have h2 : 2 ≤ (dsem a j).val := by show 2 ≤ 2 + 16 * a.val + j.val; omega
  unfold famOf
  rw [dif_pos h2]
  refine congrArg some (Prod.ext (Fin.ext ?_) (Fin.ext ?_))
  · show (2 + 16 * a.val + j.val - 2) / 16 = a.val; omega
  · show (2 + 16 * a.val + j.val - 2) % 16 = j.val; omega

omit [FloatOps F] in
/-- Distinct (family, index) pairs name distinct semaphores: the decoding is a left inverse. -/
theorem dsem_inj {a a' : Fin 4} {j j' : Fin 16} (h : dsem a j = dsem a' j') : a = a' ∧ j = j' := by
  have e : some (a, j) = some (a', j') := by rw [← famOf_dsem a j, h, famOf_dsem]
  exact Prod.mk.inj (Option.some.inj e)

/-! ## The schedule's table, cell by cell -/

theorem duties_bar (c : Dev nD) : (Rd (F := F) m ρ).duties (barCell c) 0 = Finset.univ.erase c := by
  dsimp only [Rd]; rw [if_pos ⟨rfl, rfl⟩, if_pos rfl]

theorem duties_cell (a : Fin 4) (c : Dev nD) (j : Fin 16) (h : j ≠ c) : (Rd (F := F) m ρ).duties (cell a c j) 0 = {(0 : Dev nD)} := by
  dsimp only [Rd]; rw [if_pos ⟨rfl, rfl⟩, famOf_dsem]; exact if_neg h

theorem duties_cell_self (a : Fin 4) (c : Dev nD) : (Rd (F := F) m ρ).duties (cell a c c) 0 = ∅ := by
  dsimp only [Rd]; rw [if_pos ⟨rfl, rfl⟩, famOf_dsem]; exact if_pos rfl

theorem duties_later (g : GSem nD τ sig) : ∀ r, 1 ≤ r → (Rd (F := F) m ρ).duties g r = ∅ := by
  intro r hr
  dsimp only [Rd]
  exact if_neg fun h => absurd h.1 (by omega)

theorem amount_bar (c d : Dev nD) : (Rd (F := F) m ρ).amount (barCell c) 0 d = 1 := rfl

theorem amount_cell (a : Fin 4) (c : Dev nD) (j : Fin 16) (d : Dev nD) : (Rd (F := F) m ρ).amount (cell a c j) 0 d = N1 := rfl

/-- Fifteen peers, one unit each. -/
theorem expect_bar (c : Dev nD) : (Rd (F := F) m ρ).expect (barCell c) 0 = 15 := by
  unfold Schedule.expect Schedule.amountOf
  rw [duties_bar, Finset.sum_congr rfl fun d _ => amount_bar m ρ c d, Finset.sum_const, smul_eq_mul, mul_one,
    Finset.card_erase_of_mem (Finset.mem_univ c), Finset.card_univ, Fintype.card_fin]
  rfl

theorem expect_cell (a : Fin 4) (c : Dev nD) (j : Fin 16) (h : j ≠ c) : (Rd (F := F) m ρ).expect (cell a c j) 0 = N1 := by
  unfold Schedule.expect Schedule.amountOf
  rw [duties_cell m ρ a c j h, Finset.sum_singleton, amount_cell]

theorem payload_bar (c d : Dev nD) : (Rd (F := F) m ρ).payload (barCell c) 0 d = barPay c d := rfl

theorem payload_cell (a : Fin 4) (c : Dev nD) (j : Fin 16) (d : Dev nD) : (Rd (F := F) m ρ).payload (cell a c j) 0 d = dmaPay m ρ c a j := by
  dsimp only [Rd]; rw [famOf_dsem]

/-- With no payload taken, the rest of a barrier cell's round is every peer's payload. -/
theorem rest_bar (c : Dev nD) : bigSep ((Rd (F := F) m ρ).duties (barCell c) 0 \ ∅) (fun d => (Rd (F := F) m ρ).payload (barCell c) 0 d) = bigSep (Finset.univ.erase c) (fun d => barPay (F := F) c d) := by
  rw [Finset.sdiff_empty, duties_bar]
  rfl

/-- With no payload taken, the rest of a transfer cell's round is its one payload. -/
theorem rest_cell (a : Fin 4) (c : Dev nD) (j : Fin 16) (h : j ≠ c) : bigSep ((Rd (F := F) m ρ).duties (cell a c j) 0 \ ∅) (fun d => (Rd (F := F) m ρ).payload (cell a c j) 0 d) = dmaPay m ρ c a j := by
  rw [Finset.sdiff_empty, duties_cell m ρ a c j h, bigSep_singleton, payload_cell]

/-! ## The payloads can be stored in an invariant -/

omit [FloatOps F] in
instance xbandPts_storable (c : Dev nD) (j : Fin 16) (f) : BI.Storable (upEmb : UEmb _ 𝕄) (xbandPts (F := F) c j f) := by unfold xbandPts; infer_instance
omit [FloatOps F] in
instance obandPts_storable (c : Dev nD) (j : Fin 16) (f) : BI.Storable (upEmb : UEmb _ 𝕄) (obandPts (F := F) c j f) := by unfold obandPts; infer_instance
omit [FloatOps F] in
instance slotPts_storable (c : Dev nD) (j : Fin 16) (f) : BI.Storable (upEmb : UEmb _ 𝕄) (slotPts (F := F) c j f) := by unfold slotPts; infer_instance
omit [FloatOps F] in
instance chunkPts_storable (c : Dev nD) (q : PosShare TreeShare) (f) : BI.Storable (upEmb : UEmb _ 𝕄) (chunkPts (F := F) c q f) := by unfold chunkPts; infer_instance
omit [FloatOps F] in
instance barPay_storable (c d : Dev nD) : BI.Storable (upEmb : UEmb _ 𝕄) (barPay (F := F) c d) := by unfold barPay; infer_instance
instance dmaPay_storable (c : Dev nD) (a : Fin 4) (j : Fin 16) : BI.Storable (upEmb : UEmb _ 𝕄) (dmaPay m ρ c a j) := by
  unfold dmaPay; split <;> infer_instance

instance Rd_payload_storable (g : GSem nD τ sig) (r : ℕ) (d : Dev nD) : BI.Storable (upEmb : UEmb _ 𝕄) ((Rd (F := F) m ρ).payload g r d) := by
  dsimp only [Rd]
  split
  · infer_instance
  · split <;> infer_instance

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A barrier cell lies at level 1, a first-exchange receive cell at 2, a second-exchange receive cell at 3, and a
    semaphore outside the four families at 0. -/
theorem lv_bar (c : Dev nD) (u : Unit) : lv (barCell c) u = 1 := rfl
theorem lv_cell1 (j : Dev nD) (k : Fin 16) (u : Unit) : lv (cell 1 j k) u = 2 := by
  dsimp only [lv]; rw [famOf_dsem]; rfl
theorem lv_cell3 (j : Dev nD) (k : Fin 16) (u : Unit) : lv (cell 3 j k) u = 3 := by
  dsimp only [lv]; rw [famOf_dsem]; rfl
theorem lv_stage (c : Dev nD) (q : DmaSem sig) (hq : famOf q = none) (u : Unit) : lv ((c : Thread nD τ), .dma q) u = 0 := by
  dsimp only [lv]; rw [hq]

/-! ## What a device still owes, by the peers left in each of the three kinds -/

/-- what c still owes when it has yet to signal the peers in S₀ and to transfer to those in S₁ (first exchange) and S₃ (second) -/
def owedFrom (c : Dev nD) (S₀ S₁ S₃ : Finset (Dev nD)) : CellTallies nD τ sig Unit := (∑ j ∈ S₀, tallyAt (barCell j) () 1) + (∑ j ∈ S₁, tallyAt (cell 1 j c) () N1) + (∑ j ∈ S₃, tallyAt (cell 3 j c) () N1)

/-- At launch every peer is left in every kind: the sum over peers of three terms is the three sums over peers. -/
theorem O₀_eq (c : Dev nD) : O₀ c = owedFrom c (Finset.univ.erase c) (Finset.univ.erase c) (Finset.univ.erase c) := by
  unfold O₀ owedFrom owedTo
  rw [Finset.sum_add_distrib, Finset.sum_add_distrib]

theorem owedFrom_empty (c : Dev nD) : owedFrom c ∅ ∅ ∅ = 0 := by
  unfold owedFrom
  rw [Finset.sum_empty, Finset.sum_empty, Finset.sum_empty, add_zero, add_zero]

/-- Taking one peer out of a kind splits off that peer's term; the rest is a rearrangement of a sum of four terms. -/
theorem owedFrom_peel0 (c j : Dev nD) (S₀ S₁ S₃ : Finset (Dev nD)) (h : j ∈ S₀) : owedFrom c S₀ S₁ S₃ = owedFrom c (S₀.erase j) S₁ S₃ + tallyAt (barCell j) () 1 := by
  unfold owedFrom
  rw [← Finset.sum_erase_add S₀ (fun j => (tallyAt (barCell j) () 1 : CellTallies nD τ sig Unit)) h, add_right_comm _ (tallyAt (barCell j) () 1) _,
    add_right_comm _ (tallyAt (barCell j) () 1) _]

theorem owedFrom_peel1 (c j : Dev nD) (S₀ S₁ S₃ : Finset (Dev nD)) (h : j ∈ S₁) : owedFrom c S₀ S₁ S₃ = owedFrom c S₀ (S₁.erase j) S₃ + tallyAt (cell 1 j c) () N1 := by
  unfold owedFrom
  rw [← Finset.sum_erase_add S₁ (fun j => (tallyAt (cell 1 j c) () N1 : CellTallies nD τ sig Unit)) h, ← add_assoc, add_right_comm _ (tallyAt (cell 1 j c) () N1) _]

theorem owedFrom_peel3 (c j : Dev nD) (S₀ S₁ S₃ : Finset (Dev nD)) (h : j ∈ S₃) : owedFrom c S₀ S₁ S₃ = owedFrom c S₀ S₁ (S₃.erase j) + tallyAt (cell 3 j c) () N1 := by
  unfold owedFrom
  rw [← Finset.sum_erase_add S₃ (fun j => (tallyAt (cell 3 j c) () N1 : CellTallies nD τ sig Unit)) h, ← add_assoc]

/-- Where the owed term is positive: at the barrier cell of a peer left in the first kind, or at the first- or
    second-exchange receive cell (index `c`) of a peer left in the second or third. -/
theorem owedFrom_pos {c : Dev nD} {S₀ S₁ S₃ : Finset (Dev nD)} {g : GSem nD τ sig} {u : Unit} (h : 0 < owedFrom c S₀ S₁ S₃ g u) :
    (∃ j ∈ S₀, g = barCell j) ∨ (∃ j ∈ S₁, g = cell 1 j c) ∨ (∃ j ∈ S₃, g = cell 3 j c) := by
  unfold owedFrom at h
  rcases Pipeline.add_pos_cases h with h | h
  · rcases Pipeline.add_pos_cases h with h | h
    · obtain ⟨j, hj, hp⟩ := Pipeline.sum_pos_exists h
      exact .inl ⟨j, hj, (Pipeline.tallyAt_pos hp).1⟩
    · obtain ⟨j, hj, hp⟩ := Pipeline.sum_pos_exists h
      exact .inr (.inl ⟨j, hj, (Pipeline.tallyAt_pos hp).1⟩)
  · obtain ⟨j, hj, hp⟩ := Pipeline.sum_pos_exists h
    exact .inr (.inr ⟨j, hj, (Pipeline.tallyAt_pos hp).1⟩)

/-! ## A device may wait where everything it still owes lies above -/

omit [FloatOps F] in
/-- Device `c` waits on its cell `s`, at level at most `b`; each kind of cell still present in what it owes lies above `b`. -/
theorem mayWait_owedFrom (c : Dev nD) (s : SemLoc sig) (b : ℕ) (S₀ S₁ S₃ : Finset (Dev nD))
    (hs : lv ((c : Thread nD τ), s) () ≤ b) (h₀ : S₀.Nonempty → b < 1) (h₁ : S₁.Nonempty → b < 2) (h₃ : S₃.Nonempty → b < 3) :
    (levAts L lv : sProp 𝕄) ⊢ MayWait (c : Thread nD τ) s () (owedFrom c S₀ S₁ S₃) :=
  MayOwe.of_cut (L := L) (lev := lv) b
    (fun p hp => by rw [Finset.mem_singleton.mp hp, L_tc]; exact Finset.mem_singleton_self _)
    (fun g u hg => by
      rcases owedFrom_pos hg with ⟨j, _, rfl⟩ | ⟨j, _, rfl⟩ | ⟨j, _, rfl⟩ <;> (rw [L_tc]; exact Finset.mem_singleton_self _))
    (fun p hp => by rw [Finset.mem_singleton.mp hp]; exact hs)
    (fun g u hg => by
      rcases owedFrom_pos hg with ⟨j, hj, rfl⟩ | ⟨j, hj, rfl⟩ | ⟨j, hj, rfl⟩
      · rw [lv_bar]; exact h₀ ⟨j, hj⟩
      · rw [lv_cell1]; exact h₁ ⟨j, hj⟩
      · rw [lv_cell3]; exact h₃ ⟨j, hj⟩)

omit [FloatOps F] in
/-- A semaphore outside the four families lies at level 0, below every cell a device can owe on. -/
theorem mayWait_stage (c : Dev nD) (q : DmaSem sig) (hq : famOf q = none) (O : CellTallies nD τ sig Unit) (hO : O = O₀ c ∨ O = 0) : (levAts L lv : sProp 𝕄) ⊢ MayWait (c : Thread nD τ) (.dma q) () O := by
  have hs : lv ((c : Thread nD τ), .dma q) () ≤ 0 := le_of_eq (lv_stage c q hq ())
  rcases hO with rfl | rfl
  · rw [O₀_eq]
    exact mayWait_owedFrom c (.dma q) 0 _ _ _ hs (fun _ => Nat.zero_lt_one) (fun _ => Nat.zero_lt_two) (fun _ => by decide)
  · rw [← owedFrom_empty c]
    exact mayWait_owedFrom c (.dma q) 0 ∅ ∅ ∅ hs (fun h => absurd h Finset.not_nonempty_empty) (fun h => absurd h Finset.not_nonempty_empty)
      (fun h => absurd h Finset.not_nonempty_empty)

omit [FloatOps F] in
/-- At its barrier wait a device has signalled every peer: only receive cells, at levels 2 and 3, are left above level 1. -/
theorem mayWait_bar (c : Dev nD) (S₁ S₃ : Finset (Dev nD)) : (levAts L lv : sProp 𝕄) ⊢ MayWait (c : Thread nD τ) (.reg barS) () (owedFrom c ∅ S₁ S₃) :=
  mayWait_owedFrom c (.reg barS) 1 ∅ S₁ S₃ (le_of_eq (lv_bar c ())) (fun h => absurd h Finset.not_nonempty_empty) (fun _ => by decide) (fun _ => by decide)

omit [FloatOps F] in
/-- At a first-exchange receive wait only second-exchange receive cells, at level 3, are left above level 2. -/
theorem mayWait_r1 (c : Dev nD) (k : Fin 16) (S₃ : Finset (Dev nD)) : (levAts L lv : sProp 𝕄) ⊢ MayWait (c : Thread nD τ) (.dma (dsem 1 k)) () (owedFrom c ∅ ∅ S₃) :=
  mayWait_owedFrom c (.dma (dsem 1 k)) 2 ∅ ∅ S₃ (le_of_eq (lv_cell1 c k ())) (fun h => absurd h Finset.not_nonempty_empty)
    (fun h => absurd h Finset.not_nonempty_empty) (fun _ => by decide)

end Cert.KernelIdeal.Proto

end
-- ==== Proof.Stages.lean ====
/-
  The body's intermediate assertions.

  For each peer `j ≠ c` device `c` holds a bundle of resources that moves through nine stages as the body runs:
  0 at launch · 1 after the signal to `j` · 2 after the barrier wait (now holding the right to write `j`'s slot `c`
  and `j`'s result band `c`) · 3 after the first transfer to `j` · 4 after the wait for `j`'s transfer into slot
  `j` · 5 after the chunk is computed (now holding share `j` of the chunk buffer) · 6 after the second transfer
  to `j` · 7 after the wait for `j`'s chunk into band `j` · 8 after both send waits (every part returned, the four
  cells at round 1). The body treats the peers in index order, so between two conditional blocks the peers below
  some `n` are one stage ahead of the others.
-/
import proofs.«900783_g7700000000000784_dist_f_of_ar_i_m512_n256_v7x_i16_f32_1_alg».proof.Proof.State
import proofs.«900783_g7700000000000784_dist_f_of_ar_i_m512_n256_v7x_i16_f32_1_alg».proof.Proof.Tables

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Peers not yet treated, and treated, by the `n`-th conditional block of a phase -/

def Tn (c : Dev nD) (n : ℕ) : Finset (Dev nD) := (Finset.univ.erase c).filter (fun j => n ≤ j.val)
def Dn (c : Dev nD) (n : ℕ) : Finset (Dev nD) := (Finset.univ.erase c).filter (fun j => j.val < n)

/-- The device's own index as the body computes it, and the barrier semaphore's handle. -/
def v2w (c : Dev nD) : BitVec 32 := Scalar.remsi (Scalar.divsi (Dev.word c) 1#32) 16#32
abbrev v3b : Sems sig S_ := SemArray.scalar (sig.barrier 0 rfl)

/-! ## A peer's bundle, stage by stage -/

section Peer
variable (c j : Dev nD)

abbrev slotAny (c j : Dev nD) : sProp 𝕄 := iprop(∃ f, slotPts c j f)
abbrev obandAny (c j : Dev nD) : sProp 𝕄 := iprop(∃ f, obandPts c j f)
/-- `c`'s position at round `R` of its transfer cell `(a, j)`. -/
abbrev posAt (a : Fin 4) (R : ℕ) : sProp 𝕄 := atPos ER (cell a c j) R ∅ 0
abbrev credAt (a : Fin 4) : sProp 𝕄 := cred (tallyAt (cell a c j) () N1)

def peer (s : ℕ) : sProp 𝕄 :=
  let X := xin m ρ
  let chunk := chunkOf X c
  let S1 : sProp 𝕄 := iprop(xbandPts c j (X c) ∗ dutyTok ER (cell 0 c j) 0 0 ∗ dutyTok ER (cell 1 j c) 0 0 ∗ dutyTok ER (cell 2 c j) 0 0 ∗ dutyTok ER (cell 3 j c) 0 0
      ∗ posAt c j 0 0 ∗ posAt c j 1 0 ∗ posAt c j 2 0 ∗ posAt c j 3 0 ∗ credAt c j 1 ∗ credAt c j 3)
  match s with
  | 0 => iprop(dutyTok ER (barCell j) 0 c ∗ slotAny c j ∗ obandAny c j ∗ S1)
  | 1 => S1
  | 2 => iprop(barPay c j ∗ S1)
  | 3 => iprop(obandAny j c ∗ credAt c j 0 ∗ dutyTok ER (cell 2 c j) 0 0 ∗ dutyTok ER (cell 3 j c) 0 0
      ∗ posAt c j 0 0 ∗ posAt c j 1 0 ∗ posAt c j 2 0 ∗ posAt c j 3 0 ∗ credAt c j 1 ∗ credAt c j 3)
  | 4 => iprop(slotPts c j (recvOf X c) ∗ posAt c j 1 1 ∗ obandAny j c ∗ credAt c j 0 ∗ dutyTok ER (cell 2 c j) 0 0 ∗ dutyTok ER (cell 3 j c) 0 0
      ∗ posAt c j 0 0 ∗ posAt c j 2 0 ∗ posAt c j 3 0 ∗ credAt c j 3)
  | 5 => iprop(chunkPts c (shr j) chunk ∗ posAt c j 1 1 ∗ obandAny j c ∗ credAt c j 0 ∗ dutyTok ER (cell 2 c j) 0 0 ∗ dutyTok ER (cell 3 j c) 0 0
      ∗ posAt c j 0 0 ∗ posAt c j 2 0 ∗ posAt c j 3 0 ∗ credAt c j 3)
  | 6 => iprop(credAt c j 2 ∗ posAt c j 1 1 ∗ credAt c j 0 ∗ posAt c j 0 0 ∗ posAt c j 2 0 ∗ posAt c j 3 0 ∗ credAt c j 3)
  | 7 => iprop(obandPts c j (outOf X) ∗ posAt c j 3 1 ∗ credAt c j 2 ∗ posAt c j 1 1 ∗ credAt c j 0 ∗ posAt c j 0 0 ∗ posAt c j 2 0)
  | _ => iprop(chunkPts c (shr j) chunk ∗ xbandPts c j (X c) ∗ posAt c j 0 1 ∗ posAt c j 2 1 ∗ obandPts c j (outOf X) ∗ posAt c j 3 1 ∗ posAt c j 1 1)

end Peer

/-! ## What is not a peer's: the barrier cell, the cells of the device's own index, its own parts -/

def glob (c : Dev nD) (g : ℕ) : sProp 𝕄 :=
  let X := xin m ρ
  let ownPos : sProp 𝕄 := bigSep Finset.univ fun a : Fin 4 => atPos ER (cell a c c) 0 ∅ 0
  let kAny : sProp 𝕄 := iprop(∃ f : Buf (Elt F) ((c : Thread nD τ).loc cc0_scratch1), ((c : Thread nD τ).loc cc0_scratch1) ↦{fullShare} f)
  let rWhole : sProp 𝕄 := ((c : Thread nD τ).loc cc0_scratch0) ↦{fullShare} (recvOf X c)
  match g with
  | 0 => iprop(atPos ER (barCell c) 0 ∅ 0 ∗ cred (tallyAt (barCell c) () 15) ∗ ownPos ∗ xbandPts c c (X c) ∗ slotAny c c ∗ obandAny c c ∗ kAny)
  | 1 => iprop(atPos ER (barCell c) 1 ∅ 0 ∗ ownPos ∗ xbandPts c c (X c) ∗ slotAny c c ∗ obandAny c c ∗ kAny)
  | 2 => iprop(atPos ER (barCell c) 1 ∅ 0 ∗ ownPos ∗ xbandPts c c (X c) ∗ slotPts c c (recvOf X c) ∗ obandAny c c ∗ kAny)
  | 3 => iprop(atPos ER (barCell c) 1 ∅ 0 ∗ ownPos ∗ xbandPts c c (X c) ∗ rWhole ∗ obandAny c c ∗ chunkPts c (shr c) (chunkOf X c))
  | _ => iprop(atPos ER (barCell c) 1 ∅ 0 ∗ ownPos ∗ xbandPts c c (X c) ∗ rWhole ∗ obandPts c c (outOf X) ∗ chunkPts c (shr c) (chunkOf X c))

/-- The state between conditional blocks: peers below `n` at stage `s + 1`, the others at stage `s`; what is
    still owed; the rest at stage `g`. -/
def Mid (K : CIx → ℕ) (c : Dev nD) (s g n : ℕ) (O : CellTallies nD τ sig Unit) : sProp 𝕄 :=
  iprop(records m ρ K ∗ levAts L lv ∗ (bigSep (Dn c n) fun j => peer m ρ c j (s + 1)) ∗ (bigSep (Tn c n) fun j => peer m ρ c j s)
    ∗ (∃ W, owes (c : Thread nD τ) O W) ∗ glob m ρ c g)

/-- What is owed in the three phases that pay: before block `n` of the signals, of the first and of the second transfers. -/
abbrev owed0 (c : Dev nD) (n : ℕ) : CellTallies nD τ sig Unit := owedFrom c (Tn c n) (Finset.univ.erase c) (Finset.univ.erase c)
abbrev owed1 (c : Dev nD) (n : ℕ) : CellTallies nD τ sig Unit := owedFrom c ∅ (Tn c n) (Finset.univ.erase c)
abbrev owed3 (c : Dev nD) (n : ℕ) : CellTallies nD τ sig Unit := owedFrom c ∅ ∅ (Tn c n)

/-! ## The index sets, step by step -/

theorem Tn_zero (c : Dev nD) : Tn c 0 = Finset.univ.erase c := by
  unfold Tn; exact Finset.filter_true_of_mem fun j _ => Nat.zero_le _
theorem Dn_zero (c : Dev nD) : Dn c 0 = ∅ := by
  unfold Dn; exact Finset.filter_false_of_mem fun j _ => Nat.not_lt_zero _
theorem Tn_last (c : Dev nD) : Tn c 16 = ∅ := by
  unfold Tn; exact Finset.filter_false_of_mem fun j _ => Nat.not_le.mpr j.isLt
theorem Dn_last (c : Dev nD) : Dn c 16 = Finset.univ.erase c := by
  unfold Dn; exact Finset.filter_true_of_mem fun j _ => j.isLt

theorem Tn_step_eq (c : Dev nD) (n : ℕ) (h : c.val = n) : Tn c (n + 1) = Tn c n := by
  unfold Tn; refine Finset.filter_congr fun j hj => ?_
  have : j ≠ c := (Finset.mem_erase.mp hj).1
  have : j.val ≠ c.val := fun e => this (Fin.ext e)
  omega
theorem Dn_step_eq (c : Dev nD) (n : ℕ) (h : c.val = n) : Dn c (n + 1) = Dn c n := by
  unfold Dn; refine Finset.filter_congr fun j hj => ?_
  have : j ≠ c := (Finset.mem_erase.mp hj).1
  have : j.val ≠ c.val := fun e => this (Fin.ext e)
  omega
theorem mem_Tn (c j : Dev nD) (h : j ≠ c) : j ∈ Tn c j.val := by
  unfold Tn; exact Finset.mem_filter.mpr ⟨Finset.mem_erase.mpr ⟨h, Finset.mem_univ _⟩, le_rfl⟩
theorem Tn_step_ne (c j : Dev nD) : (Tn c j.val).erase j = Tn c (j.val + 1) := by
  unfold Tn; ext i
  simp only [Finset.mem_erase, Finset.mem_filter, Finset.mem_univ, and_true]
  constructor
  · rintro ⟨h1, h2, h3⟩; exact ⟨h2, by have : i.val ≠ j.val := fun e => h1 (Fin.ext e); omega⟩
  · rintro ⟨h2, h3⟩; exact ⟨fun e => by subst e; omega, h2, by omega⟩
theorem Dn_step_ne (c j : Dev nD) (h : j ≠ c) : Dn c (j.val + 1) = insert j (Dn c j.val) := by
  unfold Dn; ext i
  simp only [Finset.mem_insert, Finset.mem_filter, Finset.mem_erase, Finset.mem_univ, and_true]
  constructor
  · rintro ⟨h2, h3⟩
    by_cases e : i = j
    · exact Or.inl e
    · exact Or.inr ⟨h2, by have : i.val ≠ j.val := fun e' => e (Fin.ext e'); omega⟩
  · rintro (e | ⟨h2, h3⟩)
    · subst e; exact ⟨h, by omega⟩
    · exact ⟨h2, by omega⟩
theorem not_mem_Dn (c j : Dev nD) : j ∉ Dn c j.val := by
  unfold Dn; intro h; exact Nat.lt_irrefl _ (Finset.mem_filter.mp h).2

end Cert.KernelIdeal.Proto

end
-- ==== Proof.BlockDefs.lean ====
/-
  Vocabulary for the body's steps.

  A conditional block of phase `p` at index `n` runs its operation when the device is not `n` and nothing when it
  is; either way the state moves from "`n` blocks done" to "`n + 1` blocks done". The operations: a signal to peer
  `n`'s barrier cell; the first transfer (band `n` of the input block to slot `c` of device `n`); the wait for peer
  `n`'s first transfer; the second transfer (the chunk to band `c` of device `n`'s result); the wait for peer `n`'s
  chunk; the two send waits. Between the phases: the barrier wait and three local steps (the own band into the own
  slot; the sum and the pointwise function into the chunk buffer; the chunk into the own band of the result).
-/
import proofs.«900783_g7700000000000784_dist_f_of_ar_i_m512_n256_v7x_i16_f32_1_alg».proof.Proof.Stages
import proofs.«900783_g7700000000000784_dist_f_of_ar_i_m512_n256_v7x_i16_f32_1_alg».proof.Proof.Gen.KernelIdeal.Skeleton

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The condition "this device is not `n`", as the body computes it from the device's index word. -/
abbrev condw (c : Dev nD) (n : ℕ) : BitVec 1 := Scalar.cmpi .ne (Scalar.extui (Scalar.cmpi .ne (v2w c) (BitVec.ofNat 32 n))) 0#32

theorem condw_iff : ∀ (c j : Dev nD), condw c j.val = 1#1 ↔ j ≠ c := by decide +kernel

/-- The parts of the buffers and the semaphores of the arrays, at offsets as the body names them. -/
abbrev rslotAt (o : Fin 3 → ℕ) (h : ∀ a, o a + S1x32x256.size a ≤ S16x32x256.size a) : Memref sig .tc .vmem S32x256 .f32 :=
  ((rM).slice (Rect.unit (s := S16x32x256) o S1x32x256.size h) (fun _ => rfl)).squeeze S32x256 squeezes_S1x32x256_S32x256
abbrev bandAt (M : Memref sig .tc .vmem S512x256 .f32) (o : Fin 2 → ℕ) (h : ∀ a, o a + S32x256.size a ≤ S512x256.size a) : Memref sig .tc .vmem S32x256 .f32 :=
  M.slice (Rect.unit (s := S512x256) o S32x256.size h) (fun _ => rfl)
abbrev semAt (A : DmaSems sig S16) (o : Fin 1 → ℕ) (h : ∀ a, o a + S1.size a ≤ S16.size a) : DmaSem sig :=
  ((A.slice (Rect.unit (s := S16) o S1.size h)).squeeze S_ squeezes_S1_S_).sem

end Cert.KernelIdeal.Proto

end
-- ==== Proof.Regions.lean ====
/-
  The parts of the four buffers: that they tile their buffers, what a landing leaves in a part, the printed
  body's names for the parts, and a device's own vector accesses to its parts.
-/
import proofs.«900783_g7700000000000784_dist_f_of_ar_i_m512_n256_v7x_i16_f32_1_alg».proof.Proof.State

import Idealize.ShloMosaic.Lib.ValueLayout

noncomputable section

namespace Cert.KernelIdeal.Proto

open Cert.KernelIdeal Cert.KernelIdeal.Gen Cert.KernelIdeal.Spec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Membership in a part -/

/-- A row-column index lies in band `j` exactly when its row divided by 32 is `j`. -/
theorem mem_bandRect (j : Fin 16) (i : S512x256.Idx) : i ∈ (bandRect j).set ↔ (i 0).val / 32 = j.val := by
  rw [Rect.mem_set_unit]
  constructor
  · intro h
    have h0 := h 0
    have e0 : (![32 * j.val, 0] : Fin 2 → Nat) 0 = 32 * j.val := rfl
    have s0 : S32x256.size 0 = 32 := rfl
    rw [e0, s0] at h0
    omega
  · intro h a
    match a with
    | ⟨0, _⟩ =>
      show 32 * j.val ≤ (i 0).val ∧ (i 0).val < 32 * j.val + 32
      omega
    | ⟨1, _⟩ =>
      show 0 ≤ (i 1).val ∧ (i 1).val < 0 + 256
      have := (i 1).isLt
      exact ⟨Nat.zero_le _, by simpa using this⟩

/-- An index of the receive buffer lies in slot `j` exactly when its first coordinate is `j`. -/
theorem mem_slotRect (j : Fin 16) (i : S16x32x256.Idx) : i ∈ (slotRect j).set ↔ (i 0).val = j.val := by
  rw [Rect.mem_set_unit]
  constructor
  · intro h
    have h0 := h 0
    have e0 : (![j.val, 0, 0] : Fin 3 → Nat) 0 = j.val := rfl
    have s0 : S1x32x256.size 0 = 1 := rfl
    rw [e0, s0] at h0
    omega
  · intro h a
    match a with
    | ⟨0, _⟩ =>
      show j.val ≤ (i 0).val ∧ (i 0).val < j.val + 1
      omega
    | ⟨1, _⟩ =>
      show 0 ≤ (i 1).val ∧ (i 1).val < 0 + 32
      have := (i 1).isLt
      exact ⟨Nat.zero_le _, by simpa using this⟩
    | ⟨2, _⟩ =>
      show 0 ≤ (i 2).val ∧ (i 2).val < 0 + 256
      have := (i 2).isLt
      exact ⟨Nat.zero_le _, by simpa using this⟩

theorem xband_set (j : Fin 16) : (xband j).view.set = (bandRect j).set := View.set_slice_whole _ _
theorem oband_set (j : Fin 16) : (oband j).view.set = (bandRect j).set := View.set_slice_whole _ _
theorem rslot_set (j : Fin 16) : (rslot j).view.set = (slotRect j).set :=
  (View.set_reshape _ _).trans (View.set_slice_whole _ _)

/-! ## The parts tile their buffers -/

theorem mem_xband (j : Fin 16) (i : S512x256.Idx) : i ∈ (xband j).view.set ↔ bandOf (i 0) = j := by
  rw [xband_set, mem_bandRect]; exact ⟨fun h => Fin.ext h, fun h => congrArg Fin.val h⟩
theorem mem_oband (j : Fin 16) (i : S512x256.Idx) : i ∈ (oband j).view.set ↔ bandOf (i 0) = j := by
  rw [oband_set, mem_bandRect]; exact ⟨fun h => Fin.ext h, fun h => congrArg Fin.val h⟩
theorem mem_rslot (j : Fin 16) (i : S16x32x256.Idx) : i ∈ (rslot j).view.set ↔ i 0 = j := by
  rw [rslot_set, mem_slotRect]; exact ⟨fun h => Fin.ext h, fun h => congrArg Fin.val h⟩

/-- A whole buffer is the separating conjunction of the sixteen fibres of a map from its indices to `Fin 16`. -/
theorem split_of_fibres {ℓ : Loc nD τ sig} (K : Fin 16 → Finset (Idx ℓ)) (g : Idx ℓ → Fin 16)
    (hmem : ∀ j i, i ∈ K j ↔ g i = j) (q : PosShare TreeShare) (f : Buf (Elt F) ℓ) :
    (ℓ ↦{q} f : sProp 𝕄) = bigSep Finset.univ fun j : Fin 16 => ℓ ↦[K j]{q} f := by
  have hc : (Finset.univ : Finset (Fin 16)).biUnion K = Finset.univ := by
    ext i
    simp only [Finset.mem_biUnion, Finset.mem_univ, true_and, iff_true]
    exact ⟨g i, (hmem _ i).mpr rfl⟩
  have hd : ∀ j ∈ (Finset.univ : Finset (Fin 16)), ∀ j' ∈ (Finset.univ : Finset (Fin 16)), j ≠ j' → Disjoint (K j) (K j') := by
    intro j _ j' _ h
    rw [Finset.disjoint_left]
    intro i hi hi'
    exact h (((hmem j i).mp hi).symm.trans ((hmem j' i).mp hi'))
  rw [← pointsTo_biUnion Finset.univ K hd, hc]

theorem x_split (c : Dev nD) (f : Buf (Elt F) ((c : Thread nD τ).loc cc0_stg0_0)) :
    ((((c : Thread nD τ).loc cc0_stg0_0) ↦{fullShare} f : sProp 𝕄)) = bigSep Finset.univ (fun j : Fin 16 => xbandPts c j f) :=
  split_of_fibres (ℓ := (c : Thread nD τ).loc cc0_stg0_0) (fun j => (xband j).view.set)
    (fun i : S512x256.Idx => bandOf (i 0)) mem_xband fullShare f

theorem o_split (c : Dev nD) (f : Buf (Elt F) ((c : Thread nD τ).loc cc0_stg1_0)) :
    ((((c : Thread nD τ).loc cc0_stg1_0) ↦{fullShare} f : sProp 𝕄)) = bigSep Finset.univ (fun j : Fin 16 => obandPts c j f) :=
  split_of_fibres (ℓ := (c : Thread nD τ).loc cc0_stg1_0) (fun j => (oband j).view.set)
    (fun i : S512x256.Idx => bandOf (i 0)) mem_oband fullShare f

theorem r_split (c : Dev nD) (f : Buf (Elt F) ((c : Thread nD τ).loc cc0_scratch0)) :
    ((((c : Thread nD τ).loc cc0_scratch0) ↦{fullShare} f : sProp 𝕄)) = bigSep Finset.univ (fun j : Fin 16 => slotPts c j f) :=
  split_of_fibres (ℓ := (c : Thread nD τ).loc cc0_scratch0) (fun j => (rslot j).view.set)
    (fun i : S16x32x256.Idx => i 0) mem_rslot fullShare f

/-! ## The chunk buffer's sixteen shares -/

/-- One step down the share tree: digit 0 the left half, digit 1 the right half. -/
def pick (b : Fin 2) (q : PosShare TreeShare) : PosShare TreeShare := if b.val = 0 then q.left else q.right

/-- The binary digit of weight `n` of an index below sixteen. -/
def digit (n : Nat) (j : Fin 16) : Fin 2 := ⟨j.val / n % 2, Nat.mod_lt _ (by decide)⟩

/-- The leaf of the depth-four splitting reached by four digits, the most significant first. -/
def leaf (p : Fin 2 × Fin 2 × Fin 2 × Fin 2) : PosShare TreeShare :=
  pick p.2.2.2 (pick p.2.2.1 (pick p.2.1 (pick p.1 fullShare)))

theorem shr_eq_leaf (j : Fin 16) : shr j = leaf (digit 8 j, digit 4 j, digit 2 j, digit 1 j) := rfl

/-- An index below sixteen is its four binary digits. -/
def bits4 : Fin 2 × Fin 2 × Fin 2 × Fin 2 ≃ Fin 16 where
  toFun p := ⟨8 * p.1.val + 4 * p.2.1.val + 2 * p.2.2.1.val + p.2.2.2.val, by
    have := p.1.isLt; have := p.2.1.isLt; have := p.2.2.1.isLt; have := p.2.2.2.isLt; omega⟩
  invFun j := (digit 8 j, digit 4 j, digit 2 j, digit 1 j)
  left_inv p := by
    obtain ⟨a, b, c, d⟩ := p
    have := a.isLt; have := b.isLt; have := c.isLt; have := d.isLt
    refine Prod.ext (Fin.ext ?_) (Prod.ext (Fin.ext ?_) (Prod.ext (Fin.ext ?_) (Fin.ext ?_)))
    · show (8 * a.val + 4 * b.val + 2 * c.val + d.val) / 8 % 2 = a.val; omega
    · show (8 * a.val + 4 * b.val + 2 * c.val + d.val) / 4 % 2 = b.val; omega
    · show (8 * a.val + 4 * b.val + 2 * c.val + d.val) / 2 % 2 = c.val; omega
    · show (8 * a.val + 4 * b.val + 2 * c.val + d.val) / 1 % 2 = d.val; omega
  right_inv j := by
    have := j.isLt
    refine Fin.ext ?_
    show 8 * (j.val / 8 % 2) + 4 * (j.val / 4 % 2) + 2 * (j.val / 2 % 2) + j.val / 1 % 2 = j.val
    omega

theorem shr_bits4 (p : Fin 2 × Fin 2 × Fin 2 × Fin 2) : shr (bits4 p) = leaf p := by
  rw [shr_eq_leaf]; exact congrArg leaf (bits4.left_inv p)

/-- A points-to at a share is the two points-tos at its halves. -/
theorem pts_share_step {ℓ : Loc nD τ sig} (I : Finset (Idx ℓ)) (f : Buf (Elt F) ℓ) (q : PosShare TreeShare) :
    (ℓ ↦[I]{q} f : sProp 𝕄) = bigSep Finset.univ (fun b : Fin 2 => ℓ ↦[I]{pick b q} f) := by
  rw [bigSep_fin_two]
  have h : (ℓ ↦[I]{q} f : sProp 𝕄) ⊣⊢ iprop((ℓ ↦[I]{q.left} f) ∗ ℓ ↦[I]{q.right} f) :=
    pointsTo_share (PosShare.mem_left_op_right q)
  exact BI.equiv_iff.mp ⟨h.1, h.2⟩

theorem chunkPts_eq (c : Dev nD) (q : PosShare TreeShare) (f : Buf (Elt F) ((c : Thread nD τ).loc cc0_scratch1)) :
    chunkPts c q f = ((((c : Thread nD τ).loc cc0_scratch1) ↦{q} f : sProp 𝕄)) := by
  unfold chunkPts
  exact congrArg (fun I => ((((c : Thread nD τ).loc cc0_scratch1) ↦[I]{q} f : sProp 𝕄))) (View.set_whole cc0_scratch1)

theorem k_split (c : Dev nD) (f : Buf (Elt F) ((c : Thread nD τ).loc cc0_scratch1)) :
    ((((c : Thread nD τ).loc cc0_scratch1) ↦{fullShare} f : sProp 𝕄)) ⊣⊢ bigSep Finset.univ (fun j : Fin 16 => chunkPts c (shr j) f) := by
  refine .of_eq ?_
  have step := fun q => pts_share_step (F := F) (ℓ := (c : Thread nD τ).loc cc0_scratch1) Finset.univ f q
  have hL : ((((c : Thread nD τ).loc cc0_scratch1) ↦{fullShare} f : sProp 𝕄))
      = bigSep Finset.univ fun a : Fin 2 => bigSep Finset.univ fun b : Fin 2 => bigSep Finset.univ fun c' : Fin 2 =>
          bigSep Finset.univ fun d : Fin 2 => (((c : Thread nD τ).loc cc0_scratch1) ↦{leaf (a, b, c', d)} f : sProp 𝕄) :=
    (step _).trans (bigSep_congr fun a _ => (step _).trans (bigSep_congr fun b _ => (step _).trans (bigSep_congr fun c' _ => step _)))
  rw [hL, bigSep_univ_equiv bits4]
  simp only [shr_bits4, chunkPts_eq]
  rw [bigSep_univ_prod]; refine bigSep_congr fun a _ => ?_
  rw [bigSep_univ_prod]; refine bigSep_congr fun b _ => ?_
  rw [bigSep_univ_prod]

/-! ## The printed body's names for the parts -/

theorem rslot_of (c : Fin 16) (o : Fin 3 → Nat) (ho : o = ![c.val, 0, 0])
    (h : ∀ a, o a + S1x32x256.size a ≤ S16x32x256.size a) :
    (((rM : Memref sig .tc .vmem S16x32x256 .f32).slice (Rect.unit (s := S16x32x256) o S1x32x256.size h) (fun _ => rfl)).squeeze
      S32x256 squeezes_S1x32x256_S32x256) = rslot c := by
  subst ho; rfl

theorem xband_of (c : Fin 16) (o : Fin 2 → Nat) (ho : o = ![32 * c.val, 0])
    (h : ∀ a, o a + S32x256.size a ≤ S512x256.size a) :
    ((xM : Memref sig .tc .vmem S512x256 .f32).slice (Rect.unit (s := S512x256) o S32x256.size h) (fun _ => rfl)) = xband c := by
  subst ho; rfl

theorem oband_of (c : Fin 16) (o : Fin 2 → Nat) (ho : o = ![32 * c.val, 0])
    (h : ∀ a, o a + S32x256.size a ≤ S512x256.size a) :
    ((oM : Memref sig .tc .vmem S512x256 .f32).slice (Rect.unit (s := S512x256) o S32x256.size h) (fun _ => rfl)) = oband c := by
  subst ho; rfl

/-- The four arrays of sixteen DMA semaphores, by family. -/
def scr : Fin 4 → DmaSems sig S16
  | 0 => cc0_scratch2
  | 1 => cc0_scratch3
  | 2 => cc0_scratch4
  | 3 => cc0_scratch5

theorem dsem_of (a : Fin 4) (c : Fin 16) (o : Fin 1 → Nat) (ho : o = ![c.val])
    (h : ∀ a', o a' + S1.size a' ≤ S16.size a') :
    (((scr a).slice (Rect.unit (s := S16) o S1.size h)).squeeze S_ squeezes_S1_S_).sem = dsem a c := by
  subst ho
  refine Fin.ext ?_
  have key : ∀ x : S1.Idx, (S16.rowMajor ((Rect.unit (s := S16) ![c.val] S1.size h).emb x)).val = c.val := by
    intro x
    rw [Shape.rowMajor_val_one]
    show c.val + 1 * (x 0).val = c.val
    have : (x 0).val < 1 := (x 0).isLt
    omega
  match a with
  | ⟨0, _⟩ => show 2 + (S16.rowMajor _).val = 2 + 16 * 0 + c.val; rw [key]
  | ⟨1, _⟩ => show 18 + (S16.rowMajor _).val = 2 + 16 * 1 + c.val; rw [key]
  | ⟨2, _⟩ => show 34 + (S16.rowMajor _).val = 2 + 16 * 2 + c.val; rw [key]
  | ⟨3, _⟩ => show 50 + (S16.rowMajor _).val = 2 + 16 * 3 + c.val; rw [key]

/-! ## Where a part's indices sit in its buffer -/

theorem bandRect_emb (c : Fin 16) (p : Fin 32) (q : Fin 256) : (bandRect c).emb (ix2 p q) = ix2 (bandRow c p) q := by
  funext a
  refine Fin.ext ?_
  match a with
  | ⟨0, _⟩ => show 32 * c.val + 1 * p.val = c.val * 32 + p.val; omega
  | ⟨1, _⟩ => show 0 + 1 * q.val = q.val; omega

theorem slotRect_emb (k : Fin 16) (z : Fin 1) (p : Fin 32) (q : Fin 256) : (slotRect k).emb (ix3 z p q) = ix3 k p q := by
  funext a
  refine Fin.ext ?_
  match a with
  | ⟨0, _⟩ => show k.val + 1 * z.val = k.val; have := z.isLt; omega
  | ⟨1, _⟩ => show 0 + 1 * p.val = p.val; omega
  | ⟨2, _⟩ => show 0 + 1 * q.val = q.val; omega

/-- Dropping the leading axis of size one: row-column `(p, q)` is `(0, p, q)`. -/
theorem squeeze_ix (p : Fin 32) (q : Fin 256) :
    Shape.reshapeEquiv squeezes_S1x32x256_S32x256.numel_eq (ix2 p q) = (ix3 (0 : Fin 1) p q : S1x32x256.Idx) := by
  refine Shape.reshapeEquiv_eq_of_rowMajor _ ?_
  rw [Shape.rowMajor_val_three, Shape.rowMajor_val_two]
  show (0 * 32 + p.val) * 256 + q.val = p.val * 256 + q.val
  omega

theorem xband_emb (c : Fin 16) (p : Fin 32) (q : Fin 256) : (xband c).view.emb (ix2 p q) = ix2 (bandRow c p) q :=
  bandRect_emb c p q
theorem oband_emb (c : Fin 16) (p : Fin 32) (q : Fin 256) : (oband c).view.emb (ix2 p q) = ix2 (bandRow c p) q :=
  bandRect_emb c p q
theorem rslot_emb (k : Fin 16) (p : Fin 32) (q : Fin 256) : (rslot k).view.emb (ix2 p q) = ix3 k p q := by
  show (slotRect k).emb (Shape.reshapeEquiv squeezes_S1x32x256_S32x256.numel_eq (ix2 p q)) = _
  rw [squeeze_ix, slotRect_emb]

/-! ## What a landing leaves -/

theorem land1 (c k : Fin 16) (fd : Buf (Elt F) ((c : Thread nD τ).loc cc0_scratch0)) (X : Fin 16 → Vec F S512x256 .f32) :
    slotPts (F := F) c k ((rslot k).view.write (Elt F) fd ((xband c).view.read (Elt F) (X k)) Finset.univ) = slotPts c k (recvOf X c) := by
  unfold slotPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [View.write_emb_of_mem _ _ (Finset.mem_univ _), View.read_apply, xband_emb, rslot_emb]
  rfl

theorem land2 (c k : Fin 16) (fd : Buf (Elt F) ((c : Thread nD τ).loc cc0_stg1_0)) (X : Fin 16 → Vec F S512x256 .f32) :
    obandPts (F := F) c k ((oband k).view.write (Elt F) fd ((kM : Memref sig .tc .vmem S32x256 .f32).view.read (Elt F) (chunkOf X k)) Finset.univ)
      = obandPts c k (outOf X) := by
  unfold obandPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [View.write_emb_of_mem _ _ (Finset.mem_univ _), View.read_apply, oband_emb]
  show chunkOf X k (ix2 p q) = chunkOf X (bandOf (bandRow k p)) (ix2 (rowIn (bandRow k p)) q)
  rw [bandOf_bandRow, rowIn_bandRow]

/-! ## A device's own vector accesses to its parts -/

/-- What band `c`'s view reads of a block is the block's band `c`. -/
theorem read_xband (c : Fin 16) (f : Vec F S512x256 .f32) : (xband c).view.read (Elt F) f = band f c := by
  funext i
  obtain ⟨p, q, rfl⟩ : ∃ (p : Fin 32) (q : Fin 256), i = ix2 p q := ⟨i 0, i 1, eq_ix2 i⟩
  rw [View.read_apply, xband_emb]; rfl
theorem read_oband (c : Fin 16) (f : Vec F S512x256 .f32) : (oband c).view.read (Elt F) f = band f c := by
  funext i
  obtain ⟨p, q, rfl⟩ : ∃ (p : Fin 32) (q : Fin 256), i = ix2 p q := ⟨i 0, i 1, eq_ix2 i⟩
  rw [View.read_apply, oband_emb]; rfl

/-- The vector load of band `c` through its rectangle reads the block's band `c`. -/
theorem load_xband (c : Fin 16) (f : Vec F S512x256 .f32) :
    (xM : Memref sig .tc .vmem S512x256 .f32).view.readAt (Elt F) (bandRect c).toLoadRect f = band f c := read_xband c f
theorem load_oband (c : Fin 16) (f : Vec F S512x256 .f32) :
    (oM : Memref sig .tc .vmem S512x256 .f32).view.readAt (Elt F) (bandRect c).toLoadRect f = band f c := read_oband c f

/-- The elements an access through a part's rectangle touches are the part's. -/
theorem xband_setOn (c : Fin 16) : (xM : Memref sig .tc .vmem S512x256 .f32).view.setOn (bandRect c).toLoadRect.set = (xband c).view.set :=
  (View.set_slice _ _).symm
theorem oband_setOn (c : Fin 16) : (oM : Memref sig .tc .vmem S512x256 .f32).view.setOn (bandRect c).toLoadRect.set = (oband c).view.set :=
  (View.set_slice _ _).symm
theorem rslot_setOn (c : Fin 16) : (rM : Memref sig .tc .vmem S16x32x256 .f32).view.setOn (slotRect c).toLoadRect.set = (rslot c).view.set :=
  ((View.set_reshape _ _).trans (View.set_slice _ _)).symm
theorem oband_access_setOn (c : Fin 16) :
    ((oM : Memref sig .tc .vmem S512x256 .f32).access (bandRect c)).setOn Finset.univ = (oband c).view.set := rfl
theorem rslot_access_setOn (c : Fin 16) :
    ((rM : Memref sig .tc .vmem S16x32x256 .f32).access (slotRect c)).setOn Finset.univ = (rslot c).view.set :=
  (View.set_reshape _ _).symm

/-- A vector stored into slot `c` through its rectangle: the slot then holds, at `(c, p, q)`, the vector's `(0, p, q)`. -/
theorem store_rslot (c : Fin 16) (f f' : Buf (Elt F) ((c : Thread nD τ).loc cc0_scratch0)) (v : Vec F S1x32x256 .f32)
    (h : ∀ (p : Fin 32) (q : Fin 256), f' (ix3 c p q) = v (ix3 (0 : Fin 1) p q)) :
    slotPts (F := F) c c (((rM : Memref sig .tc .vmem S16x32x256 .f32).access (slotRect c)).write (Elt F) f v Finset.univ) = slotPts c c f' := by
  unfold slotPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [rslot_emb, h]
  have hw := View.write_emb_of_mem (v := ((rM : Memref sig .tc .vmem S16x32x256 .f32).access (slotRect c))) (Val := Elt F) f v
    (M := Finset.univ) (x := ix3 (0 : Fin 1) p q) (Finset.mem_univ _)
  rw [show ((rM : Memref sig .tc .vmem S16x32x256 .f32).access (slotRect c)).emb (ix3 (0 : Fin 1) p q) = ix3 c p q from slotRect_emb c 0 p q] at hw
  exact hw

/-- A vector stored into band `c` of the result buffer through its rectangle: the band then holds the vector. -/
theorem store_oband (c : Fin 16) (f f' : Buf (Elt F) ((c : Thread nD τ).loc cc0_stg1_0)) (v : Vec F S32x256 .f32)
    (h : ∀ (p : Fin 32) (q : Fin 256), f' (ix2 (bandRow c p) q) = v (ix2 p q)) :
    obandPts (F := F) c c (((oM : Memref sig .tc .vmem S512x256 .f32).access (bandRect c)).write (Elt F) f v Finset.univ) = obandPts c c f' := by
  unfold obandPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [oband_emb, h]
  have hw := View.write_emb_of_mem (v := ((oM : Memref sig .tc .vmem S512x256 .f32).access (bandRect c))) (Val := Elt F) f v
    (M := Finset.univ) (x := ix2 p q) (Finset.mem_univ _)
  rw [show ((oM : Memref sig .tc .vmem S512x256 .f32).access (bandRect c)).emb (ix2 p q) = ix2 (bandRow c p) q from bandRect_emb c p q] at hw
  exact hw

/-- The body's own store into its slot: the payload is band `c` of the device's block behind a unit axis. -/
theorem k0_pay1_apply (v : Vec F S32x256 .f32) (p : Fin 32) (q : Fin 256) : k0_pay1 v (ix3 (0 : Fin 1) p q) = v (ix2 p q) := by
  unfold k0_pay1
  rw [shapeCast_ab_1ab_apply, shapeCast_self]

theorem store_own_slot (c : Fin 16) (f : Buf (Elt F) ((c : Thread nD τ).loc cc0_scratch0)) (X : Fin 16 → Vec F S512x256 .f32) :
    slotPts (F := F) c c (((rM : Memref sig .tc .vmem S16x32x256 .f32).access (slotRect c)).write (Elt F) f (k0_pay1 (band (X c) c)) Finset.univ)
      = slotPts c c (recvOf X c) :=
  store_rslot c f _ _ fun p q => by rw [k0_pay1_apply]; rfl

theorem store_own_oband (c : Fin 16) (f : Buf (Elt F) ((c : Thread nD τ).loc cc0_stg1_0)) (X : Fin 16 → Vec F S512x256 .f32) :
    obandPts (F := F) c c (((oM : Memref sig .tc .vmem S512x256 .f32).access (bandRect c)).write (Elt F) f (chunkOf X c) Finset.univ)
      = obandPts c c (outOf X) :=
  store_oband c f _ _ fun p q => by
    show chunkOf X (bandOf (bandRow c p)) (ix2 (rowIn (bandRow c p)) q) = chunkOf X c (ix2 p q)
    rw [bandOf_bandRow, rowIn_bandRow]

/-! ## Whole-buffer accesses of the two scratch buffers -/

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl

theorem load_r_whole (h : ∀ a, (![0, 0, 0] : Fin 3 → Nat) a + S16x32x256.size a ≤ S16x32x256.size a)
    (f : (cc0_scratch0 : Ref sig .tc).ty.Contents (Elt F)) :
    (rM : Memref sig .tc .vmem S16x32x256 .f32).view.readAt (Elt F) (Rect.unit (s := S16x32x256) ![0, 0, 0] S16x32x256.size h).toLoadRect f = f :=
  Memref.readAt_unit_zero (Elt F) cc0_scratch0 zeros3 _ f
theorem load_k_whole (h : ∀ a, (![0, 0] : Fin 2 → Nat) a + S32x256.size a ≤ S32x256.size a)
    (f : (cc0_scratch1 : Ref sig .tc).ty.Contents (Elt F)) :
    (kM : Memref sig .tc .vmem S32x256 .f32).view.readAt (Elt F) (Rect.unit (s := S32x256) ![0, 0] S32x256.size h).toLoadRect f = f :=
  Memref.readAt_unit_zero (Elt F) cc0_scratch1 zeros2 _ f
theorem store_k_whole (h : ∀ a, (![0, 0] : Fin 2 → Nat) a + S32x256.size a ≤ S32x256.size a)
    (f w : (cc0_scratch1 : Ref sig .tc).ty.Contents (Elt F)) :
    ((kM : Memref sig .tc .vmem S32x256 .f32).access (Rect.unit (s := S32x256) ![0, 0] S32x256.size h)).write (Elt F) f w Finset.univ = w :=
  Memref.write_access_unit_zero_univ (Elt F) cc0_scratch1 zeros2 _ f w
theorem r_set : (rM : Memref sig .tc .vmem S16x32x256 .f32).view.set = Finset.univ := View.set_whole _
theorem k_set : (kM : Memref sig .tc .vmem S32x256 .f32).view.set = Finset.univ := View.set_whole _

end Cert.KernelIdeal.Proto

end
-- ==== Proof.BlkSig.lean ====
/-
  The signals to the peers and the barrier wait.
-/
import proofs.«900783_g7700000000000784_dist_f_of_ar_i_m512_n256_v7x_i16_f32_1_alg».proof.Proof.BlockDefs
import proofs.«900783_g7700000000000784_dist_f_of_ar_i_m512_n256_v7x_i16_f32_1_alg».proof.Proof.Regions

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Blocks
variable (K : CIx → ℕ) (c : Dev nD) (n : ℕ)

/-- Splitting one summand off an iterated separating conjunction, and putting one in, with the conjunction written as the assertions of this file write it. -/
private theorem bigSep_take {I : Type} [DecidableEq I] {s : Finset I} {i : I} (hi : i ∈ s) (Φ : I → sProp 𝕄) :
    bigSep s Φ = iprop(Φ i ∗ bigSep (s.erase i) Φ) := bigSep_erase hi
private theorem bigSep_put {I : Type} [DecidableEq I] {s : Finset I} {i : I} (hi : i ∉ s) (Φ : I → sProp 𝕄) :
    bigSep (insert i s) Φ = iprop(Φ i ∗ bigSep s Φ) := bigSep_insert hi

/-- The records hold every cell's invariant and that every cell has reached round 0. -/
private theorem records_inv (K : CIx → ℕ) (ck : CIx) : records m ρ K ⊢ cellInv ER (Rd m ρ) (K ck) (kcell ck) := by
  unfold records
  iintro ⟨#Hinv, -⟩
  iapply (show (bigSep Finset.univ fun ck : CIx => (cellInv ER (Rd m ρ) (K ck) (kcell ck) : sProp 𝕄)) ⊢ cellInv ER (Rd m ρ) (K ck) (kcell ck)
    from bigSep_elim (Finset.mem_univ ck))
  iexact Hinv
private theorem records_reached (K : CIx → ℕ) (ck : CIx) : records m ρ K ⊢ reached ER (kcell ck) 0 := by
  unfold records
  iintro ⟨-, #Hrch⟩
  iapply (show (bigSep Finset.univ fun ck : CIx => (reached ER (kcell ck) 0 : sProp 𝕄)) ⊢ reached ER (kcell ck) 0
    from bigSep_elim (Finset.mem_univ ck))
  iexact Hrch

/-- A peer's bundle at launch is the signal's token and payload on top of the bundle after the signal; after the
    barrier wait it is the barrier's payload on top of that bundle. -/
private theorem peer_zero (c j : Dev nD) :
    peer m ρ c j 0 = iprop(dutyTok ER (barCell j) 0 c ∗ slotAny c j ∗ obandAny c j ∗ peer m ρ c j 1) := rfl
private theorem peer_two (c j : Dev nD) : peer m ρ c j 2 = iprop(barPay c j ∗ peer m ρ c j 1) := rfl

/-- What the device keeps for itself besides its barrier cell: its positions at the cells of its own index and its own parts. -/
private def globRest (c : Dev nD) : sProp 𝕄 :=
  iprop((bigSep Finset.univ fun a : Fin 4 => atPos ER (cell a c c) 0 ∅ 0) ∗ xbandPts c c (xin m ρ c) ∗ slotAny c c ∗ obandAny c c
    ∗ (∃ f : Buf (Elt F) ((c : Thread nD τ).loc cc0_scratch1), ((c : Thread nD τ).loc cc0_scratch1) ↦{fullShare} f))
private theorem glob_zero (c : Dev nD) :
    glob m ρ c 0 = iprop(atPos ER (barCell c) 0 ∅ 0 ∗ cred (tallyAt (barCell c) () 15) ∗ globRest m ρ c) := rfl
private theorem glob_one (c : Dev nD) : glob m ρ c 1 = iprop(atPos ER (barCell c) 1 ∅ 0 ∗ globRest m ρ c) := rfl

/-- The signal to peer `n`. -/
theorem blk_sig {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n) (hamt : (1#32 : BitVec 32).msb = false) :
    iprop(Mid m ρ K c 0 0 n (owed0 c n) ∗ (Mid m ρ K c 0 0 (n + 1) (owed0 c (n + 1)) -∗ WP c Kc Q))
      ⊢ WP c (if h : cond = 1#1 then (semSignalWord (⟨dev, hdev h⟩ : Dev nD) barS 1#32 hamt >>= fun _ => Kc) else Kc) Q := by
  subst hd
  subst hcond
  by_cases hc : (⟨dev, hn⟩ : Dev nD) = c
  · -- the device is peer dev itself: nothing runs, and the index sets do not move
    have hf : ¬ condw c dev = 1#1 := fun h => ((condw_iff c ⟨dev, hn⟩).mp h) hc
    have hv : c.val = dev := by rw [← hc]
    rw [dif_neg hf]
    unfold Mid owed0
    rw [Tn_step_eq c dev hv, Dn_step_eq c dev hv]
    iintro ⟨H, Hk⟩
    iapply Hk
    iexact H
  · -- peer j = dev is another device: the signal pays duty c of round 0 of j's barrier cell
    have ht : condw c dev = 1#1 := (condw_iff c ⟨dev, hn⟩).mpr hc
    rw [dif_pos ht]
    generalize hj : (⟨dev, hn⟩ : Dev nD) = j at hc
    have hjv : j.val = dev := by rw [← hj]
    have hcj : c ≠ j := fun e => hc e.symm
    have hmem : j ∈ Tn c dev := by rw [← hjv]; exact mem_Tn c j hc
    have hT : (Tn c dev).erase j = Tn c (dev + 1) := by rw [← hjv]; exact Tn_step_ne c j
    have hD : Dn c (dev + 1) = insert j (Dn c dev) := by rw [← hjv]; exact Dn_step_ne c j hc
    have hnD : j ∉ Dn c dev := by rw [← hjv]; exact not_mem_Dn c j
    have hO : owed0 c dev = owed0 c (dev + 1) + tallyAt (barCell j) () (1#32 : BitVec 32).toNat := by
      show owedFrom c (Tn c dev) _ _ = owedFrom c (Tn c (dev + 1)) _ _ + _
      rw [owedFrom_peel0 c j (Tn c dev) _ _ hmem, hT]; rfl
    simp only [semSignalWord, Prog.lift, Prog.bind_op, Prog.bind_ret, Prog.pure_eq_ret]
    unfold Mid
    rw [bigSep_take hmem, hT, hD, bigSep_put hnD, peer_zero m ρ c j]
    iintro ⟨⟨#Hrec, #Hlev, HD, ⟨⟨Htok, Hslot, Hob, HS1⟩, HT⟩, ⟨%W, HO⟩, Hg⟩, Hk⟩
    ihave #HI := (records_inv m ρ K (j, none)) $$ Hrec
    ihave #HR := (records_reached m ρ K (j, none)) $$ Hrec
    -- the token of duty c, and as its payload the device's own slot j and result band j
    iapply (Rounds.wp_signal 𝒱₀ ER (Rd m ρ) (c : Thread nD τ) none (dst := (j : Thread nD τ)) (sem := barS) (κ := K (j, none)) (r := 0)
        (d := c) (by rw [duties_bar]; exact Finset.mem_erase.mpr ⟨hcj, Finset.mem_univ _⟩) ((amount_bar m ρ j c).trans (by decide)) () (owed0 c (dev + 1)) hO)
      $$ [HO Htok Hslot Hob]
    · isplitr; · iexact HI
      isplitl [HO]; · iexact HO
      isplitl [Htok]; · iexact Htok
      isplitl [Hslot Hob]
      · rw [payload_bar]; unfold barPay
        isplitl [Hslot]; · iexact Hslot
        iexact Hob
      · iexact HR
    iintro HO
    iapply Hk
    isplitr; · iexact Hrec
    isplitr; · iexact Hlev
    isplitl [HD HS1]
    · isplitl [HS1]; · iexact HS1
      iexact HD
    isplitl [HT]; · iexact HT
    isplitl [HO]; · iexists W; iexact HO
    iexact Hg

/-- The barrier wait: every peer's signal has landed; the device may now write into every peer. -/
theorem step_barwait {α : Type} (Kc : Prog (TpuEff nD τ sig (Elt F) Λ₀ .tc) α) (Q : α → sProp 𝕄) (hamt : (15#32 : BitVec 32).msb = false) :
    iprop(Mid m ρ K c 0 0 16 (owed0 c 16) ∗ (Mid m ρ K c 2 1 0 (owed1 c 0) -∗ WP c Kc Q))
      ⊢ WP c (semWaitWord barS 15#32 hamt >>= fun _ => Kc) Q := by
  simp only [semWaitWord, Prog.lift, Prog.bind_op, Prog.bind_ret, Prog.pure_eq_ret]
  unfold Mid owed0 owed1
  rw [Dn_last, Tn_last, Dn_zero, Tn_zero, glob_zero, glob_one]
  iintro ⟨⟨#Hrec, #Hlev, HD, -, ⟨%W, HO⟩, Hat, Hcr, Hrest⟩, Hk⟩
  ihave #HI := (records_inv m ρ K (c, none)) $$ Hrec
  -- the credit of the fifteen signals covers the whole of round 0: the wait returns every peer's payload
  iapply (Rounds.wp_wait_rest_token 𝒱₀ ER (Rd m ρ) (c : Thread nD τ) none (κ := K (c, none)) (sm := .reg barS)
      (wpE_semWait_eq 𝒱₀ (c : Thread nD τ) none Set.univ) (Set.mem_univ _) ()
      (O := owedFrom c ∅ (Finset.univ.erase c) (Finset.univ.erase c)) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c (Finset.univ.erase c) (Finset.univ.erase c)); iexact Hlev
    iexact Hat
  iintro ⟨HO, Hat, -, Hpay⟩
  ihave Hp := (Entails.of_eq (rest_bar m ρ c)) $$ Hpay
  iapply Hk
  isplitr; · iexact Hrec
  isplitr; · iexact Hlev
  isplitr; · rw [bigSep_empty]; iempintro
  isplitl [HD Hp]
  · rw [bigSep_congr (fun j _ => peer_two m ρ c j), bigSep_sep']
    isplitl [Hp]; · iexact Hp
    iexact HD
  isplitl [HO]; · iexists _; iexact HO
  isplitl [Hat]; · iexact Hat
  iexact Hrest

end Blocks

/-- info: 'Cert.KernelIdeal.Proto.blk_sig' depends on axioms: [propext, Classical.choice, Quot.sound] -/
#guard_msgs in #print axioms blk_sig
/-- info: 'Cert.KernelIdeal.Proto.step_barwait' depends on axioms: [propext, Classical.choice, Quot.sound] -/
#guard_msgs in #print axioms step_barwait

end Cert.KernelIdeal.Proto

end
-- ==== Proof.BlkSend.lean ====
/-
  The two transfers to a peer.
-/
import proofs.«900783_g7700000000000784_dist_f_of_ar_i_m512_n256_v7x_i16_f32_1_alg».proof.Proof.BlockDefs
import proofs.«900783_g7700000000000784_dist_f_of_ar_i_m512_n256_v7x_i16_f32_1_alg».proof.Proof.Regions

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Blocks
variable (K : CIx → ℕ) (c : Dev nD) (n : ℕ)

/-- A peer's bundle at the stages the two transfers start from and end in, written out. -/
theorem send_peer2 (j : Dev nD) : peer m ρ c j 2 = iprop(((∃ f, slotPts j c f) ∗ obandAny j c) ∗ xbandPts c j (xin m ρ c) ∗ dutyTok ER (cell 0 c j) 0 0
    ∗ dutyTok ER (cell 1 j c) 0 0 ∗ dutyTok ER (cell 2 c j) 0 0 ∗ dutyTok ER (cell 3 j c) 0 0
    ∗ posAt c j 0 0 ∗ posAt c j 1 0 ∗ posAt c j 2 0 ∗ posAt c j 3 0 ∗ credAt c j 1 ∗ credAt c j 3) := rfl
theorem send_peer3 (j : Dev nD) : peer m ρ c j 3 = iprop(obandAny j c ∗ credAt c j 0 ∗ dutyTok ER (cell 2 c j) 0 0 ∗ dutyTok ER (cell 3 j c) 0 0
    ∗ posAt c j 0 0 ∗ posAt c j 1 0 ∗ posAt c j 2 0 ∗ posAt c j 3 0 ∗ credAt c j 1 ∗ credAt c j 3) := rfl
theorem send_peer5 (j : Dev nD) : peer m ρ c j 5 = iprop(chunkPts c (shr j) (chunkOf (xin m ρ) c) ∗ posAt c j 1 1 ∗ (∃ f, obandPts j c f) ∗ credAt c j 0
    ∗ dutyTok ER (cell 2 c j) 0 0 ∗ dutyTok ER (cell 3 j c) 0 0 ∗ posAt c j 0 0 ∗ posAt c j 2 0 ∗ posAt c j 3 0 ∗ credAt c j 3) := rfl
theorem send_peer6 (j : Dev nD) : peer m ρ c j 6 = iprop(credAt c j 2 ∗ posAt c j 1 1 ∗ credAt c j 0 ∗ posAt c j 0 0 ∗ posAt c j 2 0 ∗ posAt c j 3 0
    ∗ credAt c j 3) := rfl

/-- One factor of the records: the invariant of a cell, and that it has reached round 0. -/
theorem send_inv_at (ck : CIx) :
    (bigSep Finset.univ fun ck : CIx => (cellInv ER (Rd m ρ) (K ck) (kcell ck) : sProp 𝕄)) ⊢ cellInv ER (Rd m ρ) (K ck) (kcell ck) :=
  bigSep_elim (Finset.mem_univ ck)
omit [FloatOps F] in
theorem send_reached_at (ck : CIx) :
    (bigSep Finset.univ fun ck : CIx => (reached ER (kcell ck) 0 : sProp 𝕄)) ⊢ reached ER (kcell ck) 0 :=
  bigSep_elim (Finset.mem_univ ck)

/-- The invariant of a transfer cell, under the name the launch gave it, out of the records. -/
theorem send_inv (a : Fin 4) (d : Dev nD) (i : Fin 16) :
    records m ρ K ⊢ cellInv ER (Rd m ρ) (K (d, some (a, i))) (cell a d i) := by
  unfold records
  iintro ⟨#HI, -⟩
  iapply (send_inv_at m ρ K (d, some (a, i)))
  iexact HI

/-- A transfer cell has reached round 0. -/
theorem send_reached (a : Fin 4) (d : Dev nD) (i : Fin 16) :
    records m ρ K ⊢ reached ER (cell a d i) 0 := by
  unfold records
  iintro ⟨-, #HR⟩
  iapply (send_reached_at (F := F) (d, some (a, i)))
  iexact HR

omit [FloatOps F] in
/-- Peer `j` taken out of the untreated peers, and put among the treated ones. -/
theorem send_Tn_split (Φ : Dev nD → sProp 𝕄) (j : Dev nD) (hj : j ≠ c) :
    bigSep (Tn c j.val) Φ = iprop(Φ j ∗ bigSep (Tn c (j.val + 1)) Φ) :=
  (bigSep_erase (mem_Tn c j hj)).trans (congrArg (fun s => iprop(Φ j ∗ bigSep s Φ)) (Tn_step_ne c j))
omit [FloatOps F] in
theorem send_Dn_join (Φ : Dev nD → sProp 𝕄) (j : Dev nD) (hj : j ≠ c) :
    bigSep (Dn c (j.val + 1)) Φ = iprop(Φ j ∗ bigSep (Dn c j.val) Φ) :=
  (congrArg (fun s => bigSep s Φ) (Dn_step_ne c j hj)).trans (bigSep_insert (not_mem_Dn c j))

/-- The first transfer for one peer: band `j` of the input block and slot `c` of `j`'s receive buffer go into the
    transfer, with the tokens of the send duty and of `j`'s receive duty; the send cell's credit comes back and the
    receive cell's term leaves what is owed. -/
theorem send1_peer {α : Type} (Q : α → sProp 𝕄) (j : Dev nD) (hj : j ≠ c) (O : CellTallies nD τ sig Unit) (W : Waits sig Unit)
    {hsc : (rslot c : Memref sig (Dev.tc j : Thread nD τ).2.kind .vmem S32x256 .f32).view.ref.isScScratch = false}
    {hws : (xband j : Memref sig .tc .vmem S32x256 .f32).view.WordExact} {hwd : (rslot c : Memref sig .tc .vmem S32x256 .f32).view.WordExact}
    {hty : DmaTarget.Typed .vmem (.dma (dsem 1 c)) (.remote (Dev.tc j : Thread nD τ) (rslot c) (.dma (dsem 0 j)) hsc)}
    (k : PUnit → Prog (TpuEff nD τ sig (Elt F) Λ₀ .tc) α) :
    iprop(records m ρ K ∗ peer m ρ c j 2 ∗ owes (c : Thread nD τ) (O + tallyAt (cell 1 j c) () N1) W
        ∗ ((peer m ρ c j 3 ∗ owes (c : Thread nD τ) O W) -∗ WP c (k ⟨⟩) Q))
      ⊢ WP c (.op (.enqueueDma (xband j) (.remote (Dev.tc j : Thread nD τ) (rslot c) (.dma (dsem 0 j)) hsc) (.dma (dsem 1 c)) hws hwd hty) k) Q := by
  rw [send_peer2, send_peer3]
  unfold xbandPts slotPts
  iintro ⟨#Hrec, ⟨⟨⟨%fd, Hslot⟩, Hob⟩, Hx, Ht0, Ht1, Ht2, Ht3, Hp0, Hp1, Hp2, Hp3, Hc1, Hc3⟩, HO, Hk⟩
  iapply (Rounds.wp_send_pointsTo 𝒱₀ ER (Rd m ρ) (c : Thread nD τ) none (c' := (j : Thread nD τ)) (src := xband j) (dst := rslot c)
      (q := fullShare) (fs := xin m ρ c) (fd := fd) (κ₁ := K (c, some (0, j))) (κ₂ := K (j, some (1, c)))
      (r₁ := 0) (r₂ := 0) (d₁ := (0 : Dev nD)) (d₂ := (0 : Dev nD))
      (by rw [duties_cell m ρ 0 c j hj]; exact Finset.mem_singleton_self _)
      (by rw [duties_cell m ρ 1 j c (Ne.symm hj)]; exact Finset.mem_singleton_self _)
      () () N1 rfl (amount_cell m ρ 0 c j 0) (amount_cell m ρ 1 j c 0) O rfl (W := W)
      (by rw [payload_cell]; exact BI.Entails.refl _)
      (by rw [payload_cell]; exact .of_eq (land1 j c fd (xin m ρ))))
    $$ [Hx Hslot HO Ht0 Ht1]
  · isplitr; · iapply (send_inv m ρ K 0 c j); iexact Hrec
    isplitr; · iapply (send_inv m ρ K 1 j c); iexact Hrec
    isplitl [Hx]; · iexact Hx
    isplitl [Hslot]; · iexact Hslot
    isplitl [HO]; · iexact HO
    isplitl [Ht0]; · iexact Ht0
    isplitr; · iapply (send_reached m ρ K 0 c j); iexact Hrec
    isplitl [Ht1]; · iexact Ht1
    iapply (send_reached m ρ K 1 j c); iexact Hrec
  iintro ⟨Hc0, HO⟩
  iapply Hk
  isplitr [HO]
  · isplitl [Hob]; · iexact Hob
    isplitl [Hc0]; · iexact Hc0
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Hc1]; · iexact Hc1
    iexact Hc3
  · iexact HO

/-- The first transfer to a peer `j ≠ c`, the views, the semaphores and the addressed device named by equations:
    peer `j`'s bundle leaves the untreated peers at stage 2 and joins the treated ones at stage 3, and the term of
    `j`'s receive cell leaves what is owed. -/
theorem send1_core {α : Type} (Kc : Prog (TpuEff nD τ sig (Elt F) Λ₀ .tc) α) (Q : α → sProp 𝕄) (j : Dev nD) (hj : j ≠ c)
    (t : Dev nD) (ht : t = j)
    (src : Memref sig .tc .vmem S32x256 .f32) (hsrc : src = xband j)
    (dst : Memref sig .tc .vmem S32x256 .f32) (hdst : dst = rslot c)
    (sS sR : DmaSem sig) (hS : sS = dsem 0 j) (hR : sR = dsem 1 c)
    (hws : src.view.WordExact) (hwd : dst.view.WordExact) (hsc : dst.view.ref.isScScratch = false)
    (hty : DmaTarget.Typed .vmem (.dma sR) (.remote (Dev.tc t : Thread nD τ) dst (.dma sS) hsc)) :
    iprop(Mid m ρ K c 2 1 j.val (owed1 c j.val) ∗ (Mid m ρ K c 2 1 (j.val + 1) (owed1 c (j.val + 1)) -∗ WP c Kc Q))
      ⊢ WP c (Prog.lift (.enqueueDma src (.remote (Dev.tc t : Thread nD τ) dst (.dma sS) hsc) (.dma sR) hws hwd hty) >>= fun _ => Kc) Q := by
  subst t src dst sS sR
  rw [Prog.bind_lift]
  have hO : owed1 c j.val = owed1 c (j.val + 1) + tallyAt (cell 1 j c) () N1 := by
    show owedFrom c ∅ (Tn c j.val) _ = owedFrom c ∅ (Tn c (j.val + 1)) _ + _
    rw [owedFrom_peel1 c j ∅ (Tn c j.val) _ (mem_Tn c j hj), Tn_step_ne]
  unfold Mid
  rw [hO, send_Tn_split c _ j hj, send_Dn_join c _ j hj]
  iintro ⟨⟨#Hrec, #Hlev, HD, ⟨Hp, HT⟩, ⟨%W, HO⟩, Hg⟩, Hk⟩
  iapply (send1_peer m ρ K c Q j hj (owed1 c (j.val + 1)) W (fun _ => Kc)) $$ [Hp HO HD HT Hg Hk]
  isplitr; · iexact Hrec
  isplitl [Hp]; · iexact Hp
  isplitl [HO]; · iexact HO
  iintro ⟨Hp, HO⟩
  iapply Hk
  isplitr; · iexact Hrec
  isplitr; · iexact Hlev
  isplitl [HD Hp]
  · isplitl [Hp]; · iexact Hp
    iexact HD
  isplitl [HT]; · iexact HT
  isplitl [HO]; · iexists W; iexact HO
  iexact Hg

/-- The first transfer to peer `n`. -/
theorem blk_send1 {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n)
    (o1 : Fin 1 → ℕ) (ho1 : o1 = ![c.val]) (hi1 : cond = 1#1 → ∀ a, o1 a + S1.size a ≤ S16.size a)
    (o2 : Fin 3 → ℕ) (ho2 : o2 = ![c.val, 0, 0]) (hi2 : cond = 1#1 → ∀ a, o2 a + S1x32x256.size a ≤ S16x32x256.size a)
    (os : Fin 1 → ℕ) (hos : os = ![n]) (his : ∀ a, os a + S1.size a ≤ S16.size a)
    (ox : Fin 2 → ℕ) (hox : ox = ![32 * n, 0]) (hix : ∀ a, ox a + S32x256.size a ≤ S512x256.size a)
    (hws : (bandAt xM ox hix).view.WordExact) (hwd : ∀ h : cond = 1#1, (rslotAt o2 (hi2 h)).view.WordExact)
    (hsc : ∀ h : cond = 1#1, (rslotAt o2 (hi2 h)).view.ref.isScScratch = false)
    (hty : ∀ h : cond = 1#1, DmaTarget.Typed .vmem (.dma (semAt cc0_scratch3 o1 (hi1 h)))
      (.remote (Dev.tc (⟨dev, hdev h⟩ : Dev nD)) (rslotAt o2 (hi2 h)) (.dma (semAt cc0_scratch2 os his)) (hsc h))) :
    iprop(Mid m ρ K c 2 1 n (owed1 c n) ∗ (Mid m ρ K c 2 1 (n + 1) (owed1 c (n + 1)) -∗ WP c Kc Q))
      ⊢ WP c (if h : cond = 1#1 then
          (Prog.lift (.enqueueDma (bandAt xM ox hix) (.remote (Dev.tc (⟨dev, hdev h⟩ : Dev nD)) (rslotAt o2 (hi2 h)) (.dma (semAt cc0_scratch2 os his)) (hsc h))
            (.dma (semAt cc0_scratch3 o1 (hi1 h))) hws (hwd h) (hty h)) >>= fun _ => Kc) else Kc) Q := by
  by_cases hc : (⟨n, hn⟩ : Dev nD) = c
  · -- the device is `n` itself: the condition is false, and no peer has index `n`
    have hf : ¬ cond = 1#1 := by rw [hcond]; exact fun h => (condw_iff c ⟨n, hn⟩).mp h hc
    have hv : c.val = n := by rw [← hc]
    have e : Mid m ρ K c 2 1 (n + 1) (owed1 c (n + 1)) = Mid m ρ K c 2 1 n (owed1 c n) := by
      unfold Mid
      rw [show owed1 c (n + 1) = owed1 c n from by show owedFrom c ∅ (Tn c (n + 1)) _ = owedFrom c ∅ (Tn c n) _; rw [Tn_step_eq c n hv],
        Tn_step_eq c n hv, Dn_step_eq c n hv]
    rw [dif_neg hf, e]
    iintro ⟨H, Hk⟩
    iapply Hk
    iexact H
  · -- the device is another: the transfer goes to peer `n`
    have ht : cond = 1#1 := by rw [hcond]; exact (condw_iff c ⟨n, hn⟩).mpr hc
    rw [dif_pos ht]
    exact send1_core m ρ K c Kc Q ⟨n, hn⟩ hc ⟨dev, hdev ht⟩ (Fin.ext hd) _ (xband_of ⟨n, hn⟩ ox hox hix) _ (rslot_of c o2 ho2 (hi2 ht)) _ _
      (dsem_of 0 ⟨n, hn⟩ os hos his) (dsem_of 1 c o1 ho1 (hi1 ht)) hws (hwd ht) (hsc ht) (hty ht)

/-- The second transfer for one peer: share `j` of the chunk buffer and band `c` of `j`'s result buffer go into the
    transfer, with the tokens of the send duty and of `j`'s receive duty; the send cell's credit comes back and the
    receive cell's term leaves what is owed. -/
theorem send2_peer {α : Type} (Q : α → sProp 𝕄) (j : Dev nD) (hj : j ≠ c) (O : CellTallies nD τ sig Unit) (W : Waits sig Unit)
    {hsc : (oband c : Memref sig (Dev.tc j : Thread nD τ).2.kind .vmem S32x256 .f32).view.ref.isScScratch = false}
    {hws : (kM : Memref sig .tc .vmem S32x256 .f32).view.WordExact} {hwd : (oband c : Memref sig .tc .vmem S32x256 .f32).view.WordExact}
    {hty : DmaTarget.Typed .vmem (.dma (dsem 3 c)) (.remote (Dev.tc j : Thread nD τ) (oband c) (.dma (dsem 2 j)) hsc)}
    (k : PUnit → Prog (TpuEff nD τ sig (Elt F) Λ₀ .tc) α) :
    iprop(records m ρ K ∗ peer m ρ c j 5 ∗ owes (c : Thread nD τ) (O + tallyAt (cell 3 j c) () N1) W
        ∗ ((peer m ρ c j 6 ∗ owes (c : Thread nD τ) O W) -∗ WP c (k ⟨⟩) Q))
      ⊢ WP c (.op (.enqueueDma kM (.remote (Dev.tc j : Thread nD τ) (oband c) (.dma (dsem 2 j)) hsc) (.dma (dsem 3 c)) hws hwd hty) k) Q := by
  rw [send_peer5, send_peer6]
  unfold chunkPts obandPts
  iintro ⟨#Hrec, ⟨Hch, Hp1, ⟨%fd, Hob⟩, Hc0, Ht2, Ht3, Hp0, Hp2, Hp3, Hc3⟩, HO, Hk⟩
  iapply (Rounds.wp_send_pointsTo 𝒱₀ ER (Rd m ρ) (c : Thread nD τ) none (c' := (j : Thread nD τ))
      (src := (kM : Memref sig .tc .vmem S32x256 .f32)) (dst := oband c)
      (q := shr j) (fs := chunkOf (xin m ρ) c) (fd := fd) (κ₁ := K (c, some (2, j))) (κ₂ := K (j, some (3, c)))
      (r₁ := 0) (r₂ := 0) (d₁ := (0 : Dev nD)) (d₂ := (0 : Dev nD))
      (by rw [duties_cell m ρ 2 c j hj]; exact Finset.mem_singleton_self _)
      (by rw [duties_cell m ρ 3 j c (Ne.symm hj)]; exact Finset.mem_singleton_self _)
      () () N1 rfl (amount_cell m ρ 2 c j 0) (amount_cell m ρ 3 j c 0) O rfl (W := W)
      (by rw [payload_cell]; exact BI.Entails.refl _)
      (by rw [payload_cell]; exact .of_eq (land2 j c fd (xin m ρ))))
    $$ [Hch Hob HO Ht2 Ht3]
  · isplitr; · iapply (send_inv m ρ K 2 c j); iexact Hrec
    isplitr; · iapply (send_inv m ρ K 3 j c); iexact Hrec
    isplitl [Hch]; · iexact Hch
    isplitl [Hob]; · iexact Hob
    isplitl [HO]; · iexact HO
    isplitl [Ht2]; · iexact Ht2
    isplitr; · iapply (send_reached m ρ K 2 c j); iexact Hrec
    isplitl [Ht3]; · iexact Ht3
    iapply (send_reached m ρ K 3 j c); iexact Hrec
  iintro ⟨Hc2, HO⟩
  iapply Hk
  isplitr [HO]
  · isplitl [Hc2]; · iexact Hc2
    isplitl [Hp1]; · iexact Hp1
    isplitl [Hc0]; · iexact Hc0
    isplitl [Hp0]; · iexact Hp0
    isplitl [Hp2]; · iexact Hp2
    isplitl [Hp3]; · iexact Hp3
    iexact Hc3
  · iexact HO

/-- The second transfer to a peer `j ≠ c`, the destination view, the semaphores and the addressed device named by
    equations: peer `j`'s bundle leaves the untreated peers at stage 5 and joins the treated ones at stage 6, and the
    term of `j`'s second receive cell leaves what is owed. -/
theorem send2_core {α : Type} (Kc : Prog (TpuEff nD τ sig (Elt F) Λ₀ .tc) α) (Q : α → sProp 𝕄) (j : Dev nD) (hj : j ≠ c)
    (t : Dev nD) (ht : t = j)
    (dst : Memref sig .tc .vmem S32x256 .f32) (hdst : dst = oband c)
    (sS sR : DmaSem sig) (hS : sS = dsem 2 j) (hR : sR = dsem 3 c)
    (hws : (kM : Memref sig .tc .vmem S32x256 .f32).view.WordExact) (hwd : dst.view.WordExact) (hsc : dst.view.ref.isScScratch = false)
    (hty : DmaTarget.Typed .vmem (.dma sR) (.remote (Dev.tc t : Thread nD τ) dst (.dma sS) hsc)) :
    iprop(Mid m ρ K c 5 3 j.val (owed3 c j.val) ∗ (Mid m ρ K c 5 3 (j.val + 1) (owed3 c (j.val + 1)) -∗ WP c Kc Q))
      ⊢ WP c (Prog.lift (.enqueueDma kM (.remote (Dev.tc t : Thread nD τ) dst (.dma sS) hsc) (.dma sR) hws hwd hty) >>= fun _ => Kc) Q := by
  subst t dst sS sR
  rw [Prog.bind_lift]
  have hO : owed3 c j.val = owed3 c (j.val + 1) + tallyAt (cell 3 j c) () N1 := by
    show owedFrom c ∅ ∅ (Tn c j.val) = owedFrom c ∅ ∅ (Tn c (j.val + 1)) + _
    rw [owedFrom_peel3 c j ∅ ∅ (Tn c j.val) (mem_Tn c j hj), Tn_step_ne]
  unfold Mid
  rw [hO, send_Tn_split c _ j hj, send_Dn_join c _ j hj]
  iintro ⟨⟨#Hrec, #Hlev, HD, ⟨Hp, HT⟩, ⟨%W, HO⟩, Hg⟩, Hk⟩
  iapply (send2_peer m ρ K c Q j hj (owed3 c (j.val + 1)) W (fun _ => Kc)) $$ [Hp HO HD HT Hg Hk]
  isplitr; · iexact Hrec
  isplitl [Hp]; · iexact Hp
  isplitl [HO]; · iexact HO
  iintro ⟨Hp, HO⟩
  iapply Hk
  isplitr; · iexact Hrec
  isplitr; · iexact Hlev
  isplitl [HD Hp]
  · isplitl [Hp]; · iexact Hp
    iexact HD
  isplitl [HT]; · iexact HT
  isplitl [HO]; · iexists W; iexact HO
  iexact Hg

/-- The second transfer to peer `n`. -/
theorem blk_send2 {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n)
    (o1 : Fin 1 → ℕ) (ho1 : o1 = ![c.val]) (hi1 : cond = 1#1 → ∀ a, o1 a + S1.size a ≤ S16.size a)
    (o2 : Fin 2 → ℕ) (ho2 : o2 = ![32 * c.val, 0]) (hi2 : cond = 1#1 → ∀ a, o2 a + S32x256.size a ≤ S512x256.size a)
    (os : Fin 1 → ℕ) (hos : os = ![n]) (his : ∀ a, os a + S1.size a ≤ S16.size a)
    (hws : (kM : Memref sig .tc .vmem S32x256 .f32).view.WordExact) (hwd : ∀ h : cond = 1#1, (bandAt oM o2 (hi2 h)).view.WordExact)
    (hsc : ∀ h : cond = 1#1, (bandAt oM o2 (hi2 h)).view.ref.isScScratch = false)
    (hty : ∀ h : cond = 1#1, DmaTarget.Typed .vmem (.dma (semAt cc0_scratch5 o1 (hi1 h)))
      (.remote (Dev.tc (⟨dev, hdev h⟩ : Dev nD)) (bandAt oM o2 (hi2 h)) (.dma (semAt cc0_scratch4 os his)) (hsc h))) :
    iprop(Mid m ρ K c 5 3 n (owed3 c n) ∗ (Mid m ρ K c 5 3 (n + 1) (owed3 c (n + 1)) -∗ WP c Kc Q))
      ⊢ WP c (if h : cond = 1#1 then
          (Prog.lift (.enqueueDma kM (.remote (Dev.tc (⟨dev, hdev h⟩ : Dev nD)) (bandAt oM o2 (hi2 h)) (.dma (semAt cc0_scratch4 os his)) (hsc h))
            (.dma (semAt cc0_scratch5 o1 (hi1 h))) hws (hwd h) (hty h)) >>= fun _ => Kc) else Kc) Q := by
  by_cases hc : (⟨n, hn⟩ : Dev nD) = c
  · -- the device is `n` itself: the condition is false, and no peer has index `n`
    have hf : ¬ cond = 1#1 := by rw [hcond]; exact fun h => (condw_iff c ⟨n, hn⟩).mp h hc
    have hv : c.val = n := by rw [← hc]
    have e : Mid m ρ K c 5 3 (n + 1) (owed3 c (n + 1)) = Mid m ρ K c 5 3 n (owed3 c n) := by
      unfold Mid
      rw [show owed3 c (n + 1) = owed3 c n from by show owedFrom c ∅ ∅ (Tn c (n + 1)) = owedFrom c ∅ ∅ (Tn c n); rw [Tn_step_eq c n hv],
        Tn_step_eq c n hv, Dn_step_eq c n hv]
    rw [dif_neg hf, e]
    iintro ⟨H, Hk⟩
    iapply Hk
    iexact H
  · -- the device is another: the transfer goes to peer `n`
    have ht : cond = 1#1 := by rw [hcond]; exact (condw_iff c ⟨n, hn⟩).mpr hc
    rw [dif_pos ht]
    exact send2_core m ρ K c Kc Q ⟨n, hn⟩ hc ⟨dev, hdev ht⟩ (Fin.ext hd) _ (oband_of c o2 ho2 (hi2 ht)) _ _
      (dsem_of 2 ⟨n, hn⟩ os hos his) (dsem_of 3 c o1 ho1 (hi1 ht)) hws (hwd ht) (hsc ht) (hty ht)

/-- info: 'Cert.KernelIdeal.Proto.blk_send1' depends on axioms: [propext, Classical.choice, Quot.sound] -/
#guard_msgs in #print axioms blk_send1
/-- info: 'Cert.KernelIdeal.Proto.blk_send2' depends on axioms: [propext, Classical.choice, Quot.sound] -/
#guard_msgs in #print axioms blk_send2

end Blocks

end Cert.KernelIdeal.Proto

end
-- ==== Proof.BlkWait.lean ====
/-
  The waits: for a peer's two transfers, and for one's own two sends to it.
-/
import proofs.«900783_g7700000000000784_dist_f_of_ar_i_m512_n256_v7x_i16_f32_1_alg».proof.Proof.BlockDefs
import proofs.«900783_g7700000000000784_dist_f_of_ar_i_m512_n256_v7x_i16_f32_1_alg».proof.Proof.Regions

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants, out of the persistent records -/

/-- The invariant of the cell indexed `ck`, under the name it was allocated at. -/
theorem records_inv (K : CIx → ℕ) (ck : CIx) : records m ρ K ⊢ cellInv ER (Rd m ρ) (K ck) (kcell ck) := by
  unfold records
  exact Laws.sep_and.trans (and_elimL.trans (bigSep_elim (Finset.mem_univ ck)))

section Blocks
variable (K : CIx → ℕ) (c : Dev nD) (n : ℕ)

/-- The wait for peer `n`'s first transfer. -/
theorem blk_wait1 {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (src dst : Memref sig .tc .vmem S32x256 .f32) (hcr : dst.view.dmaCredit = N1) (hws : src.view.WordExact) (hwd : dst.view.WordExact) :
    iprop(Mid m ρ K c 3 2 n (owed3 c 0) ∗ (Mid m ρ K c 3 2 (n + 1) (owed3 c 0) -∗ WP c Kc Q))
      ⊢ WP c (if h : cond = 1#1 then (Prog.lift (.waitDma2 (semAt cc0_scratch3 os his) src dst hws hwd) >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 3 2 (j.val + 1) (owed3 c 0) = Mid m ρ K c 3 2 j.val (owed3 c 0) := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 3)
        = iprop(peer m ρ c j 3 ∗ bigSep (Tn c (j.val + 1)) (fun i => peer m ρ c i 3)) := by
      rw [bigSep_erase (mem_Tn c j hc), Tn_step_ne]; rfl
    have hD : bigSep (Dn c (j.val + 1)) (fun i => peer m ρ c i (3 + 1))
        = iprop(peer m ρ c j (3 + 1) ∗ bigSep (Dn c j.val) (fun i => peer m ρ c i (3 + 1))) := by
      rw [Dn_step_ne c j hc, bigSep_insert (not_mem_Dn c j)]; rfl
    have hp3 : peer m ρ c j 3 = iprop(obandAny j c ∗ credAt c j 0 ∗ dutyTok ER (cell 2 c j) 0 0 ∗ dutyTok ER (cell 3 j c) 0 0
        ∗ posAt c j 0 0 ∗ posAt c j 1 0 ∗ posAt c j 2 0 ∗ posAt c j 3 0 ∗ credAt c j 1 ∗ credAt c j 3) := rfl
    have hp4 : peer m ρ c j (3 + 1) = iprop(slotPts c j (recvOf (xin m ρ) c) ∗ posAt c j 1 1 ∗ obandAny j c ∗ credAt c j 0
        ∗ dutyTok ER (cell 2 c j) 0 0 ∗ dutyTok ER (cell 3 j c) 0 0 ∗ posAt c j 0 0 ∗ posAt c j 2 0 ∗ posAt c j 3 0 ∗ credAt c j 3) := rfl
    unfold Mid
    rw [hT, hD, hp3, hp4]
    iintro ⟨⟨#Hrec, #Hlev, HD, ⟨⟨Hob, Hc0, Ht2, Ht3, Hp0, Hp1, Hp2, Hp3, Hc1, Hc3⟩, HT⟩, ⟨%W, HO⟩, Hg⟩, Hk⟩
    ihave #HI := (records_inv m ρ K (c, some (1, j))) $$ Hrec
    -- the waited semaphore is the receive semaphore j of the first exchange, and the amount one transfer's credit
    rw [Prog.bind_lift, show semAt cc0_scratch3 os his = dsem 1 j from dsem_of 1 j os hos his]
    have hw : ∀ Kk : PUnit → sProp 𝕄, wpE (defs₀ (F := F)) 𝒱₀ (c : Thread nD τ) none Set.univ (.waitDma2 (dsem 1 j) src dst hws hwd) Kk
        = waitSpec (c : Thread nD τ) Set.univ (.dma (dsem 1 j)) N1 Kk := fun Kk =>
      (wpE_waitDma2_eq 𝒱₀ (c : Thread nD τ) none Set.univ Kk).trans (by rw [hcr])
    iapply (Rounds.wp_wait_rest_token 𝒱₀ ER (Rd m ρ) (c : Thread nD τ) none (κ := K (c, some (1, j)))
      hw (Set.mem_univ _) () (O := owed3 c 0) (W := W) (R := 0) (m := 0) (T := ∅)
      (by rw [Nat.zero_add]; exact (expect_cell m ρ 1 c j hc).symm)) $$ [Hc1 HO Hp1]
    · isplitr; · iexact HI
      isplitl [Hc1]; · iexact Hc1
      isplitl [HO]; · iexact HO
      isplitr; · iapply (mayWait_r1 c j (Tn c 0)); iexact Hlev
      iexact Hp1
    iintro ⟨HO, Hp1, -, Hpay⟩
    ihave Hs := (Entails.of_eq ((rest_cell m ρ 1 c j hc).trans (show dmaPay m ρ c 1 j = slotPts c j (recvOf (xin m ρ) c) from rfl))) $$ Hpay
    iapply Hk
    isplitr; · iexact Hrec
    isplitr; · iexact Hlev
    isplitl [HD Hs Hp1 Hob Hc0 Ht2 Ht3 Hp0 Hp2 Hp3 Hc3]
    · isplitr [HD]
      · isplitl [Hs]; · iexact Hs
        isplitl [Hp1]; · iexact Hp1
        isplitl [Hob]; · iexact Hob
        isplitl [Hc0]; · iexact Hc0
        isplitl [Ht2]; · iexact Ht2
        isplitl [Ht3]; · iexact Ht3
        isplitl [Hp0]; · iexact Hp0
        isplitl [Hp2]; · iexact Hp2
        isplitl [Hp3]; · iexact Hp3
        iexact Hc3
      · iexact HD
    isplitl [HT]; · iexact HT
    isplitl [HO]; · iexists _; iexact HO
    iexact Hg

/-- The wait for peer `n`'s chunk. -/
theorem blk_wait2 {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (src dst : Memref sig .tc .vmem S32x256 .f32) (hcr : dst.view.dmaCredit = N1) (hws : src.view.WordExact) (hwd : dst.view.WordExact) :
    iprop(Mid m ρ K c 6 4 n 0 ∗ (Mid m ρ K c 6 4 (n + 1) 0 -∗ WP c Kc Q))
      ⊢ WP c (if h : cond = 1#1 then (Prog.lift (.waitDma2 (semAt cc0_scratch5 os his) src dst hws hwd) >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 6 4 (j.val + 1) 0 = Mid m ρ K c 6 4 j.val 0 := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 6)
        = iprop(peer m ρ c j 6 ∗ bigSep (Tn c (j.val + 1)) (fun i => peer m ρ c i 6)) := by
      rw [bigSep_erase (mem_Tn c j hc), Tn_step_ne]; rfl
    have hD : bigSep (Dn c (j.val + 1)) (fun i => peer m ρ c i (6 + 1))
        = iprop(peer m ρ c j (6 + 1) ∗ bigSep (Dn c j.val) (fun i => peer m ρ c i (6 + 1))) := by
      rw [Dn_step_ne c j hc, bigSep_insert (not_mem_Dn c j)]; rfl
    have hp6 : peer m ρ c j 6 = iprop(credAt c j 2 ∗ posAt c j 1 1 ∗ credAt c j 0 ∗ posAt c j 0 0 ∗ posAt c j 2 0 ∗ posAt c j 3 0
        ∗ credAt c j 3) := rfl
    have hp7 : peer m ρ c j (6 + 1) = iprop(obandPts c j (outOf (xin m ρ)) ∗ posAt c j 3 1 ∗ credAt c j 2 ∗ posAt c j 1 1 ∗ credAt c j 0
        ∗ posAt c j 0 0 ∗ posAt c j 2 0) := rfl
    unfold Mid
    rw [hT, hD, hp6, hp7]
    iintro ⟨⟨#Hrec, #Hlev, HD, ⟨⟨Hc2, Hp1, Hc0, Hp0, Hp2, Hp3, Hc3⟩, HT⟩, ⟨%W, HO⟩, Hg⟩, Hk⟩
    ihave #HI := (records_inv m ρ K (c, some (3, j))) $$ Hrec
    -- the waited semaphore is the receive semaphore j of the second exchange, and the amount one transfer's credit
    rw [Prog.bind_lift, show semAt cc0_scratch5 os his = dsem 3 j from dsem_of 3 j os hos his]
    have hw : ∀ Kk : PUnit → sProp 𝕄, wpE (defs₀ (F := F)) 𝒱₀ (c : Thread nD τ) none Set.univ (.waitDma2 (dsem 3 j) src dst hws hwd) Kk
        = waitSpec (c : Thread nD τ) Set.univ (.dma (dsem 3 j)) N1 Kk := fun Kk =>
      (wpE_waitDma2_eq 𝒱₀ (c : Thread nD τ) none Set.univ Kk).trans (by rw [hcr])
    iapply (Rounds.wp_wait_rest_token 𝒱₀ ER (Rd m ρ) (c : Thread nD τ) none (κ := K (c, some (3, j)))
      hw (Set.mem_univ _) () (O := 0) (W := W) (R := 0) (m := 0) (T := ∅)
      (by rw [Nat.zero_add]; exact (expect_cell m ρ 3 c j hc).symm)) $$ [Hc3 HO Hp3]
    · isplitr; · iexact HI
      isplitl [Hc3]; · iexact Hc3
      isplitl [HO]; · iexact HO
      isplitr; · rw [MayWait_zero]; iempintro
      iexact Hp3
    iintro ⟨HO, Hp3, -, Hpay⟩
    ihave Hb := (Entails.of_eq ((rest_cell m ρ 3 c j hc).trans (show dmaPay m ρ c 3 j = obandPts c j (outOf (xin m ρ)) from rfl))) $$ Hpay
    iapply Hk
    isplitr; · iexact Hrec
    isplitr; · iexact Hlev
    isplitl [HD Hb Hp3 Hc2 Hp1 Hc0 Hp0 Hp2]
    · isplitr [HD]
      · isplitl [Hb]; · iexact Hb
        isplitl [Hp3]; · iexact Hp3
        isplitl [Hc2]; · iexact Hc2
        isplitl [Hp1]; · iexact Hp1
        isplitl [Hc0]; · iexact Hc0
        isplitl [Hp0]; · iexact Hp0
        iexact Hp2
      · iexact HD
    isplitl [HT]; · iexact HT
    isplitl [HO]; · iexists _; iexact HO
    iexact Hg

/-- The two send waits for peer `n`: the chunk share and the input band come back. -/
theorem blk_sendwait {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (os' : Fin 1 → ℕ) (hos' : os' = ![n]) (his' : ∀ a, os' a + S1.size a ≤ S16.size a)
    (src dst src' dst' : Memref sig .tc .vmem S32x256 .f32) (hcr : dst.view.dmaCredit = N1) (hcr' : dst'.view.dmaCredit = N1)
    (hws : src.view.WordExact) (hwd : dst.view.WordExact) (hws' : src'.view.WordExact) (hwd' : dst'.view.WordExact) :
    iprop(Mid m ρ K c 7 4 n 0 ∗ (Mid m ρ K c 7 4 (n + 1) 0 -∗ WP c Kc Q))
      ⊢ WP c (if h : cond = 1#1 then
          (Prog.lift (.waitDma2 (semAt cc0_scratch4 os his) src dst hws hwd) >>= fun _ =>
           Prog.lift (.waitDma2 (semAt cc0_scratch2 os' his') src' dst' hws' hwd') >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 7 4 (j.val + 1) 0 = Mid m ρ K c 7 4 j.val 0 := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 7)
        = iprop(peer m ρ c j 7 ∗ bigSep (Tn c (j.val + 1)) (fun i => peer m ρ c i 7)) := by
      rw [bigSep_erase (mem_Tn c j hc), Tn_step_ne]; rfl
    have hD : bigSep (Dn c (j.val + 1)) (fun i => peer m ρ c i (7 + 1))
        = iprop(peer m ρ c j (7 + 1) ∗ bigSep (Dn c j.val) (fun i => peer m ρ c i (7 + 1))) := by
      rw [Dn_step_ne c j hc, bigSep_insert (not_mem_Dn c j)]; rfl
    have hp7 : peer m ρ c j 7 = iprop(obandPts c j (outOf (xin m ρ)) ∗ posAt c j 3 1 ∗ credAt c j 2 ∗ posAt c j 1 1 ∗ credAt c j 0
        ∗ posAt c j 0 0 ∗ posAt c j 2 0) := rfl
    have hp8 : peer m ρ c j (7 + 1) = iprop(chunkPts c (shr j) (chunkOf (xin m ρ) c) ∗ xbandPts c j (xin m ρ c) ∗ posAt c j 0 1 ∗ posAt c j 2 1
        ∗ obandPts c j (outOf (xin m ρ)) ∗ posAt c j 3 1 ∗ posAt c j 1 1) := rfl
    unfold Mid
    rw [hT, hD, hp7, hp8]
    iintro ⟨⟨#Hrec, #Hlev, HD, ⟨⟨Hb, Hp3, Hc2, Hp1, Hc0, Hp0, Hp2⟩, HT⟩, ⟨%W, HO⟩, Hg⟩, Hk⟩
    ihave #HI2 := (records_inv m ρ K (c, some (2, j))) $$ Hrec
    ihave #HI0 := (records_inv m ρ K (c, some (0, j))) $$ Hrec
    -- the first waited semaphore is the send semaphore j of the second exchange
    rw [Prog.bind_lift, show semAt cc0_scratch4 os his = dsem 2 j from dsem_of 2 j os hos his,
      show semAt cc0_scratch2 os' his' = dsem 0 j from dsem_of 0 j os' hos' his']
    have hw : ∀ Kk : PUnit → sProp 𝕄, wpE (defs₀ (F := F)) 𝒱₀ (c : Thread nD τ) none Set.univ (.waitDma2 (dsem 2 j) src dst hws hwd) Kk
        = waitSpec (c : Thread nD τ) Set.univ (.dma (dsem 2 j)) N1 Kk := fun Kk =>
      (wpE_waitDma2_eq 𝒱₀ (c : Thread nD τ) none Set.univ Kk).trans (by rw [hcr])
    have hw' : ∀ Kk : PUnit → sProp 𝕄, wpE (defs₀ (F := F)) 𝒱₀ (c : Thread nD τ) none Set.univ (.waitDma2 (dsem 0 j) src' dst' hws' hwd') Kk
        = waitSpec (c : Thread nD τ) Set.univ (.dma (dsem 0 j)) N1 Kk := fun Kk =>
      (wpE_waitDma2_eq 𝒱₀ (c : Thread nD τ) none Set.univ Kk).trans (by rw [hcr'])
    iapply (Rounds.wp_wait_rest_token 𝒱₀ ER (Rd m ρ) (c : Thread nD τ) none (κ := K (c, some (2, j)))
      hw (Set.mem_univ _) () (O := 0) (W := W) (R := 0) (m := 0) (T := ∅)
      (by rw [Nat.zero_add]; exact (expect_cell m ρ 2 c j hc).symm)) $$ [Hc2 HO Hp2]
    · isplitr; · iexact HI2
      isplitl [Hc2]; · iexact Hc2
      isplitl [HO]; · iexact HO
      isplitr; · rw [MayWait_zero]; iempintro
      iexact Hp2
    iintro ⟨HO, Hp2, -, Hpay⟩
    ihave Hk2 := (Entails.of_eq ((rest_cell m ρ 2 c j hc).trans (show dmaPay m ρ c 2 j = chunkPts c (shr j) (chunkOf (xin m ρ) c) from rfl))) $$ Hpay
    -- the second is the send semaphore j of the first exchange
    rw [Prog.bind_lift]
    iapply (Rounds.wp_wait_rest_token 𝒱₀ ER (Rd m ρ) (c : Thread nD τ) none (κ := K (c, some (0, j)))
      hw' (Set.mem_univ _) () (O := 0) (W := insert (SemLoc.dma (dsem 2 j), ()) W) (R := 0) (m := 0) (T := ∅)
      (by rw [Nat.zero_add]; exact (expect_cell m ρ 0 c j hc).symm)) $$ [Hc0 HO Hp0]
    · isplitr; · iexact HI0
      isplitl [Hc0]; · iexact Hc0
      isplitl [HO]; · iexact HO
      isplitr; · rw [MayWait_zero]; iempintro
      iexact Hp0
    iintro ⟨HO, Hp0, -, Hpay⟩
    ihave Hx := (Entails.of_eq ((rest_cell m ρ 0 c j hc).trans (show dmaPay m ρ c 0 j = xbandPts c j (xin m ρ c) from rfl))) $$ Hpay
    iapply Hk
    isplitr; · iexact Hrec
    isplitr; · iexact Hlev
    isplitl [HD Hk2 Hx Hp0 Hp2 Hb Hp3 Hp1]
    · isplitr [HD]
      · isplitl [Hk2]; · iexact Hk2
        isplitl [Hx]; · iexact Hx
        isplitl [Hp0]; · iexact Hp0
        isplitl [Hp2]; · iexact Hp2
        isplitl [Hb]; · iexact Hb
        isplitl [Hp3]; · iexact Hp3
        iexact Hp1
      · iexact HD
    isplitl [HT]; · iexact HT
    isplitl [HO]; · iexists _; iexact HO
    iexact Hg

end Blocks

/-- info: 'Cert.KernelIdeal.Proto.blk_wait1' depends on axioms: [propext, Classical.choice, Quot.sound] -/
#guard_msgs in #print axioms blk_wait1

/-- info: 'Cert.KernelIdeal.Proto.blk_wait2' depends on axioms: [propext, Classical.choice, Quot.sound] -/
#guard_msgs in #print axioms blk_wait2

/-- info: 'Cert.KernelIdeal.Proto.blk_sendwait' depends on axioms: [propext, Classical.choice, Quot.sound] -/
#guard_msgs in #print axioms blk_sendwait

end Cert.KernelIdeal.Proto

end
-- ==== Proof.BlkLocal.lean ====
/-
  The three local steps between the phases.
-/
import proofs.«900783_g7700000000000784_dist_f_of_ar_i_m512_n256_v7x_i16_f32_1_alg».proof.Proof.BlockDefs
import proofs.«900783_g7700000000000784_dist_f_of_ar_i_m512_n256_v7x_i16_f32_1_alg».proof.Proof.Regions

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own resources at the stages the local steps move between -/

theorem glob_1 (c : Dev nD) : glob m ρ c 1 = iprop(atPos ER (barCell c) 1 ∅ 0 ∗ (bigSep Finset.univ fun a : Fin 4 => atPos ER (cell a c c) 0 ∅ 0)
    ∗ xbandPts c c (xin m ρ c) ∗ slotAny c c ∗ obandAny c c
    ∗ (∃ f : Buf (Elt F) ((c : Thread nD τ).loc cc0_scratch1), ((c : Thread nD τ).loc cc0_scratch1) ↦{fullShare} f)) := rfl
theorem glob_2 (c : Dev nD) : glob m ρ c 2 = iprop(atPos ER (barCell c) 1 ∅ 0 ∗ (bigSep Finset.univ fun a : Fin 4 => atPos ER (cell a c c) 0 ∅ 0)
    ∗ xbandPts c c (xin m ρ c) ∗ slotPts c c (recvOf (xin m ρ) c) ∗ obandAny c c
    ∗ (∃ f : Buf (Elt F) ((c : Thread nD τ).loc cc0_scratch1), ((c : Thread nD τ).loc cc0_scratch1) ↦{fullShare} f)) := rfl
theorem glob_3 (c : Dev nD) : glob m ρ c 3 = iprop(atPos ER (barCell c) 1 ∅ 0 ∗ (bigSep Finset.univ fun a : Fin 4 => atPos ER (cell a c c) 0 ∅ 0)
    ∗ xbandPts c c (xin m ρ c) ∗ (((c : Thread nD τ).loc cc0_scratch0) ↦{fullShare} (recvOf (xin m ρ) c)) ∗ obandAny c c
    ∗ chunkPts c (shr c) (chunkOf (xin m ρ) c)) := rfl
theorem glob_4 (c : Dev nD) : glob m ρ c 4 = iprop(atPos ER (barCell c) 1 ∅ 0 ∗ (bigSep Finset.univ fun a : Fin 4 => atPos ER (cell a c c) 0 ∅ 0)
    ∗ xbandPts c c (xin m ρ c) ∗ (((c : Thread nD τ).loc cc0_scratch0) ↦{fullShare} (recvOf (xin m ρ) c)) ∗ obandPts c c (outOf (xin m ρ))
    ∗ chunkPts c (shr c) (chunkOf (xin m ρ) c)) := rfl

/-! ## A peer's bundle before and after the chunk is computed: the slot, then the share of the chunk buffer, beside the same rest -/

/-- What a peer's bundle holds at stages 4 and 5 beside the slot or the share. -/
def rest45 (c j : Dev nD) : sProp 𝕄 :=
  iprop(posAt c j 1 1 ∗ obandAny j c ∗ credAt c j 0 ∗ dutyTok ER (cell 2 c j) 0 0 ∗ dutyTok ER (cell 3 j c) 0 0
    ∗ posAt c j 0 0 ∗ posAt c j 2 0 ∗ posAt c j 3 0 ∗ credAt c j 3)

theorem peer_4 (c j : Dev nD) : peer m ρ c j (3 + 1) = iprop(slotPts c j (recvOf (xin m ρ) c) ∗ rest45 (F := F) c j) := rfl
theorem peer_5 (c j : Dev nD) : peer m ρ c j 5 = iprop(chunkPts c (shr j) (chunkOf (xin m ρ) c) ∗ rest45 (F := F) c j) := rfl

/-- The whole chunk buffer is the device's own share beside the fifteen peers' shares. -/
theorem chunk_shares (c : Dev nD) (f : Buf (Elt F) ((c : Thread nD τ).loc cc0_scratch1)) :
    ((((c : Thread nD τ).loc cc0_scratch1) ↦{fullShare} f : sProp 𝕄))
      ⊢ iprop(chunkPts c (shr c) f ∗ bigSep (Finset.univ.erase c) fun j : Fin 16 => chunkPts c (shr j) f) := by
  rw [← bigSep_univ_at (fun j : Fin 16 => chunkPts (F := F) c (shr j) f) c]
  exact (k_split c f).1

section Blocks
variable (K : CIx → ℕ) (c : Dev nD) (n : ℕ)

/-- The device's own band into its own slot. -/
theorem step_local1 {α : Type} (Kc : Prog (TpuEff nD τ sig (Elt F) Λ₀ .tc) α) (Q : α → sProp 𝕄) (ox : Fin 2 → ℕ) (hox : ox = ![32 * c.val, 0]) (hix : ∀ a, ox a + S32x256.size a ≤ S512x256.size a)
    (o2 : Fin 3 → ℕ) (ho2 : o2 = ![c.val, 0, 0]) (hi2 : ∀ a, o2 a + S1x32x256.size a ≤ S16x32x256.size a)
    (hl1 : (xM : Memref sig .tc .vmem S512x256 .f32).view.LoadsAt (Rect.unit (s := S512x256) ox S32x256.size hix).toLoadRect)
    (hl2 : (rM : Memref sig .tc .vmem S16x32x256 .f32).view.LoadsAt (Rect.unit (s := S16x32x256) o2 S1x32x256.size hi2).toLoadRect)
    (hst : ((rM : Memref sig .tc .vmem S16x32x256 .f32).access (Rect.unit (s := S16x32x256) o2 S1x32x256.size hi2)).Stores Finset.univ)
    (hm : (Finset.univ : Finset (Rect.unit (s := S16x32x256) o2 S1x32x256.size hi2).shape.Idx) = Finset.univ ∨ ∀ a, (Rect.unit (s := S16x32x256) o2 S1x32x256.size hi2).stride a = 1) :
    iprop(Mid m ρ K c 3 1 0 (owed3 c 0) ∗ (Mid m ρ K c 3 2 0 (owed3 c 0) -∗ WP c Kc Q))
      ⊢ WP c (Prog.lift (.load xM (Rect.unit (s := S512x256) ox S32x256.size hix).toLoadRect hl1) >>= fun v102 =>
          Prog.lift (.load rM (Rect.unit (s := S16x32x256) o2 S1x32x256.size hi2).toLoadRect hl2) >>= fun v105 =>
          Prog.lift (.store rM (Rect.unit (s := S16x32x256) o2 S1x32x256.size hi2) (k0_pay1 v102) Finset.univ hst hm) >>= fun _ => Kc) Q := by
  subst hox ho2
  simp only [Prog.lift, Prog.bind_op, Prog.bind_ret, Prog.pure_eq_ret]
  unfold Mid
  rw [glob_1, glob_2]
  iintro ⟨⟨#Hrec, #Hlev, HD, HT, HO, HatB, Hown, Hx, ⟨%f, Hs⟩, Ho, Hk⟩, Hcont⟩
  -- the own band of the input block is read: the value is band `c` of the block
  unfold xbandPts
  iapply (wp_load 𝒱₀ (c : Thread nD τ) none Set.univ (m := xM) (S := (xband c).view.set) (xband_setOn c).subset) $$ Hx; iintro Hx
  rw [show (xM : Memref sig .tc .vmem S512x256 .f32).view.readAt (Elt F) (Rect.unit (s := S512x256) ![32 * c.val, 0] S32x256.size hix).toLoadRect (xin m ρ c) = band (xin m ρ c) c from load_xband c _]
  -- the own slot is read (the value is not used) and overwritten with that band
  unfold slotPts
  iapply (wp_load 𝒱₀ (c : Thread nD τ) none Set.univ (m := rM) (S := (rslot c).view.set) (rslot_setOn c).subset) $$ Hs; iintro Hs
  iapply (wp_store 𝒱₀ (c : Thread nD τ) none Set.univ (m := rM) (r := slotRect c) (Mk := Finset.univ) (S := (rslot c).view.set) (rslot_access_setOn c).subset) $$ Hs; iintro Hs
  ihave Hs' : slotPts c c (recvOf (xin m ρ) c) $$ [Hs]
  · rw [← store_own_slot c f (xin m ρ)]; unfold slotPts; iexact Hs
  unfold slotPts
  iapply Hcont
  isplitr; · iexact Hrec
  isplitr; · iexact Hlev
  isplitl [HD]; · iexact HD
  isplitl [HT]; · iexact HT
  isplitl [HO]; · iexact HO
  isplitl [HatB]; · iexact HatB
  isplitl [Hown]; · iexact Hown
  isplitl [Hx]; · iexact Hx
  isplitl [Hs']; · iexact Hs'
  isplitl [Ho]; · iexact Ho
  iexact Hk

/-- The sum of the sixteen slots and the pointwise function, into the chunk buffer. -/
theorem step_local2 {α : Type} (Kc : Prog (TpuEff nD τ sig (Elt F) Λ₀ .tc) α) (Q : α → sProp 𝕄)
    (hl1 : (rM : Memref sig .tc .vmem S16x32x256 .f32).view.LoadsAt (Rect.unit (s := S16x32x256) ![0, 0, 0] S16x32x256.size inb_S16x32x256_S16x32x256_0_0_0).toLoadRect)
    (hl2 : (kM : Memref sig .tc .vmem S32x256 .f32).view.LoadsAt (Rect.unit (s := S32x256) ![0, 0] S32x256.size inb_S32x256_S32x256_0_0).toLoadRect)
    (hst : ((kM : Memref sig .tc .vmem S32x256 .f32).access (Rect.unit (s := S32x256) ![0, 0] S32x256.size inb_S32x256_S32x256_0_0)).Stores Finset.univ)
    (hm : (Finset.univ : Finset (Rect.unit (s := S32x256) ![0, 0] S32x256.size inb_S32x256_S32x256_0_0).shape.Idx) = Finset.univ ∨ ∀ a, (Rect.unit (s := S32x256) ![0, 0] S32x256.size inb_S32x256_S32x256_0_0).stride a = 1) :
    iprop(Mid m ρ K c 3 2 16 (owed3 c 0) ∗ (Mid m ρ K c 5 3 0 (owed3 c 0) -∗ WP c Kc Q))
      ⊢ WP c (Prog.lift (.load rM (Rect.unit (s := S16x32x256) ![0, 0, 0] S16x32x256.size inb_S16x32x256_S16x32x256_0_0_0).toLoadRect hl1) >>= fun v156 =>
          Prog.lift (.load kM (Rect.unit (s := S32x256) ![0, 0] S32x256.size inb_S32x256_S32x256_0_0).toLoadRect hl2) >>= fun v166 =>
          Prog.lift (.store kM (Rect.unit (s := S32x256) ![0, 0] S32x256.size inb_S32x256_S32x256_0_0) (k0_pay2 v156) Finset.univ hst hm) >>= fun _ => Kc) Q := by
  simp only [Prog.lift, Prog.bind_op, Prog.bind_ret, Prog.pure_eq_ret]
  unfold Mid
  rw [glob_2, glob_3, Dn_last, Tn_last, Dn_zero, Tn_zero, bigSep_empty, bigSep_empty,
    bigSep_congr (fun j _ => peer_4 m ρ c j), bigSep_congr (fun j _ => peer_5 m ρ c j), bigSep_sep', bigSep_sep']
  iintro ⟨⟨#Hrec, #Hlev, ⟨Hslots, Hrest⟩, HE, HO, HatB, Hown, Hx, Hs, Ho, ⟨%fk, Hk⟩⟩, Hcont⟩
  -- the sixteen slots, the own one and the fifteen peers', are the whole receive buffer
  ihave Hr : (((c : Thread nD τ).loc cc0_scratch0) ↦{fullShare} (recvOf (xin m ρ) c)) $$ [Hs Hslots]
  · rw [r_split, bigSep_univ_at _ c]
    isplitl [Hs]; · iexact Hs
    iexact Hslots
  -- it is read whole: the value is its contents
  iapply (wp_load 𝒱₀ (c : Thread nD τ) none Set.univ (m := rM) (S := Finset.univ) (Finset.subset_univ _)) $$ Hr; iintro Hr
  rw [load_r_whole]
  -- the chunk buffer is read (the value is not used) and overwritten whole with the chunk
  iapply (wp_load 𝒱₀ (c : Thread nD τ) none Set.univ (m := kM) (S := Finset.univ) (Finset.subset_univ _)) $$ Hk; iintro Hk
  iapply (wp_store 𝒱₀ (c : Thread nD τ) none Set.univ (m := kM) (r := Rect.unit (s := S32x256) ![0, 0] S32x256.size inb_S32x256_S32x256_0_0)
    (Mk := Finset.univ) (S := Finset.univ) (Finset.subset_univ _)) $$ Hk; iintro Hk
  rw [store_k_whole]
  -- the chunk buffer splits into its sixteen shares: the own one and the fifteen peers'
  have hk : ((((kM : Memref sig .tc .vmem S32x256 .f32).access (Rect.unit (s := S32x256) ![0, 0] S32x256.size inb_S32x256_S32x256_0_0)).loc (c : Thread nD τ)
        ↦{fullShare} k0_pay2 (recvOf (xin m ρ) c) : sProp 𝕄))
      ⊢ iprop(chunkPts c (shr c) (chunkOf (xin m ρ) c) ∗ bigSep (Finset.univ.erase c) fun j : Fin 16 => chunkPts c (shr j) (chunkOf (xin m ρ) c)) :=
    chunk_shares c (chunkOf (xin m ρ) c)
  ihave Hks := hk $$ Hk
  icases Hks with ⟨Hkc, Hkr⟩
  iapply Hcont
  isplitr; · iexact Hrec
  isplitr; · iexact Hlev
  isplitl [HE]; · iexact HE
  isplitl [Hkr Hrest]
  · isplitl [Hkr]; · iexact Hkr
    iexact Hrest
  isplitl [HO]; · iexact HO
  isplitl [HatB]; · iexact HatB
  isplitl [Hown]; · iexact Hown
  isplitl [Hx]; · iexact Hx
  isplitl [Hr]; · iexact Hr
  isplitl [Ho]; · iexact Ho
  iexact Hkc

/-- The chunk into the device's own band of the result. -/
theorem step_local3 {α : Type} (Kc : Prog (TpuEff nD τ sig (Elt F) Λ₀ .tc) α) (Q : α → sProp 𝕄) (ox : Fin 2 → ℕ) (hox : ox = ![32 * c.val, 0]) (hix : ∀ a, ox a + S32x256.size a ≤ S512x256.size a)
    (hl1 : (kM : Memref sig .tc .vmem S32x256 .f32).view.LoadsAt (Rect.unit (s := S32x256) ![0, 0] S32x256.size inb_S32x256_S32x256_0_0).toLoadRect)
    (hl2 : (oM : Memref sig .tc .vmem S512x256 .f32).view.LoadsAt (Rect.unit (s := S512x256) ox S32x256.size hix).toLoadRect)
    (hst : ((oM : Memref sig .tc .vmem S512x256 .f32).access (Rect.unit (s := S512x256) ox S32x256.size hix)).Stores Finset.univ)
    (hm : (Finset.univ : Finset (Rect.unit (s := S512x256) ox S32x256.size hix).shape.Idx) = Finset.univ ∨ ∀ a, (Rect.unit (s := S512x256) ox S32x256.size hix).stride a = 1) :
    iprop(Mid m ρ K c 6 3 0 0 ∗ (Mid m ρ K c 6 4 0 0 -∗ WP c Kc Q))
      ⊢ WP c (Prog.lift (.load kM (Rect.unit (s := S32x256) ![0, 0] S32x256.size inb_S32x256_S32x256_0_0).toLoadRect hl1) >>= fun v217 =>
          Prog.lift (.load oM (Rect.unit (s := S512x256) ox S32x256.size hix).toLoadRect hl2) >>= fun v220 =>
          Prog.lift (.store oM (Rect.unit (s := S512x256) ox S32x256.size hix) v217 Finset.univ hst hm) >>= fun _ => Kc) Q := by
  subst hox
  simp only [Prog.lift, Prog.bind_op, Prog.bind_ret, Prog.pure_eq_ret]
  unfold Mid
  rw [glob_3, glob_4]
  iintro ⟨⟨#Hrec, #Hlev, HD, HT, HO, HatB, Hown, Hx, Hr, ⟨%f, Ho⟩, Hk⟩, Hcont⟩
  -- the chunk is read through the device's own share of the chunk buffer: the value is the chunk
  unfold chunkPts
  iapply (wp_load 𝒱₀ (c : Thread nD τ) none Set.univ (m := kM) (S := (kM : Memref sig .tc .vmem S32x256 .f32).view.set)
    (by rw [k_set]; exact Finset.subset_univ _)) $$ Hk; iintro Hk
  rw [load_k_whole]
  -- the own band of the result is read (the value is not used) and overwritten with the chunk
  unfold obandPts
  iapply (wp_load 𝒱₀ (c : Thread nD τ) none Set.univ (m := oM) (S := (oband c).view.set) (oband_setOn c).subset) $$ Ho; iintro Ho
  iapply (wp_store 𝒱₀ (c : Thread nD τ) none Set.univ (m := oM) (r := bandRect c) (Mk := Finset.univ) (S := (oband c).view.set) (oband_access_setOn c).subset) $$ Ho; iintro Ho
  ihave Ho' : obandPts c c (outOf (xin m ρ)) $$ [Ho]
  · rw [← store_own_oband c f (xin m ρ)]; unfold obandPts; iexact Ho
  unfold obandPts
  iapply Hcont
  isplitr; · iexact Hrec
  isplitr; · iexact Hlev
  isplitl [HD]; · iexact HD
  isplitl [HT]; · iexact HT
  isplitl [HO]; · iexact HO
  isplitl [HatB]; · iexact HatB
  isplitl [Hown]; · iexact Hown
  isplitl [Hx]; · iexact Hx
  isplitl [Hr]; · iexact Hr
  isplitl [Ho']; · iexact Ho'
  iexact Hk

end Blocks

/-- info: 'Cert.KernelIdeal.Proto.step_local1' depends on axioms: [propext, Classical.choice, Quot.sound] -/
#guard_msgs in #print axioms step_local1
/-- info: 'Cert.KernelIdeal.Proto.step_local2' depends on axioms: [propext, Classical.choice, Quot.sound] -/
#guard_msgs in #print axioms step_local2
/-- info: 'Cert.KernelIdeal.Proto.step_local3' depends on axioms: [propext, Classical.choice, Quot.sound] -/
#guard_msgs in #print axioms step_local3

end Cert.KernelIdeal.Proto

end
-- ==== Proof.BlkEnds.lean ====
/-
  The two ends of the body: from what the region hands the body to the first intermediate state, and from the last to what the region takes back.
-/
import proofs.«900783_g7700000000000784_dist_f_of_ar_i_m512_n256_v7x_i16_f32_1_alg».proof.Proof.BlockDefs
import proofs.«900783_g7700000000000784_dist_f_of_ar_i_m512_n256_v7x_i16_f32_1_alg».proof.Proof.Regions

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index bookkeeping for the iterated separating conjunctions -/

omit [FloatOps F] in
/-- Over an option type: the member at none, and the members at the some's. -/
theorem bigSep_option {X : Type} [Fintype X] [DecidableEq X] (Φ : Option X → sProp 𝕄) :
    bigSep Finset.univ Φ = iprop(Φ none ∗ bigSep Finset.univ fun x : X => Φ (some x)) := by
  have h : (Finset.univ.erase (none : Option X)) = Finset.univ.map Function.Embedding.some := by
    ext o; cases o <;> simp
  rw [bigSep_univ_split none, h, bigSep_map]; rfl

omit [FloatOps F] in
/-- Over the four families. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

omit [FloatOps F] in
/-- A device's positions: that of its barrier cell, those of the four cells of its own index, and for every peer
    those of the four cells of the peer's index. -/
theorem positions_eq (c : Dev nD) : positions (F := F) c
    = iprop(atPos ER (barCell c) 0 ∅ 0 ∗ (bigSep Finset.univ fun a : Fin 4 => atPos ER (cell a c c) 0 ∅ 0)
        ∗ bigSep (Finset.univ.erase c) fun j => iprop(posAt c j 0 0 ∗ posAt c j 1 0 ∗ posAt c j 2 0 ∗ posAt c j 3 0)) := by
  unfold positions
  rw [bigSep_option, bigSep_univ_prod,
    bigSep_univ_comm (fun (a : Fin 4) (j : Fin 16) => (atPos ER (cell a c j) 0 ∅ 0 : sProp 𝕄)), bigSep_univ_split c]
  refine congrArg (fun P : sProp 𝕄 => iprop(atPos ER (barCell c) 0 ∅ 0 ∗ (bigSep Finset.univ fun a : Fin 4 => atPos ER (cell a c c) 0 ∅ 0) ∗ P)) ?_
  exact bigSep_congr fun j _ => bigSep_fin4 _

omit [FloatOps F] in
/-- Summand by summand. -/
theorem bigSep_mono_each {I : Type} {s : Finset I} {Φ Ψ : I → sProp 𝕄} (h : ∀ i ∈ s, Φ i ⊢ Ψ i) : bigSep s Φ ⊢ bigSep s Ψ :=
  bigSep_mono h

omit [FloatOps F] in
/-- One summand out of many. -/
theorem bigSep_at {I : Type} [DecidableEq I] {s : Finset I} {i : I} (hi : i ∈ s) (Φ : I → sProp 𝕄) : bigSep s Φ ⊢ Φ i :=
  bigSep_elim hi

/-- A peer's bundle at launch and at the end, written out. -/
theorem peer_zero (c j : Dev nD) : peer m ρ c j 0
    = iprop(dutyTok ER (barCell j) 0 c ∗ slotAny c j ∗ obandAny c j ∗ xbandPts c j (xin m ρ c) ∗ dutyTok ER (cell 0 c j) 0 0 ∗ dutyTok ER (cell 1 j c) 0 0
        ∗ dutyTok ER (cell 2 c j) 0 0 ∗ dutyTok ER (cell 3 j c) 0 0
        ∗ posAt c j 0 0 ∗ posAt c j 1 0 ∗ posAt c j 2 0 ∗ posAt c j 3 0 ∗ credAt c j 1 ∗ credAt c j 3) := rfl

theorem peer_eight (c j : Dev nD) : peer m ρ c j (7 + 1)
    = iprop(chunkPts c (shr j) (chunkOf (xin m ρ) c) ∗ xbandPts c j (xin m ρ c) ∗ posAt c j 0 1 ∗ posAt c j 2 1 ∗ obandPts c j (outOf (xin m ρ))
        ∗ posAt c j 3 1 ∗ posAt c j 1 1) := rfl

/-- The peers' bundles at launch, from the parts dealt kind by kind. -/
theorem peers_start (c : Dev nD) (fr : Buf (Elt F) ((c : Thread nD τ).loc cc0_scratch0)) (fo : Buf (Elt F) ((c : Thread nD τ).loc cc0_stg1_0)) :
    iprop((bigSep (Finset.univ.erase c) fun j => iprop(posAt c j 0 0 ∗ posAt c j 1 0 ∗ posAt c j 2 0 ∗ posAt c j 3 0))
      ∗ payToks c
      ∗ (bigSep (Finset.univ.erase c) fun k => iprop(cred (tallyAt (cell 1 c k) () N1) ∗ cred (tallyAt (cell 3 c k) () N1)))
      ∗ (bigSep (Finset.univ.erase c) fun j => xbandPts c j (xin m ρ c))
      ∗ (bigSep (Finset.univ.erase c) fun j => slotPts c j fr)
      ∗ (bigSep (Finset.univ.erase c) fun j => obandPts c j fo))
    ⊢ bigSep (Finset.univ.erase c) fun j => peer m ρ c j 0 := by
  unfold payToks
  rw [← bigSep_sep', ← bigSep_sep', ← bigSep_sep', ← bigSep_sep', ← bigSep_sep']
  refine bigSep_mono_each fun j _ => ?_
  rw [peer_zero]
  iintro ⟨⟨Hp0, Hp1, Hp2, Hp3⟩, ⟨Hb, Ht1, Ht3, Ht0, Ht2⟩, ⟨Hc1, Hc3⟩, Hx, Hs, Ho⟩
  isplitl [Hb]; · iexact Hb
  isplitl [Hs]; · iexists fr; iexact Hs
  isplitl [Ho]; · iexists fo; iexact Ho
  isplitl [Hx]; · iexact Hx
  isplitl [Ht0]; · iexact Ht0
  isplitl [Ht1]; · iexact Ht1
  isplitl [Ht2]; · iexact Ht2
  isplitl [Ht3]; · iexact Ht3
  isplitl [Hp0]; · iexact Hp0
  isplitl [Hp1]; · iexact Hp1
  isplitl [Hp2]; · iexact Hp2
  isplitl [Hp3]; · iexact Hp3
  isplitl [Hc1]; · iexact Hc1
  iexact Hc3

/-- The device's own resources at launch and at the end, written out. -/
theorem glob_zero (c : Dev nD) : glob m ρ c 0
    = iprop(atPos ER (barCell c) 0 ∅ 0 ∗ cred (tallyAt (barCell c) () 15) ∗ (bigSep Finset.univ fun a : Fin 4 => atPos ER (cell a c c) 0 ∅ 0)
        ∗ xbandPts c c (xin m ρ c) ∗ slotAny c c ∗ obandAny c c
        ∗ (∃ f : Buf (Elt F) ((c : Thread nD τ).loc cc0_scratch1), ((c : Thread nD τ).loc cc0_scratch1) ↦{fullShare} f)) := rfl

theorem glob_four (c : Dev nD) : glob m ρ c 4
    = iprop(atPos ER (barCell c) 1 ∅ 0 ∗ (bigSep Finset.univ fun a : Fin 4 => atPos ER (cell a c c) 0 ∅ 0)
        ∗ xbandPts c c (xin m ρ c) ∗ (((c : Thread nD τ).loc cc0_scratch0) ↦{fullShare} (recvOf (xin m ρ) c))
        ∗ obandPts c c (outOf (xin m ρ)) ∗ chunkPts c (shr c) (chunkOf (xin m ρ) c)) := rfl

theorem fetch_0 (t : Fin cfg0.N) : (cfg0.win (0 : Fin 2)).fetch t = true := by rw [fin_N t]; rfl

/-- A buffer as its part of the device's own index and the peers' parts. -/
theorem x_parts (c : Dev nD) (f : Buf (Elt F) ((c : Thread nD τ).loc cc0_stg0_0)) :
    ((((c : Thread nD τ).loc cc0_stg0_0) ↦{fullShare} f : sProp 𝕄)) = iprop(xbandPts c c f ∗ bigSep (Finset.univ.erase c) fun j => xbandPts c j f) := by
  rw [x_split, bigSep_univ_split c]; rfl
theorem o_parts (c : Dev nD) (f : Buf (Elt F) ((c : Thread nD τ).loc cc0_stg1_0)) :
    ((((c : Thread nD τ).loc cc0_stg1_0) ↦{fullShare} f : sProp 𝕄)) = iprop(obandPts c c f ∗ bigSep (Finset.univ.erase c) fun j => obandPts c j f) := by
  rw [o_split, bigSep_univ_split c]; rfl
theorem r_parts (c : Dev nD) (f : Buf (Elt F) ((c : Thread nD τ).loc cc0_scratch0)) :
    ((((c : Thread nD τ).loc cc0_scratch0) ↦{fullShare} f : sProp 𝕄)) = iprop(slotPts c c f ∗ bigSep (Finset.univ.erase c) fun j => slotPts c j f) := by
  rw [r_split, bigSep_univ_split c]; rfl

/-! ## Closing the transfer cells -/

/-- A transfer cell whose owner stands at a round from which no round has a duty closes at zero. -/
theorem close_at (K : CIx → ℕ) (c : Dev nD) (a : Fin 4) (j : Fin 16) (R : ℕ) (hR : ∀ r, R ≤ r → (Rd (F := F) m ρ).duties (cell a c j) r = ∅) :
    iprop(records m ρ K ∗ atPos ER (cell a c j) R ∅ 0) ⊢ |={Set.univ}=> semVal (cell a c j) 0 := by
  unfold records
  iintro ⟨⟨#Hinv, -⟩, Hat⟩
  ihave Hi := (bigSep_at (Finset.mem_univ ((c, some (a, j)) : CIx)) (fun ck : CIx => cellInv ER (Rd m ρ) (K ck) (kcell ck))) $$ Hinv
  iapply (Rounds.cell_close ER (Rd m ρ) (Set.mem_univ _) (fun h => h) hR)
  isplitr; · iexact Hi
  iexact Hat

/-- The four cells of a peer's index, each at round 1. -/
theorem close_peer (K : CIx → ℕ) (c j : Dev nD) :
    iprop(records m ρ K ∗ posAt c j 0 1 ∗ posAt c j 1 1 ∗ posAt c j 2 1 ∗ posAt c j 3 1)
      ⊢ |={Set.univ}=> bigSep Finset.univ (fun a : Fin 4 => (semVal (cell a c j) 0 : sProp 𝕄)) := by
  rw [bigSep_fin4]
  iintro ⟨#Hrec, H0, H1, H2, H3⟩
  imod (close_at m ρ K c 0 j 1 (duties_later m ρ _)) $$ [H0] with H0
  · isplitr; · iexact Hrec
    iexact H0
  imod (close_at m ρ K c 1 j 1 (duties_later m ρ _)) $$ [H1] with H1
  · isplitr; · iexact Hrec
    iexact H1
  imod (close_at m ρ K c 2 j 1 (duties_later m ρ _)) $$ [H2] with H2
  · isplitr; · iexact Hrec
    iexact H2
  imod (close_at m ρ K c 3 j 1 (duties_later m ρ _)) $$ [H3] with H3
  · isplitr; · iexact Hrec
    iexact H3
  imodintro
  isplitl [H0]; · iexact H0
  isplitl [H1]; · iexact H1
  isplitl [H2]; · iexact H2
  iexact H3

/-- The four cells of the device's own index, at round 0: no round of theirs has a duty. -/
theorem close_own (K : CIx → ℕ) (c : Dev nD) :
    iprop(records m ρ K ∗ bigSep Finset.univ (fun a : Fin 4 => atPos ER (cell a c c) 0 ∅ 0))
      ⊢ |={Set.univ}=> bigSep Finset.univ (fun a : Fin 4 => (semVal (cell a c c) 0 : sProp 𝕄)) := by
  have hR : ∀ (a : Fin 4) (r : ℕ), 0 ≤ r → (Rd (F := F) m ρ).duties (cell a c c) r = ∅ := by
    intro a r _
    cases r with
    | zero => exact duties_cell_self m ρ a c
    | succ r => exact duties_later m ρ _ _ (Nat.succ_le_succ (Nat.zero_le r))
  rw [bigSep_fin4, bigSep_fin4]
  iintro ⟨#Hrec, H0, H1, H2, H3⟩
  imod (close_at m ρ K c 0 c 0 (hR 0)) $$ [H0] with H0
  · isplitr; · iexact Hrec
    iexact H0
  imod (close_at m ρ K c 1 c 0 (hR 1)) $$ [H1] with H1
  · isplitr; · iexact Hrec
    iexact H1
  imod (close_at m ρ K c 2 c 0 (hR 2)) $$ [H2] with H2
  · isplitr; · iexact Hrec
    iexact H2
  imod (close_at m ρ K c 3 c 0 (hR 3)) $$ [H3] with H3
  · isplitr; · iexact Hrec
    iexact H3
  imodintro
  isplitl [H0]; · iexact H0
  isplitl [H1]; · iexact H1
  isplitl [H2]; · iexact H2
  iexact H3

omit [FloatOps F] in
/-- What is persistent is there for every summand. -/
theorem bigSep_with_persistent {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']
  iintro ⟨#HR, H⟩
  isplitr
  · iapply (bigSep_of_persistent S R); iexact HR
  iexact H

omit [FloatOps F] in
/-- Updates summand by summand are one update. -/
theorem bigSep_fupd_each {I : Type} (S : Finset I) (Φ : I → sProp 𝕄) :
    bigSep S (fun i => iprop(|={Set.univ}=> Φ i)) ⊢ |={(Set.univ : Set ℕ)}=> bigSep S Φ := bigSep_fupd S Φ

/-- Every peer's four cells. -/
theorem close_peers (K : CIx → ℕ) (c : Dev nD) :
    iprop(records m ρ K ∗ bigSep (Finset.univ.erase c) fun j => iprop(posAt c j 0 1 ∗ posAt c j 1 1 ∗ posAt c j 2 1 ∗ posAt c j 3 1))
      ⊢ |={Set.univ}=> bigSep (Finset.univ.erase c) fun j => bigSep Finset.univ (fun a : Fin 4 => (semVal (cell a c j) 0 : sProp 𝕄)) :=
  (bigSep_with_persistent _ _ _).trans ((bigSep_mono_each fun j _ => close_peer m ρ K c j).trans (bigSep_fupd_each _ _))

omit [FloatOps F] in
/-- The sixty-four semaphores: those of the own index, and the peers' four by four. -/
theorem semVals_eq (c : Dev nD) : (bigSep Finset.univ fun aj : Fin 4 × Fin 16 => (semVal (cell aj.1 c aj.2) 0 : sProp 𝕄))
    = iprop((bigSep Finset.univ fun a : Fin 4 => semVal (cell a c c) 0)
        ∗ bigSep (Finset.univ.erase c) fun j => bigSep Finset.univ fun a : Fin 4 => semVal (cell a c j) 0) := by
  rw [bigSep_univ_prod, bigSep_univ_comm (fun (a : Fin 4) (j : Fin 16) => (semVal (cell a c j) 0 : sProp 𝕄)), bigSep_univ_split c]
  rfl

/-- The peers' bundles at the end, kind by kind: the shares of the chunk buffer, the bands of the input block, the
    bands of the result, and the positions. -/
theorem peers_end (c : Dev nD) :
    (bigSep (Finset.univ.erase c) fun j => peer m ρ c j (7 + 1))
      ⊢ iprop((bigSep (Finset.univ.erase c) fun j => chunkPts c (shr j) (chunkOf (xin m ρ) c))
        ∗ (bigSep (Finset.univ.erase c) fun j => xbandPts c j (xin m ρ c))
        ∗ (bigSep (Finset.univ.erase c) fun j => obandPts c j (outOf (xin m ρ)))
        ∗ bigSep (Finset.univ.erase c) fun j => iprop(posAt c j 0 1 ∗ posAt c j 1 1 ∗ posAt c j 2 1 ∗ posAt c j 3 1)) := by
  rw [← bigSep_sep', ← bigSep_sep', ← bigSep_sep']
  refine bigSep_mono_each fun j _ => ?_
  rw [peer_eight]
  iintro ⟨Hk, Hx, Hp0, Hp2, Ho, Hp3, Hp1⟩
  isplitl [Hk]; · iexact Hk
  isplitl [Hx]; · iexact Hx
  isplitl [Ho]; · iexact Ho
  isplitl [Hp0]; · iexact Hp0
  isplitl [Hp1]; · iexact Hp1
  isplitl [Hp2]; · iexact Hp2
  iexact Hp3

/-- The chunk buffer whole again from its sixteen shares. -/
theorem k_join (c : Dev nD) (f : Buf (Elt F) ((c : Thread nD τ).loc cc0_scratch1)) :
    iprop(chunkPts c (shr c) f ∗ bigSep (Finset.univ.erase c) fun j => chunkPts c (shr j) f)
      ⊢ ((((c : Thread nD τ).loc cc0_scratch1) ↦{fullShare} f : sProp 𝕄)) :=
  (Entails.of_eq (bigSep_univ_split c (Φ := fun j : Fin 16 => chunkPts (F := F) c (shr j) f)).symm).trans (k_split c f).2

section Ends
variable (K : CIx → ℕ) (c : Dev nD)

/-- At entry: the buffers cut into their parts, the ghost state dealt to the peers' bundles. -/
theorem body_start {α : Type} (p : Prog (TpuEff nD τ sig (Elt F) Λ₀ .tc) α) (Q : α → sProp 𝕄) :
    iprop(bodyPre m ρ c ∗ (∀ K, Mid m ρ K c 0 0 0 (owed0 c 0) -∗ WP c p Q)) ⊢ WP c p Q := by
  unfold bodyPre Φ₀ start ghost creds
  rw [positions_eq]
  iintro ⟨⟨⟨⟨⟨%K, #Hrec, ⟨HpB, HpOwn, Hpos⟩, Htok⟩, ⟨HcB, Hcr⟩, #Hlev⟩, ⟨%fr, Hr⟩, Hk⟩, Ho, ⟨%d0, %g0, %hg0, Hx⟩, ⟨%d1, %g1, %hg1, Hout⟩⟩, Hcont⟩
  have hx : g0 = xin m ρ c := by rw [hg0]; unfold Dat.before; rw [if_pos (fetch_0 t₀)]; rfl
  subst hx
  unfold Dat.owesAt Pipeline.owesWithin
  icases Ho with ⟨%W, %hW, HO⟩
  ihave Hx' := (Entails.of_eq (x_parts c _)) $$ Hx; icases Hx' with ⟨Hxc, Hx⟩
  ihave Hr' := (Entails.of_eq (r_parts c _)) $$ Hr; icases Hr' with ⟨Hrc, Hr⟩
  ihave Ho' := (Entails.of_eq (o_parts c _)) $$ Hout; icases Ho' with ⟨Hoc, Hout⟩
  ihave Hpeers := (peers_start m ρ c fr g1) $$ [Hpos Htok Hcr Hx Hr Hout]
  · isplitl [Hpos]; · iexact Hpos
    isplitl [Htok]; · iexact Htok
    isplitl [Hcr]; · iexact Hcr
    isplitl [Hx]; · iexact Hx
    isplitl [Hr]; · iexact Hr
    iexact Hout
  ispecialize Hcont $$ %K
  iapply Hcont
  unfold Mid
  rw [Tn_zero, Dn_zero, bigSep_empty, glob_zero, show owed0 c 0 = (dats m ρ 0 c).owed t₀.castSucc from by
    show owedFrom c (Tn c 0) _ _ = O₀ c; rw [Tn_zero, O₀_eq]]
  isplitr; · iexact Hrec
  isplitr; · iexact Hlev
  isplitr; · iempintro
  isplitl [Hpeers]; · iexact Hpeers
  isplitl [HO]; · iexists W; iexact HO
  isplitl [HpB]; · iexact HpB
  isplitl [HcB]; · iexact HcB
  isplitl [HpOwn]; · iexact HpOwn
  isplitl [Hxc]; · iexact Hxc
  isplitl [Hrc]; · iexists fr; iexact Hrc
  isplitl [Hoc]; · iexists g1; iexact Hoc
  iexact Hk

/-- At exit: the sixty-four transfer cells closed at zero, the buffers put together again. -/
theorem body_end : Mid m ρ K c 7 4 16 0 ⊢ |={Set.univ}=> bodyPost m ρ c := by
  unfold Mid
  rw [Dn_last, Tn_last, bigSep_empty, glob_four]
  iintro ⟨#Hrec, #Hlev, Hpeers, -, ⟨%W, HO⟩, HpB, HpOwn, Hxc, Hr, Hoc, Hkc⟩
  ihave Hp := (peers_end m ρ c) $$ Hpeers
  icases Hp with ⟨Hk, Hx, Ho, Hpos⟩
  imod (close_peers m ρ K c) $$ [Hpos] with Hsv
  · isplitr; · iexact Hrec
    iexact Hpos
  imod (close_own m ρ K c) $$ [HpOwn] with Hsc
  · isplitr; · iexact Hrec
    iexact HpOwn
  imodintro
  unfold bodyPost Φ₁ Dat.owesAt Pipeline.owesWithin
  isplitl [Hr Hk Hkc Hsv Hsc]
  · isplitl [Hr]; · iexists _; iexact Hr
    isplitl [Hk Hkc]
    · iexists (chunkOf (xin m ρ) c)
      iapply (k_join c _)
      isplitl [Hkc]; · iexact Hkc
      iexact Hk
    iapply (Entails.of_eq (semVals_eq c).symm)
    isplitl [Hsc]; · iexact Hsc
    iexact Hsv
  isplitl [HO]
  · iexists W
    isplitr; · ipureintro; exact fun _ _ => Or.inl trivial
    iexact HO
  isplitl [Hxc Hx]
  · iexists _; isplitr; · (ipureintro; rfl)
    iapply (Entails.of_eq (x_parts c _).symm)
    isplitl [Hxc]; · iexact Hxc
    iexact Hx
  iexists _; isplitr; · (ipureintro; rfl)
  iapply (Entails.of_eq (o_parts c _).symm)
  isplitl [Hoc]; · iexact Hoc
  iexact Ho

end Ends

end Cert.KernelIdeal.Proto

end
-- ==== Proof.Stubs.lean ====
/-
  The body's steps, gathered: the signals and the barrier wait, the two transfers, the waits, the three local steps, the two ends.
-/
import proofs.«900783_g7700000000000784_dist_f_of_ar_i_m512_n256_v7x_i16_f32_1_alg».proof.Proof.BlkSig
import proofs.«900783_g7700000000000784_dist_f_of_ar_i_m512_n256_v7x_i16_f32_1_alg».proof.Proof.BlkSend
import proofs.«900783_g7700000000000784_dist_f_of_ar_i_m512_n256_v7x_i16_f32_1_alg».proof.Proof.BlkWait
import proofs.«900783_g7700000000000784_dist_f_of_ar_i_m512_n256_v7x_i16_f32_1_alg».proof.Proof.BlkLocal
import proofs.«900783_g7700000000000784_dist_f_of_ar_i_m512_n256_v7x_i16_f32_1_alg».proof.Proof.BlkEnds
-- ==== Proof.Macros.lean ====
/-
  Short names for the repeated steps of the body's chain: one line per conditional block, naming the block's
  index; the printed names of its condition, device and offsets are made from the index.
-/
import proofs.«900783_g7700000000000784_dist_f_of_ar_i_m512_n256_v7x_i16_f32_1_alg».proof.Proof.Stubs

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (c : Dev nD) {α β : Type}

/-- Reading the device's index is a step that changes nothing. -/
theorem WP_deviceId (k : Dev nD → Prog (TpuEff nD τ sig (Elt F) Λ₀ .tc) α) (Q : α → sProp 𝕄) :
    WP c (Prog.lift .deviceId >>= k) Q = WP c (k c) Q := by
  simp only [WP, Prog.lift, Prog.bind_op, Prog.bind_ret, wp_deviceId]

theorem WP_bind (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ p k Q

theorem WP_pure (a : α) (Q : α → sProp 𝕄) : Q a ⊢ WP c (pure a : Prog (TpuEff nD τ sig (Elt F) Λ₀ .tc) α) Q := by
  show Q a ⊢ wp frame (wpE (defs₀ (F := F)) 𝒱₀ (c : Thread nD τ) none) Set.univ (.ret a) Q
  rw [wp_ret]; iintro H; imodintro; iexact H
end

section
variable (K : CIx → ℕ) (c : Dev nD)

/-- Between two phases: every peer has been treated, so all are one stage further and none is ahead. -/
theorem Mid_next (s g : ℕ) (O O' : CellTallies nD τ sig Unit) (h : O = O') (R : sProp 𝕄) :
    iprop(Mid m ρ K c s g 16 O ∗ (Mid m ρ K c (s + 1) g 0 O' -∗ R)) ⊢ R := by
  subst h
  unfold Mid; rw [Dn_last, Tn_last, Dn_zero, Tn_zero]
  iintro ⟨⟨#Hr, #Hl, HD, HT, Ho, Hg⟩, Hk⟩
  iapply Hk
  isplitr; · iexact Hr
  isplitr; · iexact Hl
  isplitl [HT]; · iexact HT
  isplitl [HD]; · iexact HD
  isplitl [Ho]; · iexact Ho
  iexact Hg

theorem owed1_last : owed1 c 16 = owed3 c 0 := by
  show owedFrom c ∅ (Tn c 16) (Finset.univ.erase c) = owedFrom c ∅ ∅ (Tn c 0)
  rw [Tn_last, Tn_zero]
theorem owed3_last : owed3 c 16 = 0 := by
  show owedFrom c ∅ ∅ (Tn c 16) = 0
  rw [Tn_last]; exact owedFrom_empty c
end

open Lean in
/-- The chain's hypothesis `H` holds the state; each step consumes it and introduces the next under the same name. -/
macro "next_state" : tactic => do
  let H := mkIdent (Name.mkSimple "H")
  `(tactic| (isplitl [$H:ident]; · iexact $H:ident
             iintro $H:ident))

open Lean in
macro "sig_blk" n:num : tactic => do
  let i := n.getNat + 1
  let m := mkIdent (Name.mkSimple "m"); let ρ := mkIdent (Name.mkSimple "ρ"); let K := mkIdent (Name.mkSimple "K"); let c := mkIdent (Name.mkSimple "c")
  let cond := mkIdent (Name.mkSimple s!"k0_cond{i}")
  let dev := mkIdent (Name.mkSimple s!"k0_dev{i}")
  let devlt := mkIdent (Name.mkSimple s!"k0_dev{i}_lt")
  let deveq := mkIdent (Name.mkSimple s!"k0_dev{i}_eq")
  `(tactic| (iapply (blk_sig $m $ρ $K $c $n _ _ (by decide) ($cond $c) rfl $dev ($devlt $c) $deveq hamt_1); next_state))

open Lean in
macro "send1_blk" n:num : tactic => do
  let j := n.getNat
  let m := mkIdent (Name.mkSimple "m"); let ρ := mkIdent (Name.mkSimple "ρ"); let K := mkIdent (Name.mkSimple "K"); let c := mkIdent (Name.mkSimple "c")
  let cond := mkIdent (Name.mkSimple s!"k0_cond{17 + j}")
  let dev := mkIdent (Name.mkSimple s!"k0_dev{17 + j}")
  let devlt := mkIdent (Name.mkSimple s!"k0_dev{17 + j}_lt")
  let deveq := mkIdent (Name.mkSimple s!"k0_dev{17 + j}_eq")
  let o1 := mkIdent (Name.mkSimple s!"k0_off{1 + 2 * j}"); let o1eq := mkIdent (Name.mkSimple s!"k0_off{1 + 2 * j}_eq"); let o1inb := mkIdent (Name.mkSimple s!"k0_off{1 + 2 * j}_inb")
  let o2 := mkIdent (Name.mkSimple s!"k0_off{2 + 2 * j}"); let o2eq := mkIdent (Name.mkSimple s!"k0_off{2 + 2 * j}_eq"); let o2inb := mkIdent (Name.mkSimple s!"k0_off{2 + 2 * j}_inb")
  `(tactic| (iapply (blk_send1 $m $ρ $K $c $n _ _ (by decide) ($cond $c) rfl $dev ($devlt $c) $deveq ($o1 $c) ($o1eq $c) ($o1inb $c) ($o2 $c) ($o2eq $c) ($o2inb $c)
      _ rfl _ _ rfl _ _ _ _ _); next_state))

open Lean in
macro "send2_blk" n:num : tactic => do
  let j := n.getNat
  let m := mkIdent (Name.mkSimple "m"); let ρ := mkIdent (Name.mkSimple "ρ"); let K := mkIdent (Name.mkSimple "K"); let c := mkIdent (Name.mkSimple "c")
  let cond := mkIdent (Name.mkSimple s!"k0_cond{49 + j}")
  let dev := mkIdent (Name.mkSimple s!"k0_dev{33 + j}")
  let devlt := mkIdent (Name.mkSimple s!"k0_dev{33 + j}_lt")
  let deveq := mkIdent (Name.mkSimple s!"k0_dev{33 + j}_eq")
  let o1 := mkIdent (Name.mkSimple s!"k0_off{35 + 2 * j}"); let o1eq := mkIdent (Name.mkSimple s!"k0_off{35 + 2 * j}_eq"); let o1inb := mkIdent (Name.mkSimple s!"k0_off{35 + 2 * j}_inb")
  let o2 := mkIdent (Name.mkSimple s!"k0_off{36 + 2 * j}"); let o2eq := mkIdent (Name.mkSimple s!"k0_off{36 + 2 * j}_eq"); let o2inb := mkIdent (Name.mkSimple s!"k0_off{36 + 2 * j}_inb")
  `(tactic| (iapply (blk_send2 $m $ρ $K $c $n _ _ (by decide) ($cond $c) rfl $dev ($devlt $c) $deveq ($o1 $c) ($o1eq $c) ($o1inb $c) ($o2 $c) ($o2eq $c) ($o2inb $c)
      _ rfl _ _ _ _ _); next_state))

open Lean in
macro "wait1_blk" n:num : tactic => do
  let m := mkIdent (Name.mkSimple "m"); let ρ := mkIdent (Name.mkSimple "ρ"); let K := mkIdent (Name.mkSimple "K"); let c := mkIdent (Name.mkSimple "c")
  `(tactic| (iapply (blk_wait1 $m $ρ $K $c $n _ _ (by decide) _ rfl _ rfl _ _ (rslotAt ![$n, 0, 0] _) rfl _ _); next_state))

open Lean in
macro "wait2_blk" n:num : tactic => do
  let m := mkIdent (Name.mkSimple "m"); let ρ := mkIdent (Name.mkSimple "ρ"); let K := mkIdent (Name.mkSimple "K"); let c := mkIdent (Name.mkSimple "c")
  let r := Syntax.mkNumLit (toString (32 * n.getNat))
  `(tactic| (iapply (blk_wait2 $m $ρ $K $c $n _ _ (by decide) _ rfl _ rfl _ _ (bandAt oM ![$r, 0] _) rfl _ _); next_state))

open Lean in
macro "sendwait_blk" n:num : tactic => do
  let m := mkIdent (Name.mkSimple "m"); let ρ := mkIdent (Name.mkSimple "ρ"); let K := mkIdent (Name.mkSimple "K"); let c := mkIdent (Name.mkSimple "c")
  let r := Syntax.mkNumLit (toString (32 * n.getNat))
  `(tactic| (iapply (blk_sendwait $m $ρ $K $c $n _ _ (by decide) _ rfl _ rfl _ _ rfl _ _ kM _ (bandAt xM ![$r, 0] _) rfl rfl _ _ _ _); next_state))

end Cert.KernelIdeal.Proto

end
-- ==== Proof.Part1.lean ====
/-
  The body's first part: the signals to peers 0 … 7.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part1_spec (K : CIx → ℕ) (c : Dev nD) (Q : (Σ' (d0 : Dev nD) (v2 : BitVec 32), Sems sig S_) → sProp 𝕄) :
    iprop(Mid m ρ K c 0 0 0 (owed0 c 0) ∗ (Mid m ρ K c 0 0 8 (owed0 c 8) -∗ Q ⟨c, v2w c, v3b⟩))
      ⊢ WP c (k0_part1 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5) Q := by
  unfold v2w
  rw [k0_part1_eq_skeleton]; unfold k0_part1_skel
  rw [WP_deviceId]
  iintro ⟨H, Hk⟩
  sig_blk 0
  sig_blk 1
  sig_blk 2
  sig_blk 3
  sig_blk 4
  sig_blk 5
  sig_blk 6
  sig_blk 7
  iapply (WP_pure c)
  iapply Hk; iexact H

end Cert.KernelIdeal.Proto

end
-- ==== Proof.Part2.lean ====
/-
  The body's second part: the signals to peers 8 … 15, the barrier wait, the first transfers to peers 0 and 1.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part2_spec (K : CIx → ℕ) (c : Dev nD)  (Q : BitVec 1 → sProp 𝕄) :
    iprop(Mid m ρ K c 0 0 8 (owed0 c 8) ∗ (∀ r, Mid m ρ K c 2 1 2 (owed1 c 2) -∗ Q r))
      ⊢ WP c (k0_part2 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v3b) Q := by
  unfold v2w
  rw [k0_part2_eq_skeleton]; unfold k0_part2_skel
  iintro ⟨H, Hk⟩
  sig_blk 8
  sig_blk 9
  sig_blk 10
  sig_blk 11
  sig_blk 12
  sig_blk 13
  sig_blk 14
  sig_blk 15
  iapply (step_barwait m ρ K c _ _ hamt_15); next_state
  send1_blk 0
  send1_blk 1
  iapply (WP_pure c)
  iapply Hk; iexact H

end Cert.KernelIdeal.Proto

end
-- ==== Proof.Part3.lean ====
/-
  The third part: the first transfers to peers 2 … 11.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part3_spec (K : CIx → ℕ) (c : Dev nD) (v58 : BitVec 1) (Q : BitVec 1 → sProp 𝕄) :
    iprop(Mid m ρ K c 2 1 2 (owed1 c 2) ∗ (∀ r, Mid m ρ K c 2 1 12 (owed1 c 12) -∗ Q r))
      ⊢ WP c (k0_part3 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v58) Q := by
  unfold v2w
  rw [k0_part3_eq_skeleton]; unfold k0_part3_skel
  iintro ⟨H, Hk⟩
  send1_blk 2
  send1_blk 3
  send1_blk 4
  send1_blk 5
  send1_blk 6
  send1_blk 7
  send1_blk 8
  send1_blk 9
  send1_blk 10
  send1_blk 11
  iapply (WP_pure c)
  iapply Hk; iexact H

end Cert.KernelIdeal.Proto

end
-- ==== Proof.Part4.lean ====
/-
  The fourth part: the first transfers to peers 12 … 15, the own band into the own slot, the waits for peers 0 … 3.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part4_spec (K : CIx → ℕ) (c : Dev nD) (v88 : BitVec 1) (Q : BitVec 32 → sProp 𝕄) :
    iprop(Mid m ρ K c 2 1 12 (owed1 c 12) ∗ (Mid m ρ K c 3 2 4 (owed3 c 0) -∗ Q 4#32))
      ⊢ WP c (k0_part4 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v88) Q := by
  unfold v2w
  rw [k0_part4_eq_skeleton]; unfold k0_part4_skel
  iintro ⟨H, Hk⟩
  send1_blk 12
  send1_blk 13
  send1_blk 14
  send1_blk 15
  iapply (Mid_next m ρ K c 2 1 _ _ (owed1_last c)); next_state
  iapply (step_local1 m ρ K c _ _ (k0_off33 c) (k0_off33_eq c) (k0_off33_inb c) (k0_off34 c) (k0_off34_eq c) (k0_off34_inb c) _ _ _ _); next_state
  wait1_blk 0
  wait1_blk 1
  wait1_blk 2
  wait1_blk 3
  iapply (WP_pure c)
  iapply Hk; iexact H

end Cert.KernelIdeal.Proto

end
-- ==== Proof.Part5.lean ====
/-
  The fifth part: the waits for the first transfers of peers 4 … 13.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part5_spec (K : CIx → ℕ) (c : Dev nD)  (Q : BitVec 32 → sProp 𝕄) :
    iprop(Mid m ρ K c 3 2 4 (owed3 c 0) ∗ (Mid m ρ K c 3 2 14 (owed3 c 0) -∗ Q 14#32))
      ⊢ WP c (k0_part5 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 4#32) Q := by
  unfold v2w
  rw [k0_part5_eq_skeleton]; unfold k0_part5_skel
  iintro ⟨H, Hk⟩
  wait1_blk 4
  wait1_blk 5
  wait1_blk 6
  wait1_blk 7
  wait1_blk 8
  wait1_blk 9
  wait1_blk 10
  wait1_blk 11
  wait1_blk 12
  wait1_blk 13
  iapply (WP_pure c)
  iapply Hk; iexact H

end Cert.KernelIdeal.Proto

end
-- ==== Proof.Part6.lean ====
/-
  The sixth part: the waits for peers 14 and 15, the chunk, the second transfers to peers 0 … 3.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part6_spec (K : CIx → ℕ) (c : Dev nD)  (Q : (Σ' (v182 : BitVec 32), BitVec 32) → sProp 𝕄) :
    iprop(Mid m ρ K c 3 2 14 (owed3 c 0) ∗ (∀ r, Mid m ρ K c 5 3 4 (owed3 c 4) -∗ Q r))
      ⊢ WP c (k0_part6 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) 14#32) Q := by
  unfold v2w
  rw [k0_part6_eq_skeleton]; unfold k0_part6_skel
  iintro ⟨H, Hk⟩
  wait1_blk 14
  wait1_blk 15
  iapply (step_local2 m ρ K c _ _ _ _ _ _); next_state
  send2_blk 0
  send2_blk 1
  send2_blk 2
  send2_blk 3
  iapply (WP_pure c)
  iapply Hk; iexact H

end Cert.KernelIdeal.Proto

end
-- ==== Proof.Part7.lean ====
/-
  The seventh part: the second transfers to peers 4 … 13.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part7_spec (K : CIx → ℕ) (c : Dev nD) (w w' : BitVec 32) (Q : (Σ' (v212 : BitVec 32), BitVec 32) → sProp 𝕄) :
    iprop(Mid m ρ K c 5 3 4 (owed3 c 4) ∗ (∀ r, Mid m ρ K c 5 3 14 (owed3 c 14) -∗ Q r))
      ⊢ WP c (k0_part7 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) w w') Q := by
  unfold v2w
  rw [k0_part7_eq_skeleton]; unfold k0_part7_skel
  iintro ⟨H, Hk⟩
  send2_blk 4
  send2_blk 5
  send2_blk 6
  send2_blk 7
  send2_blk 8
  send2_blk 9
  send2_blk 10
  send2_blk 11
  send2_blk 12
  send2_blk 13
  iapply (WP_pure c)
  iapply Hk; iexact H

end Cert.KernelIdeal.Proto

end
-- ==== Proof.Part8.lean ====
/-
  The eighth part: the second transfers to peers 14 and 15, the chunk into the own band of the result, the waits for the chunks of peers 0 … 6.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part8_spec (K : CIx → ℕ) (c : Dev nD) (w w' : BitVec 32) (Q : BitVec 32 → sProp 𝕄) :
    iprop(Mid m ρ K c 5 3 14 (owed3 c 14) ∗ (Mid m ρ K c 6 4 7 0 -∗ Q 7#32))
      ⊢ WP c (k0_part8 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) w w') Q := by
  unfold v2w
  rw [k0_part8_eq_skeleton]; unfold k0_part8_skel
  iintro ⟨H, Hk⟩
  send2_blk 14
  send2_blk 15
  iapply (Mid_next m ρ K c 5 3 _ _ (owed3_last c)); next_state
  iapply (step_local3 m ρ K c _ _ (k0_off33 c) (k0_off33_eq c) (k0_off33_inb c) _ _ _ _); next_state
  wait2_blk 0
  wait2_blk 1
  wait2_blk 2
  wait2_blk 3
  wait2_blk 4
  wait2_blk 5
  wait2_blk 6
  iapply (WP_pure c)
  iapply Hk; iexact H

end Cert.KernelIdeal.Proto

end
-- ==== Proof.Part9.lean ====
/-
  The ninth part: the waits for the chunks of peers 7 … 15, the send waits for peer 0.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part9_spec (K : CIx → ℕ) (c : Dev nD)  (Q : BitVec 32 → sProp 𝕄) :
    iprop(Mid m ρ K c 6 4 7 0 ∗ (Mid m ρ K c 7 4 1 0 -∗ Q 1#32))
      ⊢ WP c (k0_part9 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 7#32) Q := by
  unfold v2w
  rw [k0_part9_eq_skeleton]; unfold k0_part9_skel
  iintro ⟨H, Hk⟩
  wait2_blk 7
  wait2_blk 8
  wait2_blk 9
  wait2_blk 10
  wait2_blk 11
  wait2_blk 12
  wait2_blk 13
  wait2_blk 14
  wait2_blk 15
  iapply (Mid_next m ρ K c 6 4 _ _ rfl); next_state
  sendwait_blk 0
  iapply (WP_pure c)
  iapply Hk; iexact H

end Cert.KernelIdeal.Proto

end
-- ==== Proof.Part10.lean ====
/-
  The tenth part: the send waits for peers 1 … 10.
-/
import proofs.«900783_g7700000000000784_dist_f_of_ar_i_m512_n256_v7x_i16_f32_1_alg».proof.Proof.Macros

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part10_spec (K : CIx → ℕ) (c : Dev nD)  (Q : BitVec 32 → sProp 𝕄) :
    iprop(Mid m ρ K c 7 4 1 0 ∗ (Mid m ρ K c 7 4 11 0 -∗ Q 11#32))
      ⊢ WP c (k0_part10 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 1#32) Q := by
  unfold v2w
  rw [k0_part10_eq_skeleton]; unfold k0_part10_skel
  iintro ⟨H, Hk⟩
  sendwait_blk 1
  sendwait_blk 2
  sendwait_blk 3
  sendwait_blk 4
  sendwait_blk 5
  sendwait_blk 6
  sendwait_blk 7
  sendwait_blk 8
  sendwait_blk 9
  sendwait_blk 10
  iapply (WP_pure c)
  iapply Hk; iexact H

end Cert.KernelIdeal.Proto

end
-- ==== Proof.BodyAll.lean ====
/-
  The body as a whole: its ten parts and its last five pairs of send waits, chained from the entry step to the
  exit step, and the result in the form the launch asks for.
-/
import proofs.«900783_g7700000000000784_dist_f_of_ar_i_m512_n256_v7x_i16_f32_1_alg».proof.Proof.Macros
import proofs.«900783_g7700000000000784_dist_f_of_ar_i_m512_n256_v7x_i16_f32_1_alg».proof.Proof.Part1
import proofs.«900783_g7700000000000784_dist_f_of_ar_i_m512_n256_v7x_i16_f32_1_alg».proof.Proof.Part2
import proofs.«900783_g7700000000000784_dist_f_of_ar_i_m512_n256_v7x_i16_f32_1_alg».proof.Proof.Part3
import proofs.«900783_g7700000000000784_dist_f_of_ar_i_m512_n256_v7x_i16_f32_1_alg».proof.Proof.Part4
import proofs.«900783_g7700000000000784_dist_f_of_ar_i_m512_n256_v7x_i16_f32_1_alg».proof.Proof.Part5
import proofs.«900783_g7700000000000784_dist_f_of_ar_i_m512_n256_v7x_i16_f32_1_alg».proof.Proof.Part6
import proofs.«900783_g7700000000000784_dist_f_of_ar_i_m512_n256_v7x_i16_f32_1_alg».proof.Proof.Part7
import proofs.«900783_g7700000000000784_dist_f_of_ar_i_m512_n256_v7x_i16_f32_1_alg».proof.Proof.Part8
import proofs.«900783_g7700000000000784_dist_f_of_ar_i_m512_n256_v7x_i16_f32_1_alg».proof.Proof.Part9
import proofs.«900783_g7700000000000784_dist_f_of_ar_i_m512_n256_v7x_i16_f32_1_alg».proof.Proof.Part10

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers as the pipeline hands them over -/

omit [FloatOps F] in
/-- Owning a whole buffer at given contents is a points-to at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, part after part -/

set_option maxRecDepth 65536 in
/-- From the body's precondition the body runs to its postcondition: the entry step, the ten parts in turn, the last
    five pairs of send waits, the exit step. -/
theorem sound_body (c : Dev nD) (Kt : PUnit → sProp 𝕄) :
    iprop(bodyPre m ρ c ∗ (bodyPost m ρ c -∗ Kt ⟨⟩)) ⊢ WP c (theBody (F := F)) Kt := by
  unfold theBody
  rw [cc0_body_eq_skeleton]; unfold cc0_body_skel
  iintro ⟨Hpre, Hk⟩
  iapply (body_start m ρ c _ _)
  isplitl [Hpre]; · iexact Hpre
  iintro %K H
  -- signals to peers 0 … 7
  rw [WP_bind]
  iapply (part1_spec m ρ K c _)
  next_state
  -- signals to peers 8 … 15, the barrier wait, the first transfers to peers 0 and 1
  rw [WP_bind]
  iapply (part2_spec m ρ K c _)
  isplitl [H]; · iexact H
  iintro %r2 H
  rw [WP_bind]
  iapply (part3_spec m ρ K c _ _)
  isplitl [H]; · iexact H
  iintro %r3 H
  rw [WP_bind]
  iapply (part4_spec m ρ K c _ _)
  next_state
  rw [WP_bind]
  iapply (part5_spec m ρ K c _)
  next_state
  rw [WP_bind]
  iapply (part6_spec m ρ K c _)
  isplitl [H]; · iexact H
  iintro %r6 H
  rw [WP_bind]
  iapply (part7_spec m ρ K c _ _ _)
  isplitl [H]; · iexact H
  iintro %r7 H
  rw [WP_bind]
  iapply (part8_spec m ρ K c _ _ _)
  next_state
  rw [WP_bind]
  iapply (part9_spec m ρ K c _)
  next_state
  rw [WP_bind]
  iapply (part10_spec m ρ K c _)
  next_state
  -- the send waits for peers 11 … 15
  sendwait_blk 11
  sendwait_blk 12
  sendwait_blk 13
  sendwait_blk 14
  sendwait_blk 15
  -- every cell closes, the buffers are whole again
  imod (body_end m ρ K c) $$ H with H
  iapply (WP_pure c)
  iapply Hk; iexact H

/-! ## The library's form of the obligation -/

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ c none) Set.univ (theBody (F := F)) (fun _ => bodyPost m ρ c)
  iintro H
  iapply (sound_body m ρ c fun _ => bodyPost m ρ c)
  isplitl [H]; · iexact H
  iintro H; iexact H

/-- info: 'Cert.KernelIdeal.Proto.body_obligation' depends on axioms: [propext, Classical.choice, Quot.sound] -/
#guard_msgs in #print axioms body_obligation

end Cert.KernelIdeal.Proto

end
-- ==== Proof.Bits.Spec.lean ====
/-
  What the kernel computes, as pure functions of the sixteen devices' input blocks.

  Device `c` holds a block `x c` of 512 rows. Rows `32·c … 32·c+31` of EVERY device's block are gathered on
  device `c` (slot `d` of its receive buffer holds those rows of `x d`); device `c` sums the sixteen slots
  and applies `s ↦ tanh s · s · s + max(s,0)³` pointwise, which is its chunk of 32 rows; every device then
  collects all sixteen chunks, chunk `k` in rows `32·k … 32·k+31` of its result.
-/
import proofs.«900783_g7700000000000784_dist_f_of_ar_i_m512_n256_v7x_i16_f32_1_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- Row `r` of the 32-row band `c` inside a 512-row block. -/
def bandRow (c : Fin 16) (r : Fin 32) : Fin 512 := ⟨c.val * 32 + r.val, by have := c.isLt; have := r.isLt; omega⟩

/-- The band a row of a 512-row block lies in, and its row inside that band. -/
def bandOf (r : Fin 512) : Fin 16 := ⟨r.val / 32, by have := r.isLt; omega⟩
def rowIn (r : Fin 512) : Fin 32 := ⟨r.val % 32, Nat.mod_lt _ (by decide)⟩

theorem bandRow_bandOf_rowIn (r : Fin 512) : bandRow (bandOf r) (rowIn r) = r :=
  Fin.ext (by show r.val / 32 * 32 + r.val % 32 = r.val; omega)
theorem bandOf_bandRow (c : Fin 16) (r : Fin 32) : bandOf (bandRow c r) = c :=
  Fin.ext (by have := r.isLt; show (c.val * 32 + r.val) / 32 = c.val; omega)
theorem rowIn_bandRow (c : Fin 16) (r : Fin 32) : rowIn (bandRow c r) = r :=
  Fin.ext (by have := r.isLt; show (c.val * 32 + r.val) % 32 = r.val; omega)

/-- Band `c` of a block: its rows `32·c … 32·c+31`. -/
def band (v : Vec F S512x256 .f32) (c : Fin 16) : Vec F S32x256 .f32 := fun i => v (ix2 (bandRow c (i 0)) (i 1))

/-- The receive buffer of device `c` once every slot has landed: slot `d` is band `c` of device `d`'s block. -/
def recvOf (x : Fin 16 → Vec F S512x256 .f32) (c : Fin 16) : Vec F S16x32x256 .f32 :=
  fun i => x (i 0) (ix2 (bandRow c (i 1)) (i 2))

/-- Device `c`'s chunk: the pointwise function of the sum of its sixteen slots (the body's arithmetic `k0_pay2`). -/
def chunkOf (x : Fin 16 → Vec F S512x256 .f32) (c : Fin 16) : Vec F S32x256 .f32 := k0_pay2 (recvOf x c)

/-- Every device's result: chunk `k` in band `k`. -/
def outOf (x : Fin 16 → Vec F S512x256 .f32) : Vec F S512x256 .f32 :=
  fun i => chunkOf x (bandOf (i 0)) (ix2 (rowIn (i 0)) (i 1))

theorem band_outOf (x : Fin 16 → Vec F S512x256 .f32) (k : Fin 16) : band (outOf x) k = chunkOf x k := by
  funext i
  obtain ⟨p, q, rfl⟩ : ∃ (p : Fin 32) (q : Fin 256), i = ix2 p q := ⟨i 0, i 1, eq_ix2 i⟩
  show chunkOf x (bandOf (bandRow k p)) (ix2 (rowIn (bandRow k p)) q) = chunkOf x k (ix2 p q)
  rw [bandOf_bandRow, rowIn_bandRow]

end Cert.Kernel.Spec

end
-- ==== Proof.Bits.Proto.lean ====
/-
  The protocol of the sixteen-device exchange, as a schedule of semaphore rounds.

  Every device `c` owns one barrier cell and, for every peer index `j`, four transfer cells: the send and the
  receive cell of the first exchange (band `j` of `c`'s block goes to slot `c` of device `j`) and those of the
  second (chunk `c` goes to band `c` of device `j`'s result). Everything happens in round 0:
  * the barrier cell of `c` has one duty per peer `d ≠ c`, one unit each, paid by `d`'s signal, which hands `c`
    the right to write slot `c` of `d`'s receive buffer and band `c` of `d`'s result buffer;
  * a send cell has one duty, paid when the source has been read; it returns the source (a band of the input
    block for the first exchange; a share of the chunk buffer for the second);
  * a receive cell has one duty, paid when the destination has been written; it hands the owner the slot
    (first exchange) or the band (second) AT ITS FINAL CONTENTS, the pure functions of `Spec`.
-/
import proofs.«900783_g7700000000000784_dist_f_of_ar_i_m512_n256_v7x_i16_f32_1_alg».proof.Proof.Bits.Spec
import proofs.«900783_g7700000000000784_dist_f_of_ar_i_m512_n256_v7x_i16_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The buffers and their parts -/

abbrev xM : Memref sig .tc .vmem S512x256 .f32 := Memref.whole cc0_stg0_0
abbrev oM : Memref sig .tc .vmem S512x256 .f32 := Memref.whole cc0_stg1_0
abbrev rM : Memref sig .tc .vmem S16x32x256 .f32 := Memref.whole cc0_scratch0
abbrev kM : Memref sig .tc .vmem S32x256 .f32 := Memref.whole cc0_scratch1

theorem band_inb (j : Fin 16) : ∀ a, (![32 * j.val, 0] : Fin 2 → Nat) a + S32x256.size a ≤ S512x256.size a := by
  intro a; have := j.isLt
  match a with
  | ⟨0, _⟩ => show 32 * j.val + 32 ≤ 512; omega
  | ⟨1, _⟩ => show 0 + 256 ≤ 256; omega
theorem slot_inb (j : Fin 16) : ∀ a, (![j.val, 0, 0] : Fin 3 → Nat) a + S1x32x256.size a ≤ S16x32x256.size a := by
  intro a; have := j.isLt
  match a with
  | ⟨0, _⟩ => show j.val + 1 ≤ 16; omega
  | ⟨1, _⟩ => show 0 + 32 ≤ 32; omega
  | ⟨2, _⟩ => show 0 + 256 ≤ 256; omega

/-- Rows `32·j … 32·j+31` of a 512-row buffer; slot `j` of the receive buffer. -/
abbrev bandRect (j : Fin 16) : Rect S512x256 := Rect.unit (s := S512x256) ![32 * j.val, 0] S32x256.size (band_inb j)
abbrev slotRect (j : Fin 16) : Rect S16x32x256 := Rect.unit (s := S16x32x256) ![j.val, 0, 0] S1x32x256.size (slot_inb j)

abbrev xband (j : Fin 16) : Memref sig .tc .vmem S32x256 .f32 := (xM).slice (bandRect j) (fun _ => rfl)
abbrev oband (j : Fin 16) : Memref sig .tc .vmem S32x256 .f32 := (oM).slice (bandRect j) (fun _ => rfl)
abbrev rslot (j : Fin 16) : Memref sig .tc .vmem S32x256 .f32 :=
  ((rM).slice (slotRect j) (fun _ => rfl)).squeeze S32x256 squeezes_S1x32x256_S32x256

/-! ## The cells -/

abbrev barS : Sem sig := (SemArray.scalar (sig.barrier 0 rfl) : Sems sig S_).sem

/-- The DMA semaphore `j` of family `a`: 0 the first exchange's send semaphores, 1 its receive semaphores,
    2 and 3 the second exchange's. (The two staging semaphores come first.) -/
def dsem (a : Fin 4) (j : Fin 16) : DmaSem sig := ⟨2 + 16 * a.val + j.val, by have := a.isLt; have := j.isLt; show 2 + 16 * a.val + j.val < 66; omega⟩

/-- The family and index of a DMA semaphore (none for the two staging semaphores). -/
def famOf (s : DmaSem sig) : Option (Fin 4 × Fin 16) :=
  if h : 2 ≤ s.val then some (⟨(s.val - 2) / 16, by have : s.val < 66 := s.isLt; omega⟩, ⟨(s.val - 2) % 16, Nat.mod_lt _ (by decide)⟩) else none

abbrev barCell (c : Dev nD) : GSem nD τ sig := ((c : Thread nD τ), .reg barS)
abbrev cell (a : Fin 4) (c : Dev nD) (j : Fin 16) : GSem nD τ sig := ((c : Thread nD τ), .dma (dsem a j))

/-- The credit of one 32 × 256 transfer. -/
abbrev N1 : ℕ := (kM : Memref sig .tc .vmem S32x256 .f32).view.dmaCredit
theorem N1_pos : 0 < N1 := View.dmaCredit_pos _ (by decide)

/-! ## Contents -/

/-- Device `d`'s input block as its staging buffer holds it. -/
def xin (d : Dev nD) : Vec F S512x256 .f32 :=
  (win0_0.blk (0 : Fin 1)).view.read (Elt F) ((s₀ m ρ).mem ((d : Thread nD τ).loc main_arg0))

/-- The sixteen shares of the chunk buffer: the leaves of the depth-four binary splitting of the full share. -/
def shr (j : Fin 16) : PosShare TreeShare :=
  let b (n : Nat) (q : PosShare TreeShare) : PosShare TreeShare := if j.val / n % 2 = 0 then q.left else q.right
  b 1 (b 2 (b 4 (b 8 fullShare)))

/-! ## Points-to assertions of the parts -/

def xbandPts (c : Dev nD) (j : Fin 16) (f : Buf (Elt F) ((c : Thread nD τ).loc cc0_stg0_0)) : sProp 𝕄 :=
  (xband j).view.loc (c : Thread nD τ) ↦[(xband j).view.set]{fullShare} f
def obandPts (c : Dev nD) (j : Fin 16) (f : Buf (Elt F) ((c : Thread nD τ).loc cc0_stg1_0)) : sProp 𝕄 :=
  (oband j).view.loc (c : Thread nD τ) ↦[(oband j).view.set]{fullShare} f
def slotPts (c : Dev nD) (j : Fin 16) (f : Buf (Elt F) ((c : Thread nD τ).loc cc0_scratch0)) : sProp 𝕄 :=
  (rslot j).view.loc (c : Thread nD τ) ↦[(rslot j).view.set]{fullShare} f
def chunkPts (c : Dev nD) (q : PosShare TreeShare) (f : Buf (Elt F) ((c : Thread nD τ).loc cc0_scratch1)) : sProp 𝕄 :=
  (kM : Memref sig .tc .vmem S32x256 .f32).view.loc (c : Thread nD τ) ↦[(kM : Memref sig .tc .vmem S32x256 .f32).view.set]{q} f

/-! ## The schedule -/

/-- What device `d`'s signal hands the owner `c` of a barrier cell: the right to write slot `c` of `d`'s
    receive buffer and band `c` of `d`'s result buffer. -/
def barPay (c d : Dev nD) : sProp 𝕄 := iprop((∃ f, slotPts d c f) ∗ (∃ f, obandPts d c f))

/-- What the one duty of a transfer cell of device `c` hands its owner. -/
def dmaPay (c : Dev nD) (a : Fin 4) (j : Fin 16) : sProp 𝕄 :=
  match a with
  | 0 => xbandPts c j (xin m ρ c)
  | 1 => slotPts c j (recvOf (xin m ρ) c)
  | 2 => chunkPts c (shr j) (chunkOf (xin m ρ) c)
  | 3 => obandPts c j (outOf (xin m ρ))

def Rd : Rounds.Schedule (GSem nD τ sig) (Dev nD) 𝕄 where
  duties g r :=
    if r = 0 ∧ g.1.2 = .tc then
      match g.2 with
      | .reg s => if s = barS then Finset.univ.erase g.1.1 else ∅
      | .dma s => match famOf s with
        | some (_, j) => if j = g.1.1 then ∅ else {(0 : Dev nD)}
        | none => ∅
    else ∅
  unitless _ := False
  amount g _ _ := match g.2 with | .reg _ => 1 | .dma _ => N1
  payload g _ d := match g.2 with
    | .reg _ => barPay g.1.1 d
    | .dma s => match famOf s with
      | some (a, j) => dmaPay m ρ g.1.1 a j
      | none => iprop(emp)
  amount_pos g _ _ _ := by
    cases g.2 with
    | reg _ => exact Nat.one_pos
    | dma _ => exact N1_pos

end Cert.Kernel.Proto

end
-- ==== Proof.Bits.State.lean ====
/-
  What each device owes and holds when the exchange starts, and the pipeline's proof data.

  Device `c` owes every peer `j ≠ c`: one unit on `j`'s barrier cell, and one transfer's credit on `j`'s
  receive cell `c` of each exchange. It holds the tokens of exactly those duties and of its own send cells'
  duties, the launch credit of its own barrier and receive cells, and its positions at round 0 of all its cells.
  Levels: a barrier cell below a first-exchange receive cell below a second-exchange receive cell; everything a
  device waits on while it still owes lies below what it owes.
-/
import proofs.«900783_g7700000000000784_dist_f_of_ar_i_m512_n256_v7x_i16_f32_1_alg».proof.Proof.Bits.Proto

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the exchange's cells, indexed -/

/-- A device's cells: its barrier cell (`none`) and its transfer cells by family and index. -/
abbrev CIx : Type := Dev nD × Option (Fin 4 × Fin 16)
abbrev kcell (ck : CIx) : GSem nD τ sig := match ck.2 with
  | none => barCell ck.1
  | some (a, j) => cell a ck.1 j

/-- The cells' invariants under the names the launch allocated them at, and that every cell has reached round 0. -/
def records (K : CIx → ℕ) : sProp 𝕄 :=
  iprop((bigSep Finset.univ fun ck : CIx => cellInv ER (Rd m ρ) (K ck) (kcell ck))
    ∗ bigSep Finset.univ fun ck : CIx => reached ER (kcell ck) 0)

instance records_persistent (K : CIx → ℕ) : BI.Persistent (records m ρ K) := by unfold records; infer_instance

/-! ## What a device owes at launch; the levels -/

def owedTo (c j : Dev nD) : CellTallies nD τ sig Unit :=
  tallyAt (barCell j) () 1 + tallyAt (cell 1 j c) () N1 + tallyAt (cell 3 j c) () N1
def O₀ (c : Dev nD) : CellTallies nD τ sig Unit := ∑ j ∈ Finset.univ.erase c, owedTo c j

def L (g : GSem nD τ sig) : Finset Unit := if g.1.2 = .tc then {()} else ∅
/-- barrier cells at 1, first-exchange receive cells at 2, second-exchange receive cells at 3, the rest at 0. -/
def lv (g : GSem nD τ sig) (_ : Unit) : ℕ := match g.2 with
  | .reg _ => 1
  | .dma s => match famOf s with
    | some (1, _) => 2
    | some (3, _) => 3
    | _ => 0

/-! ## The ghost state a device starts from -/

/-- The tokens of the duties device `c` pays, peer by peer. -/
def payToks (c : Dev nD) : sProp 𝕄 :=
  bigSep (Finset.univ.erase c) fun j => iprop(dutyTok ER (barCell j) 0 c ∗ dutyTok ER (cell 1 j c) 0 0 ∗ dutyTok ER (cell 3 j c) 0 0
    ∗ dutyTok ER (cell 0 c j) 0 0 ∗ dutyTok ER (cell 2 c j) 0 0)

/-- Its positions at round 0 of every one of its cells. -/
def positions (c : Dev nD) : sProp 𝕄 := bigSep Finset.univ fun i : Option (Fin 4 × Fin 16) => atPos ER (kcell (c, i)) 0 ∅ 0

/-- The launch credit of its barrier cell and of its receive cells. -/
def creds (c : Dev nD) : sProp 𝕄 :=
  iprop(cred (tallyAt (barCell c) () 15) ∗ bigSep (Finset.univ.erase c) fun k => iprop(cred (tallyAt (cell 1 c k) () N1) ∗ cred (tallyAt (cell 3 c k) () N1)))

def ghost (K : CIx → ℕ) (c : Dev nD) : sProp 𝕄 := iprop(records m ρ K ∗ positions c ∗ payToks c)

def start (c : Dev nD) : sProp 𝕄 := iprop((∃ K, ghost m ρ K c) ∗ creds c ∗ levAts L lv)

/-- Before the body: that, and the two scratch buffers at some contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After it: the two scratch buffers back, and every transfer cell of the device closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun aj : Fin 4 × Fin 16 => semVal (cell aj.1 c aj.2) 0)

/-! ## The pipeline's proof data: one point; the input block stays, the result block ends at `outOf` -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outOf (xin m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: `Φ₀`, what it owes, and the two staging buffers (the input block fetched; the
    result block at whatever it held). -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends in: `Φ₁`, nothing owed, the input block unchanged and the result block at `outOf`. -/
def bodyPost (c : Dev nD) : sProp 𝕄 :=
  iprop(Φ₁ c ∗ (dats m ρ 0 c).owesAt () t₀.succ ∗ stg c cc0_stg0_0 (xin m ρ c) ∗ stg c cc0_stg1_0 (outOf (xin m ρ)))

/-- The body, as the region calls it. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5

end Cert.Kernel.Proto

end
-- ==== Proof.Bits.Tables.lean ====
/-
  The schedule's table read off cell by cell, the levels, and what a device still owes as the exchange proceeds.

  Round 0 of a barrier cell of `c` has the fifteen peers as duties, one unit each; round 0 of a transfer cell
  `(a, c, j)` with `j ≠ c` has one duty of one transfer's credit; no cell has a later round. What a device owes
  is kept as three sums over the peers it has yet to signal, yet to send its band to, and yet to send its chunk
  to; a wait is allowed when every cell left in those sums lies at a level above the cell waited on.
-/
import proofs.«900783_g7700000000000784_dist_f_of_ar_i_m512_n256_v7x_i16_f32_1_alg».proof.Proof.Bits.State

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore numbering -/

omit [FloatOps F] in
/-- Semaphore `2 + 16·a + j` decodes to family `a`, index `j`: quotient and remainder by 16 of `16·a + j`. -/
theorem famOf_dsem (a : Fin 4) (j : Fin 16) : famOf (dsem a j) = some (a, j) := by
  have ha := a.isLt; have hj := j.isLt
  have h2 : 2 ≤ (dsem a j).val := by show 2 ≤ 2 + 16 * a.val + j.val; omega
  unfold famOf
  rw [dif_pos h2]
  refine congrArg some (Prod.ext (Fin.ext ?_) (Fin.ext ?_))
  · show (2 + 16 * a.val + j.val - 2) / 16 = a.val; omega
  · show (2 + 16 * a.val + j.val - 2) % 16 = j.val; omega

omit [FloatOps F] in
/-- Distinct (family, index) pairs name distinct semaphores: the decoding is a left inverse. -/
theorem dsem_inj {a a' : Fin 4} {j j' : Fin 16} (h : dsem a j = dsem a' j') : a = a' ∧ j = j' := by
  have e : some (a, j) = some (a', j') := by rw [← famOf_dsem a j, h, famOf_dsem]
  exact Prod.mk.inj (Option.some.inj e)

/-! ## The schedule's table, cell by cell -/

theorem duties_bar (c : Dev nD) : (Rd (F := F) m ρ).duties (barCell c) 0 = Finset.univ.erase c := by
  dsimp only [Rd]; rw [if_pos ⟨rfl, rfl⟩, if_pos rfl]

theorem duties_cell (a : Fin 4) (c : Dev nD) (j : Fin 16) (h : j ≠ c) : (Rd (F := F) m ρ).duties (cell a c j) 0 = {(0 : Dev nD)} := by
  dsimp only [Rd]; rw [if_pos ⟨rfl, rfl⟩, famOf_dsem]; exact if_neg h

theorem duties_cell_self (a : Fin 4) (c : Dev nD) : (Rd (F := F) m ρ).duties (cell a c c) 0 = ∅ := by
  dsimp only [Rd]; rw [if_pos ⟨rfl, rfl⟩, famOf_dsem]; exact if_pos rfl

theorem duties_later (g : GSem nD τ sig) : ∀ r, 1 ≤ r → (Rd (F := F) m ρ).duties g r = ∅ := by
  intro r hr
  dsimp only [Rd]
  exact if_neg fun h => absurd h.1 (by omega)

theorem amount_bar (c d : Dev nD) : (Rd (F := F) m ρ).amount (barCell c) 0 d = 1 := rfl

theorem amount_cell (a : Fin 4) (c : Dev nD) (j : Fin 16) (d : Dev nD) : (Rd (F := F) m ρ).amount (cell a c j) 0 d = N1 := rfl

/-- Fifteen peers, one unit each. -/
theorem expect_bar (c : Dev nD) : (Rd (F := F) m ρ).expect (barCell c) 0 = 15 := by
  unfold Schedule.expect Schedule.amountOf
  rw [duties_bar, Finset.sum_congr rfl fun d _ => amount_bar m ρ c d, Finset.sum_const, smul_eq_mul, mul_one,
    Finset.card_erase_of_mem (Finset.mem_univ c), Finset.card_univ, Fintype.card_fin]
  rfl

theorem expect_cell (a : Fin 4) (c : Dev nD) (j : Fin 16) (h : j ≠ c) : (Rd (F := F) m ρ).expect (cell a c j) 0 = N1 := by
  unfold Schedule.expect Schedule.amountOf
  rw [duties_cell m ρ a c j h, Finset.sum_singleton, amount_cell]

theorem payload_bar (c d : Dev nD) : (Rd (F := F) m ρ).payload (barCell c) 0 d = barPay c d := rfl

theorem payload_cell (a : Fin 4) (c : Dev nD) (j : Fin 16) (d : Dev nD) : (Rd (F := F) m ρ).payload (cell a c j) 0 d = dmaPay m ρ c a j := by
  dsimp only [Rd]; rw [famOf_dsem]

/-- With no payload taken, the rest of a barrier cell's round is every peer's payload. -/
theorem rest_bar (c : Dev nD) : bigSep ((Rd (F := F) m ρ).duties (barCell c) 0 \ ∅) (fun d => (Rd (F := F) m ρ).payload (barCell c) 0 d) = bigSep (Finset.univ.erase c) (fun d => barPay (F := F) c d) := by
  rw [Finset.sdiff_empty, duties_bar]
  rfl

/-- With no payload taken, the rest of a transfer cell's round is its one payload. -/
theorem rest_cell (a : Fin 4) (c : Dev nD) (j : Fin 16) (h : j ≠ c) : bigSep ((Rd (F := F) m ρ).duties (cell a c j) 0 \ ∅) (fun d => (Rd (F := F) m ρ).payload (cell a c j) 0 d) = dmaPay m ρ c a j := by
  rw [Finset.sdiff_empty, duties_cell m ρ a c j h, bigSep_singleton, payload_cell]

/-! ## The payloads can be stored in an invariant -/

omit [FloatOps F] in
instance xbandPts_storable (c : Dev nD) (j : Fin 16) (f) : BI.Storable (upEmb : UEmb _ 𝕄) (xbandPts (F := F) c j f) := by unfold xbandPts; infer_instance
omit [FloatOps F] in
instance obandPts_storable (c : Dev nD) (j : Fin 16) (f) : BI.Storable (upEmb : UEmb _ 𝕄) (obandPts (F := F) c j f) := by unfold obandPts; infer_instance
omit [FloatOps F] in
instance slotPts_storable (c : Dev nD) (j : Fin 16) (f) : BI.Storable (upEmb : UEmb _ 𝕄) (slotPts (F := F) c j f) := by unfold slotPts; infer_instance
omit [FloatOps F] in
instance chunkPts_storable (c : Dev nD) (q : PosShare TreeShare) (f) : BI.Storable (upEmb : UEmb _ 𝕄) (chunkPts (F := F) c q f) := by unfold chunkPts; infer_instance
omit [FloatOps F] in
instance barPay_storable (c d : Dev nD) : BI.Storable (upEmb : UEmb _ 𝕄) (barPay (F := F) c d) := by unfold barPay; infer_instance
instance dmaPay_storable (c : Dev nD) (a : Fin 4) (j : Fin 16) : BI.Storable (upEmb : UEmb _ 𝕄) (dmaPay m ρ c a j) := by
  unfold dmaPay; split <;> infer_instance

instance Rd_payload_storable (g : GSem nD τ sig) (r : ℕ) (d : Dev nD) : BI.Storable (upEmb : UEmb _ 𝕄) ((Rd (F := F) m ρ).payload g r d) := by
  dsimp only [Rd]
  split
  · infer_instance
  · split <;> infer_instance

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A barrier cell lies at level 1, a first-exchange receive cell at 2, a second-exchange receive cell at 3, and a
    semaphore outside the four families at 0. -/
theorem lv_bar (c : Dev nD) (u : Unit) : lv (barCell c) u = 1 := rfl
theorem lv_cell1 (j : Dev nD) (k : Fin 16) (u : Unit) : lv (cell 1 j k) u = 2 := by
  dsimp only [lv]; rw [famOf_dsem]; rfl
theorem lv_cell3 (j : Dev nD) (k : Fin 16) (u : Unit) : lv (cell 3 j k) u = 3 := by
  dsimp only [lv]; rw [famOf_dsem]; rfl
theorem lv_stage (c : Dev nD) (q : DmaSem sig) (hq : famOf q = none) (u : Unit) : lv ((c : Thread nD τ), .dma q) u = 0 := by
  dsimp only [lv]; rw [hq]

/-! ## What a device still owes, by the peers left in each of the three kinds -/

/-- what c still owes when it has yet to signal the peers in S₀ and to transfer to those in S₁ (first exchange) and S₃ (second) -/
def owedFrom (c : Dev nD) (S₀ S₁ S₃ : Finset (Dev nD)) : CellTallies nD τ sig Unit := (∑ j ∈ S₀, tallyAt (barCell j) () 1) + (∑ j ∈ S₁, tallyAt (cell 1 j c) () N1) + (∑ j ∈ S₃, tallyAt (cell 3 j c) () N1)

/-- At launch every peer is left in every kind: the sum over peers of three terms is the three sums over peers. -/
theorem O₀_eq (c : Dev nD) : O₀ c = owedFrom c (Finset.univ.erase c) (Finset.univ.erase c) (Finset.univ.erase c) := by
  unfold O₀ owedFrom owedTo
  rw [Finset.sum_add_distrib, Finset.sum_add_distrib]

theorem owedFrom_empty (c : Dev nD) : owedFrom c ∅ ∅ ∅ = 0 := by
  unfold owedFrom
  rw [Finset.sum_empty, Finset.sum_empty, Finset.sum_empty, add_zero, add_zero]

/-- Taking one peer out of a kind splits off that peer's term; the rest is a rearrangement of a sum of four terms. -/
theorem owedFrom_peel0 (c j : Dev nD) (S₀ S₁ S₃ : Finset (Dev nD)) (h : j ∈ S₀) : owedFrom c S₀ S₁ S₃ = owedFrom c (S₀.erase j) S₁ S₃ + tallyAt (barCell j) () 1 := by
  unfold owedFrom
  rw [← Finset.sum_erase_add S₀ (fun j => (tallyAt (barCell j) () 1 : CellTallies nD τ sig Unit)) h, add_right_comm _ (tallyAt (barCell j) () 1) _,
    add_right_comm _ (tallyAt (barCell j) () 1) _]

theorem owedFrom_peel1 (c j : Dev nD) (S₀ S₁ S₃ : Finset (Dev nD)) (h : j ∈ S₁) : owedFrom c S₀ S₁ S₃ = owedFrom c S₀ (S₁.erase j) S₃ + tallyAt (cell 1 j c) () N1 := by
  unfold owedFrom
  rw [← Finset.sum_erase_add S₁ (fun j => (tallyAt (cell 1 j c) () N1 : CellTallies nD τ sig Unit)) h, ← add_assoc, add_right_comm _ (tallyAt (cell 1 j c) () N1) _]

theorem owedFrom_peel3 (c j : Dev nD) (S₀ S₁ S₃ : Finset (Dev nD)) (h : j ∈ S₃) : owedFrom c S₀ S₁ S₃ = owedFrom c S₀ S₁ (S₃.erase j) + tallyAt (cell 3 j c) () N1 := by
  unfold owedFrom
  rw [← Finset.sum_erase_add S₃ (fun j => (tallyAt (cell 3 j c) () N1 : CellTallies nD τ sig Unit)) h, ← add_assoc]

/-- Where the owed term is positive: at the barrier cell of a peer left in the first kind, or at the first- or
    second-exchange receive cell (index `c`) of a peer left in the second or third. -/
theorem owedFrom_pos {c : Dev nD} {S₀ S₁ S₃ : Finset (Dev nD)} {g : GSem nD τ sig} {u : Unit} (h : 0 < owedFrom c S₀ S₁ S₃ g u) :
    (∃ j ∈ S₀, g = barCell j) ∨ (∃ j ∈ S₁, g = cell 1 j c) ∨ (∃ j ∈ S₃, g = cell 3 j c) := by
  unfold owedFrom at h
  rcases Pipeline.add_pos_cases h with h | h
  · rcases Pipeline.add_pos_cases h with h | h
    · obtain ⟨j, hj, hp⟩ := Pipeline.sum_pos_exists h
      exact .inl ⟨j, hj, (Pipeline.tallyAt_pos hp).1⟩
    · obtain ⟨j, hj, hp⟩ := Pipeline.sum_pos_exists h
      exact .inr (.inl ⟨j, hj, (Pipeline.tallyAt_pos hp).1⟩)
  · obtain ⟨j, hj, hp⟩ := Pipeline.sum_pos_exists h
    exact .inr (.inr ⟨j, hj, (Pipeline.tallyAt_pos hp).1⟩)

/-! ## A device may wait where everything it still owes lies above -/

omit [FloatOps F] in
/-- Device `c` waits on its cell `s`, at level at most `b`; each kind of cell still present in what it owes lies above `b`. -/
theorem mayWait_owedFrom (c : Dev nD) (s : SemLoc sig) (b : ℕ) (S₀ S₁ S₃ : Finset (Dev nD))
    (hs : lv ((c : Thread nD τ), s) () ≤ b) (h₀ : S₀.Nonempty → b < 1) (h₁ : S₁.Nonempty → b < 2) (h₃ : S₃.Nonempty → b < 3) :
    (levAts L lv : sProp 𝕄) ⊢ MayWait (c : Thread nD τ) s () (owedFrom c S₀ S₁ S₃) :=
  MayOwe.of_cut (L := L) (lev := lv) b
    (fun p hp => by rw [Finset.mem_singleton.mp hp, L_tc]; exact Finset.mem_singleton_self _)
    (fun g u hg => by
      rcases owedFrom_pos hg with ⟨j, _, rfl⟩ | ⟨j, _, rfl⟩ | ⟨j, _, rfl⟩ <;> (rw [L_tc]; exact Finset.mem_singleton_self _))
    (fun p hp => by rw [Finset.mem_singleton.mp hp]; exact hs)
    (fun g u hg => by
      rcases owedFrom_pos hg with ⟨j, hj, rfl⟩ | ⟨j, hj, rfl⟩ | ⟨j, hj, rfl⟩
      · rw [lv_bar]; exact h₀ ⟨j, hj⟩
      · rw [lv_cell1]; exact h₁ ⟨j, hj⟩
      · rw [lv_cell3]; exact h₃ ⟨j, hj⟩)

omit [FloatOps F] in
/-- A semaphore outside the four families lies at level 0, below every cell a device can owe on. -/
theorem mayWait_stage (c : Dev nD) (q : DmaSem sig) (hq : famOf q = none) (O : CellTallies nD τ sig Unit) (hO : O = O₀ c ∨ O = 0) : (levAts L lv : sProp 𝕄) ⊢ MayWait (c : Thread nD τ) (.dma q) () O := by
  have hs : lv ((c : Thread nD τ), .dma q) () ≤ 0 := le_of_eq (lv_stage c q hq ())
  rcases hO with rfl | rfl
  · rw [O₀_eq]
    exact mayWait_owedFrom c (.dma q) 0 _ _ _ hs (fun _ => Nat.zero_lt_one) (fun _ => Nat.zero_lt_two) (fun _ => by decide)
  · rw [← owedFrom_empty c]
    exact mayWait_owedFrom c (.dma q) 0 ∅ ∅ ∅ hs (fun h => absurd h Finset.not_nonempty_empty) (fun h => absurd h Finset.not_nonempty_empty)
      (fun h => absurd h Finset.not_nonempty_empty)

omit [FloatOps F] in
/-- At its barrier wait a device has signalled every peer: only receive cells, at levels 2 and 3, are left above level 1. -/
theorem mayWait_bar (c : Dev nD) (S₁ S₃ : Finset (Dev nD)) : (levAts L lv : sProp 𝕄) ⊢ MayWait (c : Thread nD τ) (.reg barS) () (owedFrom c ∅ S₁ S₃) :=
  mayWait_owedFrom c (.reg barS) 1 ∅ S₁ S₃ (le_of_eq (lv_bar c ())) (fun h => absurd h Finset.not_nonempty_empty) (fun _ => by decide) (fun _ => by decide)

omit [FloatOps F] in
/-- At a first-exchange receive wait only second-exchange receive cells, at level 3, are left above level 2. -/
theorem mayWait_r1 (c : Dev nD) (k : Fin 16) (S₃ : Finset (Dev nD)) : (levAts L lv : sProp 𝕄) ⊢ MayWait (c : Thread nD τ) (.dma (dsem 1 k)) () (owedFrom c ∅ ∅ S₃) :=
  mayWait_owedFrom c (.dma (dsem 1 k)) 2 ∅ ∅ S₃ (le_of_eq (lv_cell1 c k ())) (fun h => absurd h Finset.not_nonempty_empty)
    (fun h => absurd h Finset.not_nonempty_empty) (fun _ => by decide)

end Cert.Kernel.Proto

end
-- ==== Proof.Bits.Stages.lean ====
/-
  The body's intermediate assertions.

  For each peer `j ≠ c` device `c` holds a bundle of resources that moves through nine stages as the body runs:
  0 at launch · 1 after the signal to `j` · 2 after the barrier wait (now holding the right to write `j`'s slot `c`
  and `j`'s result band `c`) · 3 after the first transfer to `j` · 4 after the wait for `j`'s transfer into slot
  `j` · 5 after the chunk is computed (now holding share `j` of the chunk buffer) · 6 after the second transfer
  to `j` · 7 after the wait for `j`'s chunk into band `j` · 8 after both send waits (every part returned, the four
  cells at round 1). The body treats the peers in index order, so between two conditional blocks the peers below
  some `n` are one stage ahead of the others.
-/
import proofs.«900783_g7700000000000784_dist_f_of_ar_i_m512_n256_v7x_i16_f32_1_alg».proof.Proof.Bits.State
import proofs.«900783_g7700000000000784_dist_f_of_ar_i_m512_n256_v7x_i16_f32_1_alg».proof.Proof.Bits.Tables

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Peers not yet treated, and treated, by the `n`-th conditional block of a phase -/

def Tn (c : Dev nD) (n : ℕ) : Finset (Dev nD) := (Finset.univ.erase c).filter (fun j => n ≤ j.val)
def Dn (c : Dev nD) (n : ℕ) : Finset (Dev nD) := (Finset.univ.erase c).filter (fun j => j.val < n)

/-- The device's own index as the body computes it, and the barrier semaphore's handle. -/
def v2w (c : Dev nD) : BitVec 32 := Scalar.remsi (Scalar.divsi (Dev.word c) 1#32) 16#32
abbrev v3b : Sems sig S_ := SemArray.scalar (sig.barrier 0 rfl)

/-! ## A peer's bundle, stage by stage -/

section Peer
variable (c j : Dev nD)

abbrev slotAny (c j : Dev nD) : sProp 𝕄 := iprop(∃ f, slotPts c j f)
abbrev obandAny (c j : Dev nD) : sProp 𝕄 := iprop(∃ f, obandPts c j f)
/-- `c`'s position at round `R` of its transfer cell `(a, j)`. -/
abbrev posAt (a : Fin 4) (R : ℕ) : sProp 𝕄 := atPos ER (cell a c j) R ∅ 0
abbrev credAt (a : Fin 4) : sProp 𝕄 := cred (tallyAt (cell a c j) () N1)

def peer (s : ℕ) : sProp 𝕄 :=
  let X := xin m ρ
  let chunk := chunkOf X c
  let S1 : sProp 𝕄 := iprop(xbandPts c j (X c) ∗ dutyTok ER (cell 0 c j) 0 0 ∗ dutyTok ER (cell 1 j c) 0 0 ∗ dutyTok ER (cell 2 c j) 0 0 ∗ dutyTok ER (cell 3 j c) 0 0
      ∗ posAt c j 0 0 ∗ posAt c j 1 0 ∗ posAt c j 2 0 ∗ posAt c j 3 0 ∗ credAt c j 1 ∗ credAt c j 3)
  match s with
  | 0 => iprop(dutyTok ER (barCell j) 0 c ∗ slotAny c j ∗ obandAny c j ∗ S1)
  | 1 => S1
  | 2 => iprop(barPay c j ∗ S1)
  | 3 => iprop(obandAny j c ∗ credAt c j 0 ∗ dutyTok ER (cell 2 c j) 0 0 ∗ dutyTok ER (cell 3 j c) 0 0
      ∗ posAt c j 0 0 ∗ posAt c j 1 0 ∗ posAt c j 2 0 ∗ posAt c j 3 0 ∗ credAt c j 1 ∗ credAt c j 3)
  | 4 => iprop(slotPts c j (recvOf X c) ∗ posAt c j 1 1 ∗ obandAny j c ∗ credAt c j 0 ∗ dutyTok ER (cell 2 c j) 0 0 ∗ dutyTok ER (cell 3 j c) 0 0
      ∗ posAt c j 0 0 ∗ posAt c j 2 0 ∗ posAt c j 3 0 ∗ credAt c j 3)
  | 5 => iprop(chunkPts c (shr j) chunk ∗ posAt c j 1 1 ∗ obandAny j c ∗ credAt c j 0 ∗ dutyTok ER (cell 2 c j) 0 0 ∗ dutyTok ER (cell 3 j c) 0 0
      ∗ posAt c j 0 0 ∗ posAt c j 2 0 ∗ posAt c j 3 0 ∗ credAt c j 3)
  | 6 => iprop(credAt c j 2 ∗ posAt c j 1 1 ∗ credAt c j 0 ∗ posAt c j 0 0 ∗ posAt c j 2 0 ∗ posAt c j 3 0 ∗ credAt c j 3)
  | 7 => iprop(obandPts c j (outOf X) ∗ posAt c j 3 1 ∗ credAt c j 2 ∗ posAt c j 1 1 ∗ credAt c j 0 ∗ posAt c j 0 0 ∗ posAt c j 2 0)
  | _ => iprop(chunkPts c (shr j) chunk ∗ xbandPts c j (X c) ∗ posAt c j 0 1 ∗ posAt c j 2 1 ∗ obandPts c j (outOf X) ∗ posAt c j 3 1 ∗ posAt c j 1 1)

end Peer

/-! ## What is not a peer's: the barrier cell, the cells of the device's own index, its own parts -/

def glob (c : Dev nD) (g : ℕ) : sProp 𝕄 :=
  let X := xin m ρ
  let ownPos : sProp 𝕄 := bigSep Finset.univ fun a : Fin 4 => atPos ER (cell a c c) 0 ∅ 0
  let kAny : sProp 𝕄 := iprop(∃ f : Buf (Elt F) ((c : Thread nD τ).loc cc0_scratch1), ((c : Thread nD τ).loc cc0_scratch1) ↦{fullShare} f)
  let rWhole : sProp 𝕄 := ((c : Thread nD τ).loc cc0_scratch0) ↦{fullShare} (recvOf X c)
  match g with
  | 0 => iprop(atPos ER (barCell c) 0 ∅ 0 ∗ cred (tallyAt (barCell c) () 15) ∗ ownPos ∗ xbandPts c c (X c) ∗ slotAny c c ∗ obandAny c c ∗ kAny)
  | 1 => iprop(atPos ER (barCell c) 1 ∅ 0 ∗ ownPos ∗ xbandPts c c (X c) ∗ slotAny c c ∗ obandAny c c ∗ kAny)
  | 2 => iprop(atPos ER (barCell c) 1 ∅ 0 ∗ ownPos ∗ xbandPts c c (X c) ∗ slotPts c c (recvOf X c) ∗ obandAny c c ∗ kAny)
  | 3 => iprop(atPos ER (barCell c) 1 ∅ 0 ∗ ownPos ∗ xbandPts c c (X c) ∗ rWhole ∗ obandAny c c ∗ chunkPts c (shr c) (chunkOf X c))
  | _ => iprop(atPos ER (barCell c) 1 ∅ 0 ∗ ownPos ∗ xbandPts c c (X c) ∗ rWhole ∗ obandPts c c (outOf X) ∗ chunkPts c (shr c) (chunkOf X c))

/-- The state between conditional blocks: peers below `n` at stage `s + 1`, the others at stage `s`; what is
    still owed; the rest at stage `g`. -/
def Mid (K : CIx → ℕ) (c : Dev nD) (s g n : ℕ) (O : CellTallies nD τ sig Unit) : sProp 𝕄 :=
  iprop(records m ρ K ∗ levAts L lv ∗ (bigSep (Dn c n) fun j => peer m ρ c j (s + 1)) ∗ (bigSep (Tn c n) fun j => peer m ρ c j s)
    ∗ (∃ W, owes (c : Thread nD τ) O W) ∗ glob m ρ c g)

/-- What is owed in the three phases that pay: before block `n` of the signals, of the first and of the second transfers. -/
abbrev owed0 (c : Dev nD) (n : ℕ) : CellTallies nD τ sig Unit := owedFrom c (Tn c n) (Finset.univ.erase c) (Finset.univ.erase c)
abbrev owed1 (c : Dev nD) (n : ℕ) : CellTallies nD τ sig Unit := owedFrom c ∅ (Tn c n) (Finset.univ.erase c)
abbrev owed3 (c : Dev nD) (n : ℕ) : CellTallies nD τ sig Unit := owedFrom c ∅ ∅ (Tn c n)

/-! ## The index sets, step by step -/

theorem Tn_zero (c : Dev nD) : Tn c 0 = Finset.univ.erase c := by
  unfold Tn; exact Finset.filter_true_of_mem fun j _ => Nat.zero_le _
theorem Dn_zero (c : Dev nD) : Dn c 0 = ∅ := by
  unfold Dn; exact Finset.filter_false_of_mem fun j _ => Nat.not_lt_zero _
theorem Tn_last (c : Dev nD) : Tn c 16 = ∅ := by
  unfold Tn; exact Finset.filter_false_of_mem fun j _ => Nat.not_le.mpr j.isLt
theorem Dn_last (c : Dev nD) : Dn c 16 = Finset.univ.erase c := by
  unfold Dn; exact Finset.filter_true_of_mem fun j _ => j.isLt

theorem Tn_step_eq (c : Dev nD) (n : ℕ) (h : c.val = n) : Tn c (n + 1) = Tn c n := by
  unfold Tn; refine Finset.filter_congr fun j hj => ?_
  have : j ≠ c := (Finset.mem_erase.mp hj).1
  have : j.val ≠ c.val := fun e => this (Fin.ext e)
  omega
theorem Dn_step_eq (c : Dev nD) (n : ℕ) (h : c.val = n) : Dn c (n + 1) = Dn c n := by
  unfold Dn; refine Finset.filter_congr fun j hj => ?_
  have : j ≠ c := (Finset.mem_erase.mp hj).1
  have : j.val ≠ c.val := fun e => this (Fin.ext e)
  omega
theorem mem_Tn (c j : Dev nD) (h : j ≠ c) : j ∈ Tn c j.val := by
  unfold Tn; exact Finset.mem_filter.mpr ⟨Finset.mem_erase.mpr ⟨h, Finset.mem_univ _⟩, le_rfl⟩
theorem Tn_step_ne (c j : Dev nD) : (Tn c j.val).erase j = Tn c (j.val + 1) := by
  unfold Tn; ext i
  simp only [Finset.mem_erase, Finset.mem_filter, Finset.mem_univ, and_true]
  constructor
  · rintro ⟨h1, h2, h3⟩; exact ⟨h2, by have : i.val ≠ j.val := fun e => h1 (Fin.ext e); omega⟩
  · rintro ⟨h2, h3⟩; exact ⟨fun e => by subst e; omega, h2, by omega⟩
theorem Dn_step_ne (c j : Dev nD) (h : j ≠ c) : Dn c (j.val + 1) = insert j (Dn c j.val) := by
  unfold Dn; ext i
  simp only [Finset.mem_insert, Finset.mem_filter, Finset.mem_erase, Finset.mem_univ, and_true]
  constructor
  · rintro ⟨h2, h3⟩
    by_cases e : i = j
    · exact Or.inl e
    · exact Or.inr ⟨h2, by have : i.val ≠ j.val := fun e' => e (Fin.ext e'); omega⟩
  · rintro (e | ⟨h2, h3⟩)
    · subst e; exact ⟨h, by omega⟩
    · exact ⟨h2, by omega⟩
theorem not_mem_Dn (c j : Dev nD) : j ∉ Dn c j.val := by
  unfold Dn; intro h; exact Nat.lt_irrefl _ (Finset.mem_filter.mp h).2

end Cert.Kernel.Proto

end
-- ==== Proof.Bits.BlockDefs.lean ====
/-
  Vocabulary for the body's steps.

  A conditional block of phase `p` at index `n` runs its operation when the device is not `n` and nothing when it
  is; either way the state moves from "`n` blocks done" to "`n + 1` blocks done". The operations: a signal to peer
  `n`'s barrier cell; the first transfer (band `n` of the input block to slot `c` of device `n`); the wait for peer
  `n`'s first transfer; the second transfer (the chunk to band `c` of device `n`'s result); the wait for peer `n`'s
  chunk; the two send waits. Between the phases: the barrier wait and three local steps (the own band into the own
  slot; the sum and the pointwise function into the chunk buffer; the chunk into the own band of the result).
-/
import proofs.«900783_g7700000000000784_dist_f_of_ar_i_m512_n256_v7x_i16_f32_1_alg».proof.Proof.Bits.Stages
import proofs.«900783_g7700000000000784_dist_f_of_ar_i_m512_n256_v7x_i16_f32_1_alg».proof.Proof.Gen.Kernel.Skeleton

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The condition "this device is not `n`", as the body computes it from the device's index word. -/
abbrev condw (c : Dev nD) (n : ℕ) : BitVec 1 := Scalar.cmpi .ne (Scalar.extui (Scalar.cmpi .ne (v2w c) (BitVec.ofNat 32 n))) 0#32

theorem condw_iff : ∀ (c j : Dev nD), condw c j.val = 1#1 ↔ j ≠ c := by decide +kernel

/-- The parts of the buffers and the semaphores of the arrays, at offsets as the body names them. -/
abbrev rslotAt (o : Fin 3 → ℕ) (h : ∀ a, o a + S1x32x256.size a ≤ S16x32x256.size a) : Memref sig .tc .vmem S32x256 .f32 :=
  ((rM).slice (Rect.unit (s := S16x32x256) o S1x32x256.size h) (fun _ => rfl)).squeeze S32x256 squeezes_S1x32x256_S32x256
abbrev bandAt (M : Memref sig .tc .vmem S512x256 .f32) (o : Fin 2 → ℕ) (h : ∀ a, o a + S32x256.size a ≤ S512x256.size a) : Memref sig .tc .vmem S32x256 .f32 :=
  M.slice (Rect.unit (s := S512x256) o S32x256.size h) (fun _ => rfl)
abbrev semAt (A : DmaSems sig S16) (o : Fin 1 → ℕ) (h : ∀ a, o a + S1.size a ≤ S16.size a) : DmaSem sig :=
  ((A.slice (Rect.unit (s := S16) o S1.size h)).squeeze S_ squeezes_S1_S_).sem

end Cert.Kernel.Proto

end
-- ==== Proof.Bits.Regions.lean ====
/-
  The parts of the four buffers: that they tile their buffers, what a landing leaves in a part, the printed
  body's names for the parts, and a device's own vector accesses to its parts.
-/
import proofs.«900783_g7700000000000784_dist_f_of_ar_i_m512_n256_v7x_i16_f32_1_alg».proof.Proof.Bits.State

import Idealize.ShloMosaic.Lib.ValueLayout

noncomputable section

namespace Cert.Kernel.Proto

open Cert.Kernel Cert.Kernel.Gen Cert.Kernel.Spec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Membership in a part -/

/-- A row-column index lies in band `j` exactly when its row divided by 32 is `j`. -/
theorem mem_bandRect (j : Fin 16) (i : S512x256.Idx) : i ∈ (bandRect j).set ↔ (i 0).val / 32 = j.val := by
  rw [Rect.mem_set_unit]
  constructor
  · intro h
    have h0 := h 0
    have e0 : (![32 * j.val, 0] : Fin 2 → Nat) 0 = 32 * j.val := rfl
    have s0 : S32x256.size 0 = 32 := rfl
    rw [e0, s0] at h0
    omega
  · intro h a
    match a with
    | ⟨0, _⟩ =>
      show 32 * j.val ≤ (i 0).val ∧ (i 0).val < 32 * j.val + 32
      omega
    | ⟨1, _⟩ =>
      show 0 ≤ (i 1).val ∧ (i 1).val < 0 + 256
      have := (i 1).isLt
      exact ⟨Nat.zero_le _, by simpa using this⟩

/-- An index of the receive buffer lies in slot `j` exactly when its first coordinate is `j`. -/
theorem mem_slotRect (j : Fin 16) (i : S16x32x256.Idx) : i ∈ (slotRect j).set ↔ (i 0).val = j.val := by
  rw [Rect.mem_set_unit]
  constructor
  · intro h
    have h0 := h 0
    have e0 : (![j.val, 0, 0] : Fin 3 → Nat) 0 = j.val := rfl
    have s0 : S1x32x256.size 0 = 1 := rfl
    rw [e0, s0] at h0
    omega
  · intro h a
    match a with
    | ⟨0, _⟩ =>
      show j.val ≤ (i 0).val ∧ (i 0).val < j.val + 1
      omega
    | ⟨1, _⟩ =>
      show 0 ≤ (i 1).val ∧ (i 1).val < 0 + 32
      have := (i 1).isLt
      exact ⟨Nat.zero_le _, by simpa using this⟩
    | ⟨2, _⟩ =>
      show 0 ≤ (i 2).val ∧ (i 2).val < 0 + 256
      have := (i 2).isLt
      exact ⟨Nat.zero_le _, by simpa using this⟩

theorem xband_set (j : Fin 16) : (xband j).view.set = (bandRect j).set := View.set_slice_whole _ _
theorem oband_set (j : Fin 16) : (oband j).view.set = (bandRect j).set := View.set_slice_whole _ _
theorem rslot_set (j : Fin 16) : (rslot j).view.set = (slotRect j).set :=
  (View.set_reshape _ _).trans (View.set_slice_whole _ _)

/-! ## The parts tile their buffers -/

theorem mem_xband (j : Fin 16) (i : S512x256.Idx) : i ∈ (xband j).view.set ↔ bandOf (i 0) = j := by
  rw [xband_set, mem_bandRect]; exact ⟨fun h => Fin.ext h, fun h => congrArg Fin.val h⟩
theorem mem_oband (j : Fin 16) (i : S512x256.Idx) : i ∈ (oband j).view.set ↔ bandOf (i 0) = j := by
  rw [oband_set, mem_bandRect]; exact ⟨fun h => Fin.ext h, fun h => congrArg Fin.val h⟩
theorem mem_rslot (j : Fin 16) (i : S16x32x256.Idx) : i ∈ (rslot j).view.set ↔ i 0 = j := by
  rw [rslot_set, mem_slotRect]; exact ⟨fun h => Fin.ext h, fun h => congrArg Fin.val h⟩

/-- A whole buffer is the separating conjunction of the sixteen fibres of a map from its indices to `Fin 16`. -/
theorem split_of_fibres {ℓ : Loc nD τ sig} (K : Fin 16 → Finset (Idx ℓ)) (g : Idx ℓ → Fin 16)
    (hmem : ∀ j i, i ∈ K j ↔ g i = j) (q : PosShare TreeShare) (f : Buf (Elt F) ℓ) :
    (ℓ ↦{q} f : sProp 𝕄) = bigSep Finset.univ fun j : Fin 16 => ℓ ↦[K j]{q} f := by
  have hc : (Finset.univ : Finset (Fin 16)).biUnion K = Finset.univ := by
    ext i
    simp only [Finset.mem_biUnion, Finset.mem_univ, true_and, iff_true]
    exact ⟨g i, (hmem _ i).mpr rfl⟩
  have hd : ∀ j ∈ (Finset.univ : Finset (Fin 16)), ∀ j' ∈ (Finset.univ : Finset (Fin 16)), j ≠ j' → Disjoint (K j) (K j') := by
    intro j _ j' _ h
    rw [Finset.disjoint_left]
    intro i hi hi'
    exact h (((hmem j i).mp hi).symm.trans ((hmem j' i).mp hi'))
  rw [← pointsTo_biUnion Finset.univ K hd, hc]

theorem x_split (c : Dev nD) (f : Buf (Elt F) ((c : Thread nD τ).loc cc0_stg0_0)) :
    ((((c : Thread nD τ).loc cc0_stg0_0) ↦{fullShare} f : sProp 𝕄)) = bigSep Finset.univ (fun j : Fin 16 => xbandPts c j f) :=
  split_of_fibres (ℓ := (c : Thread nD τ).loc cc0_stg0_0) (fun j => (xband j).view.set)
    (fun i : S512x256.Idx => bandOf (i 0)) mem_xband fullShare f

theorem o_split (c : Dev nD) (f : Buf (Elt F) ((c : Thread nD τ).loc cc0_stg1_0)) :
    ((((c : Thread nD τ).loc cc0_stg1_0) ↦{fullShare} f : sProp 𝕄)) = bigSep Finset.univ (fun j : Fin 16 => obandPts c j f) :=
  split_of_fibres (ℓ := (c : Thread nD τ).loc cc0_stg1_0) (fun j => (oband j).view.set)
    (fun i : S512x256.Idx => bandOf (i 0)) mem_oband fullShare f

theorem r_split (c : Dev nD) (f : Buf (Elt F) ((c : Thread nD τ).loc cc0_scratch0)) :
    ((((c : Thread nD τ).loc cc0_scratch0) ↦{fullShare} f : sProp 𝕄)) = bigSep Finset.univ (fun j : Fin 16 => slotPts c j f) :=
  split_of_fibres (ℓ := (c : Thread nD τ).loc cc0_scratch0) (fun j => (rslot j).view.set)
    (fun i : S16x32x256.Idx => i 0) mem_rslot fullShare f

/-! ## The chunk buffer's sixteen shares -/

/-- One step down the share tree: digit 0 the left half, digit 1 the right half. -/
def pick (b : Fin 2) (q : PosShare TreeShare) : PosShare TreeShare := if b.val = 0 then q.left else q.right

/-- The binary digit of weight `n` of an index below sixteen. -/
def digit (n : Nat) (j : Fin 16) : Fin 2 := ⟨j.val / n % 2, Nat.mod_lt _ (by decide)⟩

/-- The leaf of the depth-four splitting reached by four digits, the most significant first. -/
def leaf (p : Fin 2 × Fin 2 × Fin 2 × Fin 2) : PosShare TreeShare :=
  pick p.2.2.2 (pick p.2.2.1 (pick p.2.1 (pick p.1 fullShare)))

theorem shr_eq_leaf (j : Fin 16) : shr j = leaf (digit 8 j, digit 4 j, digit 2 j, digit 1 j) := rfl

/-- An index below sixteen is its four binary digits. -/
def bits4 : Fin 2 × Fin 2 × Fin 2 × Fin 2 ≃ Fin 16 where
  toFun p := ⟨8 * p.1.val + 4 * p.2.1.val + 2 * p.2.2.1.val + p.2.2.2.val, by
    have := p.1.isLt; have := p.2.1.isLt; have := p.2.2.1.isLt; have := p.2.2.2.isLt; omega⟩
  invFun j := (digit 8 j, digit 4 j, digit 2 j, digit 1 j)
  left_inv p := by
    obtain ⟨a, b, c, d⟩ := p
    have := a.isLt; have := b.isLt; have := c.isLt; have := d.isLt
    refine Prod.ext (Fin.ext ?_) (Prod.ext (Fin.ext ?_) (Prod.ext (Fin.ext ?_) (Fin.ext ?_)))
    · show (8 * a.val + 4 * b.val + 2 * c.val + d.val) / 8 % 2 = a.val; omega
    · show (8 * a.val + 4 * b.val + 2 * c.val + d.val) / 4 % 2 = b.val; omega
    · show (8 * a.val + 4 * b.val + 2 * c.val + d.val) / 2 % 2 = c.val; omega
    · show (8 * a.val + 4 * b.val + 2 * c.val + d.val) / 1 % 2 = d.val; omega
  right_inv j := by
    have := j.isLt
    refine Fin.ext ?_
    show 8 * (j.val / 8 % 2) + 4 * (j.val / 4 % 2) + 2 * (j.val / 2 % 2) + j.val / 1 % 2 = j.val
    omega

theorem shr_bits4 (p : Fin 2 × Fin 2 × Fin 2 × Fin 2) : shr (bits4 p) = leaf p := by
  rw [shr_eq_leaf]; exact congrArg leaf (bits4.left_inv p)

/-- A points-to at a share is the two points-tos at its halves. -/
theorem pts_share_step {ℓ : Loc nD τ sig} (I : Finset (Idx ℓ)) (f : Buf (Elt F) ℓ) (q : PosShare TreeShare) :
    (ℓ ↦[I]{q} f : sProp 𝕄) = bigSep Finset.univ (fun b : Fin 2 => ℓ ↦[I]{pick b q} f) := by
  rw [bigSep_fin_two]
  have h : (ℓ ↦[I]{q} f : sProp 𝕄) ⊣⊢ iprop((ℓ ↦[I]{q.left} f) ∗ ℓ ↦[I]{q.right} f) :=
    pointsTo_share (PosShare.mem_left_op_right q)
  exact BI.equiv_iff.mp ⟨h.1, h.2⟩

theorem chunkPts_eq (c : Dev nD) (q : PosShare TreeShare) (f : Buf (Elt F) ((c : Thread nD τ).loc cc0_scratch1)) :
    chunkPts c q f = ((((c : Thread nD τ).loc cc0_scratch1) ↦{q} f : sProp 𝕄)) := by
  unfold chunkPts
  exact congrArg (fun I => ((((c : Thread nD τ).loc cc0_scratch1) ↦[I]{q} f : sProp 𝕄))) (View.set_whole cc0_scratch1)

theorem k_split (c : Dev nD) (f : Buf (Elt F) ((c : Thread nD τ).loc cc0_scratch1)) :
    ((((c : Thread nD τ).loc cc0_scratch1) ↦{fullShare} f : sProp 𝕄)) ⊣⊢ bigSep Finset.univ (fun j : Fin 16 => chunkPts c (shr j) f) := by
  refine .of_eq ?_
  have step := fun q => pts_share_step (F := F) (ℓ := (c : Thread nD τ).loc cc0_scratch1) Finset.univ f q
  have hL : ((((c : Thread nD τ).loc cc0_scratch1) ↦{fullShare} f : sProp 𝕄))
      = bigSep Finset.univ fun a : Fin 2 => bigSep Finset.univ fun b : Fin 2 => bigSep Finset.univ fun c' : Fin 2 =>
          bigSep Finset.univ fun d : Fin 2 => (((c : Thread nD τ).loc cc0_scratch1) ↦{leaf (a, b, c', d)} f : sProp 𝕄) :=
    (step _).trans (bigSep_congr fun a _ => (step _).trans (bigSep_congr fun b _ => (step _).trans (bigSep_congr fun c' _ => step _)))
  rw [hL, bigSep_univ_equiv bits4]
  simp only [shr_bits4, chunkPts_eq]
  rw [bigSep_univ_prod]; refine bigSep_congr fun a _ => ?_
  rw [bigSep_univ_prod]; refine bigSep_congr fun b _ => ?_
  rw [bigSep_univ_prod]

/-! ## The printed body's names for the parts -/

theorem rslot_of (c : Fin 16) (o : Fin 3 → Nat) (ho : o = ![c.val, 0, 0])
    (h : ∀ a, o a + S1x32x256.size a ≤ S16x32x256.size a) :
    (((rM : Memref sig .tc .vmem S16x32x256 .f32).slice (Rect.unit (s := S16x32x256) o S1x32x256.size h) (fun _ => rfl)).squeeze
      S32x256 squeezes_S1x32x256_S32x256) = rslot c := by
  subst ho; rfl

theorem xband_of (c : Fin 16) (o : Fin 2 → Nat) (ho : o = ![32 * c.val, 0])
    (h : ∀ a, o a + S32x256.size a ≤ S512x256.size a) :
    ((xM : Memref sig .tc .vmem S512x256 .f32).slice (Rect.unit (s := S512x256) o S32x256.size h) (fun _ => rfl)) = xband c := by
  subst ho; rfl

theorem oband_of (c : Fin 16) (o : Fin 2 → Nat) (ho : o = ![32 * c.val, 0])
    (h : ∀ a, o a + S32x256.size a ≤ S512x256.size a) :
    ((oM : Memref sig .tc .vmem S512x256 .f32).slice (Rect.unit (s := S512x256) o S32x256.size h) (fun _ => rfl)) = oband c := by
  subst ho; rfl

/-- The four arrays of sixteen DMA semaphores, by family. -/
def scr : Fin 4 → DmaSems sig S16
  | 0 => cc0_scratch2
  | 1 => cc0_scratch3
  | 2 => cc0_scratch4
  | 3 => cc0_scratch5

theorem dsem_of (a : Fin 4) (c : Fin 16) (o : Fin 1 → Nat) (ho : o = ![c.val])
    (h : ∀ a', o a' + S1.size a' ≤ S16.size a') :
    (((scr a).slice (Rect.unit (s := S16) o S1.size h)).squeeze S_ squeezes_S1_S_).sem = dsem a c := by
  subst ho
  refine Fin.ext ?_
  have key : ∀ x : S1.Idx, (S16.rowMajor ((Rect.unit (s := S16) ![c.val] S1.size h).emb x)).val = c.val := by
    intro x
    rw [Shape.rowMajor_val_one]
    show c.val + 1 * (x 0).val = c.val
    have : (x 0).val < 1 := (x 0).isLt
    omega
  match a with
  | ⟨0, _⟩ => show 2 + (S16.rowMajor _).val = 2 + 16 * 0 + c.val; rw [key]
  | ⟨1, _⟩ => show 18 + (S16.rowMajor _).val = 2 + 16 * 1 + c.val; rw [key]
  | ⟨2, _⟩ => show 34 + (S16.rowMajor _).val = 2 + 16 * 2 + c.val; rw [key]
  | ⟨3, _⟩ => show 50 + (S16.rowMajor _).val = 2 + 16 * 3 + c.val; rw [key]

/-! ## Where a part's indices sit in its buffer -/

theorem bandRect_emb (c : Fin 16) (p : Fin 32) (q : Fin 256) : (bandRect c).emb (ix2 p q) = ix2 (bandRow c p) q := by
  funext a
  refine Fin.ext ?_
  match a with
  | ⟨0, _⟩ => show 32 * c.val + 1 * p.val = c.val * 32 + p.val; omega
  | ⟨1, _⟩ => show 0 + 1 * q.val = q.val; omega

theorem slotRect_emb (k : Fin 16) (z : Fin 1) (p : Fin 32) (q : Fin 256) : (slotRect k).emb (ix3 z p q) = ix3 k p q := by
  funext a
  refine Fin.ext ?_
  match a with
  | ⟨0, _⟩ => show k.val + 1 * z.val = k.val; have := z.isLt; omega
  | ⟨1, _⟩ => show 0 + 1 * p.val = p.val; omega
  | ⟨2, _⟩ => show 0 + 1 * q.val = q.val; omega

/-- Dropping the leading axis of size one: row-column `(p, q)` is `(0, p, q)`. -/
theorem squeeze_ix (p : Fin 32) (q : Fin 256) :
    Shape.reshapeEquiv squeezes_S1x32x256_S32x256.numel_eq (ix2 p q) = (ix3 (0 : Fin 1) p q : S1x32x256.Idx) := by
  refine Shape.reshapeEquiv_eq_of_rowMajor _ ?_
  rw [Shape.rowMajor_val_three, Shape.rowMajor_val_two]
  show (0 * 32 + p.val) * 256 + q.val = p.val * 256 + q.val
  omega

theorem xband_emb (c : Fin 16) (p : Fin 32) (q : Fin 256) : (xband c).view.emb (ix2 p q) = ix2 (bandRow c p) q :=
  bandRect_emb c p q
theorem oband_emb (c : Fin 16) (p : Fin 32) (q : Fin 256) : (oband c).view.emb (ix2 p q) = ix2 (bandRow c p) q :=
  bandRect_emb c p q
theorem rslot_emb (k : Fin 16) (p : Fin 32) (q : Fin 256) : (rslot k).view.emb (ix2 p q) = ix3 k p q := by
  show (slotRect k).emb (Shape.reshapeEquiv squeezes_S1x32x256_S32x256.numel_eq (ix2 p q)) = _
  rw [squeeze_ix, slotRect_emb]

/-! ## What a landing leaves -/

theorem land1 (c k : Fin 16) (fd : Buf (Elt F) ((c : Thread nD τ).loc cc0_scratch0)) (X : Fin 16 → Vec F S512x256 .f32) :
    slotPts (F := F) c k ((rslot k).view.write (Elt F) fd ((xband c).view.read (Elt F) (X k)) Finset.univ) = slotPts c k (recvOf X c) := by
  unfold slotPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [View.write_emb_of_mem _ _ (Finset.mem_univ _), View.read_apply, xband_emb, rslot_emb]
  rfl

theorem land2 (c k : Fin 16) (fd : Buf (Elt F) ((c : Thread nD τ).loc cc0_stg1_0)) (X : Fin 16 → Vec F S512x256 .f32) :
    obandPts (F := F) c k ((oband k).view.write (Elt F) fd ((kM : Memref sig .tc .vmem S32x256 .f32).view.read (Elt F) (chunkOf X k)) Finset.univ)
      = obandPts c k (outOf X) := by
  unfold obandPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [View.write_emb_of_mem _ _ (Finset.mem_univ _), View.read_apply, oband_emb]
  show chunkOf X k (ix2 p q) = chunkOf X (bandOf (bandRow k p)) (ix2 (rowIn (bandRow k p)) q)
  rw [bandOf_bandRow, rowIn_bandRow]

/-! ## A device's own vector accesses to its parts -/

/-- What band `c`'s view reads of a block is the block's band `c`. -/
theorem read_xband (c : Fin 16) (f : Vec F S512x256 .f32) : (xband c).view.read (Elt F) f = band f c := by
  funext i
  obtain ⟨p, q, rfl⟩ : ∃ (p : Fin 32) (q : Fin 256), i = ix2 p q := ⟨i 0, i 1, eq_ix2 i⟩
  rw [View.read_apply, xband_emb]; rfl
theorem read_oband (c : Fin 16) (f : Vec F S512x256 .f32) : (oband c).view.read (Elt F) f = band f c := by
  funext i
  obtain ⟨p, q, rfl⟩ : ∃ (p : Fin 32) (q : Fin 256), i = ix2 p q := ⟨i 0, i 1, eq_ix2 i⟩
  rw [View.read_apply, oband_emb]; rfl

/-- The vector load of band `c` through its rectangle reads the block's band `c`. -/
theorem load_xband (c : Fin 16) (f : Vec F S512x256 .f32) :
    (xM : Memref sig .tc .vmem S512x256 .f32).view.readAt (Elt F) (bandRect c).toLoadRect f = band f c := read_xband c f
theorem load_oband (c : Fin 16) (f : Vec F S512x256 .f32) :
    (oM : Memref sig .tc .vmem S512x256 .f32).view.readAt (Elt F) (bandRect c).toLoadRect f = band f c := read_oband c f

/-- The elements an access through a part's rectangle touches are the part's. -/
theorem xband_setOn (c : Fin 16) : (xM : Memref sig .tc .vmem S512x256 .f32).view.setOn (bandRect c).toLoadRect.set = (xband c).view.set :=
  (View.set_slice _ _).symm
theorem oband_setOn (c : Fin 16) : (oM : Memref sig .tc .vmem S512x256 .f32).view.setOn (bandRect c).toLoadRect.set = (oband c).view.set :=
  (View.set_slice _ _).symm
theorem rslot_setOn (c : Fin 16) : (rM : Memref sig .tc .vmem S16x32x256 .f32).view.setOn (slotRect c).toLoadRect.set = (rslot c).view.set :=
  ((View.set_reshape _ _).trans (View.set_slice _ _)).symm
theorem oband_access_setOn (c : Fin 16) :
    ((oM : Memref sig .tc .vmem S512x256 .f32).access (bandRect c)).setOn Finset.univ = (oband c).view.set := rfl
theorem rslot_access_setOn (c : Fin 16) :
    ((rM : Memref sig .tc .vmem S16x32x256 .f32).access (slotRect c)).setOn Finset.univ = (rslot c).view.set :=
  (View.set_reshape _ _).symm

/-- A vector stored into slot `c` through its rectangle: the slot then holds, at `(c, p, q)`, the vector's `(0, p, q)`. -/
theorem store_rslot (c : Fin 16) (f f' : Buf (Elt F) ((c : Thread nD τ).loc cc0_scratch0)) (v : Vec F S1x32x256 .f32)
    (h : ∀ (p : Fin 32) (q : Fin 256), f' (ix3 c p q) = v (ix3 (0 : Fin 1) p q)) :
    slotPts (F := F) c c (((rM : Memref sig .tc .vmem S16x32x256 .f32).access (slotRect c)).write (Elt F) f v Finset.univ) = slotPts c c f' := by
  unfold slotPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [rslot_emb, h]
  have hw := View.write_emb_of_mem (v := ((rM : Memref sig .tc .vmem S16x32x256 .f32).access (slotRect c))) (Val := Elt F) f v
    (M := Finset.univ) (x := ix3 (0 : Fin 1) p q) (Finset.mem_univ _)
  rw [show ((rM : Memref sig .tc .vmem S16x32x256 .f32).access (slotRect c)).emb (ix3 (0 : Fin 1) p q) = ix3 c p q from slotRect_emb c 0 p q] at hw
  exact hw

/-- A vector stored into band `c` of the result buffer through its rectangle: the band then holds the vector. -/
theorem store_oband (c : Fin 16) (f f' : Buf (Elt F) ((c : Thread nD τ).loc cc0_stg1_0)) (v : Vec F S32x256 .f32)
    (h : ∀ (p : Fin 32) (q : Fin 256), f' (ix2 (bandRow c p) q) = v (ix2 p q)) :
    obandPts (F := F) c c (((oM : Memref sig .tc .vmem S512x256 .f32).access (bandRect c)).write (Elt F) f v Finset.univ) = obandPts c c f' := by
  unfold obandPts
  refine pointsTo_congr fun i hi => ?_
  obtain ⟨x, -, rfl⟩ := Finset.mem_map.mp hi
  obtain ⟨p, q, rfl⟩ : ∃ (p : Fin 32) (q : Fin 256), x = ix2 p q := ⟨x 0, x 1, eq_ix2 x⟩
  rw [oband_emb, h]
  have hw := View.write_emb_of_mem (v := ((oM : Memref sig .tc .vmem S512x256 .f32).access (bandRect c))) (Val := Elt F) f v
    (M := Finset.univ) (x := ix2 p q) (Finset.mem_univ _)
  rw [show ((oM : Memref sig .tc .vmem S512x256 .f32).access (bandRect c)).emb (ix2 p q) = ix2 (bandRow c p) q from bandRect_emb c p q] at hw
  exact hw

/-- The body's own store into its slot: the payload is band `c` of the device's block behind a unit axis. -/
theorem k0_pay1_apply (v : Vec F S32x256 .f32) (p : Fin 32) (q : Fin 256) : k0_pay1 v (ix3 (0 : Fin 1) p q) = v (ix2 p q) := by
  unfold k0_pay1
  rw [shapeCast_ab_1ab_apply, shapeCast_self]

theorem store_own_slot (c : Fin 16) (f : Buf (Elt F) ((c : Thread nD τ).loc cc0_scratch0)) (X : Fin 16 → Vec F S512x256 .f32) :
    slotPts (F := F) c c (((rM : Memref sig .tc .vmem S16x32x256 .f32).access (slotRect c)).write (Elt F) f (k0_pay1 (band (X c) c)) Finset.univ)
      = slotPts c c (recvOf X c) :=
  store_rslot c f _ _ fun p q => by rw [k0_pay1_apply]; rfl

theorem store_own_oband (c : Fin 16) (f : Buf (Elt F) ((c : Thread nD τ).loc cc0_stg1_0)) (X : Fin 16 → Vec F S512x256 .f32) :
    obandPts (F := F) c c (((oM : Memref sig .tc .vmem S512x256 .f32).access (bandRect c)).write (Elt F) f (chunkOf X c) Finset.univ)
      = obandPts c c (outOf X) :=
  store_oband c f _ _ fun p q => by
    show chunkOf X (bandOf (bandRow c p)) (ix2 (rowIn (bandRow c p)) q) = chunkOf X c (ix2 p q)
    rw [bandOf_bandRow, rowIn_bandRow]

/-! ## Whole-buffer accesses of the two scratch buffers -/

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl

theorem load_r_whole (h : ∀ a, (![0, 0, 0] : Fin 3 → Nat) a + S16x32x256.size a ≤ S16x32x256.size a)
    (f : (cc0_scratch0 : Ref sig .tc).ty.Contents (Elt F)) :
    (rM : Memref sig .tc .vmem S16x32x256 .f32).view.readAt (Elt F) (Rect.unit (s := S16x32x256) ![0, 0, 0] S16x32x256.size h).toLoadRect f = f :=
  Memref.readAt_unit_zero (Elt F) cc0_scratch0 zeros3 _ f
theorem load_k_whole (h : ∀ a, (![0, 0] : Fin 2 → Nat) a + S32x256.size a ≤ S32x256.size a)
    (f : (cc0_scratch1 : Ref sig .tc).ty.Contents (Elt F)) :
    (kM : Memref sig .tc .vmem S32x256 .f32).view.readAt (Elt F) (Rect.unit (s := S32x256) ![0, 0] S32x256.size h).toLoadRect f = f :=
  Memref.readAt_unit_zero (Elt F) cc0_scratch1 zeros2 _ f
theorem store_k_whole (h : ∀ a, (![0, 0] : Fin 2 → Nat) a + S32x256.size a ≤ S32x256.size a)
    (f w : (cc0_scratch1 : Ref sig .tc).ty.Contents (Elt F)) :
    ((kM : Memref sig .tc .vmem S32x256 .f32).access (Rect.unit (s := S32x256) ![0, 0] S32x256.size h)).write (Elt F) f w Finset.univ = w :=
  Memref.write_access_unit_zero_univ (Elt F) cc0_scratch1 zeros2 _ f w
theorem r_set : (rM : Memref sig .tc .vmem S16x32x256 .f32).view.set = Finset.univ := View.set_whole _
theorem k_set : (kM : Memref sig .tc .vmem S32x256 .f32).view.set = Finset.univ := View.set_whole _

end Cert.Kernel.Proto

end
-- ==== Proof.Bits.BlkSig.lean ====
/-
  The signals to the peers and the barrier wait.
-/
import proofs.«900783_g7700000000000784_dist_f_of_ar_i_m512_n256_v7x_i16_f32_1_alg».proof.Proof.Bits.BlockDefs
import proofs.«900783_g7700000000000784_dist_f_of_ar_i_m512_n256_v7x_i16_f32_1_alg».proof.Proof.Bits.Regions

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Blocks
variable (K : CIx → ℕ) (c : Dev nD) (n : ℕ)

/-- Splitting one summand off an iterated separating conjunction, and putting one in, with the conjunction written as the assertions of this file write it. -/
private theorem bigSep_take {I : Type} [DecidableEq I] {s : Finset I} {i : I} (hi : i ∈ s) (Φ : I → sProp 𝕄) :
    bigSep s Φ = iprop(Φ i ∗ bigSep (s.erase i) Φ) := bigSep_erase hi
private theorem bigSep_put {I : Type} [DecidableEq I] {s : Finset I} {i : I} (hi : i ∉ s) (Φ : I → sProp 𝕄) :
    bigSep (insert i s) Φ = iprop(Φ i ∗ bigSep s Φ) := bigSep_insert hi

/-- The records hold every cell's invariant and that every cell has reached round 0. -/
private theorem records_inv (K : CIx → ℕ) (ck : CIx) : records m ρ K ⊢ cellInv ER (Rd m ρ) (K ck) (kcell ck) := by
  unfold records
  iintro ⟨#Hinv, -⟩
  iapply (show (bigSep Finset.univ fun ck : CIx => (cellInv ER (Rd m ρ) (K ck) (kcell ck) : sProp 𝕄)) ⊢ cellInv ER (Rd m ρ) (K ck) (kcell ck)
    from bigSep_elim (Finset.mem_univ ck))
  iexact Hinv
private theorem records_reached (K : CIx → ℕ) (ck : CIx) : records m ρ K ⊢ reached ER (kcell ck) 0 := by
  unfold records
  iintro ⟨-, #Hrch⟩
  iapply (show (bigSep Finset.univ fun ck : CIx => (reached ER (kcell ck) 0 : sProp 𝕄)) ⊢ reached ER (kcell ck) 0
    from bigSep_elim (Finset.mem_univ ck))
  iexact Hrch

/-- A peer's bundle at launch is the signal's token and payload on top of the bundle after the signal; after the
    barrier wait it is the barrier's payload on top of that bundle. -/
private theorem peer_zero (c j : Dev nD) :
    peer m ρ c j 0 = iprop(dutyTok ER (barCell j) 0 c ∗ slotAny c j ∗ obandAny c j ∗ peer m ρ c j 1) := rfl
private theorem peer_two (c j : Dev nD) : peer m ρ c j 2 = iprop(barPay c j ∗ peer m ρ c j 1) := rfl

/-- What the device keeps for itself besides its barrier cell: its positions at the cells of its own index and its own parts. -/
private def globRest (c : Dev nD) : sProp 𝕄 :=
  iprop((bigSep Finset.univ fun a : Fin 4 => atPos ER (cell a c c) 0 ∅ 0) ∗ xbandPts c c (xin m ρ c) ∗ slotAny c c ∗ obandAny c c
    ∗ (∃ f : Buf (Elt F) ((c : Thread nD τ).loc cc0_scratch1), ((c : Thread nD τ).loc cc0_scratch1) ↦{fullShare} f))
private theorem glob_zero (c : Dev nD) :
    glob m ρ c 0 = iprop(atPos ER (barCell c) 0 ∅ 0 ∗ cred (tallyAt (barCell c) () 15) ∗ globRest m ρ c) := rfl
private theorem glob_one (c : Dev nD) : glob m ρ c 1 = iprop(atPos ER (barCell c) 1 ∅ 0 ∗ globRest m ρ c) := rfl

/-- The signal to peer `n`. -/
theorem blk_sig {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n) (hamt : (1#32 : BitVec 32).msb = false) :
    iprop(Mid m ρ K c 0 0 n (owed0 c n) ∗ (Mid m ρ K c 0 0 (n + 1) (owed0 c (n + 1)) -∗ WP c Kc Q))
      ⊢ WP c (if h : cond = 1#1 then (semSignalWord (⟨dev, hdev h⟩ : Dev nD) barS 1#32 hamt >>= fun _ => Kc) else Kc) Q := by
  subst hd
  subst hcond
  by_cases hc : (⟨dev, hn⟩ : Dev nD) = c
  · -- the device is peer dev itself: nothing runs, and the index sets do not move
    have hf : ¬ condw c dev = 1#1 := fun h => ((condw_iff c ⟨dev, hn⟩).mp h) hc
    have hv : c.val = dev := by rw [← hc]
    rw [dif_neg hf]
    unfold Mid owed0
    rw [Tn_step_eq c dev hv, Dn_step_eq c dev hv]
    iintro ⟨H, Hk⟩
    iapply Hk
    iexact H
  · -- peer j = dev is another device: the signal pays duty c of round 0 of j's barrier cell
    have ht : condw c dev = 1#1 := (condw_iff c ⟨dev, hn⟩).mpr hc
    rw [dif_pos ht]
    generalize hj : (⟨dev, hn⟩ : Dev nD) = j at hc
    have hjv : j.val = dev := by rw [← hj]
    have hcj : c ≠ j := fun e => hc e.symm
    have hmem : j ∈ Tn c dev := by rw [← hjv]; exact mem_Tn c j hc
    have hT : (Tn c dev).erase j = Tn c (dev + 1) := by rw [← hjv]; exact Tn_step_ne c j
    have hD : Dn c (dev + 1) = insert j (Dn c dev) := by rw [← hjv]; exact Dn_step_ne c j hc
    have hnD : j ∉ Dn c dev := by rw [← hjv]; exact not_mem_Dn c j
    have hO : owed0 c dev = owed0 c (dev + 1) + tallyAt (barCell j) () (1#32 : BitVec 32).toNat := by
      show owedFrom c (Tn c dev) _ _ = owedFrom c (Tn c (dev + 1)) _ _ + _
      rw [owedFrom_peel0 c j (Tn c dev) _ _ hmem, hT]; rfl
    simp only [semSignalWord, Prog.lift, Prog.bind_op, Prog.bind_ret, Prog.pure_eq_ret]
    unfold Mid
    rw [bigSep_take hmem, hT, hD, bigSep_put hnD, peer_zero m ρ c j]
    iintro ⟨⟨#Hrec, #Hlev, HD, ⟨⟨Htok, Hslot, Hob, HS1⟩, HT⟩, ⟨%W, HO⟩, Hg⟩, Hk⟩
    ihave #HI := (records_inv m ρ K (j, none)) $$ Hrec
    ihave #HR := (records_reached m ρ K (j, none)) $$ Hrec
    -- the token of duty c, and as its payload the device's own slot j and result band j
    iapply (Rounds.wp_signal 𝒱₀ ER (Rd m ρ) (c : Thread nD τ) none (dst := (j : Thread nD τ)) (sem := barS) (κ := K (j, none)) (r := 0)
        (d := c) (by rw [duties_bar]; exact Finset.mem_erase.mpr ⟨hcj, Finset.mem_univ _⟩) ((amount_bar m ρ j c).trans (by decide)) () (owed0 c (dev + 1)) hO)
      $$ [HO Htok Hslot Hob]
    · isplitr; · iexact HI
      isplitl [HO]; · iexact HO
      isplitl [Htok]; · iexact Htok
      isplitl [Hslot Hob]
      · rw [payload_bar]; unfold barPay
        isplitl [Hslot]; · iexact Hslot
        iexact Hob
      · iexact HR
    iintro HO
    iapply Hk
    isplitr; · iexact Hrec
    isplitr; · iexact Hlev
    isplitl [HD HS1]
    · isplitl [HS1]; · iexact HS1
      iexact HD
    isplitl [HT]; · iexact HT
    isplitl [HO]; · iexists W; iexact HO
    iexact Hg

/-- The barrier wait: every peer's signal has landed; the device may now write into every peer. -/
theorem step_barwait {α : Type} (Kc : Prog (TpuEff nD τ sig (Elt F) Λ₀ .tc) α) (Q : α → sProp 𝕄) (hamt : (15#32 : BitVec 32).msb = false) :
    iprop(Mid m ρ K c 0 0 16 (owed0 c 16) ∗ (Mid m ρ K c 2 1 0 (owed1 c 0) -∗ WP c Kc Q))
      ⊢ WP c (semWaitWord barS 15#32 hamt >>= fun _ => Kc) Q := by
  simp only [semWaitWord, Prog.lift, Prog.bind_op, Prog.bind_ret, Prog.pure_eq_ret]
  unfold Mid owed0 owed1
  rw [Dn_last, Tn_last, Dn_zero, Tn_zero, glob_zero, glob_one]
  iintro ⟨⟨#Hrec, #Hlev, HD, -, ⟨%W, HO⟩, Hat, Hcr, Hrest⟩, Hk⟩
  ihave #HI := (records_inv m ρ K (c, none)) $$ Hrec
  -- the credit of the fifteen signals covers the whole of round 0: the wait returns every peer's payload
  iapply (Rounds.wp_wait_rest_token 𝒱₀ ER (Rd m ρ) (c : Thread nD τ) none (κ := K (c, none)) (sm := .reg barS)
      (wpE_semWait_eq 𝒱₀ (c : Thread nD τ) none Set.univ) (Set.mem_univ _) ()
      (O := owedFrom c ∅ (Finset.univ.erase c) (Finset.univ.erase c)) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c (Finset.univ.erase c) (Finset.univ.erase c)); iexact Hlev
    iexact Hat
  iintro ⟨HO, Hat, -, Hpay⟩
  ihave Hp := (Entails.of_eq (rest_bar m ρ c)) $$ Hpay
  iapply Hk
  isplitr; · iexact Hrec
  isplitr; · iexact Hlev
  isplitr; · rw [bigSep_empty]; iempintro
  isplitl [HD Hp]
  · rw [bigSep_congr (fun j _ => peer_two m ρ c j), bigSep_sep']
    isplitl [Hp]; · iexact Hp
    iexact HD
  isplitl [HO]; · iexists _; iexact HO
  isplitl [Hat]; · iexact Hat
  iexact Hrest

end Blocks

/-- info: 'Cert.Kernel.Proto.blk_sig' depends on axioms: [propext, Classical.choice, Quot.sound] -/
#guard_msgs in #print axioms blk_sig
/-- info: 'Cert.Kernel.Proto.step_barwait' depends on axioms: [propext, Classical.choice, Quot.sound] -/
#guard_msgs in #print axioms step_barwait

end Cert.Kernel.Proto

end
-- ==== Proof.Bits.BlkSend.lean ====
/-
  The two transfers to a peer.
-/
import proofs.«900783_g7700000000000784_dist_f_of_ar_i_m512_n256_v7x_i16_f32_1_alg».proof.Proof.Bits.BlockDefs
import proofs.«900783_g7700000000000784_dist_f_of_ar_i_m512_n256_v7x_i16_f32_1_alg».proof.Proof.Bits.Regions

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Blocks
variable (K : CIx → ℕ) (c : Dev nD) (n : ℕ)

/-- A peer's bundle at the stages the two transfers start from and end in, written out. -/
theorem send_peer2 (j : Dev nD) : peer m ρ c j 2 = iprop(((∃ f, slotPts j c f) ∗ obandAny j c) ∗ xbandPts c j (xin m ρ c) ∗ dutyTok ER (cell 0 c j) 0 0
    ∗ dutyTok ER (cell 1 j c) 0 0 ∗ dutyTok ER (cell 2 c j) 0 0 ∗ dutyTok ER (cell 3 j c) 0 0
    ∗ posAt c j 0 0 ∗ posAt c j 1 0 ∗ posAt c j 2 0 ∗ posAt c j 3 0 ∗ credAt c j 1 ∗ credAt c j 3) := rfl
theorem send_peer3 (j : Dev nD) : peer m ρ c j 3 = iprop(obandAny j c ∗ credAt c j 0 ∗ dutyTok ER (cell 2 c j) 0 0 ∗ dutyTok ER (cell 3 j c) 0 0
    ∗ posAt c j 0 0 ∗ posAt c j 1 0 ∗ posAt c j 2 0 ∗ posAt c j 3 0 ∗ credAt c j 1 ∗ credAt c j 3) := rfl
theorem send_peer5 (j : Dev nD) : peer m ρ c j 5 = iprop(chunkPts c (shr j) (chunkOf (xin m ρ) c) ∗ posAt c j 1 1 ∗ (∃ f, obandPts j c f) ∗ credAt c j 0
    ∗ dutyTok ER (cell 2 c j) 0 0 ∗ dutyTok ER (cell 3 j c) 0 0 ∗ posAt c j 0 0 ∗ posAt c j 2 0 ∗ posAt c j 3 0 ∗ credAt c j 3) := rfl
theorem send_peer6 (j : Dev nD) : peer m ρ c j 6 = iprop(credAt c j 2 ∗ posAt c j 1 1 ∗ credAt c j 0 ∗ posAt c j 0 0 ∗ posAt c j 2 0 ∗ posAt c j 3 0
    ∗ credAt c j 3) := rfl

/-- One factor of the records: the invariant of a cell, and that it has reached round 0. -/
theorem send_inv_at (ck : CIx) :
    (bigSep Finset.univ fun ck : CIx => (cellInv ER (Rd m ρ) (K ck) (kcell ck) : sProp 𝕄)) ⊢ cellInv ER (Rd m ρ) (K ck) (kcell ck) :=
  bigSep_elim (Finset.mem_univ ck)
omit [FloatOps F] in
theorem send_reached_at (ck : CIx) :
    (bigSep Finset.univ fun ck : CIx => (reached ER (kcell ck) 0 : sProp 𝕄)) ⊢ reached ER (kcell ck) 0 :=
  bigSep_elim (Finset.mem_univ ck)

/-- The invariant of a transfer cell, under the name the launch gave it, out of the records. -/
theorem send_inv (a : Fin 4) (d : Dev nD) (i : Fin 16) :
    records m ρ K ⊢ cellInv ER (Rd m ρ) (K (d, some (a, i))) (cell a d i) := by
  unfold records
  iintro ⟨#HI, -⟩
  iapply (send_inv_at m ρ K (d, some (a, i)))
  iexact HI

/-- A transfer cell has reached round 0. -/
theorem send_reached (a : Fin 4) (d : Dev nD) (i : Fin 16) :
    records m ρ K ⊢ reached ER (cell a d i) 0 := by
  unfold records
  iintro ⟨-, #HR⟩
  iapply (send_reached_at (F := F) (d, some (a, i)))
  iexact HR

omit [FloatOps F] in
/-- Peer `j` taken out of the untreated peers, and put among the treated ones. -/
theorem send_Tn_split (Φ : Dev nD → sProp 𝕄) (j : Dev nD) (hj : j ≠ c) :
    bigSep (Tn c j.val) Φ = iprop(Φ j ∗ bigSep (Tn c (j.val + 1)) Φ) :=
  (bigSep_erase (mem_Tn c j hj)).trans (congrArg (fun s => iprop(Φ j ∗ bigSep s Φ)) (Tn_step_ne c j))
omit [FloatOps F] in
theorem send_Dn_join (Φ : Dev nD → sProp 𝕄) (j : Dev nD) (hj : j ≠ c) :
    bigSep (Dn c (j.val + 1)) Φ = iprop(Φ j ∗ bigSep (Dn c j.val) Φ) :=
  (congrArg (fun s => bigSep s Φ) (Dn_step_ne c j hj)).trans (bigSep_insert (not_mem_Dn c j))

/-- The first transfer for one peer: band `j` of the input block and slot `c` of `j`'s receive buffer go into the
    transfer, with the tokens of the send duty and of `j`'s receive duty; the send cell's credit comes back and the
    receive cell's term leaves what is owed. -/
theorem send1_peer {α : Type} (Q : α → sProp 𝕄) (j : Dev nD) (hj : j ≠ c) (O : CellTallies nD τ sig Unit) (W : Waits sig Unit)
    {hsc : (rslot c : Memref sig (Dev.tc j : Thread nD τ).2.kind .vmem S32x256 .f32).view.ref.isScScratch = false}
    {hws : (xband j : Memref sig .tc .vmem S32x256 .f32).view.WordExact} {hwd : (rslot c : Memref sig .tc .vmem S32x256 .f32).view.WordExact}
    {hty : DmaTarget.Typed .vmem (.dma (dsem 1 c)) (.remote (Dev.tc j : Thread nD τ) (rslot c) (.dma (dsem 0 j)) hsc)}
    (k : PUnit → Prog (TpuEff nD τ sig (Elt F) Λ₀ .tc) α) :
    iprop(records m ρ K ∗ peer m ρ c j 2 ∗ owes (c : Thread nD τ) (O + tallyAt (cell 1 j c) () N1) W
        ∗ ((peer m ρ c j 3 ∗ owes (c : Thread nD τ) O W) -∗ WP c (k ⟨⟩) Q))
      ⊢ WP c (.op (.enqueueDma (xband j) (.remote (Dev.tc j : Thread nD τ) (rslot c) (.dma (dsem 0 j)) hsc) (.dma (dsem 1 c)) hws hwd hty) k) Q := by
  rw [send_peer2, send_peer3]
  unfold xbandPts slotPts
  iintro ⟨#Hrec, ⟨⟨⟨%fd, Hslot⟩, Hob⟩, Hx, Ht0, Ht1, Ht2, Ht3, Hp0, Hp1, Hp2, Hp3, Hc1, Hc3⟩, HO, Hk⟩
  iapply (Rounds.wp_send_pointsTo 𝒱₀ ER (Rd m ρ) (c : Thread nD τ) none (c' := (j : Thread nD τ)) (src := xband j) (dst := rslot c)
      (q := fullShare) (fs := xin m ρ c) (fd := fd) (κ₁ := K (c, some (0, j))) (κ₂ := K (j, some (1, c)))
      (r₁ := 0) (r₂ := 0) (d₁ := (0 : Dev nD)) (d₂ := (0 : Dev nD))
      (by rw [duties_cell m ρ 0 c j hj]; exact Finset.mem_singleton_self _)
      (by rw [duties_cell m ρ 1 j c (Ne.symm hj)]; exact Finset.mem_singleton_self _)
      () () N1 rfl (amount_cell m ρ 0 c j 0) (amount_cell m ρ 1 j c 0) O rfl (W := W)
      (by rw [payload_cell]; exact BI.Entails.refl _)
      (by rw [payload_cell]; exact .of_eq (land1 j c fd (xin m ρ))))
    $$ [Hx Hslot HO Ht0 Ht1]
  · isplitr; · iapply (send_inv m ρ K 0 c j); iexact Hrec
    isplitr; · iapply (send_inv m ρ K 1 j c); iexact Hrec
    isplitl [Hx]; · iexact Hx
    isplitl [Hslot]; · iexact Hslot
    isplitl [HO]; · iexact HO
    isplitl [Ht0]; · iexact Ht0
    isplitr; · iapply (send_reached m ρ K 0 c j); iexact Hrec
    isplitl [Ht1]; · iexact Ht1
    iapply (send_reached m ρ K 1 j c); iexact Hrec
  iintro ⟨Hc0, HO⟩
  iapply Hk
  isplitr [HO]
  · isplitl [Hob]; · iexact Hob
    isplitl [Hc0]; · iexact Hc0
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Hc1]; · iexact Hc1
    iexact Hc3
  · iexact HO

/-- The first transfer to a peer `j ≠ c`, the views, the semaphores and the addressed device named by equations:
    peer `j`'s bundle leaves the untreated peers at stage 2 and joins the treated ones at stage 3, and the term of
    `j`'s receive cell leaves what is owed. -/
theorem send1_core {α : Type} (Kc : Prog (TpuEff nD τ sig (Elt F) Λ₀ .tc) α) (Q : α → sProp 𝕄) (j : Dev nD) (hj : j ≠ c)
    (t : Dev nD) (ht : t = j)
    (src : Memref sig .tc .vmem S32x256 .f32) (hsrc : src = xband j)
    (dst : Memref sig .tc .vmem S32x256 .f32) (hdst : dst = rslot c)
    (sS sR : DmaSem sig) (hS : sS = dsem 0 j) (hR : sR = dsem 1 c)
    (hws : src.view.WordExact) (hwd : dst.view.WordExact) (hsc : dst.view.ref.isScScratch = false)
    (hty : DmaTarget.Typed .vmem (.dma sR) (.remote (Dev.tc t : Thread nD τ) dst (.dma sS) hsc)) :
    iprop(Mid m ρ K c 2 1 j.val (owed1 c j.val) ∗ (Mid m ρ K c 2 1 (j.val + 1) (owed1 c (j.val + 1)) -∗ WP c Kc Q))
      ⊢ WP c (Prog.lift (.enqueueDma src (.remote (Dev.tc t : Thread nD τ) dst (.dma sS) hsc) (.dma sR) hws hwd hty) >>= fun _ => Kc) Q := by
  subst t src dst sS sR
  rw [Prog.bind_lift]
  have hO : owed1 c j.val = owed1 c (j.val + 1) + tallyAt (cell 1 j c) () N1 := by
    show owedFrom c ∅ (Tn c j.val) _ = owedFrom c ∅ (Tn c (j.val + 1)) _ + _
    rw [owedFrom_peel1 c j ∅ (Tn c j.val) _ (mem_Tn c j hj), Tn_step_ne]
  unfold Mid
  rw [hO, send_Tn_split c _ j hj, send_Dn_join c _ j hj]
  iintro ⟨⟨#Hrec, #Hlev, HD, ⟨Hp, HT⟩, ⟨%W, HO⟩, Hg⟩, Hk⟩
  iapply (send1_peer m ρ K c Q j hj (owed1 c (j.val + 1)) W (fun _ => Kc)) $$ [Hp HO HD HT Hg Hk]
  isplitr; · iexact Hrec
  isplitl [Hp]; · iexact Hp
  isplitl [HO]; · iexact HO
  iintro ⟨Hp, HO⟩
  iapply Hk
  isplitr; · iexact Hrec
  isplitr; · iexact Hlev
  isplitl [HD Hp]
  · isplitl [Hp]; · iexact Hp
    iexact HD
  isplitl [HT]; · iexact HT
  isplitl [HO]; · iexists W; iexact HO
  iexact Hg

/-- The first transfer to peer `n`. -/
theorem blk_send1 {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n)
    (o1 : Fin 1 → ℕ) (ho1 : o1 = ![c.val]) (hi1 : cond = 1#1 → ∀ a, o1 a + S1.size a ≤ S16.size a)
    (o2 : Fin 3 → ℕ) (ho2 : o2 = ![c.val, 0, 0]) (hi2 : cond = 1#1 → ∀ a, o2 a + S1x32x256.size a ≤ S16x32x256.size a)
    (os : Fin 1 → ℕ) (hos : os = ![n]) (his : ∀ a, os a + S1.size a ≤ S16.size a)
    (ox : Fin 2 → ℕ) (hox : ox = ![32 * n, 0]) (hix : ∀ a, ox a + S32x256.size a ≤ S512x256.size a)
    (hws : (bandAt xM ox hix).view.WordExact) (hwd : ∀ h : cond = 1#1, (rslotAt o2 (hi2 h)).view.WordExact)
    (hsc : ∀ h : cond = 1#1, (rslotAt o2 (hi2 h)).view.ref.isScScratch = false)
    (hty : ∀ h : cond = 1#1, DmaTarget.Typed .vmem (.dma (semAt cc0_scratch3 o1 (hi1 h)))
      (.remote (Dev.tc (⟨dev, hdev h⟩ : Dev nD)) (rslotAt o2 (hi2 h)) (.dma (semAt cc0_scratch2 os his)) (hsc h))) :
    iprop(Mid m ρ K c 2 1 n (owed1 c n) ∗ (Mid m ρ K c 2 1 (n + 1) (owed1 c (n + 1)) -∗ WP c Kc Q))
      ⊢ WP c (if h : cond = 1#1 then
          (Prog.lift (.enqueueDma (bandAt xM ox hix) (.remote (Dev.tc (⟨dev, hdev h⟩ : Dev nD)) (rslotAt o2 (hi2 h)) (.dma (semAt cc0_scratch2 os his)) (hsc h))
            (.dma (semAt cc0_scratch3 o1 (hi1 h))) hws (hwd h) (hty h)) >>= fun _ => Kc) else Kc) Q := by
  by_cases hc : (⟨n, hn⟩ : Dev nD) = c
  · -- the device is `n` itself: the condition is false, and no peer has index `n`
    have hf : ¬ cond = 1#1 := by rw [hcond]; exact fun h => (condw_iff c ⟨n, hn⟩).mp h hc
    have hv : c.val = n := by rw [← hc]
    have e : Mid m ρ K c 2 1 (n + 1) (owed1 c (n + 1)) = Mid m ρ K c 2 1 n (owed1 c n) := by
      unfold Mid
      rw [show owed1 c (n + 1) = owed1 c n from by show owedFrom c ∅ (Tn c (n + 1)) _ = owedFrom c ∅ (Tn c n) _; rw [Tn_step_eq c n hv],
        Tn_step_eq c n hv, Dn_step_eq c n hv]
    rw [dif_neg hf, e]
    iintro ⟨H, Hk⟩
    iapply Hk
    iexact H
  · -- the device is another: the transfer goes to peer `n`
    have ht : cond = 1#1 := by rw [hcond]; exact (condw_iff c ⟨n, hn⟩).mpr hc
    rw [dif_pos ht]
    exact send1_core m ρ K c Kc Q ⟨n, hn⟩ hc ⟨dev, hdev ht⟩ (Fin.ext hd) _ (xband_of ⟨n, hn⟩ ox hox hix) _ (rslot_of c o2 ho2 (hi2 ht)) _ _
      (dsem_of 0 ⟨n, hn⟩ os hos his) (dsem_of 1 c o1 ho1 (hi1 ht)) hws (hwd ht) (hsc ht) (hty ht)

/-- The second transfer for one peer: share `j` of the chunk buffer and band `c` of `j`'s result buffer go into the
    transfer, with the tokens of the send duty and of `j`'s receive duty; the send cell's credit comes back and the
    receive cell's term leaves what is owed. -/
theorem send2_peer {α : Type} (Q : α → sProp 𝕄) (j : Dev nD) (hj : j ≠ c) (O : CellTallies nD τ sig Unit) (W : Waits sig Unit)
    {hsc : (oband c : Memref sig (Dev.tc j : Thread nD τ).2.kind .vmem S32x256 .f32).view.ref.isScScratch = false}
    {hws : (kM : Memref sig .tc .vmem S32x256 .f32).view.WordExact} {hwd : (oband c : Memref sig .tc .vmem S32x256 .f32).view.WordExact}
    {hty : DmaTarget.Typed .vmem (.dma (dsem 3 c)) (.remote (Dev.tc j : Thread nD τ) (oband c) (.dma (dsem 2 j)) hsc)}
    (k : PUnit → Prog (TpuEff nD τ sig (Elt F) Λ₀ .tc) α) :
    iprop(records m ρ K ∗ peer m ρ c j 5 ∗ owes (c : Thread nD τ) (O + tallyAt (cell 3 j c) () N1) W
        ∗ ((peer m ρ c j 6 ∗ owes (c : Thread nD τ) O W) -∗ WP c (k ⟨⟩) Q))
      ⊢ WP c (.op (.enqueueDma kM (.remote (Dev.tc j : Thread nD τ) (oband c) (.dma (dsem 2 j)) hsc) (.dma (dsem 3 c)) hws hwd hty) k) Q := by
  rw [send_peer5, send_peer6]
  unfold chunkPts obandPts
  iintro ⟨#Hrec, ⟨Hch, Hp1, ⟨%fd, Hob⟩, Hc0, Ht2, Ht3, Hp0, Hp2, Hp3, Hc3⟩, HO, Hk⟩
  iapply (Rounds.wp_send_pointsTo 𝒱₀ ER (Rd m ρ) (c : Thread nD τ) none (c' := (j : Thread nD τ))
      (src := (kM : Memref sig .tc .vmem S32x256 .f32)) (dst := oband c)
      (q := shr j) (fs := chunkOf (xin m ρ) c) (fd := fd) (κ₁ := K (c, some (2, j))) (κ₂ := K (j, some (3, c)))
      (r₁ := 0) (r₂ := 0) (d₁ := (0 : Dev nD)) (d₂ := (0 : Dev nD))
      (by rw [duties_cell m ρ 2 c j hj]; exact Finset.mem_singleton_self _)
      (by rw [duties_cell m ρ 3 j c (Ne.symm hj)]; exact Finset.mem_singleton_self _)
      () () N1 rfl (amount_cell m ρ 2 c j 0) (amount_cell m ρ 3 j c 0) O rfl (W := W)
      (by rw [payload_cell]; exact BI.Entails.refl _)
      (by rw [payload_cell]; exact .of_eq (land2 j c fd (xin m ρ))))
    $$ [Hch Hob HO Ht2 Ht3]
  · isplitr; · iapply (send_inv m ρ K 2 c j); iexact Hrec
    isplitr; · iapply (send_inv m ρ K 3 j c); iexact Hrec
    isplitl [Hch]; · iexact Hch
    isplitl [Hob]; · iexact Hob
    isplitl [HO]; · iexact HO
    isplitl [Ht2]; · iexact Ht2
    isplitr; · iapply (send_reached m ρ K 2 c j); iexact Hrec
    isplitl [Ht3]; · iexact Ht3
    iapply (send_reached m ρ K 3 j c); iexact Hrec
  iintro ⟨Hc2, HO⟩
  iapply Hk
  isplitr [HO]
  · isplitl [Hc2]; · iexact Hc2
    isplitl [Hp1]; · iexact Hp1
    isplitl [Hc0]; · iexact Hc0
    isplitl [Hp0]; · iexact Hp0
    isplitl [Hp2]; · iexact Hp2
    isplitl [Hp3]; · iexact Hp3
    iexact Hc3
  · iexact HO

/-- The second transfer to a peer `j ≠ c`, the destination view, the semaphores and the addressed device named by
    equations: peer `j`'s bundle leaves the untreated peers at stage 5 and joins the treated ones at stage 6, and the
    term of `j`'s second receive cell leaves what is owed. -/
theorem send2_core {α : Type} (Kc : Prog (TpuEff nD τ sig (Elt F) Λ₀ .tc) α) (Q : α → sProp 𝕄) (j : Dev nD) (hj : j ≠ c)
    (t : Dev nD) (ht : t = j)
    (dst : Memref sig .tc .vmem S32x256 .f32) (hdst : dst = oband c)
    (sS sR : DmaSem sig) (hS : sS = dsem 2 j) (hR : sR = dsem 3 c)
    (hws : (kM : Memref sig .tc .vmem S32x256 .f32).view.WordExact) (hwd : dst.view.WordExact) (hsc : dst.view.ref.isScScratch = false)
    (hty : DmaTarget.Typed .vmem (.dma sR) (.remote (Dev.tc t : Thread nD τ) dst (.dma sS) hsc)) :
    iprop(Mid m ρ K c 5 3 j.val (owed3 c j.val) ∗ (Mid m ρ K c 5 3 (j.val + 1) (owed3 c (j.val + 1)) -∗ WP c Kc Q))
      ⊢ WP c (Prog.lift (.enqueueDma kM (.remote (Dev.tc t : Thread nD τ) dst (.dma sS) hsc) (.dma sR) hws hwd hty) >>= fun _ => Kc) Q := by
  subst t dst sS sR
  rw [Prog.bind_lift]
  have hO : owed3 c j.val = owed3 c (j.val + 1) + tallyAt (cell 3 j c) () N1 := by
    show owedFrom c ∅ ∅ (Tn c j.val) = owedFrom c ∅ ∅ (Tn c (j.val + 1)) + _
    rw [owedFrom_peel3 c j ∅ ∅ (Tn c j.val) (mem_Tn c j hj), Tn_step_ne]
  unfold Mid
  rw [hO, send_Tn_split c _ j hj, send_Dn_join c _ j hj]
  iintro ⟨⟨#Hrec, #Hlev, HD, ⟨Hp, HT⟩, ⟨%W, HO⟩, Hg⟩, Hk⟩
  iapply (send2_peer m ρ K c Q j hj (owed3 c (j.val + 1)) W (fun _ => Kc)) $$ [Hp HO HD HT Hg Hk]
  isplitr; · iexact Hrec
  isplitl [Hp]; · iexact Hp
  isplitl [HO]; · iexact HO
  iintro ⟨Hp, HO⟩
  iapply Hk
  isplitr; · iexact Hrec
  isplitr; · iexact Hlev
  isplitl [HD Hp]
  · isplitl [Hp]; · iexact Hp
    iexact HD
  isplitl [HT]; · iexact HT
  isplitl [HO]; · iexists W; iexact HO
  iexact Hg

/-- The second transfer to peer `n`. -/
theorem blk_send2 {α : Type} (Kc : Prog (TpuEff nD τ sig (Elt F) Λ₀ .tc) α) (Q : α → sProp 𝕄) (hn : n < 16) (cond : BitVec 1) (hcond : cond = condw c n) (dev : ℕ) (hdev : cond = 1#1 → dev < nD) (hd : dev = n)
    (o1 : Fin 1 → ℕ) (ho1 : o1 = ![c.val]) (hi1 : cond = 1#1 → ∀ a, o1 a + S1.size a ≤ S16.size a)
    (o2 : Fin 2 → ℕ) (ho2 : o2 = ![32 * c.val, 0]) (hi2 : cond = 1#1 → ∀ a, o2 a + S32x256.size a ≤ S512x256.size a)
    (os : Fin 1 → ℕ) (hos : os = ![n]) (his : ∀ a, os a + S1.size a ≤ S16.size a)
    (hws : (kM : Memref sig .tc .vmem S32x256 .f32).view.WordExact) (hwd : ∀ h : cond = 1#1, (bandAt oM o2 (hi2 h)).view.WordExact)
    (hsc : ∀ h : cond = 1#1, (bandAt oM o2 (hi2 h)).view.ref.isScScratch = false)
    (hty : ∀ h : cond = 1#1, DmaTarget.Typed .vmem (.dma (semAt cc0_scratch5 o1 (hi1 h)))
      (.remote (Dev.tc (⟨dev, hdev h⟩ : Dev nD)) (bandAt oM o2 (hi2 h)) (.dma (semAt cc0_scratch4 os his)) (hsc h))) :
    iprop(Mid m ρ K c 5 3 n (owed3 c n) ∗ (Mid m ρ K c 5 3 (n + 1) (owed3 c (n + 1)) -∗ WP c Kc Q))
      ⊢ WP c (if h : cond = 1#1 then
          (Prog.lift (.enqueueDma kM (.remote (Dev.tc (⟨dev, hdev h⟩ : Dev nD)) (bandAt oM o2 (hi2 h)) (.dma (semAt cc0_scratch4 os his)) (hsc h))
            (.dma (semAt cc0_scratch5 o1 (hi1 h))) hws (hwd h) (hty h)) >>= fun _ => Kc) else Kc) Q := by
  by_cases hc : (⟨n, hn⟩ : Dev nD) = c
  · -- the device is `n` itself: the condition is false, and no peer has index `n`
    have hf : ¬ cond = 1#1 := by rw [hcond]; exact fun h => (condw_iff c ⟨n, hn⟩).mp h hc
    have hv : c.val = n := by rw [← hc]
    have e : Mid m ρ K c 5 3 (n + 1) (owed3 c (n + 1)) = Mid m ρ K c 5 3 n (owed3 c n) := by
      unfold Mid
      rw [show owed3 c (n + 1) = owed3 c n from by show owedFrom c ∅ ∅ (Tn c (n + 1)) = owedFrom c ∅ ∅ (Tn c n); rw [Tn_step_eq c n hv],
        Tn_step_eq c n hv, Dn_step_eq c n hv]
    rw [dif_neg hf, e]
    iintro ⟨H, Hk⟩
    iapply Hk
    iexact H
  · -- the device is another: the transfer goes to peer `n`
    have ht : cond = 1#1 := by rw [hcond]; exact (condw_iff c ⟨n, hn⟩).mpr hc
    rw [dif_pos ht]
    exact send2_core m ρ K c Kc Q ⟨n, hn⟩ hc ⟨dev, hdev ht⟩ (Fin.ext hd) _ (oband_of c o2 ho2 (hi2 ht)) _ _
      (dsem_of 2 ⟨n, hn⟩ os hos his) (dsem_of 3 c o1 ho1 (hi1 ht)) hws (hwd ht) (hsc ht) (hty ht)

/-- info: 'Cert.Kernel.Proto.blk_send1' depends on axioms: [propext, Classical.choice, Quot.sound] -/
#guard_msgs in #print axioms blk_send1
/-- info: 'Cert.Kernel.Proto.blk_send2' depends on axioms: [propext, Classical.choice, Quot.sound] -/
#guard_msgs in #print axioms blk_send2

end Blocks

end Cert.Kernel.Proto

end
-- ==== Proof.Bits.BlkWait.lean ====
/-
  The waits: for a peer's two transfers, and for one's own two sends to it.
-/
import proofs.«900783_g7700000000000784_dist_f_of_ar_i_m512_n256_v7x_i16_f32_1_alg».proof.Proof.Bits.BlockDefs
import proofs.«900783_g7700000000000784_dist_f_of_ar_i_m512_n256_v7x_i16_f32_1_alg».proof.Proof.Bits.Regions

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants, out of the persistent records -/

/-- The invariant of the cell indexed `ck`, under the name it was allocated at. -/
theorem records_inv (K : CIx → ℕ) (ck : CIx) : records m ρ K ⊢ cellInv ER (Rd m ρ) (K ck) (kcell ck) := by
  unfold records
  exact Laws.sep_and.trans (and_elimL.trans (bigSep_elim (Finset.mem_univ ck)))

section Blocks
variable (K : CIx → ℕ) (c : Dev nD) (n : ℕ)

/-- The wait for peer `n`'s first transfer. -/
theorem blk_wait1 {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (src dst : Memref sig .tc .vmem S32x256 .f32) (hcr : dst.view.dmaCredit = N1) (hws : src.view.WordExact) (hwd : dst.view.WordExact) :
    iprop(Mid m ρ K c 3 2 n (owed3 c 0) ∗ (Mid m ρ K c 3 2 (n + 1) (owed3 c 0) -∗ WP c Kc Q))
      ⊢ WP c (if h : cond = 1#1 then (Prog.lift (.waitDma2 (semAt cc0_scratch3 os his) src dst hws hwd) >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 3 2 (j.val + 1) (owed3 c 0) = Mid m ρ K c 3 2 j.val (owed3 c 0) := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 3)
        = iprop(peer m ρ c j 3 ∗ bigSep (Tn c (j.val + 1)) (fun i => peer m ρ c i 3)) := by
      rw [bigSep_erase (mem_Tn c j hc), Tn_step_ne]; rfl
    have hD : bigSep (Dn c (j.val + 1)) (fun i => peer m ρ c i (3 + 1))
        = iprop(peer m ρ c j (3 + 1) ∗ bigSep (Dn c j.val) (fun i => peer m ρ c i (3 + 1))) := by
      rw [Dn_step_ne c j hc, bigSep_insert (not_mem_Dn c j)]; rfl
    have hp3 : peer m ρ c j 3 = iprop(obandAny j c ∗ credAt c j 0 ∗ dutyTok ER (cell 2 c j) 0 0 ∗ dutyTok ER (cell 3 j c) 0 0
        ∗ posAt c j 0 0 ∗ posAt c j 1 0 ∗ posAt c j 2 0 ∗ posAt c j 3 0 ∗ credAt c j 1 ∗ credAt c j 3) := rfl
    have hp4 : peer m ρ c j (3 + 1) = iprop(slotPts c j (recvOf (xin m ρ) c) ∗ posAt c j 1 1 ∗ obandAny j c ∗ credAt c j 0
        ∗ dutyTok ER (cell 2 c j) 0 0 ∗ dutyTok ER (cell 3 j c) 0 0 ∗ posAt c j 0 0 ∗ posAt c j 2 0 ∗ posAt c j 3 0 ∗ credAt c j 3) := rfl
    unfold Mid
    rw [hT, hD, hp3, hp4]
    iintro ⟨⟨#Hrec, #Hlev, HD, ⟨⟨Hob, Hc0, Ht2, Ht3, Hp0, Hp1, Hp2, Hp3, Hc1, Hc3⟩, HT⟩, ⟨%W, HO⟩, Hg⟩, Hk⟩
    ihave #HI := (records_inv m ρ K (c, some (1, j))) $$ Hrec
    -- the waited semaphore is the receive semaphore j of the first exchange, and the amount one transfer's credit
    rw [Prog.bind_lift, show semAt cc0_scratch3 os his = dsem 1 j from dsem_of 1 j os hos his]
    have hw : ∀ Kk : PUnit → sProp 𝕄, wpE (defs₀ (F := F)) 𝒱₀ (c : Thread nD τ) none Set.univ (.waitDma2 (dsem 1 j) src dst hws hwd) Kk
        = waitSpec (c : Thread nD τ) Set.univ (.dma (dsem 1 j)) N1 Kk := fun Kk =>
      (wpE_waitDma2_eq 𝒱₀ (c : Thread nD τ) none Set.univ Kk).trans (by rw [hcr])
    iapply (Rounds.wp_wait_rest_token 𝒱₀ ER (Rd m ρ) (c : Thread nD τ) none (κ := K (c, some (1, j)))
      hw (Set.mem_univ _) () (O := owed3 c 0) (W := W) (R := 0) (m := 0) (T := ∅)
      (by rw [Nat.zero_add]; exact (expect_cell m ρ 1 c j hc).symm)) $$ [Hc1 HO Hp1]
    · isplitr; · iexact HI
      isplitl [Hc1]; · iexact Hc1
      isplitl [HO]; · iexact HO
      isplitr; · iapply (mayWait_r1 c j (Tn c 0)); iexact Hlev
      iexact Hp1
    iintro ⟨HO, Hp1, -, Hpay⟩
    ihave Hs := (Entails.of_eq ((rest_cell m ρ 1 c j hc).trans (show dmaPay m ρ c 1 j = slotPts c j (recvOf (xin m ρ) c) from rfl))) $$ Hpay
    iapply Hk
    isplitr; · iexact Hrec
    isplitr; · iexact Hlev
    isplitl [HD Hs Hp1 Hob Hc0 Ht2 Ht3 Hp0 Hp2 Hp3 Hc3]
    · isplitr [HD]
      · isplitl [Hs]; · iexact Hs
        isplitl [Hp1]; · iexact Hp1
        isplitl [Hob]; · iexact Hob
        isplitl [Hc0]; · iexact Hc0
        isplitl [Ht2]; · iexact Ht2
        isplitl [Ht3]; · iexact Ht3
        isplitl [Hp0]; · iexact Hp0
        isplitl [Hp2]; · iexact Hp2
        isplitl [Hp3]; · iexact Hp3
        iexact Hc3
      · iexact HD
    isplitl [HT]; · iexact HT
    isplitl [HO]; · iexists _; iexact HO
    iexact Hg

/-- The wait for peer `n`'s chunk. -/
theorem blk_wait2 {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (src dst : Memref sig .tc .vmem S32x256 .f32) (hcr : dst.view.dmaCredit = N1) (hws : src.view.WordExact) (hwd : dst.view.WordExact) :
    iprop(Mid m ρ K c 6 4 n 0 ∗ (Mid m ρ K c 6 4 (n + 1) 0 -∗ WP c Kc Q))
      ⊢ WP c (if h : cond = 1#1 then (Prog.lift (.waitDma2 (semAt cc0_scratch5 os his) src dst hws hwd) >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 6 4 (j.val + 1) 0 = Mid m ρ K c 6 4 j.val 0 := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 6)
        = iprop(peer m ρ c j 6 ∗ bigSep (Tn c (j.val + 1)) (fun i => peer m ρ c i 6)) := by
      rw [bigSep_erase (mem_Tn c j hc), Tn_step_ne]; rfl
    have hD : bigSep (Dn c (j.val + 1)) (fun i => peer m ρ c i (6 + 1))
        = iprop(peer m ρ c j (6 + 1) ∗ bigSep (Dn c j.val) (fun i => peer m ρ c i (6 + 1))) := by
      rw [Dn_step_ne c j hc, bigSep_insert (not_mem_Dn c j)]; rfl
    have hp6 : peer m ρ c j 6 = iprop(credAt c j 2 ∗ posAt c j 1 1 ∗ credAt c j 0 ∗ posAt c j 0 0 ∗ posAt c j 2 0 ∗ posAt c j 3 0
        ∗ credAt c j 3) := rfl
    have hp7 : peer m ρ c j (6 + 1) = iprop(obandPts c j (outOf (xin m ρ)) ∗ posAt c j 3 1 ∗ credAt c j 2 ∗ posAt c j 1 1 ∗ credAt c j 0
        ∗ posAt c j 0 0 ∗ posAt c j 2 0) := rfl
    unfold Mid
    rw [hT, hD, hp6, hp7]
    iintro ⟨⟨#Hrec, #Hlev, HD, ⟨⟨Hc2, Hp1, Hc0, Hp0, Hp2, Hp3, Hc3⟩, HT⟩, ⟨%W, HO⟩, Hg⟩, Hk⟩
    ihave #HI := (records_inv m ρ K (c, some (3, j))) $$ Hrec
    -- the waited semaphore is the receive semaphore j of the second exchange, and the amount one transfer's credit
    rw [Prog.bind_lift, show semAt cc0_scratch5 os his = dsem 3 j from dsem_of 3 j os hos his]
    have hw : ∀ Kk : PUnit → sProp 𝕄, wpE (defs₀ (F := F)) 𝒱₀ (c : Thread nD τ) none Set.univ (.waitDma2 (dsem 3 j) src dst hws hwd) Kk
        = waitSpec (c : Thread nD τ) Set.univ (.dma (dsem 3 j)) N1 Kk := fun Kk =>
      (wpE_waitDma2_eq 𝒱₀ (c : Thread nD τ) none Set.univ Kk).trans (by rw [hcr])
    iapply (Rounds.wp_wait_rest_token 𝒱₀ ER (Rd m ρ) (c : Thread nD τ) none (κ := K (c, some (3, j)))
      hw (Set.mem_univ _) () (O := 0) (W := W) (R := 0) (m := 0) (T := ∅)
      (by rw [Nat.zero_add]; exact (expect_cell m ρ 3 c j hc).symm)) $$ [Hc3 HO Hp3]
    · isplitr; · iexact HI
      isplitl [Hc3]; · iexact Hc3
      isplitl [HO]; · iexact HO
      isplitr; · rw [MayWait_zero]; iempintro
      iexact Hp3
    iintro ⟨HO, Hp3, -, Hpay⟩
    ihave Hb := (Entails.of_eq ((rest_cell m ρ 3 c j hc).trans (show dmaPay m ρ c 3 j = obandPts c j (outOf (xin m ρ)) from rfl))) $$ Hpay
    iapply Hk
    isplitr; · iexact Hrec
    isplitr; · iexact Hlev
    isplitl [HD Hb Hp3 Hc2 Hp1 Hc0 Hp0 Hp2]
    · isplitr [HD]
      · isplitl [Hb]; · iexact Hb
        isplitl [Hp3]; · iexact Hp3
        isplitl [Hc2]; · iexact Hc2
        isplitl [Hp1]; · iexact Hp1
        isplitl [Hc0]; · iexact Hc0
        isplitl [Hp0]; · iexact Hp0
        iexact Hp2
      · iexact HD
    isplitl [HT]; · iexact HT
    isplitl [HO]; · iexists _; iexact HO
    iexact Hg

/-- The two send waits for peer `n`: the chunk share and the input band come back. -/
theorem blk_sendwait {α : Type} (Kc : Prog (TpuEff nD τ sig (Elt F) Λ₀ .tc) α) (Q : α → sProp 𝕄) (hn : n < 16) (cond : BitVec 1) (hcond : cond = condw c n)
    (os : Fin 1 → ℕ) (hos : os = ![n]) (his : ∀ a, os a + S1.size a ≤ S16.size a)
    (os' : Fin 1 → ℕ) (hos' : os' = ![n]) (his' : ∀ a, os' a + S1.size a ≤ S16.size a)
    (src dst src' dst' : Memref sig .tc .vmem S32x256 .f32) (hcr : dst.view.dmaCredit = N1) (hcr' : dst'.view.dmaCredit = N1)
    (hws : src.view.WordExact) (hwd : dst.view.WordExact) (hws' : src'.view.WordExact) (hwd' : dst'.view.WordExact) :
    iprop(Mid m ρ K c 7 4 n 0 ∗ (Mid m ρ K c 7 4 (n + 1) 0 -∗ WP c Kc Q))
      ⊢ WP c (if h : cond = 1#1 then
          (Prog.lift (.waitDma2 (semAt cc0_scratch4 os his) src dst hws hwd) >>= fun _ =>
           Prog.lift (.waitDma2 (semAt cc0_scratch2 os' his') src' dst' hws' hwd') >>= fun _ => Kc) else Kc) Q := by
  subst hcond
  obtain ⟨j, rfl⟩ : ∃ j : Dev nD, n = j.val := ⟨⟨n, hn⟩, rfl⟩
  by_cases hc : j = c
  · -- the device's own index: the condition is false and no peer changes stage
    rw [dif_neg ((condw_iff c j).not.mpr (not_not.mpr hc))]
    have hcv : c.val = j.val := by rw [hc]
    have hM : Mid m ρ K c 7 4 (j.val + 1) 0 = Mid m ρ K c 7 4 j.val 0 := by
      unfold Mid; rw [Tn_step_eq c j.val hcv, Dn_step_eq c j.val hcv]
    rw [hM]
    iintro ⟨H, Hk⟩
    iapply Hk; iexact H
  · rw [dif_pos ((condw_iff c j).mpr hc)]
    -- peer j leaves the untreated peers and joins the treated ones
    have hT : bigSep (Tn c j.val) (fun i => peer m ρ c i 7)
        = iprop(peer m ρ c j 7 ∗ bigSep (Tn c (j.val + 1)) (fun i => peer m ρ c i 7)) := by
      rw [bigSep_erase (mem_Tn c j hc), Tn_step_ne]; rfl
    have hD : bigSep (Dn c (j.val + 1)) (fun i => peer m ρ c i (7 + 1))
        = iprop(peer m ρ c j (7 + 1) ∗ bigSep (Dn c j.val) (fun i => peer m ρ c i (7 + 1))) := by
      rw [Dn_step_ne c j hc, bigSep_insert (not_mem_Dn c j)]; rfl
    have hp7 : peer m ρ c j 7 = iprop(obandPts c j (outOf (xin m ρ)) ∗ posAt c j 3 1 ∗ credAt c j 2 ∗ posAt c j 1 1 ∗ credAt c j 0
        ∗ posAt c j 0 0 ∗ posAt c j 2 0) := rfl
    have hp8 : peer m ρ c j (7 + 1) = iprop(chunkPts c (shr j) (chunkOf (xin m ρ) c) ∗ xbandPts c j (xin m ρ c) ∗ posAt c j 0 1 ∗ posAt c j 2 1
        ∗ obandPts c j (outOf (xin m ρ)) ∗ posAt c j 3 1 ∗ posAt c j 1 1) := rfl
    unfold Mid
    rw [hT, hD, hp7, hp8]
    iintro ⟨⟨#Hrec, #Hlev, HD, ⟨⟨Hb, Hp3, Hc2, Hp1, Hc0, Hp0, Hp2⟩, HT⟩, ⟨%W, HO⟩, Hg⟩, Hk⟩
    ihave #HI2 := (records_inv m ρ K (c, some (2, j))) $$ Hrec
    ihave #HI0 := (records_inv m ρ K (c, some (0, j))) $$ Hrec
    -- the first waited semaphore is the send semaphore j of the second exchange
    rw [Prog.bind_lift, show semAt cc0_scratch4 os his = dsem 2 j from dsem_of 2 j os hos his,
      show semAt cc0_scratch2 os' his' = dsem 0 j from dsem_of 0 j os' hos' his']
    have hw : ∀ Kk : PUnit → sProp 𝕄, wpE (defs₀ (F := F)) 𝒱₀ (c : Thread nD τ) none Set.univ (.waitDma2 (dsem 2 j) src dst hws hwd) Kk
        = waitSpec (c : Thread nD τ) Set.univ (.dma (dsem 2 j)) N1 Kk := fun Kk =>
      (wpE_waitDma2_eq 𝒱₀ (c : Thread nD τ) none Set.univ Kk).trans (by rw [hcr])
    have hw' : ∀ Kk : PUnit → sProp 𝕄, wpE (defs₀ (F := F)) 𝒱₀ (c : Thread nD τ) none Set.univ (.waitDma2 (dsem 0 j) src' dst' hws' hwd') Kk
        = waitSpec (c : Thread nD τ) Set.univ (.dma (dsem 0 j)) N1 Kk := fun Kk =>
      (wpE_waitDma2_eq 𝒱₀ (c : Thread nD τ) none Set.univ Kk).trans (by rw [hcr'])
    iapply (Rounds.wp_wait_rest_token 𝒱₀ ER (Rd m ρ) (c : Thread nD τ) none (κ := K (c, some (2, j)))
      hw (Set.mem_univ _) () (O := 0) (W := W) (R := 0) (m := 0) (T := ∅)
      (by rw [Nat.zero_add]; exact (expect_cell m ρ 2 c j hc).symm)) $$ [Hc2 HO Hp2]
    · isplitr; · iexact HI2
      isplitl [Hc2]; · iexact Hc2
      isplitl [HO]; · iexact HO
      isplitr; · rw [MayWait_zero]; iempintro
      iexact Hp2
    iintro ⟨HO, Hp2, -, Hpay⟩
    ihave Hk2 := (Entails.of_eq ((rest_cell m ρ 2 c j hc).trans (show dmaPay m ρ c 2 j = chunkPts c (shr j) (chunkOf (xin m ρ) c) from rfl))) $$ Hpay
    -- the second is the send semaphore j of the first exchange
    rw [Prog.bind_lift]
    iapply (Rounds.wp_wait_rest_token 𝒱₀ ER (Rd m ρ) (c : Thread nD τ) none (κ := K (c, some (0, j)))
      hw' (Set.mem_univ _) () (O := 0) (W := insert (SemLoc.dma (dsem 2 j), ()) W) (R := 0) (m := 0) (T := ∅)
      (by rw [Nat.zero_add]; exact (expect_cell m ρ 0 c j hc).symm)) $$ [Hc0 HO Hp0]
    · isplitr; · iexact HI0
      isplitl [Hc0]; · iexact Hc0
      isplitl [HO]; · iexact HO
      isplitr; · rw [MayWait_zero]; iempintro
      iexact Hp0
    iintro ⟨HO, Hp0, -, Hpay⟩
    ihave Hx := (Entails.of_eq ((rest_cell m ρ 0 c j hc).trans (show dmaPay m ρ c 0 j = xbandPts c j (xin m ρ c) from rfl))) $$ Hpay
    iapply Hk
    isplitr; · iexact Hrec
    isplitr; · iexact Hlev
    isplitl [HD Hk2 Hx Hp0 Hp2 Hb Hp3 Hp1]
    · isplitr [HD]
      · isplitl [Hk2]; · iexact Hk2
        isplitl [Hx]; · iexact Hx
        isplitl [Hp0]; · iexact Hp0
        isplitl [Hp2]; · iexact Hp2
        isplitl [Hb]; · iexact Hb
        isplitl [Hp3]; · iexact Hp3
        iexact Hp1
      · iexact HD
    isplitl [HT]; · iexact HT
    isplitl [HO]; · iexists _; iexact HO
    iexact Hg

end Blocks

/-- info: 'Cert.Kernel.Proto.blk_wait1' depends on axioms: [propext, Classical.choice, Quot.sound] -/
#guard_msgs in #print axioms blk_wait1

/-- info: 'Cert.Kernel.Proto.blk_wait2' depends on axioms: [propext, Classical.choice, Quot.sound] -/
#guard_msgs in #print axioms blk_wait2

/-- info: 'Cert.Kernel.Proto.blk_sendwait' depends on axioms: [propext, Classical.choice, Quot.sound] -/
#guard_msgs in #print axioms blk_sendwait

end Cert.Kernel.Proto

end
-- ==== Proof.Bits.BlkLocal.lean ====
/-
  The three local steps between the phases.
-/
import proofs.«900783_g7700000000000784_dist_f_of_ar_i_m512_n256_v7x_i16_f32_1_alg».proof.Proof.Bits.BlockDefs
import proofs.«900783_g7700000000000784_dist_f_of_ar_i_m512_n256_v7x_i16_f32_1_alg».proof.Proof.Bits.Regions

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own resources at the stages the local steps move between -/

theorem glob_1 (c : Dev nD) : glob m ρ c 1 = iprop(atPos ER (barCell c) 1 ∅ 0 ∗ (bigSep Finset.univ fun a : Fin 4 => atPos ER (cell a c c) 0 ∅ 0)
    ∗ xbandPts c c (xin m ρ c) ∗ slotAny c c ∗ obandAny c c
    ∗ (∃ f : Buf (Elt F) ((c : Thread nD τ).loc cc0_scratch1), ((c : Thread nD τ).loc cc0_scratch1) ↦{fullShare} f)) := rfl
theorem glob_2 (c : Dev nD) : glob m ρ c 2 = iprop(atPos ER (barCell c) 1 ∅ 0 ∗ (bigSep Finset.univ fun a : Fin 4 => atPos ER (cell a c c) 0 ∅ 0)
    ∗ xbandPts c c (xin m ρ c) ∗ slotPts c c (recvOf (xin m ρ) c) ∗ obandAny c c
    ∗ (∃ f : Buf (Elt F) ((c : Thread nD τ).loc cc0_scratch1), ((c : Thread nD τ).loc cc0_scratch1) ↦{fullShare} f)) := rfl
theorem glob_3 (c : Dev nD) : glob m ρ c 3 = iprop(atPos ER (barCell c) 1 ∅ 0 ∗ (bigSep Finset.univ fun a : Fin 4 => atPos ER (cell a c c) 0 ∅ 0)
    ∗ xbandPts c c (xin m ρ c) ∗ (((c : Thread nD τ).loc cc0_scratch0) ↦{fullShare} (recvOf (xin m ρ) c)) ∗ obandAny c c
    ∗ chunkPts c (shr c) (chunkOf (xin m ρ) c)) := rfl
theorem glob_4 (c : Dev nD) : glob m ρ c 4 = iprop(atPos ER (barCell c) 1 ∅ 0 ∗ (bigSep Finset.univ fun a : Fin 4 => atPos ER (cell a c c) 0 ∅ 0)
    ∗ xbandPts c c (xin m ρ c) ∗ (((c : Thread nD τ).loc cc0_scratch0) ↦{fullShare} (recvOf (xin m ρ) c)) ∗ obandPts c c (outOf (xin m ρ))
    ∗ chunkPts c (shr c) (chunkOf (xin m ρ) c)) := rfl

/-! ## A peer's bundle before and after the chunk is computed: the slot, then the share of the chunk buffer, beside the same rest -/

/-- What a peer's bundle holds at stages 4 and 5 beside the slot or the share. -/
def rest45 (c j : Dev nD) : sProp 𝕄 :=
  iprop(posAt c j 1 1 ∗ obandAny j c ∗ credAt c j 0 ∗ dutyTok ER (cell 2 c j) 0 0 ∗ dutyTok ER (cell 3 j c) 0 0
    ∗ posAt c j 0 0 ∗ posAt c j 2 0 ∗ posAt c j 3 0 ∗ credAt c j 3)

theorem peer_4 (c j : Dev nD) : peer m ρ c j (3 + 1) = iprop(slotPts c j (recvOf (xin m ρ) c) ∗ rest45 (F := F) c j) := rfl
theorem peer_5 (c j : Dev nD) : peer m ρ c j 5 = iprop(chunkPts c (shr j) (chunkOf (xin m ρ) c) ∗ rest45 (F := F) c j) := rfl

/-- The whole chunk buffer is the device's own share beside the fifteen peers' shares. -/
theorem chunk_shares (c : Dev nD) (f : Buf (Elt F) ((c : Thread nD τ).loc cc0_scratch1)) :
    ((((c : Thread nD τ).loc cc0_scratch1) ↦{fullShare} f : sProp 𝕄))
      ⊢ iprop(chunkPts c (shr c) f ∗ bigSep (Finset.univ.erase c) fun j : Fin 16 => chunkPts c (shr j) f) := by
  rw [← bigSep_univ_at (fun j : Fin 16 => chunkPts (F := F) c (shr j) f) c]
  exact (k_split c f).1

section Blocks
variable (K : CIx → ℕ) (c : Dev nD) (n : ℕ)

/-- The device's own band into its own slot. -/
theorem step_local1 {α : Type} (Kc : Prog (TpuEff nD τ sig (Elt F) Λ₀ .tc) α) (Q : α → sProp 𝕄) (ox : Fin 2 → ℕ) (hox : ox = ![32 * c.val, 0]) (hix : ∀ a, ox a + S32x256.size a ≤ S512x256.size a)
    (o2 : Fin 3 → ℕ) (ho2 : o2 = ![c.val, 0, 0]) (hi2 : ∀ a, o2 a + S1x32x256.size a ≤ S16x32x256.size a)
    (hl1 : (xM : Memref sig .tc .vmem S512x256 .f32).view.LoadsAt (Rect.unit (s := S512x256) ox S32x256.size hix).toLoadRect)
    (hl2 : (rM : Memref sig .tc .vmem S16x32x256 .f32).view.LoadsAt (Rect.unit (s := S16x32x256) o2 S1x32x256.size hi2).toLoadRect)
    (hst : ((rM : Memref sig .tc .vmem S16x32x256 .f32).access (Rect.unit (s := S16x32x256) o2 S1x32x256.size hi2)).Stores Finset.univ)
    (hm : (Finset.univ : Finset (Rect.unit (s := S16x32x256) o2 S1x32x256.size hi2).shape.Idx) = Finset.univ ∨ ∀ a, (Rect.unit (s := S16x32x256) o2 S1x32x256.size hi2).stride a = 1) :
    iprop(Mid m ρ K c 3 1 0 (owed3 c 0) ∗ (Mid m ρ K c 3 2 0 (owed3 c 0) -∗ WP c Kc Q))
      ⊢ WP c (Prog.lift (.load xM (Rect.unit (s := S512x256) ox S32x256.size hix).toLoadRect hl1) >>= fun v102 =>
          Prog.lift (.load rM (Rect.unit (s := S16x32x256) o2 S1x32x256.size hi2).toLoadRect hl2) >>= fun v105 =>
          Prog.lift (.store rM (Rect.unit (s := S16x32x256) o2 S1x32x256.size hi2) (k0_pay1 v102) Finset.univ hst hm) >>= fun _ => Kc) Q := by
  subst hox ho2
  simp only [Prog.lift, Prog.bind_op, Prog.bind_ret, Prog.pure_eq_ret]
  unfold Mid
  rw [glob_1, glob_2]
  iintro ⟨⟨#Hrec, #Hlev, HD, HT, HO, HatB, Hown, Hx, ⟨%f, Hs⟩, Ho, Hk⟩, Hcont⟩
  -- the own band of the input block is read: the value is band `c` of the block
  unfold xbandPts
  iapply (wp_load 𝒱₀ (c : Thread nD τ) none Set.univ (m := xM) (S := (xband c).view.set) (xband_setOn c).subset) $$ Hx; iintro Hx
  rw [show (xM : Memref sig .tc .vmem S512x256 .f32).view.readAt (Elt F) (Rect.unit (s := S512x256) ![32 * c.val, 0] S32x256.size hix).toLoadRect (xin m ρ c) = band (xin m ρ c) c from load_xband c _]
  -- the own slot is read (the value is not used) and overwritten with that band
  unfold slotPts
  iapply (wp_load 𝒱₀ (c : Thread nD τ) none Set.univ (m := rM) (S := (rslot c).view.set) (rslot_setOn c).subset) $$ Hs; iintro Hs
  iapply (wp_store 𝒱₀ (c : Thread nD τ) none Set.univ (m := rM) (r := slotRect c) (Mk := Finset.univ) (S := (rslot c).view.set) (rslot_access_setOn c).subset) $$ Hs; iintro Hs
  ihave Hs' : slotPts c c (recvOf (xin m ρ) c) $$ [Hs]
  · rw [← store_own_slot c f (xin m ρ)]; unfold slotPts; iexact Hs
  unfold slotPts
  iapply Hcont
  isplitr; · iexact Hrec
  isplitr; · iexact Hlev
  isplitl [HD]; · iexact HD
  isplitl [HT]; · iexact HT
  isplitl [HO]; · iexact HO
  isplitl [HatB]; · iexact HatB
  isplitl [Hown]; · iexact Hown
  isplitl [Hx]; · iexact Hx
  isplitl [Hs']; · iexact Hs'
  isplitl [Ho]; · iexact Ho
  iexact Hk

/-- The sum of the sixteen slots and the pointwise function, into the chunk buffer. -/
theorem step_local2 {α : Type} (Kc : Prog (TpuEff nD τ sig (Elt F) Λ₀ .tc) α) (Q : α → sProp 𝕄)
    (hl1 : (rM : Memref sig .tc .vmem S16x32x256 .f32).view.LoadsAt (Rect.unit (s := S16x32x256) ![0, 0, 0] S16x32x256.size inb_S16x32x256_S16x32x256_0_0_0).toLoadRect)
    (hl2 : (kM : Memref sig .tc .vmem S32x256 .f32).view.LoadsAt (Rect.unit (s := S32x256) ![0, 0] S32x256.size inb_S32x256_S32x256_0_0).toLoadRect)
    (hst : ((kM : Memref sig .tc .vmem S32x256 .f32).access (Rect.unit (s := S32x256) ![0, 0] S32x256.size inb_S32x256_S32x256_0_0)).Stores Finset.univ)
    (hm : (Finset.univ : Finset (Rect.unit (s := S32x256) ![0, 0] S32x256.size inb_S32x256_S32x256_0_0).shape.Idx) = Finset.univ ∨ ∀ a, (Rect.unit (s := S32x256) ![0, 0] S32x256.size inb_S32x256_S32x256_0_0).stride a = 1) :
    iprop(Mid m ρ K c 3 2 16 (owed3 c 0) ∗ (Mid m ρ K c 5 3 0 (owed3 c 0) -∗ WP c Kc Q))
      ⊢ WP c (Prog.lift (.load rM (Rect.unit (s := S16x32x256) ![0, 0, 0] S16x32x256.size inb_S16x32x256_S16x32x256_0_0_0).toLoadRect hl1) >>= fun v156 =>
          Prog.lift (.load kM (Rect.unit (s := S32x256) ![0, 0] S32x256.size inb_S32x256_S32x256_0_0).toLoadRect hl2) >>= fun v166 =>
          Prog.lift (.store kM (Rect.unit (s := S32x256) ![0, 0] S32x256.size inb_S32x256_S32x256_0_0) (k0_pay2 v156) Finset.univ hst hm) >>= fun _ => Kc) Q := by
  simp only [Prog.lift, Prog.bind_op, Prog.bind_ret, Prog.pure_eq_ret]
  unfold Mid
  rw [glob_2, glob_3, Dn_last, Tn_last, Dn_zero, Tn_zero, bigSep_empty, bigSep_empty,
    bigSep_congr (fun j _ => peer_4 m ρ c j), bigSep_congr (fun j _ => peer_5 m ρ c j), bigSep_sep', bigSep_sep']
  iintro ⟨⟨#Hrec, #Hlev, ⟨Hslots, Hrest⟩, HE, HO, HatB, Hown, Hx, Hs, Ho, ⟨%fk, Hk⟩⟩, Hcont⟩
  -- the sixteen slots, the own one and the fifteen peers', are the whole receive buffer
  ihave Hr : (((c : Thread nD τ).loc cc0_scratch0) ↦{fullShare} (recvOf (xin m ρ) c)) $$ [Hs Hslots]
  · rw [r_split, bigSep_univ_at _ c]
    isplitl [Hs]; · iexact Hs
    iexact Hslots
  -- it is read whole: the value is its contents
  iapply (wp_load 𝒱₀ (c : Thread nD τ) none Set.univ (m := rM) (S := Finset.univ) (Finset.subset_univ _)) $$ Hr; iintro Hr
  rw [load_r_whole]
  -- the chunk buffer is read (the value is not used) and overwritten whole with the chunk
  iapply (wp_load 𝒱₀ (c : Thread nD τ) none Set.univ (m := kM) (S := Finset.univ) (Finset.subset_univ _)) $$ Hk; iintro Hk
  iapply (wp_store 𝒱₀ (c : Thread nD τ) none Set.univ (m := kM) (r := Rect.unit (s := S32x256) ![0, 0] S32x256.size inb_S32x256_S32x256_0_0)
    (Mk := Finset.univ) (S := Finset.univ) (Finset.subset_univ _)) $$ Hk; iintro Hk
  rw [store_k_whole]
  -- the chunk buffer splits into its sixteen shares: the own one and the fifteen peers'
  have hk : ((((kM : Memref sig .tc .vmem S32x256 .f32).access (Rect.unit (s := S32x256) ![0, 0] S32x256.size inb_S32x256_S32x256_0_0)).loc (c : Thread nD τ)
        ↦{fullShare} k0_pay2 (recvOf (xin m ρ) c) : sProp 𝕄))
      ⊢ iprop(chunkPts c (shr c) (chunkOf (xin m ρ) c) ∗ bigSep (Finset.univ.erase c) fun j : Fin 16 => chunkPts c (shr j) (chunkOf (xin m ρ) c)) :=
    chunk_shares c (chunkOf (xin m ρ) c)
  ihave Hks := hk $$ Hk
  icases Hks with ⟨Hkc, Hkr⟩
  iapply Hcont
  isplitr; · iexact Hrec
  isplitr; · iexact Hlev
  isplitl [HE]; · iexact HE
  isplitl [Hkr Hrest]
  · isplitl [Hkr]; · iexact Hkr
    iexact Hrest
  isplitl [HO]; · iexact HO
  isplitl [HatB]; · iexact HatB
  isplitl [Hown]; · iexact Hown
  isplitl [Hx]; · iexact Hx
  isplitl [Hr]; · iexact Hr
  isplitl [Ho]; · iexact Ho
  iexact Hkc

/-- The chunk into the device's own band of the result. -/
theorem step_local3 {α : Type} (Kc : Prog (TpuEff nD τ sig (Elt F) Λ₀ .tc) α) (Q : α → sProp 𝕄) (ox : Fin 2 → ℕ) (hox : ox = ![32 * c.val, 0]) (hix : ∀ a, ox a + S32x256.size a ≤ S512x256.size a)
    (hl1 : (kM : Memref sig .tc .vmem S32x256 .f32).view.LoadsAt (Rect.unit (s := S32x256) ![0, 0] S32x256.size inb_S32x256_S32x256_0_0).toLoadRect)
    (hl2 : (oM : Memref sig .tc .vmem S512x256 .f32).view.LoadsAt (Rect.unit (s := S512x256) ox S32x256.size hix).toLoadRect)
    (hst : ((oM : Memref sig .tc .vmem S512x256 .f32).access (Rect.unit (s := S512x256) ox S32x256.size hix)).Stores Finset.univ)
    (hm : (Finset.univ : Finset (Rect.unit (s := S512x256) ox S32x256.size hix).shape.Idx) = Finset.univ ∨ ∀ a, (Rect.unit (s := S512x256) ox S32x256.size hix).stride a = 1) :
    iprop(Mid m ρ K c 6 3 0 0 ∗ (Mid m ρ K c 6 4 0 0 -∗ WP c Kc Q))
      ⊢ WP c (Prog.lift (.load kM (Rect.unit (s := S32x256) ![0, 0] S32x256.size inb_S32x256_S32x256_0_0).toLoadRect hl1) >>= fun v217 =>
          Prog.lift (.load oM (Rect.unit (s := S512x256) ox S32x256.size hix).toLoadRect hl2) >>= fun v220 =>
          Prog.lift (.store oM (Rect.unit (s := S512x256) ox S32x256.size hix) v217 Finset.univ hst hm) >>= fun _ => Kc) Q := by
  subst hox
  simp only [Prog.lift, Prog.bind_op, Prog.bind_ret, Prog.pure_eq_ret]
  unfold Mid
  rw [glob_3, glob_4]
  iintro ⟨⟨#Hrec, #Hlev, HD, HT, HO, HatB, Hown, Hx, Hr, ⟨%f, Ho⟩, Hk⟩, Hcont⟩
  -- the chunk is read through the device's own share of the chunk buffer: the value is the chunk
  unfold chunkPts
  iapply (wp_load 𝒱₀ (c : Thread nD τ) none Set.univ (m := kM) (S := (kM : Memref sig .tc .vmem S32x256 .f32).view.set)
    (by rw [k_set]; exact Finset.subset_univ _)) $$ Hk; iintro Hk
  rw [load_k_whole]
  -- the own band of the result is read (the value is not used) and overwritten with the chunk
  unfold obandPts
  iapply (wp_load 𝒱₀ (c : Thread nD τ) none Set.univ (m := oM) (S := (oband c).view.set) (oband_setOn c).subset) $$ Ho; iintro Ho
  iapply (wp_store 𝒱₀ (c : Thread nD τ) none Set.univ (m := oM) (r := bandRect c) (Mk := Finset.univ) (S := (oband c).view.set) (oband_access_setOn c).subset) $$ Ho; iintro Ho
  ihave Ho' : obandPts c c (outOf (xin m ρ)) $$ [Ho]
  · rw [← store_own_oband c f (xin m ρ)]; unfold obandPts; iexact Ho
  unfold obandPts
  iapply Hcont
  isplitr; · iexact Hrec
  isplitr; · iexact Hlev
  isplitl [HD]; · iexact HD
  isplitl [HT]; · iexact HT
  isplitl [HO]; · iexact HO
  isplitl [HatB]; · iexact HatB
  isplitl [Hown]; · iexact Hown
  isplitl [Hx]; · iexact Hx
  isplitl [Hr]; · iexact Hr
  isplitl [Ho']; · iexact Ho'
  iexact Hk

end Blocks

/-- info: 'Cert.Kernel.Proto.step_local1' depends on axioms: [propext, Classical.choice, Quot.sound] -/
#guard_msgs in #print axioms step_local1
/-- info: 'Cert.Kernel.Proto.step_local2' depends on axioms: [propext, Classical.choice, Quot.sound] -/
#guard_msgs in #print axioms step_local2
/-- info: 'Cert.Kernel.Proto.step_local3' depends on axioms: [propext, Classical.choice, Quot.sound] -/
#guard_msgs in #print axioms step_local3

end Cert.Kernel.Proto

end
-- ==== Proof.Bits.BlkEnds.lean ====
/-
  The two ends of the body: from what the region hands the body to the first intermediate state, and from the last to what the region takes back.
-/
import proofs.«900783_g7700000000000784_dist_f_of_ar_i_m512_n256_v7x_i16_f32_1_alg».proof.Proof.Bits.BlockDefs
import proofs.«900783_g7700000000000784_dist_f_of_ar_i_m512_n256_v7x_i16_f32_1_alg».proof.Proof.Bits.Regions

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index bookkeeping for the iterated separating conjunctions -/

omit [FloatOps F] in
/-- Over an option type: the member at none, and the members at the some's. -/
theorem bigSep_option {X : Type} [Fintype X] [DecidableEq X] (Φ : Option X → sProp 𝕄) :
    bigSep Finset.univ Φ = iprop(Φ none ∗ bigSep Finset.univ fun x : X => Φ (some x)) := by
  have h : (Finset.univ.erase (none : Option X)) = Finset.univ.map Function.Embedding.some := by
    ext o; cases o <;> simp
  rw [bigSep_univ_split none, h, bigSep_map]; rfl

omit [FloatOps F] in
/-- Over the four families. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

omit [FloatOps F] in
/-- A device's positions: that of its barrier cell, those of the four cells of its own index, and for every peer
    those of the four cells of the peer's index. -/
theorem positions_eq (c : Dev nD) : positions (F := F) c
    = iprop(atPos ER (barCell c) 0 ∅ 0 ∗ (bigSep Finset.univ fun a : Fin 4 => atPos ER (cell a c c) 0 ∅ 0)
        ∗ bigSep (Finset.univ.erase c) fun j => iprop(posAt c j 0 0 ∗ posAt c j 1 0 ∗ posAt c j 2 0 ∗ posAt c j 3 0)) := by
  unfold positions
  rw [bigSep_option, bigSep_univ_prod,
    bigSep_univ_comm (fun (a : Fin 4) (j : Fin 16) => (atPos ER (cell a c j) 0 ∅ 0 : sProp 𝕄)), bigSep_univ_split c]
  refine congrArg (fun P : sProp 𝕄 => iprop(atPos ER (barCell c) 0 ∅ 0 ∗ (bigSep Finset.univ fun a : Fin 4 => atPos ER (cell a c c) 0 ∅ 0) ∗ P)) ?_
  exact bigSep_congr fun j _ => bigSep_fin4 _

omit [FloatOps F] in
/-- Summand by summand. -/
theorem bigSep_mono_each {I : Type} {s : Finset I} {Φ Ψ : I → sProp 𝕄} (h : ∀ i ∈ s, Φ i ⊢ Ψ i) : bigSep s Φ ⊢ bigSep s Ψ :=
  bigSep_mono h

omit [FloatOps F] in
/-- One summand out of many. -/
theorem bigSep_at {I : Type} [DecidableEq I] {s : Finset I} {i : I} (hi : i ∈ s) (Φ : I → sProp 𝕄) : bigSep s Φ ⊢ Φ i :=
  bigSep_elim hi

/-- A peer's bundle at launch and at the end, written out. -/
theorem peer_zero (c j : Dev nD) : peer m ρ c j 0
    = iprop(dutyTok ER (barCell j) 0 c ∗ slotAny c j ∗ obandAny c j ∗ xbandPts c j (xin m ρ c) ∗ dutyTok ER (cell 0 c j) 0 0 ∗ dutyTok ER (cell 1 j c) 0 0
        ∗ dutyTok ER (cell 2 c j) 0 0 ∗ dutyTok ER (cell 3 j c) 0 0
        ∗ posAt c j 0 0 ∗ posAt c j 1 0 ∗ posAt c j 2 0 ∗ posAt c j 3 0 ∗ credAt c j 1 ∗ credAt c j 3) := rfl

theorem peer_eight (c j : Dev nD) : peer m ρ c j (7 + 1)
    = iprop(chunkPts c (shr j) (chunkOf (xin m ρ) c) ∗ xbandPts c j (xin m ρ c) ∗ posAt c j 0 1 ∗ posAt c j 2 1 ∗ obandPts c j (outOf (xin m ρ))
        ∗ posAt c j 3 1 ∗ posAt c j 1 1) := rfl

/-- The peers' bundles at launch, from the parts dealt kind by kind. -/
theorem peers_start (c : Dev nD) (fr : Buf (Elt F) ((c : Thread nD τ).loc cc0_scratch0)) (fo : Buf (Elt F) ((c : Thread nD τ).loc cc0_stg1_0)) :
    iprop((bigSep (Finset.univ.erase c) fun j => iprop(posAt c j 0 0 ∗ posAt c j 1 0 ∗ posAt c j 2 0 ∗ posAt c j 3 0))
      ∗ payToks c
      ∗ (bigSep (Finset.univ.erase c) fun k => iprop(cred (tallyAt (cell 1 c k) () N1) ∗ cred (tallyAt (cell 3 c k) () N1)))
      ∗ (bigSep (Finset.univ.erase c) fun j => xbandPts c j (xin m ρ c))
      ∗ (bigSep (Finset.univ.erase c) fun j => slotPts c j fr)
      ∗ (bigSep (Finset.univ.erase c) fun j => obandPts c j fo))
    ⊢ bigSep (Finset.univ.erase c) fun j => peer m ρ c j 0 := by
  unfold payToks
  rw [← bigSep_sep', ← bigSep_sep', ← bigSep_sep', ← bigSep_sep', ← bigSep_sep']
  refine bigSep_mono_each fun j _ => ?_
  rw [peer_zero]
  iintro ⟨⟨Hp0, Hp1, Hp2, Hp3⟩, ⟨Hb, Ht1, Ht3, Ht0, Ht2⟩, ⟨Hc1, Hc3⟩, Hx, Hs, Ho⟩
  isplitl [Hb]; · iexact Hb
  isplitl [Hs]; · iexists fr; iexact Hs
  isplitl [Ho]; · iexists fo; iexact Ho
  isplitl [Hx]; · iexact Hx
  isplitl [Ht0]; · iexact Ht0
  isplitl [Ht1]; · iexact Ht1
  isplitl [Ht2]; · iexact Ht2
  isplitl [Ht3]; · iexact Ht3
  isplitl [Hp0]; · iexact Hp0
  isplitl [Hp1]; · iexact Hp1
  isplitl [Hp2]; · iexact Hp2
  isplitl [Hp3]; · iexact Hp3
  isplitl [Hc1]; · iexact Hc1
  iexact Hc3

/-- The device's own resources at launch and at the end, written out. -/
theorem glob_zero (c : Dev nD) : glob m ρ c 0
    = iprop(atPos ER (barCell c) 0 ∅ 0 ∗ cred (tallyAt (barCell c) () 15) ∗ (bigSep Finset.univ fun a : Fin 4 => atPos ER (cell a c c) 0 ∅ 0)
        ∗ xbandPts c c (xin m ρ c) ∗ slotAny c c ∗ obandAny c c
        ∗ (∃ f : Buf (Elt F) ((c : Thread nD τ).loc cc0_scratch1), ((c : Thread nD τ).loc cc0_scratch1) ↦{fullShare} f)) := rfl

theorem glob_four (c : Dev nD) : glob m ρ c 4
    = iprop(atPos ER (barCell c) 1 ∅ 0 ∗ (bigSep Finset.univ fun a : Fin 4 => atPos ER (cell a c c) 0 ∅ 0)
        ∗ xbandPts c c (xin m ρ c) ∗ (((c : Thread nD τ).loc cc0_scratch0) ↦{fullShare} (recvOf (xin m ρ) c))
        ∗ obandPts c c (outOf (xin m ρ)) ∗ chunkPts c (shr c) (chunkOf (xin m ρ) c)) := rfl

theorem fetch_0 (t : Fin cfg0.N) : (cfg0.win (0 : Fin 2)).fetch t = true := by rw [fin_N t]; rfl

/-- A buffer as its part of the device's own index and the peers' parts. -/
theorem x_parts (c : Dev nD) (f : Buf (Elt F) ((c : Thread nD τ).loc cc0_stg0_0)) :
    ((((c : Thread nD τ).loc cc0_stg0_0) ↦{fullShare} f : sProp 𝕄)) = iprop(xbandPts c c f ∗ bigSep (Finset.univ.erase c) fun j => xbandPts c j f) := by
  rw [x_split, bigSep_univ_split c]; rfl
theorem o_parts (c : Dev nD) (f : Buf (Elt F) ((c : Thread nD τ).loc cc0_stg1_0)) :
    ((((c : Thread nD τ).loc cc0_stg1_0) ↦{fullShare} f : sProp 𝕄)) = iprop(obandPts c c f ∗ bigSep (Finset.univ.erase c) fun j => obandPts c j f) := by
  rw [o_split, bigSep_univ_split c]; rfl
theorem r_parts (c : Dev nD) (f : Buf (Elt F) ((c : Thread nD τ).loc cc0_scratch0)) :
    ((((c : Thread nD τ).loc cc0_scratch0) ↦{fullShare} f : sProp 𝕄)) = iprop(slotPts c c f ∗ bigSep (Finset.univ.erase c) fun j => slotPts c j f) := by
  rw [r_split, bigSep_univ_split c]; rfl

/-! ## Closing the transfer cells -/

/-- A transfer cell whose owner stands at a round from which no round has a duty closes at zero. -/
theorem close_at (K : CIx → ℕ) (c : Dev nD) (a : Fin 4) (j : Fin 16) (R : ℕ) (hR : ∀ r, R ≤ r → (Rd (F := F) m ρ).duties (cell a c j) r = ∅) :
    iprop(records m ρ K ∗ atPos ER (cell a c j) R ∅ 0) ⊢ |={Set.univ}=> semVal (cell a c j) 0 := by
  unfold records
  iintro ⟨⟨#Hinv, -⟩, Hat⟩
  ihave Hi := (bigSep_at (Finset.mem_univ ((c, some (a, j)) : CIx)) (fun ck : CIx => cellInv ER (Rd m ρ) (K ck) (kcell ck))) $$ Hinv
  iapply (Rounds.cell_close ER (Rd m ρ) (Set.mem_univ _) (fun h => h) hR)
  isplitr; · iexact Hi
  iexact Hat

/-- The four cells of a peer's index, each at round 1. -/
theorem close_peer (K : CIx → ℕ) (c j : Dev nD) :
    iprop(records m ρ K ∗ posAt c j 0 1 ∗ posAt c j 1 1 ∗ posAt c j 2 1 ∗ posAt c j 3 1)
      ⊢ |={Set.univ}=> bigSep Finset.univ (fun a : Fin 4 => (semVal (cell a c j) 0 : sProp 𝕄)) := by
  rw [bigSep_fin4]
  iintro ⟨#Hrec, H0, H1, H2, H3⟩
  imod (close_at m ρ K c 0 j 1 (duties_later m ρ _)) $$ [H0] with H0
  · isplitr; · iexact Hrec
    iexact H0
  imod (close_at m ρ K c 1 j 1 (duties_later m ρ _)) $$ [H1] with H1
  · isplitr; · iexact Hrec
    iexact H1
  imod (close_at m ρ K c 2 j 1 (duties_later m ρ _)) $$ [H2] with H2
  · isplitr; · iexact Hrec
    iexact H2
  imod (close_at m ρ K c 3 j 1 (duties_later m ρ _)) $$ [H3] with H3
  · isplitr; · iexact Hrec
    iexact H3
  imodintro
  isplitl [H0]; · iexact H0
  isplitl [H1]; · iexact H1
  isplitl [H2]; · iexact H2
  iexact H3

/-- The four cells of the device's own index, at round 0: no round of theirs has a duty. -/
theorem close_own (K : CIx → ℕ) (c : Dev nD) :
    iprop(records m ρ K ∗ bigSep Finset.univ (fun a : Fin 4 => atPos ER (cell a c c) 0 ∅ 0))
      ⊢ |={Set.univ}=> bigSep Finset.univ (fun a : Fin 4 => (semVal (cell a c c) 0 : sProp 𝕄)) := by
  have hR : ∀ (a : Fin 4) (r : ℕ), 0 ≤ r → (Rd (F := F) m ρ).duties (cell a c c) r = ∅ := by
    intro a r _
    cases r with
    | zero => exact duties_cell_self m ρ a c
    | succ r => exact duties_later m ρ _ _ (Nat.succ_le_succ (Nat.zero_le r))
  rw [bigSep_fin4, bigSep_fin4]
  iintro ⟨#Hrec, H0, H1, H2, H3⟩
  imod (close_at m ρ K c 0 c 0 (hR 0)) $$ [H0] with H0
  · isplitr; · iexact Hrec
    iexact H0
  imod (close_at m ρ K c 1 c 0 (hR 1)) $$ [H1] with H1
  · isplitr; · iexact Hrec
    iexact H1
  imod (close_at m ρ K c 2 c 0 (hR 2)) $$ [H2] with H2
  · isplitr; · iexact Hrec
    iexact H2
  imod (close_at m ρ K c 3 c 0 (hR 3)) $$ [H3] with H3
  · isplitr; · iexact Hrec
    iexact H3
  imodintro
  isplitl [H0]; · iexact H0
  isplitl [H1]; · iexact H1
  isplitl [H2]; · iexact H2
  iexact H3

omit [FloatOps F] in
/-- What is persistent is there for every summand. -/
theorem bigSep_with_persistent {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']
  iintro ⟨#HR, H⟩
  isplitr
  · iapply (bigSep_of_persistent S R); iexact HR
  iexact H

omit [FloatOps F] in
/-- Updates summand by summand are one update. -/
theorem bigSep_fupd_each {I : Type} (S : Finset I) (Φ : I → sProp 𝕄) :
    bigSep S (fun i => iprop(|={Set.univ}=> Φ i)) ⊢ |={(Set.univ : Set ℕ)}=> bigSep S Φ := bigSep_fupd S Φ

/-- Every peer's four cells. -/
theorem close_peers (K : CIx → ℕ) (c : Dev nD) :
    iprop(records m ρ K ∗ bigSep (Finset.univ.erase c) fun j => iprop(posAt c j 0 1 ∗ posAt c j 1 1 ∗ posAt c j 2 1 ∗ posAt c j 3 1))
      ⊢ |={Set.univ}=> bigSep (Finset.univ.erase c) fun j => bigSep Finset.univ (fun a : Fin 4 => (semVal (cell a c j) 0 : sProp 𝕄)) :=
  (bigSep_with_persistent _ _ _).trans ((bigSep_mono_each fun j _ => close_peer m ρ K c j).trans (bigSep_fupd_each _ _))

omit [FloatOps F] in
/-- The sixty-four semaphores: those of the own index, and the peers' four by four. -/
theorem semVals_eq (c : Dev nD) : (bigSep Finset.univ fun aj : Fin 4 × Fin 16 => (semVal (cell aj.1 c aj.2) 0 : sProp 𝕄))
    = iprop((bigSep Finset.univ fun a : Fin 4 => semVal (cell a c c) 0)
        ∗ bigSep (Finset.univ.erase c) fun j => bigSep Finset.univ fun a : Fin 4 => semVal (cell a c j) 0) := by
  rw [bigSep_univ_prod, bigSep_univ_comm (fun (a : Fin 4) (j : Fin 16) => (semVal (cell a c j) 0 : sProp 𝕄)), bigSep_univ_split c]
  rfl

/-- The peers' bundles at the end, kind by kind: the shares of the chunk buffer, the bands of the input block, the
    bands of the result, and the positions. -/
theorem peers_end (c : Dev nD) :
    (bigSep (Finset.univ.erase c) fun j => peer m ρ c j (7 + 1))
      ⊢ iprop((bigSep (Finset.univ.erase c) fun j => chunkPts c (shr j) (chunkOf (xin m ρ) c))
        ∗ (bigSep (Finset.univ.erase c) fun j => xbandPts c j (xin m ρ c))
        ∗ (bigSep (Finset.univ.erase c) fun j => obandPts c j (outOf (xin m ρ)))
        ∗ bigSep (Finset.univ.erase c) fun j => iprop(posAt c j 0 1 ∗ posAt c j 1 1 ∗ posAt c j 2 1 ∗ posAt c j 3 1)) := by
  rw [← bigSep_sep', ← bigSep_sep', ← bigSep_sep']
  refine bigSep_mono_each fun j _ => ?_
  rw [peer_eight]
  iintro ⟨Hk, Hx, Hp0, Hp2, Ho, Hp3, Hp1⟩
  isplitl [Hk]; · iexact Hk
  isplitl [Hx]; · iexact Hx
  isplitl [Ho]; · iexact Ho
  isplitl [Hp0]; · iexact Hp0
  isplitl [Hp1]; · iexact Hp1
  isplitl [Hp2]; · iexact Hp2
  iexact Hp3

/-- The chunk buffer whole again from its sixteen shares. -/
theorem k_join (c : Dev nD) (f : Buf (Elt F) ((c : Thread nD τ).loc cc0_scratch1)) :
    iprop(chunkPts c (shr c) f ∗ bigSep (Finset.univ.erase c) fun j => chunkPts c (shr j) f)
      ⊢ ((((c : Thread nD τ).loc cc0_scratch1) ↦{fullShare} f : sProp 𝕄)) :=
  (Entails.of_eq (bigSep_univ_split c (Φ := fun j : Fin 16 => chunkPts (F := F) c (shr j) f)).symm).trans (k_split c f).2

section Ends
variable (K : CIx → ℕ) (c : Dev nD)

/-- At entry: the buffers cut into their parts, the ghost state dealt to the peers' bundles. -/
theorem body_start {α : Type} (p : Prog (TpuEff nD τ sig (Elt F) Λ₀ .tc) α) (Q : α → sProp 𝕄) :
    iprop(bodyPre m ρ c ∗ (∀ K, Mid m ρ K c 0 0 0 (owed0 c 0) -∗ WP c p Q)) ⊢ WP c p Q := by
  unfold bodyPre Φ₀ start ghost creds
  rw [positions_eq]
  iintro ⟨⟨⟨⟨⟨%K, #Hrec, ⟨HpB, HpOwn, Hpos⟩, Htok⟩, ⟨HcB, Hcr⟩, #Hlev⟩, ⟨%fr, Hr⟩, Hk⟩, Ho, ⟨%d0, %g0, %hg0, Hx⟩, ⟨%d1, %g1, %hg1, Hout⟩⟩, Hcont⟩
  have hx : g0 = xin m ρ c := by rw [hg0]; unfold Dat.before; rw [if_pos (fetch_0 t₀)]; rfl
  subst hx
  unfold Dat.owesAt Pipeline.owesWithin
  icases Ho with ⟨%W, %hW, HO⟩
  ihave Hx' := (Entails.of_eq (x_parts c _)) $$ Hx; icases Hx' with ⟨Hxc, Hx⟩
  ihave Hr' := (Entails.of_eq (r_parts c _)) $$ Hr; icases Hr' with ⟨Hrc, Hr⟩
  ihave Ho' := (Entails.of_eq (o_parts c _)) $$ Hout; icases Ho' with ⟨Hoc, Hout⟩
  ihave Hpeers := (peers_start m ρ c fr g1) $$ [Hpos Htok Hcr Hx Hr Hout]
  · isplitl [Hpos]; · iexact Hpos
    isplitl [Htok]; · iexact Htok
    isplitl [Hcr]; · iexact Hcr
    isplitl [Hx]; · iexact Hx
    isplitl [Hr]; · iexact Hr
    iexact Hout
  ispecialize Hcont $$ %K
  iapply Hcont
  unfold Mid
  rw [Tn_zero, Dn_zero, bigSep_empty, glob_zero, show owed0 c 0 = (dats m ρ 0 c).owed t₀.castSucc from by
    show owedFrom c (Tn c 0) _ _ = O₀ c; rw [Tn_zero, O₀_eq]]
  isplitr; · iexact Hrec
  isplitr; · iexact Hlev
  isplitr; · iempintro
  isplitl [Hpeers]; · iexact Hpeers
  isplitl [HO]; · iexists W; iexact HO
  isplitl [HpB]; · iexact HpB
  isplitl [HcB]; · iexact HcB
  isplitl [HpOwn]; · iexact HpOwn
  isplitl [Hxc]; · iexact Hxc
  isplitl [Hrc]; · iexists fr; iexact Hrc
  isplitl [Hoc]; · iexists g1; iexact Hoc
  iexact Hk

/-- At exit: the sixty-four transfer cells closed at zero, the buffers put together again. -/
theorem body_end : Mid m ρ K c 7 4 16 0 ⊢ |={Set.univ}=> bodyPost m ρ c := by
  unfold Mid
  rw [Dn_last, Tn_last, bigSep_empty, glob_four]
  iintro ⟨#Hrec, #Hlev, Hpeers, -, ⟨%W, HO⟩, HpB, HpOwn, Hxc, Hr, Hoc, Hkc⟩
  ihave Hp := (peers_end m ρ c) $$ Hpeers
  icases Hp with ⟨Hk, Hx, Ho, Hpos⟩
  imod (close_peers m ρ K c) $$ [Hpos] with Hsv
  · isplitr; · iexact Hrec
    iexact Hpos
  imod (close_own m ρ K c) $$ [HpOwn] with Hsc
  · isplitr; · iexact Hrec
    iexact HpOwn
  imodintro
  unfold bodyPost Φ₁ Dat.owesAt Pipeline.owesWithin
  isplitl [Hr Hk Hkc Hsv Hsc]
  · isplitl [Hr]; · iexists _; iexact Hr
    isplitl [Hk Hkc]
    · iexists (chunkOf (xin m ρ) c)
      iapply (k_join c _)
      isplitl [Hkc]; · iexact Hkc
      iexact Hk
    iapply (Entails.of_eq (semVals_eq c).symm)
    isplitl [Hsc]; · iexact Hsc
    iexact Hsv
  isplitl [HO]
  · iexists W
    isplitr; · ipureintro; exact fun _ _ => Or.inl trivial
    iexact HO
  isplitl [Hxc Hx]
  · iexists _; isplitr; · (ipureintro; rfl)
    iapply (Entails.of_eq (x_parts c _).symm)
    isplitl [Hxc]; · iexact Hxc
    iexact Hx
  iexists _; isplitr; · (ipureintro; rfl)
  iapply (Entails.of_eq (o_parts c _).symm)
  isplitl [Hoc]; · iexact Hoc
  iexact Ho

end Ends

end Cert.Kernel.Proto

end
-- ==== Proof.Bits.Stubs.lean ====
/-
  The body's steps, gathered: the signals and the barrier wait, the two transfers, the waits, the three local steps, the two ends.
-/
import proofs.«900783_g7700000000000784_dist_f_of_ar_i_m512_n256_v7x_i16_f32_1_alg».proof.Proof.Bits.BlkSig
import proofs.«900783_g7700000000000784_dist_f_of_ar_i_m512_n256_v7x_i16_f32_1_alg».proof.Proof.Bits.BlkSend
import proofs.«900783_g7700000000000784_dist_f_of_ar_i_m512_n256_v7x_i16_f32_1_alg».proof.Proof.Bits.BlkWait
import proofs.«900783_g7700000000000784_dist_f_of_ar_i_m512_n256_v7x_i16_f32_1_alg».proof.Proof.Bits.BlkLocal
import proofs.«900783_g7700000000000784_dist_f_of_ar_i_m512_n256_v7x_i16_f32_1_alg».proof.Proof.Bits.BlkEnds
-- ==== Proof.Bits.Macros.lean ====
/-
  Short names for the repeated steps of the body's chain: one line per conditional block, naming the block's
  index; the printed names of its condition, device and offsets are made from the index.
-/
import proofs.«900783_g7700000000000784_dist_f_of_ar_i_m512_n256_v7x_i16_f32_1_alg».proof.Proof.Bits.Stubs

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (c : Dev nD) {α β : Type}

/-- Reading the device's index is a step that changes nothing. -/
theorem WP_deviceId (k : Dev nD → Prog (TpuEff nD τ sig (Elt F) Λ₀ .tc) α) (Q : α → sProp 𝕄) :
    WP c (Prog.lift .deviceId >>= k) Q = WP c (k c) Q := by
  simp only [WP, Prog.lift, Prog.bind_op, Prog.bind_ret, wp_deviceId]

theorem WP_bind (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ p k Q

theorem WP_pure (a : α) (Q : α → sProp 𝕄) : Q a ⊢ WP c (pure a : Prog (TpuEff nD τ sig (Elt F) Λ₀ .tc) α) Q := by
  show Q a ⊢ wp frame (wpE (defs₀ (F := F)) 𝒱₀ (c : Thread nD τ) none) Set.univ (.ret a) Q
  rw [wp_ret]; iintro H; imodintro; iexact H
end

section
variable (K : CIx → ℕ) (c : Dev nD)

/-- Between two phases: every peer has been treated, so all are one stage further and none is ahead. -/
theorem Mid_next (s g : ℕ) (O O' : CellTallies nD τ sig Unit) (h : O = O') (R : sProp 𝕄) :
    iprop(Mid m ρ K c s g 16 O ∗ (Mid m ρ K c (s + 1) g 0 O' -∗ R)) ⊢ R := by
  subst h
  unfold Mid; rw [Dn_last, Tn_last, Dn_zero, Tn_zero]
  iintro ⟨⟨#Hr, #Hl, HD, HT, Ho, Hg⟩, Hk⟩
  iapply Hk
  isplitr; · iexact Hr
  isplitr; · iexact Hl
  isplitl [HT]; · iexact HT
  isplitl [HD]; · iexact HD
  isplitl [Ho]; · iexact Ho
  iexact Hg

theorem owed1_last : owed1 c 16 = owed3 c 0 := by
  show owedFrom c ∅ (Tn c 16) (Finset.univ.erase c) = owedFrom c ∅ ∅ (Tn c 0)
  rw [Tn_last, Tn_zero]
theorem owed3_last : owed3 c 16 = 0 := by
  show owedFrom c ∅ ∅ (Tn c 16) = 0
  rw [Tn_last]; exact owedFrom_empty c
end

open Lean in
/-- The chain's hypothesis `H` holds the state; each step consumes it and introduces the next under the same name. -/
macro "next_state" : tactic => do
  let H := mkIdent (Name.mkSimple "H")
  `(tactic| (isplitl [$H:ident]; · iexact $H:ident
             iintro $H:ident))

open Lean in
macro "sig_blk" n:num : tactic => do
  let i := n.getNat + 1
  let m := mkIdent (Name.mkSimple "m"); let ρ := mkIdent (Name.mkSimple "ρ"); let K := mkIdent (Name.mkSimple "K"); let c := mkIdent (Name.mkSimple "c")
  let cond := mkIdent (Name.mkSimple s!"k0_cond{i}")
  let dev := mkIdent (Name.mkSimple s!"k0_dev{i}")
  let devlt := mkIdent (Name.mkSimple s!"k0_dev{i}_lt")
  let deveq := mkIdent (Name.mkSimple s!"k0_dev{i}_eq")
  `(tactic| (iapply (blk_sig $m $ρ $K $c $n _ _ (by decide) ($cond $c) rfl $dev ($devlt $c) $deveq hamt_1); next_state))

open Lean in
macro "send1_blk" n:num : tactic => do
  let j := n.getNat
  let m := mkIdent (Name.mkSimple "m"); let ρ := mkIdent (Name.mkSimple "ρ"); let K := mkIdent (Name.mkSimple "K"); let c := mkIdent (Name.mkSimple "c")
  let cond := mkIdent (Name.mkSimple s!"k0_cond{17 + j}")
  let dev := mkIdent (Name.mkSimple s!"k0_dev{17 + j}")
  let devlt := mkIdent (Name.mkSimple s!"k0_dev{17 + j}_lt")
  let deveq := mkIdent (Name.mkSimple s!"k0_dev{17 + j}_eq")
  let o1 := mkIdent (Name.mkSimple s!"k0_off{1 + 2 * j}"); let o1eq := mkIdent (Name.mkSimple s!"k0_off{1 + 2 * j}_eq"); let o1inb := mkIdent (Name.mkSimple s!"k0_off{1 + 2 * j}_inb")
  let o2 := mkIdent (Name.mkSimple s!"k0_off{2 + 2 * j}"); let o2eq := mkIdent (Name.mkSimple s!"k0_off{2 + 2 * j}_eq"); let o2inb := mkIdent (Name.mkSimple s!"k0_off{2 + 2 * j}_inb")
  `(tactic| (iapply (blk_send1 $m $ρ $K $c $n _ _ (by decide) ($cond $c) rfl $dev ($devlt $c) $deveq ($o1 $c) ($o1eq $c) ($o1inb $c) ($o2 $c) ($o2eq $c) ($o2inb $c)
      _ rfl _ _ rfl _ _ _ _ _); next_state))

open Lean in
macro "send2_blk" n:num : tactic => do
  let j := n.getNat
  let m := mkIdent (Name.mkSimple "m"); let ρ := mkIdent (Name.mkSimple "ρ"); let K := mkIdent (Name.mkSimple "K"); let c := mkIdent (Name.mkSimple "c")
  let cond := mkIdent (Name.mkSimple s!"k0_cond{49 + j}")
  let dev := mkIdent (Name.mkSimple s!"k0_dev{33 + j}")
  let devlt := mkIdent (Name.mkSimple s!"k0_dev{33 + j}_lt")
  let deveq := mkIdent (Name.mkSimple s!"k0_dev{33 + j}_eq")
  let o1 := mkIdent (Name.mkSimple s!"k0_off{35 + 2 * j}"); let o1eq := mkIdent (Name.mkSimple s!"k0_off{35 + 2 * j}_eq"); let o1inb := mkIdent (Name.mkSimple s!"k0_off{35 + 2 * j}_inb")
  let o2 := mkIdent (Name.mkSimple s!"k0_off{36 + 2 * j}"); let o2eq := mkIdent (Name.mkSimple s!"k0_off{36 + 2 * j}_eq"); let o2inb := mkIdent (Name.mkSimple s!"k0_off{36 + 2 * j}_inb")
  `(tactic| (iapply (blk_send2 $m $ρ $K $c $n _ _ (by decide) ($cond $c) rfl $dev ($devlt $c) $deveq ($o1 $c) ($o1eq $c) ($o1inb $c) ($o2 $c) ($o2eq $c) ($o2inb $c)
      _ rfl _ _ _ _ _); next_state))

open Lean in
macro "wait1_blk" n:num : tactic => do
  let m := mkIdent (Name.mkSimple "m"); let ρ := mkIdent (Name.mkSimple "ρ"); let K := mkIdent (Name.mkSimple "K"); let c := mkIdent (Name.mkSimple "c")
  `(tactic| (iapply (blk_wait1 $m $ρ $K $c $n _ _ (by decide) _ rfl _ rfl _ _ (rslotAt ![$n, 0, 0] _) rfl _ _); next_state))

open Lean in
macro "wait2_blk" n:num : tactic => do
  let m := mkIdent (Name.mkSimple "m"); let ρ := mkIdent (Name.mkSimple "ρ"); let K := mkIdent (Name.mkSimple "K"); let c := mkIdent (Name.mkSimple "c")
  let r := Syntax.mkNumLit (toString (32 * n.getNat))
  `(tactic| (iapply (blk_wait2 $m $ρ $K $c $n _ _ (by decide) _ rfl _ rfl _ _ (bandAt oM ![$r, 0] _) rfl _ _); next_state))

open Lean in
macro "sendwait_blk" n:num : tactic => do
  let m := mkIdent (Name.mkSimple "m"); let ρ := mkIdent (Name.mkSimple "ρ"); let K := mkIdent (Name.mkSimple "K"); let c := mkIdent (Name.mkSimple "c")
  let r := Syntax.mkNumLit (toString (32 * n.getNat))
  `(tactic| (iapply (blk_sendwait $m $ρ $K $c $n _ _ (by decide) _ rfl _ rfl _ _ rfl _ _ kM _ (bandAt xM ![$r, 0] _) rfl rfl _ _ _ _); next_state))

end Cert.Kernel.Proto

end
-- ==== Proof.Bits.Part1.lean ====
/-
  The body's first part: the signals to peers 0 … 7.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part1_spec (K : CIx → ℕ) (c : Dev nD) (Q : (Σ' (d0 : Dev nD) (v2 : BitVec 32), Sems sig S_) → sProp 𝕄) :
    iprop(Mid m ρ K c 0 0 0 (owed0 c 0) ∗ (Mid m ρ K c 0 0 8 (owed0 c 8) -∗ Q ⟨c, v2w c, v3b⟩))
      ⊢ WP c (k0_part1 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5) Q := by
  unfold v2w
  rw [k0_part1_eq_skeleton]; unfold k0_part1_skel
  rw [WP_deviceId]
  iintro ⟨H, Hk⟩
  sig_blk 0
  sig_blk 1
  sig_blk 2
  sig_blk 3
  sig_blk 4
  sig_blk 5
  sig_blk 6
  sig_blk 7
  iapply (WP_pure c)
  iapply Hk; iexact H

end Cert.Kernel.Proto

end
-- ==== Proof.Bits.Part2.lean ====
/-
  The body's second part: the signals to peers 8 … 15, the barrier wait, the first transfers to peers 0 and 1.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part2_spec (K : CIx → ℕ) (c : Dev nD)  (Q : BitVec 1 → sProp 𝕄) :
    iprop(Mid m ρ K c 0 0 8 (owed0 c 8) ∗ (∀ r, Mid m ρ K c 2 1 2 (owed1 c 2) -∗ Q r))
      ⊢ WP c (k0_part2 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v3b) Q := by
  unfold v2w
  rw [k0_part2_eq_skeleton]; unfold k0_part2_skel
  iintro ⟨H, Hk⟩
  sig_blk 8
  sig_blk 9
  sig_blk 10
  sig_blk 11
  sig_blk 12
  sig_blk 13
  sig_blk 14
  sig_blk 15
  iapply (step_barwait m ρ K c _ _ hamt_15); next_state
  send1_blk 0
  send1_blk 1
  iapply (WP_pure c)
  iapply Hk; iexact H

end Cert.Kernel.Proto

end
-- ==== Proof.Bits.Part3.lean ====
/-
  The third part: the first transfers to peers 2 … 11.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part3_spec (K : CIx → ℕ) (c : Dev nD) (v58 : BitVec 1) (Q : BitVec 1 → sProp 𝕄) :
    iprop(Mid m ρ K c 2 1 2 (owed1 c 2) ∗ (∀ r, Mid m ρ K c 2 1 12 (owed1 c 12) -∗ Q r))
      ⊢ WP c (k0_part3 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v58) Q := by
  unfold v2w
  rw [k0_part3_eq_skeleton]; unfold k0_part3_skel
  iintro ⟨H, Hk⟩
  send1_blk 2
  send1_blk 3
  send1_blk 4
  send1_blk 5
  send1_blk 6
  send1_blk 7
  send1_blk 8
  send1_blk 9
  send1_blk 10
  send1_blk 11
  iapply (WP_pure c)
  iapply Hk; iexact H

end Cert.Kernel.Proto

end
-- ==== Proof.Bits.Part4.lean ====
/-
  The fourth part: the first transfers to peers 12 … 15, the own band into the own slot, the waits for peers 0 … 3.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part4_spec (K : CIx → ℕ) (c : Dev nD) (v88 : BitVec 1) (Q : BitVec 32 → sProp 𝕄) :
    iprop(Mid m ρ K c 2 1 12 (owed1 c 12) ∗ (Mid m ρ K c 3 2 4 (owed3 c 0) -∗ Q 4#32))
      ⊢ WP c (k0_part4 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) v88) Q := by
  unfold v2w
  rw [k0_part4_eq_skeleton]; unfold k0_part4_skel
  iintro ⟨H, Hk⟩
  send1_blk 12
  send1_blk 13
  send1_blk 14
  send1_blk 15
  iapply (Mid_next m ρ K c 2 1 _ _ (owed1_last c)); next_state
  iapply (step_local1 m ρ K c _ _ (k0_off33 c) (k0_off33_eq c) (k0_off33_inb c) (k0_off34 c) (k0_off34_eq c) (k0_off34_inb c) _ _ _ _); next_state
  wait1_blk 0
  wait1_blk 1
  wait1_blk 2
  wait1_blk 3
  iapply (WP_pure c)
  iapply Hk; iexact H

end Cert.Kernel.Proto

end
-- ==== Proof.Bits.Part5.lean ====
/-
  The fifth part: the waits for the first transfers of peers 4 … 13.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part5_spec (K : CIx → ℕ) (c : Dev nD)  (Q : BitVec 32 → sProp 𝕄) :
    iprop(Mid m ρ K c 3 2 4 (owed3 c 0) ∗ (Mid m ρ K c 3 2 14 (owed3 c 0) -∗ Q 14#32))
      ⊢ WP c (k0_part5 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 4#32) Q := by
  unfold v2w
  rw [k0_part5_eq_skeleton]; unfold k0_part5_skel
  iintro ⟨H, Hk⟩
  wait1_blk 4
  wait1_blk 5
  wait1_blk 6
  wait1_blk 7
  wait1_blk 8
  wait1_blk 9
  wait1_blk 10
  wait1_blk 11
  wait1_blk 12
  wait1_blk 13
  iapply (WP_pure c)
  iapply Hk; iexact H

end Cert.Kernel.Proto

end
-- ==== Proof.Bits.Part6.lean ====
/-
  The sixth part: the waits for peers 14 and 15, the chunk, the second transfers to peers 0 … 3.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part6_spec (K : CIx → ℕ) (c : Dev nD)  (Q : (Σ' (v182 : BitVec 32), BitVec 32) → sProp 𝕄) :
    iprop(Mid m ρ K c 3 2 14 (owed3 c 0) ∗ (∀ r, Mid m ρ K c 5 3 4 (owed3 c 4) -∗ Q r))
      ⊢ WP c (k0_part6 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) 14#32) Q := by
  unfold v2w
  rw [k0_part6_eq_skeleton]; unfold k0_part6_skel
  iintro ⟨H, Hk⟩
  wait1_blk 14
  wait1_blk 15
  iapply (step_local2 m ρ K c _ _ _ _ _ _); next_state
  send2_blk 0
  send2_blk 1
  send2_blk 2
  send2_blk 3
  iapply (WP_pure c)
  iapply Hk; iexact H

end Cert.Kernel.Proto

end
-- ==== Proof.Bits.Part7.lean ====
/-
  The seventh part: the second transfers to peers 4 … 13.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part7_spec (K : CIx → ℕ) (c : Dev nD) (w w' : BitVec 32) (Q : (Σ' (v212 : BitVec 32), BitVec 32) → sProp 𝕄) :
    iprop(Mid m ρ K c 5 3 4 (owed3 c 4) ∗ (∀ r, Mid m ρ K c 5 3 14 (owed3 c 14) -∗ Q r))
      ⊢ WP c (k0_part7 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) w w') Q := by
  unfold v2w
  rw [k0_part7_eq_skeleton]; unfold k0_part7_skel
  iintro ⟨H, Hk⟩
  send2_blk 4
  send2_blk 5
  send2_blk 6
  send2_blk 7
  send2_blk 8
  send2_blk 9
  send2_blk 10
  send2_blk 11
  send2_blk 12
  send2_blk 13
  iapply (WP_pure c)
  iapply Hk; iexact H

end Cert.Kernel.Proto

end
-- ==== Proof.Bits.Part8.lean ====
/-
  The eighth part: the second transfers to peers 14 and 15, the chunk into the own band of the result, the waits for the chunks of peers 0 … 6.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part8_spec (K : CIx → ℕ) (c : Dev nD) (w w' : BitVec 32) (Q : BitVec 32 → sProp 𝕄) :
    iprop(Mid m ρ K c 5 3 14 (owed3 c 14) ∗ (Mid m ρ K c 6 4 7 0 -∗ Q 7#32))
      ⊢ WP c (k0_part8 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 c (v2w c) w w') Q := by
  unfold v2w
  rw [k0_part8_eq_skeleton]; unfold k0_part8_skel
  iintro ⟨H, Hk⟩
  send2_blk 14
  send2_blk 15
  iapply (Mid_next m ρ K c 5 3 _ _ (owed3_last c)); next_state
  iapply (step_local3 m ρ K c _ _ (k0_off33 c) (k0_off33_eq c) (k0_off33_inb c) _ _ _ _); next_state
  wait2_blk 0
  wait2_blk 1
  wait2_blk 2
  wait2_blk 3
  wait2_blk 4
  wait2_blk 5
  wait2_blk 6
  iapply (WP_pure c)
  iapply Hk; iexact H

end Cert.Kernel.Proto

end
-- ==== Proof.Bits.Part9.lean ====
/-
  The ninth part: the waits for the chunks of peers 7 … 15, the send waits for peer 0.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part9_spec (K : CIx → ℕ) (c : Dev nD)  (Q : BitVec 32 → sProp 𝕄) :
    iprop(Mid m ρ K c 6 4 7 0 ∗ (Mid m ρ K c 7 4 1 0 -∗ Q 1#32))
      ⊢ WP c (k0_part9 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 7#32) Q := by
  unfold v2w
  rw [k0_part9_eq_skeleton]; unfold k0_part9_skel
  iintro ⟨H, Hk⟩
  wait2_blk 7
  wait2_blk 8
  wait2_blk 9
  wait2_blk 10
  wait2_blk 11
  wait2_blk 12
  wait2_blk 13
  wait2_blk 14
  wait2_blk 15
  iapply (Mid_next m ρ K c 6 4 _ _ rfl); next_state
  sendwait_blk 0
  iapply (WP_pure c)
  iapply Hk; iexact H

end Cert.Kernel.Proto

end
-- ==== Proof.Bits.Part10.lean ====
/-
  The tenth part: the send waits for peers 1 … 10.
-/
import proofs.«900783_g7700000000000784_dist_f_of_ar_i_m512_n256_v7x_i16_f32_1_alg».proof.Proof.Bits.Macros

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- the budget is counted over the whole chain of blocks, not per block
set_option maxHeartbeats 1600000 in
theorem part10_spec (K : CIx → ℕ) (c : Dev nD)  (Q : BitVec 32 → sProp 𝕄) :
    iprop(Mid m ρ K c 7 4 1 0 ∗ (Mid m ρ K c 7 4 11 0 -∗ Q 11#32))
      ⊢ WP c (k0_part10 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 (v2w c) 1#32) Q := by
  unfold v2w
  rw [k0_part10_eq_skeleton]; unfold k0_part10_skel
  iintro ⟨H, Hk⟩
  sendwait_blk 1
  sendwait_blk 2
  sendwait_blk 3
  sendwait_blk 4
  sendwait_blk 5
  sendwait_blk 6
  sendwait_blk 7
  sendwait_blk 8
  sendwait_blk 9
  sendwait_blk 10
  iapply (WP_pure c)
  iapply Hk; iexact H

end Cert.Kernel.Proto

end
-- ==== Proof.Bits.BodyAll.lean ====
/-
  The body as a whole: its ten parts and its last five pairs of send waits, chained from the entry step to the
  exit step, and the result in the form the launch asks for.
-/
import proofs.«900783_g7700000000000784_dist_f_of_ar_i_m512_n256_v7x_i16_f32_1_alg».proof.Proof.Bits.Macros
import proofs.«900783_g7700000000000784_dist_f_of_ar_i_m512_n256_v7x_i16_f32_1_alg».proof.Proof.Bits.Part1
import proofs.«900783_g7700000000000784_dist_f_of_ar_i_m512_n256_v7x_i16_f32_1_alg».proof.Proof.Bits.Part2
import proofs.«900783_g7700000000000784_dist_f_of_ar_i_m512_n256_v7x_i16_f32_1_alg».proof.Proof.Bits.Part3
import proofs.«900783_g7700000000000784_dist_f_of_ar_i_m512_n256_v7x_i16_f32_1_alg».proof.Proof.Bits.Part4
import proofs.«900783_g7700000000000784_dist_f_of_ar_i_m512_n256_v7x_i16_f32_1_alg».proof.Proof.Bits.Part5
import proofs.«900783_g7700000000000784_dist_f_of_ar_i_m512_n256_v7x_i16_f32_1_alg».proof.Proof.Bits.Part6
import proofs.«900783_g7700000000000784_dist_f_of_ar_i_m512_n256_v7x_i16_f32_1_alg».proof.Proof.Bits.Part7
import proofs.«900783_g7700000000000784_dist_f_of_ar_i_m512_n256_v7x_i16_f32_1_alg».proof.Proof.Bits.Part8
import proofs.«900783_g7700000000000784_dist_f_of_ar_i_m512_n256_v7x_i16_f32_1_alg».proof.Proof.Bits.Part9
import proofs.«900783_g7700000000000784_dist_f_of_ar_i_m512_n256_v7x_i16_f32_1_alg».proof.Proof.Bits.Part10

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers as the pipeline hands them over -/

omit [FloatOps F] in
/-- Owning a whole buffer at given contents is a points-to at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, part after part -/

set_option maxRecDepth 65536 in
/-- From the body's precondition the body runs to its postcondition: the entry step, the ten parts in turn, the last
    five pairs of send waits, the exit step. -/
theorem sound_body (c : Dev nD) (Kt : PUnit → sProp 𝕄) :
    iprop(bodyPre m ρ c ∗ (bodyPost m ρ c -∗ Kt ⟨⟩)) ⊢ WP c (theBody (F := F)) Kt := by
  unfold theBody
  rw [cc0_body_eq_skeleton]; unfold cc0_body_skel
  iintro ⟨Hpre, Hk⟩
  iapply (body_start m ρ c _ _)
  isplitl [Hpre]; · iexact Hpre
  iintro %K H
  -- signals to peers 0 … 7
  rw [WP_bind]
  iapply (part1_spec m ρ K c _)
  next_state
  -- signals to peers 8 … 15, the barrier wait, the first transfers to peers 0 and 1
  rw [WP_bind]
  iapply (part2_spec m ρ K c _)
  isplitl [H]; · iexact H
  iintro %r2 H
  rw [WP_bind]
  iapply (part3_spec m ρ K c _ _)
  isplitl [H]; · iexact H
  iintro %r3 H
  rw [WP_bind]
  iapply (part4_spec m ρ K c _ _)
  next_state
  rw [WP_bind]
  iapply (part5_spec m ρ K c _)
  next_state
  rw [WP_bind]
  iapply (part6_spec m ρ K c _)
  isplitl [H]; · iexact H
  iintro %r6 H
  rw [WP_bind]
  iapply (part7_spec m ρ K c _ _ _)
  isplitl [H]; · iexact H
  iintro %r7 H
  rw [WP_bind]
  iapply (part8_spec m ρ K c _ _ _)
  next_state
  rw [WP_bind]
  iapply (part9_spec m ρ K c _)
  next_state
  rw [WP_bind]
  iapply (part10_spec m ρ K c _)
  next_state
  -- the send waits for peers 11 … 15
  sendwait_blk 11
  sendwait_blk 12
  sendwait_blk 13
  sendwait_blk 14
  sendwait_blk 15
  -- every cell closes, the buffers are whole again
  imod (body_end m ρ K c) $$ H with H
  iapply (WP_pure c)
  iapply Hk; iexact H

/-! ## The library's form of the obligation -/

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ c none) Set.univ (theBody (F := F)) (fun _ => bodyPost m ρ c)
  iintro H
  iapply (sound_body m ρ c fun _ => bodyPost m ρ c)
  isplitl [H]; · iexact H
  iintro H; iexact H

/-- info: 'Cert.Kernel.Proto.body_obligation' depends on axioms: [propext, Classical.choice, Quot.sound] -/
#guard_msgs in #print axioms body_obligation

end Cert.Kernel.Proto

end
-- ==== Proof.Bits.Credit.lean ====
/-
  The credit a device starts with.

  At launch every cell is dealt one credit token per unit that any device owes it. Device `d` owes each peer
  `j ≠ d` one unit on `j`'s barrier cell and one transfer's credit on `j`'s receive cell `d` of each exchange.
  Hence the barrier cell of `c` is owed one unit by each of the fifteen peers, fifteen in all, and the receive
  cell `k` of `c` (for `k ≠ c`) is owed one transfer's credit, by device `k` alone. These are the tokens the
  device waits with; the tokens on its other semaphores are not needed and are dropped.
-/
import proofs.«900783_g7700000000000784_dist_f_of_ar_i_m512_n256_v7x_i16_f32_1_alg».proof.Proof.Bits.State

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are pairwise distinct -/

theorem dsem_inj' {a a' : Fin 4} {j j' : Fin 16} (h : dsem a j = dsem a' j') : a = a' ∧ j = j' := by
  have h' : 2 + 16 * a.val + j.val = 2 + 16 * a'.val + j'.val := congrArg (fun s : DmaSem sig => s.val) h
  have := j.isLt; have := j'.isLt
  exact ⟨Fin.ext (by omega), Fin.ext (by omega)⟩

theorem cell_eq_iff {a a' : Fin 4} {c c' : Dev nD} {j j' : Fin 16} :
    cell a c j = cell a' c' j' ↔ (a = a' ∧ c = c' ∧ j = j') := by
  constructor
  · intro h
    have hc : c = c' := congrArg (fun g : GSem nD τ sig => g.1.1) h
    have hs : (SemLoc.dma (dsem a j) : SemLoc sig) = SemLoc.dma (dsem a' j') := congrArg Prod.snd h
    obtain ⟨ha, hj⟩ := dsem_inj' (SemLoc.dma.inj hs)
    exact ⟨ha, hc, hj⟩
  · rintro ⟨rfl, rfl, rfl⟩; rfl

theorem bar_eq_iff {c c' : Dev nD} : barCell c = barCell c' ↔ c = c' :=
  ⟨fun h => congrArg (fun g : GSem nD τ sig => g.1.1) h, fun h => h ▸ rfl⟩

theorem cell_ne_bar (a : Fin 4) (c c' : Dev nD) (j : Fin 16) : cell a c j ≠ barCell c' := by
  intro h
  have hs : (SemLoc.dma (dsem a j) : SemLoc sig) = SemLoc.reg barS := congrArg Prod.snd h
  cases hs

theorem card_dev : (Finset.univ : Finset (Dev nD)).card = 16 := by
  rw [Finset.card_univ]; exact Fintype.card_fin 16

/-! ## What one device owes one cell -/

/-- Of what `d` owes its peer `j`, the part on the barrier cell of `c`: one unit when `j = c`. -/
theorem owedTo_bar (d j c : Dev nD) : owedTo d j (barCell c) () = if j = c then 1 else 0 := by
  unfold owedTo
  rw [Pi.add_apply, Finsupp.add_apply, Pi.add_apply, Finsupp.add_apply, tallyAt_apply,
    tallyAt_ne_cell (fun h => cell_ne_bar 1 j c d h.symm), tallyAt_ne_cell (fun h => cell_ne_bar 3 j c d h.symm),
    Finsupp.zero_apply, Nat.add_zero, Nat.add_zero]
  by_cases h : j = c
  · subst h; rw [if_pos ⟨rfl, rfl⟩, if_pos rfl]
  · rw [if_neg (fun h' => h (bar_eq_iff.mp h'.1).symm), if_neg h]

/-- The part on the receive cell `k` of `c`, first exchange: one transfer's credit when `j = c` and `d = k`. -/
theorem owedTo_recv1 (d j c : Dev nD) (k : Fin 16) :
    owedTo d j (cell 1 c k) () = if j = c then (if d = k then N1 else 0) else 0 := by
  unfold owedTo
  rw [Pi.add_apply, Finsupp.add_apply, Pi.add_apply, Finsupp.add_apply,
    tallyAt_ne_cell (cell_ne_bar 1 c j k), Finsupp.zero_apply, Nat.zero_add, tallyAt_apply, tallyAt_apply,
    if_neg (show ¬(cell 1 c k = cell 3 j d ∧ () = ()) from fun h' => absurd (cell_eq_iff.mp h'.1).1 (by decide)), Nat.add_zero]
  by_cases h : j = c ∧ d = k
  · obtain ⟨rfl, rfl⟩ := h; rw [if_pos ⟨rfl, rfl⟩, if_pos rfl, if_pos rfl]
  · rw [if_neg (fun h' => h ⟨(cell_eq_iff.mp h'.1).2.1.symm, (cell_eq_iff.mp h'.1).2.2.symm⟩)]
    by_cases hj : j = c
    · rw [if_pos hj, if_neg (fun hd => h ⟨hj, hd⟩)]
    · rw [if_neg hj]

/-- The same for the second exchange. -/
theorem owedTo_recv3 (d j c : Dev nD) (k : Fin 16) :
    owedTo d j (cell 3 c k) () = if j = c then (if d = k then N1 else 0) else 0 := by
  unfold owedTo
  rw [Pi.add_apply, Finsupp.add_apply, Pi.add_apply, Finsupp.add_apply,
    tallyAt_ne_cell (cell_ne_bar 3 c j k), Finsupp.zero_apply, Nat.zero_add, tallyAt_apply, tallyAt_apply,
    if_neg (show ¬(cell 3 c k = cell 1 j d ∧ () = ()) from fun h' => absurd (cell_eq_iff.mp h'.1).1 (by decide)), Nat.zero_add]
  by_cases h : j = c ∧ d = k
  · obtain ⟨rfl, rfl⟩ := h; rw [if_pos ⟨rfl, rfl⟩, if_pos rfl, if_pos rfl]
  · rw [if_neg (fun h' => h ⟨(cell_eq_iff.mp h'.1).2.1.symm, (cell_eq_iff.mp h'.1).2.2.symm⟩)]
    by_cases hj : j = c
    · rw [if_pos hj, if_neg (fun hd => h ⟨hj, hd⟩)]
    · rw [if_neg hj]

/-- Device `d` owes the barrier cell of `c` one unit exactly when it is a peer of `c`. -/
theorem owed_bar (d c : Dev nD) : O₀ d (barCell c) () = if d ≠ c then 1 else 0 := by
  unfold O₀
  rw [Finset.sum_apply, Finsupp.finsetSum_apply, Finset.sum_congr rfl fun j _ => owedTo_bar d j c,
    Finset.sum_ite_eq' (Finset.univ.erase d) c fun _ => 1]
  by_cases h : d = c
  · subst h; rw [if_neg (Finset.notMem_erase _ _), if_neg (fun h' => h' rfl)]
  · rw [if_pos (Finset.mem_erase.mpr ⟨fun h' => h h'.symm, Finset.mem_univ _⟩), if_pos h]

/-- Device `d` owes the receive cell `k ≠ c` of `c` one transfer's credit exactly when `d = k`. -/
theorem owed_recv1 (d c : Dev nD) (k : Fin 16) (hk : k ≠ c) : O₀ d (cell 1 c k) () = if d = k then N1 else 0 := by
  unfold O₀
  rw [Finset.sum_apply, Finsupp.finsetSum_apply, Finset.sum_congr rfl fun j _ => owedTo_recv1 d j c k,
    Finset.sum_ite_eq' (Finset.univ.erase d) c fun _ => if d = k then N1 else 0]
  by_cases h : d = k
  · subst h; rw [if_pos (Finset.mem_erase.mpr ⟨fun h' => hk h'.symm, Finset.mem_univ _⟩)]
  · rw [if_neg h, ite_self]

theorem owed_recv3 (d c : Dev nD) (k : Fin 16) (hk : k ≠ c) : O₀ d (cell 3 c k) () = if d = k then N1 else 0 := by
  unfold O₀
  rw [Finset.sum_apply, Finsupp.finsetSum_apply, Finset.sum_congr rfl fun j _ => owedTo_recv3 d j c k,
    Finset.sum_ite_eq' (Finset.univ.erase d) c fun _ => if d = k then N1 else 0]
  by_cases h : d = k
  · subst h; rw [if_pos (Finset.mem_erase.mpr ⟨fun h' => hk h'.symm, Finset.mem_univ _⟩)]
  · rw [if_neg h, ite_self]

/-! ## The launch credit of the cells a device waits on -/

/-- The barrier cell of `c` is owed one unit by each of its fifteen peers. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole,
    Finset.filter_ne' Finset.univ c, Finset.card_erase_of_mem (Finset.mem_univ c), card_dev]
  rfl

theorem launch_recv1 (c : Dev nD) (k : Fin 16) (hk : k ≠ c) :
    tallyOn (cell 1 c k) (launchCredit (Pipeline.owing O₀) 0 (cell 1 c k)) = (tallyAt (cell 1 c k) () N1 : CellTallies nD τ sig Unit) := by
  unfold tallyAt; refine congrArg _ (Finsupp.ext fun u => ?_); cases u
  rw [Pipeline.launchCredit_owing, Finsupp.single_eq_same, Finset.sum_congr rfl fun d _ => owed_recv1 d c k hk,
    Finset.sum_ite_eq' Finset.univ k fun _ => N1, if_pos (Finset.mem_univ _)]

theorem launch_recv3 (c : Dev nD) (k : Fin 16) (hk : k ≠ c) :
    tallyOn (cell 3 c k) (launchCredit (Pipeline.owing O₀) 0 (cell 3 c k)) = (tallyAt (cell 3 c k) () N1 : CellTallies nD τ sig Unit) := by
  unfold tallyAt; refine congrArg _ (Finsupp.ext fun u => ?_); cases u
  rw [Pipeline.launchCredit_owing, Finsupp.single_eq_same, Finset.sum_congr rfl fun d _ => owed_recv3 d c k hk,
    Finset.sum_ite_eq' Finset.univ k fun _ => N1, if_pos (Finset.mem_univ _)]

/-! ## Picking the device's credit out of the launch's -/

/-- The receive semaphore `k` of a family, as a semaphore location; distinct indices give distinct locations. -/
def recvLoc (a : Fin 4) : Fin 16 ↪ SemLoc sig :=
  ⟨fun k => SemLoc.dma (dsem a k), fun k k' h => (dsem_inj' (SemLoc.dma.inj h)).2⟩

/-- The receive semaphores of the two exchanges are different semaphores, -/
theorem recvLoc_disjoint (c : Dev nD) :
    Disjoint ((Finset.univ.erase c).map (recvLoc 1)) ((Finset.univ.erase c).map (recvLoc 3)) := by
  rw [Finset.disjoint_left]
  intro s h1 h3
  obtain ⟨k, _, rfl⟩ := Finset.mem_map.mp h1
  obtain ⟨k', _, h⟩ := Finset.mem_map.mp h3
  exact absurd (dsem_inj' (SemLoc.dma.inj h)).1 (by decide)

/-- and none of them is the barrier semaphore. -/
theorem recvLoc_subset (c : Dev nD) :
    (Finset.univ.erase c).map (recvLoc 1) ∪ (Finset.univ.erase c).map (recvLoc 3) ⊆ Finset.univ.erase (SemLoc.reg barS) := by
  intro s hs
  refine Finset.mem_erase.mpr ⟨?_, Finset.mem_univ _⟩
  rcases Finset.mem_union.mp hs with h | h
  · obtain ⟨k, _, rfl⟩ := Finset.mem_map.mp h
    intro h'
    have h'' : (SemLoc.dma (dsem 1 k) : SemLoc sig) = SemLoc.reg barS := h'
    cases h''
  · obtain ⟨k, _, rfl⟩ := Finset.mem_map.mp h
    intro h'
    have h'' : (SemLoc.dma (dsem 3 k) : SemLoc sig) = SemLoc.reg barS := h'
    cases h''

/-- The launch deals a device a token on every one of its semaphores. Its barrier cell's is fifteen units; those of
    its receive cells `k ≠ c` are one transfer's credit each; the others are not needed. -/
theorem launch_creds (c : Dev nD) : (Pipeline.launchCred O₀ c : sProp 𝕄) ⊢ creds c := by
  unfold Pipeline.launchCred creds
  rw [bigSep_univ_at _ (SemLoc.reg barS), launch_bar]
  refine sep_mono_right ?_
  rw [bigSep_sep']
  refine (bigSep_subset (recvLoc_subset c)).trans ?_
  rw [bigSep_union (recvLoc_disjoint c), bigSep_map, bigSep_map]
  refine sep_mono ?_ ?_
  · exact bigSep_mono fun k hk => Entails.of_eq
      (congrArg (fun t => (cred t : sProp 𝕄)) (launch_recv1 c k (Finset.ne_of_mem_erase hk)))
  · exact bigSep_mono fun k hk => Entails.of_eq
      (congrArg (fun t => (cred t : sProp 𝕄)) (launch_recv3 c k (Finset.ne_of_mem_erase hk)))

end Cert.Kernel.Proto

end
-- ==== Proof.Bits.LaunchRun.lean ====
/-
  The launch of the sixteen-device exchange: from every device's body obligation to the run of the whole program,
  and what the two windowed arrays hold when it ends — the input block unchanged, the result block the pure
  function `outOf` of the sixteen input blocks.
-/
import proofs.«900783_g7700000000000784_dist_f_of_ar_i_m512_n256_v7x_i16_f32_1_alg».proof.Proof.Bits.State
import proofs.«900783_g7700000000000784_dist_f_of_ar_i_m512_n256_v7x_i16_f32_1_alg».proof.Proof.Gen.Kernel.Frame
import proofs.«900783_g7700000000000784_dist_f_of_ar_i_m512_n256_v7x_i16_f32_1_alg».proof.Proof.Bits.Tables
import proofs.«900783_g7700000000000784_dist_f_of_ar_i_m512_n256_v7x_i16_f32_1_alg».proof.Proof.Bits.Credit

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The input window's one block is the whole array. -/
theorem xin_eq (d : Dev nD) : xin m ρ d = m ((d : Thread nD τ).loc main_arg0) := by
  unfold xin
  exact Memref.read_access_unit_zero (Elt F) main_arg0 (funext fun a => by fin_cases a <;> rfl) _ _

/-- The result window is written back once, whole. -/
theorem finalA_out (c : Dev nD) : finalA m ρ c (1 : Fin 2) = outOf (xin m ρ) := by
  unfold finalA
  have h : (dats m ρ 0 c).arrAt (1 : Fin 2) cfg0.N = (dats m ρ 0 c).arrAt (1 : Fin 2) ((t₀ : Fin cfg0.N).val + 1) := rfl
  rw [h, Dat.arrAt_succ, flush0_1 t₀, if_pos rfl]
  exact Memref.write_access_unit_zero_univ (Elt F) main_v1 (funext fun a => by fin_cases a <;> rfl) _ _ _

/-! ## The kernel's own semaphores -/

/-- The sixty-four transfer semaphores, by family and index. -/
abbrev osem : Fin 4 × Fin 16 → SemLoc sig := fun aj => .dma (dsem aj.1 aj.2)

theorem ownSemFacts : Pipeline.OwnSemFacts cfg0.spec osem := by decide

/-- A device's own semaphores at zero are its sixty-four transfer cells at zero; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (cell aj.1 c aj.2) 0 := rfl

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

private theorem share_eq (c : Dev nD) (w : Fin cfg0.W) : (dats m ρ 0 c).share w = fullShare := by unfold Dat.share; split <;> rfl

/-! ## The ghost state the launch funds -/

private theorem bigSep_univ_option {α : Type} [Fintype α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton PUnit.unit.{1}]
  show iprop((bigSep Finset.univ fun a => Φ (some a)) ∗ Φ none) = iprop(Φ none ∗ bigSep Finset.univ fun a => Φ (some a))
  exact equiv_iff.mp ⟨BI.sep_comm, BI.sep_comm⟩

private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

private theorem dsem_val (a : Fin 4) (j : Fin 16) : (dsem a j).val = 2 + 16 * a.val + j.val := rfl

/-- Distinct indices name distinct cells. -/
theorem kcell_injective : Function.Injective (kcell : CIx → GSem nD τ sig) := by
  rintro ⟨c, i⟩ ⟨c', i'⟩ h
  have h1 : c = c' := by
    have := congrArg (fun g : GSem nD τ sig => g.1.1) h
    rcases i with _ | ⟨a, j⟩ <;> rcases i' with _ | ⟨a', j'⟩ <;> exact this
  subst h1
  have h2 := congrArg Prod.snd h
  rcases i with _ | ⟨a, j⟩ <;> rcases i' with _ | ⟨a', j'⟩
  · rfl
  · exact absurd h2 (fun h' => by cases h')
  · exact absurd h2 (fun h' => by cases h')
  · have hv : (dsem a j).val = (dsem a' j').val := congrArg Fin.val (SemLoc.dma.inj h2)
    rw [dsem_val, dsem_val] at hv
    have := a.isLt; have := j.isLt; have := a'.isLt; have := j'.isLt
    have ha : a = a' := Fin.ext (by omega)
    have hj : j = j' := Fin.ext (by omega)
    subst ha; subst hj; rfl

/-- Every cell of the exchange. -/
def exCells : Finset (GSem nD τ sig) := Finset.univ.map ⟨kcell, kcell_injective⟩

/-- The duties by owner, payer-or-index and kind: the barrier cell's duty paid by device `j` (`none`), or the one duty
    of the transfer cell of family `a` and index `j` (`some a`). -/
abbrev TIx : Type := Dev nD × Dev nD × Option (Fin 4)
abbrev tokOf (x : TIx) : GSem nD τ sig × ℕ × Dev nD := match x.2.2 with
  | none => (barCell x.1, 0, x.2.1)
  | some a => (cell a x.1 x.2.1, 0, 0)

theorem tokOf_injective : Function.Injective tokOf := by
  rintro ⟨c, j, k⟩ ⟨c', j', k'⟩ h
  have hg : kcell (c, k.map fun a => (a, j)) = kcell (c', k'.map fun a => (a, j')) := by
    have := congrArg (fun x : GSem nD τ sig × ℕ × Dev nD => x.1) h
    rcases k with _ | a <;> rcases k' with _ | a' <;> exact this
  have hck := kcell_injective hg
  have hc : c = c' := congrArg Prod.fst hck
  subst hc
  have hk : (k.map fun a => (a, j)) = (k'.map fun a => (a, j')) := congrArg Prod.snd hck
  rcases k with _ | a <;> rcases k' with _ | a'
  · have hj : j = j' := congrArg (fun x : GSem nD τ sig × ℕ × Dev nD => x.2.2) h
    subst hj; rfl
  · cases hk
  · cases hk
  · have := Option.some.inj hk
    cases this; rfl

/-- The tokens minted: one per duty of round 0 — a barrier cell's for every peer, a transfer cell's for every peer index. -/
def exToks : Finset (GSem nD τ sig × ℕ × Dev nD) := (Finset.univ.filter fun x : TIx => x.2.1 ≠ x.1).map ⟨tokOf, tokOf_injective⟩

def u₀ : UU :=
  (initOf (Pipeline.cells cfgs cellOf_inj) (Pipeline.launchToks cfgs cellOf_inj), initOf exCells exToks)

/-- The duty tokens of device `c`'s own cells. -/
def ownToks (c : Dev nD) : sProp 𝕄 :=
  bigSep (Finset.univ.erase c) fun j => iprop(dutyTok ER (barCell c) 0 j ∗ bigSep Finset.univ fun a : Fin 4 => dutyTok ER (cell a c j) 0 0)

/-- What the launch element deals device `c`: the round states, positions and reached rounds of its own cells, and their tokens. -/
def G (c : Dev nD) : sProp 𝕄 :=
  iprop((bigSep Finset.univ fun i : Option (Fin 4 × Fin 16) => roundState ER (Rd m ρ) (kcell (c, i)) 0)
    ∗ (bigSep Finset.univ fun i : Option (Fin 4 × Fin 16) => iprop(atPos ER (kcell (c, i)) 0 ∅ 0 ∗ reached ER (kcell (c, i)) 0)) ∗ ownToks c)

/-- What the global step makes of it. -/
def G' (c : Dev nD) : sProp 𝕄 := iprop(∃ K, ghost m ρ K c)

theorem exCells_sep (Φ : GSem nD τ sig → sProp 𝕄) :
    bigSep exCells Φ = bigSep Finset.univ fun c : Dev nD => bigSep Finset.univ fun i : Option (Fin 4 × Fin 16) => Φ (kcell (c, i)) := by
  unfold exCells; rw [bigSep_map, bigSep_univ_prod]; rfl

theorem exToks_sep : bigSep exToks (fun x => (dutyTok ER x.1 x.2.1 x.2.2 : sProp 𝕄)) = bigSep Finset.univ fun c : Dev nD => ownToks c := by
  unfold exToks; rw [bigSep_map, bigSep_filter, bigSep_univ_prod]
  refine bigSep_congr fun c _ => ?_
  rw [bigSep_univ_prod]
  unfold ownToks; rw [← Finset.filter_ne' Finset.univ c, bigSep_filter]
  refine bigSep_congr fun j _ => ?_
  by_cases h : j ≠ c
  · simp only [if_pos h]; rw [bigSep_univ_option]; rfl
  · simp only [if_neg h]; exact bigSep_emp_const _

theorem fund_ex : BI.own (ER (initOf exCells exToks)) ⊢ (|==> bigSep Finset.univ (G m ρ) : sProp 𝕄) := by
  iintro HX
  imod (Rounds.fund ER (Rd m ρ) exCells exToks) $$ HX with ⟨Hst, Hr, Hat, Htok⟩
  imodintro
  ihave Hst' := (Entails.of_eq (exCells_sep fun g => roundState ER (Rd m ρ) g 0)) $$ Hst
  ihave Hat' := (Entails.of_eq (exCells_sep fun g => atPos ER g 0 ∅ 0)) $$ Hat
  ihave Hr' := (Entails.of_eq (exCells_sep fun g => reached ER g 0)) $$ Hr
  ihave Htok' := (Entails.of_eq exToks_sep) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Option (Fin 4 × Fin 16) => semVal (kcell (c, i)) 0 : sProp 𝕄) := by
  rw [ownSems0_eq, unscopedSems0_eq, bigSep_univ_option]
  iintro ⟨HS, HB⟩
  isplitl [HB]; · iexact HB
  iexact HS

theorem launch_core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Option (Fin 4 × Fin 16) => iprop(∃ κ : ℕ, cellInv ER (Rd m ρ) κ (kcell (c, i))))
          ∗ (bigSep Finset.univ fun i : Option (Fin 4 × Fin 16) => iprop(atPos ER (kcell (c, i)) 0 ∅ 0 ∗ reached ER (kcell (c, i)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun i : Option (Fin 4 × Fin 16) => semVal (kcell (c, i)) 0)
        ∗ bigSep Finset.univ fun i : Option (Fin 4 × Fin 16) => roundState ER (Rd m ρ) (kcell (c, i)) 0)
      ⊢ (|={Set.univ}=> bigSep Finset.univ fun i : Option (Fin 4 × Fin 16) => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to their payers: a barrier cell's token for peer `j` goes to `j`, a receive cell's token to the
    device that sends into it; a send cell's token stays. Pairs of distinct devices, read from either side. -/
theorem toks_around : (bigSep Finset.univ fun c : Dev nD => (ownToks c : sProp 𝕄)) ⊢ bigSep Finset.univ fun c : Dev nD => payToks c := by
  unfold ownToks payToks
  simp only [bigSep_fin4, bigSep_sep']
  rw [bigSep_erase_comm (fun c j : Dev nD => (dutyTok ER (barCell c) 0 j : sProp 𝕄)),
    bigSep_erase_comm (fun c j : Dev nD => (dutyTok ER (cell 1 c j) 0 0 : sProp 𝕄)),
    bigSep_erase_comm (fun c j : Dev nD => (dutyTok ER (cell 3 c j) 0 0 : sProp 𝕄))]
  iintro ⟨HB, H0, H1, H2, H3⟩
  isplitl [HB]; · iexact HB
  isplitl [H1]; · iexact H1
  isplitl [H3]; · iexact H3
  isplitl [H0]; · iexact H0
  iexact H2

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : CIx → ℕ) (c : Dev nD) : iprop(records m ρ K ∗ positions c ∗ payToks c) ⊢ G' m ρ c := by
  unfold G' ghost
  iintro ⟨#HR, Hp, Ht⟩
  iexists K
  isplitr; · iexact HR
  isplitl [Hp]; · iexact Hp
  iexact Ht

theorem launch_regroup :
    (bigSep Finset.univ fun c : Dev nD => iprop((bigSep Finset.univ fun i : Option (Fin 4 × Fin 16) => iprop(∃ κ : ℕ, cellInv ER (Rd m ρ) κ (kcell (c, i))))
          ∗ (bigSep Finset.univ fun i : Option (Fin 4 × Fin 16) => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun ck : CIx => iprop(∃ κ : ℕ, cellInv ER (Rd m ρ) κ (kcell ck))),
    bigSep_congr (s := Finset.univ) (fun (c : Dev nD) _ => bigSep_sep' Finset.univ (fun i : Option (Fin 4 × Fin 16) => (atPos ER (kcell (c, i)) 0 ∅ 0 : sProp 𝕄)) (fun i => reached ER (kcell (c, i)) 0)),
    bigSep_sep', ← bigSep_univ_prod (fun ck : CIx => (reached ER (kcell ck) 0 : sProp 𝕄))]
  iintro ⟨HI, ⟨Hat, #HR⟩, Htok⟩
  ihave HK := (BI.bigSep_exists_pi Finset.univ (fun (ck : CIx) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem launch_glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => launch_core_alloc m ρ c).trans (bigSep_fupd _ _)).trans (BI.fupd_mono (launch_regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, Hz⟩
  isplitr; · iempintro
  isplitl [Hz]; · iexact Hz
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: given every
    device's body obligation, every weakly fair execution of the program — the sixteen kernels handshaking on the
    barrier semaphore, then exchanging bands and chunks — terminates, and every final state has each device's input
    array as it was and its result array at the contents `finalA` names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := launch_glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

end Cert.Kernel.Proto

end
-- ==== Proof.Credit.lean ====
/-
  The credit a device starts with.

  At launch every cell is dealt one credit token per unit that any device owes it. Device `d` owes each peer
  `j ≠ d` one unit on `j`'s barrier cell and one transfer's credit on `j`'s receive cell `d` of each exchange.
  Hence the barrier cell of `c` is owed one unit by each of the fifteen peers, fifteen in all, and the receive
  cell `k` of `c` (for `k ≠ c`) is owed one transfer's credit, by device `k` alone. These are the tokens the
  device waits with; the tokens on its other semaphores are not needed and are dropped.
-/
import proofs.«900783_g7700000000000784_dist_f_of_ar_i_m512_n256_v7x_i16_f32_1_alg».proof.Proof.State

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are pairwise distinct -/

theorem dsem_inj' {a a' : Fin 4} {j j' : Fin 16} (h : dsem a j = dsem a' j') : a = a' ∧ j = j' := by
  have h' : 2 + 16 * a.val + j.val = 2 + 16 * a'.val + j'.val := congrArg (fun s : DmaSem sig => s.val) h
  have := j.isLt; have := j'.isLt
  exact ⟨Fin.ext (by omega), Fin.ext (by omega)⟩

theorem cell_eq_iff {a a' : Fin 4} {c c' : Dev nD} {j j' : Fin 16} :
    cell a c j = cell a' c' j' ↔ (a = a' ∧ c = c' ∧ j = j') := by
  constructor
  · intro h
    have hc : c = c' := congrArg (fun g : GSem nD τ sig => g.1.1) h
    have hs : (SemLoc.dma (dsem a j) : SemLoc sig) = SemLoc.dma (dsem a' j') := congrArg Prod.snd h
    obtain ⟨ha, hj⟩ := dsem_inj' (SemLoc.dma.inj hs)
    exact ⟨ha, hc, hj⟩
  · rintro ⟨rfl, rfl, rfl⟩; rfl

theorem bar_eq_iff {c c' : Dev nD} : barCell c = barCell c' ↔ c = c' :=
  ⟨fun h => congrArg (fun g : GSem nD τ sig => g.1.1) h, fun h => h ▸ rfl⟩

theorem cell_ne_bar (a : Fin 4) (c c' : Dev nD) (j : Fin 16) : cell a c j ≠ barCell c' := by
  intro h
  have hs : (SemLoc.dma (dsem a j) : SemLoc sig) = SemLoc.reg barS := congrArg Prod.snd h
  cases hs

theorem card_dev : (Finset.univ : Finset (Dev nD)).card = 16 := by
  rw [Finset.card_univ]; exact Fintype.card_fin 16

/-! ## What one device owes one cell -/

/-- Of what `d` owes its peer `j`, the part on the barrier cell of `c`: one unit when `j = c`. -/
theorem owedTo_bar (d j c : Dev nD) : owedTo d j (barCell c) () = if j = c then 1 else 0 := by
  unfold owedTo
  rw [Pi.add_apply, Finsupp.add_apply, Pi.add_apply, Finsupp.add_apply, tallyAt_apply,
    tallyAt_ne_cell (fun h => cell_ne_bar 1 j c d h.symm), tallyAt_ne_cell (fun h => cell_ne_bar 3 j c d h.symm),
    Finsupp.zero_apply, Nat.add_zero, Nat.add_zero]
  by_cases h : j = c
  · subst h; rw [if_pos ⟨rfl, rfl⟩, if_pos rfl]
  · rw [if_neg (fun h' => h (bar_eq_iff.mp h'.1).symm), if_neg h]

/-- The part on the receive cell `k` of `c`, first exchange: one transfer's credit when `j = c` and `d = k`. -/
theorem owedTo_recv1 (d j c : Dev nD) (k : Fin 16) :
    owedTo d j (cell 1 c k) () = if j = c then (if d = k then N1 else 0) else 0 := by
  unfold owedTo
  rw [Pi.add_apply, Finsupp.add_apply, Pi.add_apply, Finsupp.add_apply,
    tallyAt_ne_cell (cell_ne_bar 1 c j k), Finsupp.zero_apply, Nat.zero_add, tallyAt_apply, tallyAt_apply,
    if_neg (show ¬(cell 1 c k = cell 3 j d ∧ () = ()) from fun h' => absurd (cell_eq_iff.mp h'.1).1 (by decide)), Nat.add_zero]
  by_cases h : j = c ∧ d = k
  · obtain ⟨rfl, rfl⟩ := h; rw [if_pos ⟨rfl, rfl⟩, if_pos rfl, if_pos rfl]
  · rw [if_neg (fun h' => h ⟨(cell_eq_iff.mp h'.1).2.1.symm, (cell_eq_iff.mp h'.1).2.2.symm⟩)]
    by_cases hj : j = c
    · rw [if_pos hj, if_neg (fun hd => h ⟨hj, hd⟩)]
    · rw [if_neg hj]

/-- The same for the second exchange. -/
theorem owedTo_recv3 (d j c : Dev nD) (k : Fin 16) :
    owedTo d j (cell 3 c k) () = if j = c then (if d = k then N1 else 0) else 0 := by
  unfold owedTo
  rw [Pi.add_apply, Finsupp.add_apply, Pi.add_apply, Finsupp.add_apply,
    tallyAt_ne_cell (cell_ne_bar 3 c j k), Finsupp.zero_apply, Nat.zero_add, tallyAt_apply, tallyAt_apply,
    if_neg (show ¬(cell 3 c k = cell 1 j d ∧ () = ()) from fun h' => absurd (cell_eq_iff.mp h'.1).1 (by decide)), Nat.zero_add]
  by_cases h : j = c ∧ d = k
  · obtain ⟨rfl, rfl⟩ := h; rw [if_pos ⟨rfl, rfl⟩, if_pos rfl, if_pos rfl]
  · rw [if_neg (fun h' => h ⟨(cell_eq_iff.mp h'.1).2.1.symm, (cell_eq_iff.mp h'.1).2.2.symm⟩)]
    by_cases hj : j = c
    · rw [if_pos hj, if_neg (fun hd => h ⟨hj, hd⟩)]
    · rw [if_neg hj]

/-- Device `d` owes the barrier cell of `c` one unit exactly when it is a peer of `c`. -/
theorem owed_bar (d c : Dev nD) : O₀ d (barCell c) () = if d ≠ c then 1 else 0 := by
  unfold O₀
  rw [Finset.sum_apply, Finsupp.finsetSum_apply, Finset.sum_congr rfl fun j _ => owedTo_bar d j c,
    Finset.sum_ite_eq' (Finset.univ.erase d) c fun _ => 1]
  by_cases h : d = c
  · subst h; rw [if_neg (Finset.notMem_erase _ _), if_neg (fun h' => h' rfl)]
  · rw [if_pos (Finset.mem_erase.mpr ⟨fun h' => h h'.symm, Finset.mem_univ _⟩), if_pos h]

/-- Device `d` owes the receive cell `k ≠ c` of `c` one transfer's credit exactly when `d = k`. -/
theorem owed_recv1 (d c : Dev nD) (k : Fin 16) (hk : k ≠ c) : O₀ d (cell 1 c k) () = if d = k then N1 else 0 := by
  unfold O₀
  rw [Finset.sum_apply, Finsupp.finsetSum_apply, Finset.sum_congr rfl fun j _ => owedTo_recv1 d j c k,
    Finset.sum_ite_eq' (Finset.univ.erase d) c fun _ => if d = k then N1 else 0]
  by_cases h : d = k
  · subst h; rw [if_pos (Finset.mem_erase.mpr ⟨fun h' => hk h'.symm, Finset.mem_univ _⟩)]
  · rw [if_neg h, ite_self]

theorem owed_recv3 (d c : Dev nD) (k : Fin 16) (hk : k ≠ c) : O₀ d (cell 3 c k) () = if d = k then N1 else 0 := by
  unfold O₀
  rw [Finset.sum_apply, Finsupp.finsetSum_apply, Finset.sum_congr rfl fun j _ => owedTo_recv3 d j c k,
    Finset.sum_ite_eq' (Finset.univ.erase d) c fun _ => if d = k then N1 else 0]
  by_cases h : d = k
  · subst h; rw [if_pos (Finset.mem_erase.mpr ⟨fun h' => hk h'.symm, Finset.mem_univ _⟩)]
  · rw [if_neg h, ite_self]

/-! ## The launch credit of the cells a device waits on -/

/-- The barrier cell of `c` is owed one unit by each of its fifteen peers. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole,
    Finset.filter_ne' Finset.univ c, Finset.card_erase_of_mem (Finset.mem_univ c), card_dev]
  rfl

theorem launch_recv1 (c : Dev nD) (k : Fin 16) (hk : k ≠ c) :
    tallyOn (cell 1 c k) (launchCredit (Pipeline.owing O₀) 0 (cell 1 c k)) = (tallyAt (cell 1 c k) () N1 : CellTallies nD τ sig Unit) := by
  unfold tallyAt; refine congrArg _ (Finsupp.ext fun u => ?_); cases u
  rw [Pipeline.launchCredit_owing, Finsupp.single_eq_same, Finset.sum_congr rfl fun d _ => owed_recv1 d c k hk,
    Finset.sum_ite_eq' Finset.univ k fun _ => N1, if_pos (Finset.mem_univ _)]

theorem launch_recv3 (c : Dev nD) (k : Fin 16) (hk : k ≠ c) :
    tallyOn (cell 3 c k) (launchCredit (Pipeline.owing O₀) 0 (cell 3 c k)) = (tallyAt (cell 3 c k) () N1 : CellTallies nD τ sig Unit) := by
  unfold tallyAt; refine congrArg _ (Finsupp.ext fun u => ?_); cases u
  rw [Pipeline.launchCredit_owing, Finsupp.single_eq_same, Finset.sum_congr rfl fun d _ => owed_recv3 d c k hk,
    Finset.sum_ite_eq' Finset.univ k fun _ => N1, if_pos (Finset.mem_univ _)]

/-! ## Picking the device's credit out of the launch's -/

/-- The receive semaphore `k` of a family, as a semaphore location; distinct indices give distinct locations. -/
def recvLoc (a : Fin 4) : Fin 16 ↪ SemLoc sig :=
  ⟨fun k => SemLoc.dma (dsem a k), fun k k' h => (dsem_inj' (SemLoc.dma.inj h)).2⟩

/-- The receive semaphores of the two exchanges are different semaphores, -/
theorem recvLoc_disjoint (c : Dev nD) :
    Disjoint ((Finset.univ.erase c).map (recvLoc 1)) ((Finset.univ.erase c).map (recvLoc 3)) := by
  rw [Finset.disjoint_left]
  intro s h1 h3
  obtain ⟨k, _, rfl⟩ := Finset.mem_map.mp h1
  obtain ⟨k', _, h⟩ := Finset.mem_map.mp h3
  exact absurd (dsem_inj' (SemLoc.dma.inj h)).1 (by decide)

/-- and none of them is the barrier semaphore. -/
theorem recvLoc_subset (c : Dev nD) :
    (Finset.univ.erase c).map (recvLoc 1) ∪ (Finset.univ.erase c).map (recvLoc 3) ⊆ Finset.univ.erase (SemLoc.reg barS) := by
  intro s hs
  refine Finset.mem_erase.mpr ⟨?_, Finset.mem_univ _⟩
  rcases Finset.mem_union.mp hs with h | h
  · obtain ⟨k, _, rfl⟩ := Finset.mem_map.mp h
    intro h'
    have h'' : (SemLoc.dma (dsem 1 k) : SemLoc sig) = SemLoc.reg barS := h'
    cases h''
  · obtain ⟨k, _, rfl⟩ := Finset.mem_map.mp h
    intro h'
    have h'' : (SemLoc.dma (dsem 3 k) : SemLoc sig) = SemLoc.reg barS := h'
    cases h''

/-- The launch deals a device a token on every one of its semaphores. Its barrier cell's is fifteen units; those of
    its receive cells `k ≠ c` are one transfer's credit each; the others are not needed. -/
theorem launch_creds (c : Dev nD) : (Pipeline.launchCred O₀ c : sProp 𝕄) ⊢ creds c := by
  unfold Pipeline.launchCred creds
  rw [bigSep_univ_at _ (SemLoc.reg barS), launch_bar]
  refine sep_mono_right ?_
  rw [bigSep_sep']
  refine (bigSep_subset (recvLoc_subset c)).trans ?_
  rw [bigSep_union (recvLoc_disjoint c), bigSep_map, bigSep_map]
  refine sep_mono ?_ ?_
  · exact bigSep_mono fun k hk => Entails.of_eq
      (congrArg (fun t => (cred t : sProp 𝕄)) (launch_recv1 c k (Finset.ne_of_mem_erase hk)))
  · exact bigSep_mono fun k hk => Entails.of_eq
      (congrArg (fun t => (cred t : sProp 𝕄)) (launch_recv3 c k (Finset.ne_of_mem_erase hk)))

end Cert.KernelIdeal.Proto

end
-- ==== Proof.LaunchRun.lean ====
/-
  The launch of the sixteen-device exchange: from every device's body obligation to the run of the whole program,
  and what the two windowed arrays hold when it ends — the input block unchanged, the result block the pure
  function `outOf` of the sixteen input blocks.
-/
import proofs.«900783_g7700000000000784_dist_f_of_ar_i_m512_n256_v7x_i16_f32_1_alg».proof.Proof.State
import proofs.«900783_g7700000000000784_dist_f_of_ar_i_m512_n256_v7x_i16_f32_1_alg».proof.Proof.Gen.KernelIdeal.Frame
import proofs.«900783_g7700000000000784_dist_f_of_ar_i_m512_n256_v7x_i16_f32_1_alg».proof.Proof.Tables
import proofs.«900783_g7700000000000784_dist_f_of_ar_i_m512_n256_v7x_i16_f32_1_alg».proof.Proof.Credit

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The input window's one block is the whole array. -/
theorem xin_eq (d : Dev nD) : xin m ρ d = m ((d : Thread nD τ).loc main_arg0) := by
  unfold xin
  exact Memref.read_access_unit_zero (Elt F) main_arg0 (funext fun a => by fin_cases a <;> rfl) _ _

/-- The result window is written back once, whole. -/
theorem finalA_out (c : Dev nD) : finalA m ρ c (1 : Fin 2) = outOf (xin m ρ) := by
  unfold finalA
  have h : (dats m ρ 0 c).arrAt (1 : Fin 2) cfg0.N = (dats m ρ 0 c).arrAt (1 : Fin 2) ((t₀ : Fin cfg0.N).val + 1) := rfl
  rw [h, Dat.arrAt_succ, flush0_1 t₀, if_pos rfl]
  exact Memref.write_access_unit_zero_univ (Elt F) main_v1 (funext fun a => by fin_cases a <;> rfl) _ _ _

/-! ## The kernel's own semaphores -/

/-- The sixty-four transfer semaphores, by family and index. -/
abbrev osem : Fin 4 × Fin 16 → SemLoc sig := fun aj => .dma (dsem aj.1 aj.2)

theorem ownSemFacts : Pipeline.OwnSemFacts cfg0.spec osem := by decide

/-- A device's own semaphores at zero are its sixty-four transfer cells at zero; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (cell aj.1 c aj.2) 0 := rfl

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

private theorem share_eq (c : Dev nD) (w : Fin cfg0.W) : (dats m ρ 0 c).share w = fullShare := by unfold Dat.share; split <;> rfl

/-! ## The ghost state the launch funds -/

private theorem bigSep_univ_option {α : Type} [Fintype α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton PUnit.unit.{1}]
  show iprop((bigSep Finset.univ fun a => Φ (some a)) ∗ Φ none) = iprop(Φ none ∗ bigSep Finset.univ fun a => Φ (some a))
  exact equiv_iff.mp ⟨BI.sep_comm, BI.sep_comm⟩

private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

private theorem dsem_val (a : Fin 4) (j : Fin 16) : (dsem a j).val = 2 + 16 * a.val + j.val := rfl

/-- Distinct indices name distinct cells. -/
theorem kcell_injective : Function.Injective (kcell : CIx → GSem nD τ sig) := by
  rintro ⟨c, i⟩ ⟨c', i'⟩ h
  have h1 : c = c' := by
    have := congrArg (fun g : GSem nD τ sig => g.1.1) h
    rcases i with _ | ⟨a, j⟩ <;> rcases i' with _ | ⟨a', j'⟩ <;> exact this
  subst h1
  have h2 := congrArg Prod.snd h
  rcases i with _ | ⟨a, j⟩ <;> rcases i' with _ | ⟨a', j'⟩
  · rfl
  · exact absurd h2 (fun h' => by cases h')
  · exact absurd h2 (fun h' => by cases h')
  · have hv : (dsem a j).val = (dsem a' j').val := congrArg Fin.val (SemLoc.dma.inj h2)
    rw [dsem_val, dsem_val] at hv
    have := a.isLt; have := j.isLt; have := a'.isLt; have := j'.isLt
    have ha : a = a' := Fin.ext (by omega)
    have hj : j = j' := Fin.ext (by omega)
    subst ha; subst hj; rfl

/-- Every cell of the exchange. -/
def exCells : Finset (GSem nD τ sig) := Finset.univ.map ⟨kcell, kcell_injective⟩

/-- The duties by owner, payer-or-index and kind: the barrier cell's duty paid by device `j` (`none`), or the one duty
    of the transfer cell of family `a` and index `j` (`some a`). -/
abbrev TIx : Type := Dev nD × Dev nD × Option (Fin 4)
abbrev tokOf (x : TIx) : GSem nD τ sig × ℕ × Dev nD := match x.2.2 with
  | none => (barCell x.1, 0, x.2.1)
  | some a => (cell a x.1 x.2.1, 0, 0)

theorem tokOf_injective : Function.Injective tokOf := by
  rintro ⟨c, j, k⟩ ⟨c', j', k'⟩ h
  have hg : kcell (c, k.map fun a => (a, j)) = kcell (c', k'.map fun a => (a, j')) := by
    have := congrArg (fun x : GSem nD τ sig × ℕ × Dev nD => x.1) h
    rcases k with _ | a <;> rcases k' with _ | a' <;> exact this
  have hck := kcell_injective hg
  have hc : c = c' := congrArg Prod.fst hck
  subst hc
  have hk : (k.map fun a => (a, j)) = (k'.map fun a => (a, j')) := congrArg Prod.snd hck
  rcases k with _ | a <;> rcases k' with _ | a'
  · have hj : j = j' := congrArg (fun x : GSem nD τ sig × ℕ × Dev nD => x.2.2) h
    subst hj; rfl
  · cases hk
  · cases hk
  · have := Option.some.inj hk
    cases this; rfl

/-- The tokens minted: one per duty of round 0 — a barrier cell's for every peer, a transfer cell's for every peer index. -/
def exToks : Finset (GSem nD τ sig × ℕ × Dev nD) := (Finset.univ.filter fun x : TIx => x.2.1 ≠ x.1).map ⟨tokOf, tokOf_injective⟩

def u₀ : UU :=
  (initOf (Pipeline.cells cfgs cellOf_inj) (Pipeline.launchToks cfgs cellOf_inj), initOf exCells exToks)

/-- The duty tokens of device `c`'s own cells. -/
def ownToks (c : Dev nD) : sProp 𝕄 :=
  bigSep (Finset.univ.erase c) fun j => iprop(dutyTok ER (barCell c) 0 j ∗ bigSep Finset.univ fun a : Fin 4 => dutyTok ER (cell a c j) 0 0)

/-- What the launch element deals device `c`: the round states, positions and reached rounds of its own cells, and their tokens. -/
def G (c : Dev nD) : sProp 𝕄 :=
  iprop((bigSep Finset.univ fun i : Option (Fin 4 × Fin 16) => roundState ER (Rd m ρ) (kcell (c, i)) 0)
    ∗ (bigSep Finset.univ fun i : Option (Fin 4 × Fin 16) => iprop(atPos ER (kcell (c, i)) 0 ∅ 0 ∗ reached ER (kcell (c, i)) 0)) ∗ ownToks c)

/-- What the global step makes of it. -/
def G' (c : Dev nD) : sProp 𝕄 := iprop(∃ K, ghost m ρ K c)

theorem exCells_sep (Φ : GSem nD τ sig → sProp 𝕄) :
    bigSep exCells Φ = bigSep Finset.univ fun c : Dev nD => bigSep Finset.univ fun i : Option (Fin 4 × Fin 16) => Φ (kcell (c, i)) := by
  unfold exCells; rw [bigSep_map, bigSep_univ_prod]; rfl

theorem exToks_sep : bigSep exToks (fun x => (dutyTok ER x.1 x.2.1 x.2.2 : sProp 𝕄)) = bigSep Finset.univ fun c : Dev nD => ownToks c := by
  unfold exToks; rw [bigSep_map, bigSep_filter, bigSep_univ_prod]
  refine bigSep_congr fun c _ => ?_
  rw [bigSep_univ_prod]
  unfold ownToks; rw [← Finset.filter_ne' Finset.univ c, bigSep_filter]
  refine bigSep_congr fun j _ => ?_
  by_cases h : j ≠ c
  · simp only [if_pos h]; rw [bigSep_univ_option]; rfl
  · simp only [if_neg h]; exact bigSep_emp_const _

theorem fund_ex : BI.own (ER (initOf exCells exToks)) ⊢ (|==> bigSep Finset.univ (G m ρ) : sProp 𝕄) := by
  iintro HX
  imod (Rounds.fund ER (Rd m ρ) exCells exToks) $$ HX with ⟨Hst, Hr, Hat, Htok⟩
  imodintro
  ihave Hst' := (Entails.of_eq (exCells_sep fun g => roundState ER (Rd m ρ) g 0)) $$ Hst
  ihave Hat' := (Entails.of_eq (exCells_sep fun g => atPos ER g 0 ∅ 0)) $$ Hat
  ihave Hr' := (Entails.of_eq (exCells_sep fun g => reached ER g 0)) $$ Hr
  ihave Htok' := (Entails.of_eq exToks_sep) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Option (Fin 4 × Fin 16) => semVal (kcell (c, i)) 0 : sProp 𝕄) := by
  rw [ownSems0_eq, unscopedSems0_eq, bigSep_univ_option]
  iintro ⟨HS, HB⟩
  isplitl [HB]; · iexact HB
  iexact HS

theorem launch_core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Option (Fin 4 × Fin 16) => iprop(∃ κ : ℕ, cellInv ER (Rd m ρ) κ (kcell (c, i))))
          ∗ (bigSep Finset.univ fun i : Option (Fin 4 × Fin 16) => iprop(atPos ER (kcell (c, i)) 0 ∅ 0 ∗ reached ER (kcell (c, i)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun i : Option (Fin 4 × Fin 16) => semVal (kcell (c, i)) 0)
        ∗ bigSep Finset.univ fun i : Option (Fin 4 × Fin 16) => roundState ER (Rd m ρ) (kcell (c, i)) 0)
      ⊢ (|={Set.univ}=> bigSep Finset.univ fun i : Option (Fin 4 × Fin 16) => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to their payers: a barrier cell's token for peer `j` goes to `j`, a receive cell's token to the
    device that sends into it; a send cell's token stays. Pairs of distinct devices, read from either side. -/
theorem toks_around : (bigSep Finset.univ fun c : Dev nD => (ownToks c : sProp 𝕄)) ⊢ bigSep Finset.univ fun c : Dev nD => payToks c := by
  unfold ownToks payToks
  simp only [bigSep_fin4, bigSep_sep']
  rw [bigSep_erase_comm (fun c j : Dev nD => (dutyTok ER (barCell c) 0 j : sProp 𝕄)),
    bigSep_erase_comm (fun c j : Dev nD => (dutyTok ER (cell 1 c j) 0 0 : sProp 𝕄)),
    bigSep_erase_comm (fun c j : Dev nD => (dutyTok ER (cell 3 c j) 0 0 : sProp 𝕄))]
  iintro ⟨HB, H0, H1, H2, H3⟩
  isplitl [HB]; · iexact HB
  isplitl [H1]; · iexact H1
  isplitl [H3]; · iexact H3
  isplitl [H0]; · iexact H0
  iexact H2

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : CIx → ℕ) (c : Dev nD) : iprop(records m ρ K ∗ positions c ∗ payToks c) ⊢ G' m ρ c := by
  unfold G' ghost
  iintro ⟨#HR, Hp, Ht⟩
  iexists K
  isplitr; · iexact HR
  isplitl [Hp]; · iexact Hp
  iexact Ht

theorem launch_regroup :
    (bigSep Finset.univ fun c : Dev nD => iprop((bigSep Finset.univ fun i : Option (Fin 4 × Fin 16) => iprop(∃ κ : ℕ, cellInv ER (Rd m ρ) κ (kcell (c, i))))
          ∗ (bigSep Finset.univ fun i : Option (Fin 4 × Fin 16) => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun ck : CIx => iprop(∃ κ : ℕ, cellInv ER (Rd m ρ) κ (kcell ck))),
    bigSep_congr (s := Finset.univ) (fun (c : Dev nD) _ => bigSep_sep' Finset.univ (fun i : Option (Fin 4 × Fin 16) => (atPos ER (kcell (c, i)) 0 ∅ 0 : sProp 𝕄)) (fun i => reached ER (kcell (c, i)) 0)),
    bigSep_sep', ← bigSep_univ_prod (fun ck : CIx => (reached ER (kcell ck) 0 : sProp 𝕄))]
  iintro ⟨HI, ⟨Hat, #HR⟩, Htok⟩
  ihave HK := (BI.bigSep_exists_pi Finset.univ (fun (ck : CIx) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem launch_glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => launch_core_alloc m ρ c).trans (bigSep_fupd _ _)).trans (BI.fupd_mono (launch_regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, Hz⟩
  isplitr; · iempintro
  isplitl [Hz]; · iexact Hz
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: given every
    device's body obligation, every weakly fair execution of the program — the sixteen kernels handshaking on the
    barrier semaphore, then exchanging bands and chunks — terminates, and every final state has each device's input
    array as it was and its result array at the contents `finalA` names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := launch_glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

end Cert.KernelIdeal.Proto

end
-- ==== Proof.Bridge.lean ====
/-
  The sixteen devices' result, as the spec of the kernel states it, is the reference's result.

  Device `d` holds rows `512·d … 512·d+511` of a whole array `T` of 8192 rows and 256 columns. Both sides
  compute, at row `r` and column `q` of the 512 × 256 result, the same function `s ↦ tanh s · s · s + max(s,0)³`
  of the same sum `s = ∑_d T[512·d + r, q]`: the reference as a reduce-add over the leading axis of the
  16 × 512 × 256 reshape of `T`, the kernel as the sum of the sixteen slots of a receive buffer whose slot `d`
  holds a band of 32 rows of device `d`'s block.
-/
import proofs.«900783_g7700000000000784_dist_f_of_ar_i_m512_n256_v7x_i16_f32_1_alg».proof.Proof.Spec
import proofs.«900783_g7700000000000784_dist_f_of_ar_i_m512_n256_v7x_i16_f32_1_alg».proof.Proof.Gen.ReferenceIdeal.Read
import Idealize.ShloMosaic.Lib.Layout
import Idealize.ShloMosaic.PureOps.Ideal.Laws
import Idealize.ShloMosaic.Lib.Pipeline.Value
import Idealize.ShloMosaic.Lib.ValueIdx

noncomputable section

namespace Cert.Bridge

open Idealize.ShloMosaic Idealize.ShloMosaic.ValueIdx
open Cert.KernelIdeal.Spec Cert.KernelIdeal.Gen Cert.ReferenceIdeal.Read

/-! ## The payload that adds a unit axis -/

/-- Two shape casts 32 × 256 → 32 × 256 → 1 × 32 × 256: element `(0, p, q)` of the result is element `(p, q)`
    of the operand, the two having the same row-major position `p · 256 + q`. -/
theorem pay1_eq {F : FTy → Type} [FloatOps F] (v : Vec F Cert.KernelIdeal.S32x256 .f32) (p : Fin 32) (q : Fin 256) :
    k0_pay1 v (ix3 (0 : Fin 1) p q) = v (ix2 p q) := by
  unfold k0_pay1
  rw [shapeCast_self]
  refine shapeCast_apply v _ (ix3 (0 : Fin 1) p q) (ix2 p q) ?_
  rw [Shape.rowMajor_val_two, Shape.rowMajor_val_three]
  show p.val * 256 + q.val = ((0 : Fin 1).val * 32 + p.val) * 256 + q.val
  simp

/-! ## The pointwise function and the common sum -/

/-- `s ↦ tanh s · s · s + max(s,0)³` on the extended reals, the products associated to the left as both
    programs take them. -/
def act (s : EReal) : EReal := Ideal.tanh s * s * s + max s 0 * max s 0 * max s 0

/-- Row `512·d + r`, column `q` of the whole array. -/
def wholeIdx (d : Fin 16) (r : Fin 512) (q : Fin 256) : (⟨2, ![8192, 256]⟩ : Shape).Idx :=
  ix2 (⟨d.val * 512 + r.val, by have := d.isLt; have := r.isLt; omega⟩ : Fin 8192) q

/-! ## The reference at an element -/

/-- The reference's reduce-add at `(r, q)`: the initial value `0` plus the sum over the leading axis of the reshape,
    whose element `(d, r, q)` is the whole array's element at the same row-major position, `(512·d + r, q)`. -/
theorem ref_sum (T : (⟨Cert.ReferenceIdeal.S8192x256, .f32⟩ : BufTy).Contents (Elt Ideal)) (r : Fin 512) (q : Fin 256) :
    val_main_v1 (F := Ideal) T (ix2 r q) = ∑ d : Fin 16, T (wholeIdx d r q) := by
  rw [val_main_v1_apply, val_main_cst_apply]
  show Ideal.ofBits .f32 0x00000000#32 + _ = _
  rw [Ideal.ofBits_zero_f32, zero_add]
  refine Finset.sum_congr rfl fun d _ => ?_
  rw [val_main_v0_apply]
  refine congrArg T (funext fun a => Fin.ext ?_)
  have hd := d.isLt; have hr := r.isLt; have hq := q.isLt
  match a with
  | ⟨0, _⟩ =>
    show ((d.val * 512 + r.val) * 256 + q.val) / 256 = d.val * 512 + r.val
    omega
  | ⟨1, _⟩ =>
    show ((d.val * 512 + r.val) * 256 + q.val) % 256 = q.val
    omega

/-- The reference's result at `(r, q)` is the pointwise function of that sum. -/
theorem ref_apply (T : (⟨Cert.ReferenceIdeal.S8192x256, .f32⟩ : BufTy).Contents (Elt Ideal)) (r : Fin 512) (q : Fin 256) :
    val_main_v9 (F := Ideal) T (ix2 r q) = act (∑ d : Fin 16, T (wholeIdx d r q)) := by
  rw [val_main_v9_apply, val_main_v6_apply, val_main_v8_apply, val_main_v5_apply, val_main_v7_apply,
    val_main_v4_apply, val_main_v3_apply, val_main_v2_apply, val_main_cst_0_apply, ref_sum]
  show _ = act _
  unfold act
  rw [← Ideal.ofBits_zero_f32]
  rfl

/-! ## The kernel's arithmetic at an element -/

/-- The body's pointwise arithmetic on a vector `m`, read at an index: `act` of `m` there. -/
theorem act_vec (m : FVec Ideal Cert.KernelIdeal.S32x256 .f32) (j : Cert.KernelIdeal.S32x256.Idx) :
    addf (mulf (mulf (tanh m) m) m)
        (mulf (mulf (maximumf m (broadcast Cert.KernelIdeal.S32x256 (Scalar.ofBits (F := Ideal) .f32 0x00000000#32)))
            (maximumf m (broadcast Cert.KernelIdeal.S32x256 (Scalar.ofBits (F := Ideal) .f32 0x00000000#32))))
          (maximumf m (broadcast Cert.KernelIdeal.S32x256 (Scalar.ofBits (F := Ideal) .f32 0x00000000#32)))) j
      = act (m j) := by
  unfold act
  rw [← Ideal.ofBits_zero_f32]
  rfl

/-- The sum over the leading axis of a 16 × 32 × 256 vector, read at `(p, q)`: the sum of its sixteen slots there. -/
theorem sum_slots (v : Vec Ideal Cert.KernelIdeal.S16x32x256 .f32) (hφ : FKind.Formats FTy.f32)
    (hacc : (0x00000000#32 : BitVec 32) = FKind.add.neutral .f32 hφ) (p : Fin 32) (q : Fin 256) :
    multiReduction (F := Ideal) (φ := .f32) .add [0] Cert.KernelIdeal.S32x256 v 0x00000000#32
        reduces_S16x32x256_S32x256 hφ hacc (ix2 p q) = ∑ d : Fin 16, v (ix3 d p q) := by
  refine (Ideal.multiReduction_add_single (φ := .f32) v _ reduces_S16x32x256_S32x256 hφ hacc (ix2 p q)).trans ?_
  refine Finset.sum_congr rfl fun d _ => congrArg v (funext fun a => Fin.ext ?_)
  match a with
  | ⟨0, _⟩ => rfl
  | ⟨1, _⟩ => rfl
  | ⟨2, _⟩ => rfl

/-- The body's arithmetic at `(p, q)`: the pointwise function of the sum of the sixteen slots at `(p, q)`. -/
theorem pay2_apply (v : Vec Ideal Cert.KernelIdeal.S16x32x256 .f32) (p : Fin 32) (q : Fin 256) :
    k0_pay2 (F := Ideal) v (ix2 p q) = act (∑ d : Fin 16, v (ix3 d p q)) := by
  unfold k0_pay2
  rw [shapeCast_self]
  refine (act_vec _ _).trans (congrArg act ?_)
  exact sum_slots v _ _ p q

/-! ## The bridge -/

/-- The spec's result over the sixteen blocks of `T` is the reference's result on `T`. -/
theorem out_eq (T : (⟨Cert.ReferenceIdeal.S8192x256, .f32⟩ : BufTy).Contents (Elt Ideal)) :
    outOf (F := Ideal) (fun d => Layout.block ⟨2, ![512, 256]⟩ ⟨2, ![8192, 256]⟩ 0 16 d T)
      = val_main_v9 (F := Ideal) T := by
  funext i
  obtain ⟨r, q, rfl⟩ : ∃ (r : Fin 512) (q : Fin 256), i = ix2 r q := ⟨i 0, i 1, eq_ix2 i⟩
  rw [ref_apply]
  show k0_pay2 (F := Ideal) (recvOf (fun d => Layout.block ⟨2, ![512, 256]⟩ ⟨2, ![8192, 256]⟩ 0 16 d T) (bandOf r))
      (ix2 (rowIn r) q) = _
  rw [pay2_apply]
  refine congrArg act (Finset.sum_congr rfl fun d _ => ?_)
  show T (Layout.Tiles.idx _ d (ix2 (bandRow (bandOf r) (rowIn r)) q)) = T (wholeIdx d r q)
  rw [bandRow_bandOf_rowIn]
  refine congrArg T (funext fun a => Fin.ext ?_)
  match a with
  | ⟨0, _⟩ => rfl
  | ⟨1, _⟩ => rfl

/-- info: 'Cert.Bridge.out_eq' depends on axioms: [propext, Classical.choice, Quot.sound] -/
#guard_msgs in #print axioms Cert.Bridge.out_eq

end Cert.Bridge

end
-- ==== Proof.RefRun.lean ====
/- The reference program's run and its stages read at an index: both generated; this module only brings them into the build. -/
import proofs.«900783_g7700000000000784_dist_f_of_ar_i_m512_n256_v7x_i16_f32_1_alg».proof.Proof.Gen.ReferenceIdeal.Run
import proofs.«900783_g7700000000000784_dist_f_of_ar_i_m512_n256_v7x_i16_f32_1_alg».proof.Proof.Gen.ReferenceIdeal.Read
-- ==== Proof.Claims.lean ====
/-
  The certificate's conjuncts, from the run of the sixteen-device exchange, the reference's run, and the equation
  between the exchange's result over the sixteen blocks and the reference's result over the whole array.

  Each frame is a run with the values dropped. The algebraic claim names the reference's result of the whole
  array; the kernel's result on every device is the pure function of the sixteen input blocks, the blocks are the
  whole array's, and that function of the blocks is the reference's result.
-/
import proofs.«900783_g7700000000000784_dist_f_of_ar_i_m512_n256_v7x_i16_f32_1_alg».proof.Proof.LaunchRun
import proofs.«900783_g7700000000000784_dist_f_of_ar_i_m512_n256_v7x_i16_f32_1_alg».proof.Proof.Bridge
import proofs.«900783_g7700000000000784_dist_f_of_ar_i_m512_n256_v7x_i16_f32_1_alg».proof.Proof.RefRun
import proofs.«900783_g7700000000000784_dist_f_of_ar_i_m512_n256_v7x_i16_f32_1_alg».proof.Defs
import proofs.«900783_g7700000000000784_dist_f_of_ar_i_m512_n256_v7x_i16_f32_1_alg».proof.Proof.Gen.Pre_finite_inputs_Kernel
import proofs.«900783_g7700000000000784_dist_f_of_ar_i_m512_n256_v7x_i16_f32_1_alg».proof.Proof.Gen.Pre_finite_inputs_ReferenceIdeal
import proofs.«900783_g7700000000000784_dist_f_of_ar_i_m512_n256_v7x_i16_f32_1_alg».proof.Proof.Gen.Kernel

noncomputable section

namespace Cert.Proof.Claims

open Idealize.ShloMosaic Idealize.ShloMosaic.TcCoe Idealize.SL.Sem
open Idealize.ShloMosaic.Pipeline (BodyObligation)

/-- The idealized kernel runs and leaves every device's input block as it was: its run, read at the input window. -/
theorem frame_pi
    (hbody : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), BodyObligation (Cert.KernelIdeal.Proto.dats (F := Ideal) m ρ 0 c) (Cert.KernelIdeal.defs₀ (F := Ideal)) Cert.KernelIdeal.Proto.𝒱₀ () Set.univ) :
    Cert.frame_KernelIdeal :=
  fun m g _ => (θ_run Cert.KernelIdeal.defs _ _).mono
    (fun _ h c => (h c (0 : Fin 2)).trans (Cert.KernelIdeal.Proto.finalA_x m g c))
    (Cert.KernelIdeal.Proto.run_main m g (hbody m g))

/-- The reference runs and leaves its argument as it was: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- Where every device's input block is its block of a whole array, every device's result array after the run is
    the reference's result of that whole array: the result is the pure function of the sixteen input blocks, each
    block is read off the whole array, and that function of the sixteen blocks of a whole array is the reference's. -/
theorem result_eq (m : (ℓ : Loc Cert.KernelIdeal.nD Cert.KernelIdeal.τ Cert.KernelIdeal.sig) → Buf (Elt Ideal) ℓ) (g : Dev Cert.KernelIdeal.nD → PrngReg)
    (T : (⟨Cert.ReferenceIdeal.S8192x256, .f32⟩ : BufTy).Contents (Elt Ideal))
    (hagree : ∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c T)
    (c : Dev Cert.KernelIdeal.nD) :
    Cert.KernelIdeal.Proto.finalA m g c (1 : Fin 2) = Cert.ReferenceIdeal.Read.val_main_v9 (F := Ideal) T := by
  rw [Cert.KernelIdeal.Proto.finalA_out]
  have hx : Cert.KernelIdeal.Proto.xin m g = fun d => Layout.block ⟨2, ![512, 256]⟩ ⟨2, ![8192, 256]⟩ 0 16 d T :=
    funext fun d => (Cert.KernelIdeal.Proto.xin_eq m g d).trans (hagree d)
  rw [hx]
  exact Cert.Bridge.out_eq T

/-- The idealized kernel on sixteen devices and the reference on the whole array: both run, every device's result
    is the reference's, and the arguments of both end as they were. -/
theorem algebraic
    (hbody : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), BodyObligation (Cert.KernelIdeal.Proto.dats (F := Ideal) m ρ 0 c) (Cert.KernelIdeal.defs₀ (F := Ideal)) Cert.KernelIdeal.Proto.𝒱₀ () Set.univ) :
    Cert.algebraic_KernelIdeal_ReferenceIdeal :=
  fun m g m' g' _ hagree =>
    ⟨Cert.ReferenceIdeal.Read.val_main_v9 (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h c (1 : Fin 2)).trans (result_eq m g _ hagree c), (h c (0 : Fin 2)).trans (Cert.KernelIdeal.Proto.finalA_x m g c)⟩)
        (Cert.KernelIdeal.Proto.run_main m g (hbody m g)),
      (θ_run Cert.ReferenceIdeal.defs _ _).mono
        (fun _ h => ⟨(h 0).1.trans (Cert.ReferenceIdeal.Read.val_main_v9_eq _), (h 0).2⟩)
        (Cert.ReferenceIdeal.Value.run (F := Ideal) m' g')⟩

/-- The word-level kernel's frame from its run: a run whose post names each windowed array's final contents,
    and the input window's final contents being what the input array held at launch. -/
theorem frame_p
    (A : (m : (ℓ : Loc Cert.Kernel.nD Cert.Kernel.τ Cert.Kernel.sig) → Buf (Elt Bits) ℓ) → (g : Dev Cert.Kernel.nD → PrngReg) → (c : Dev Cert.Kernel.nD) →
      (w : Fin Cert.Kernel.cfg0.W) → Buf (Elt Bits) ((Cert.Kernel.cfg0.win w).arr.view.loc (c : Thread Cert.Kernel.nD Cert.Kernel.τ)))
    (hrun : ∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩
        (fun r => ∀ (c : Dev Cert.Kernel.nD) (w : Fin Cert.Kernel.cfg0.W), r.2.mem ((Cert.Kernel.cfg0.win w).arr.view.loc (c : Thread Cert.Kernel.nD Cert.Kernel.τ)) = A m g c w))
    (hx : ∀ (m : (ℓ : Loc Cert.Kernel.nD Cert.Kernel.τ Cert.Kernel.sig) → Buf (Elt Bits) ℓ) (g : Dev Cert.Kernel.nD → PrngReg) (c : Dev Cert.Kernel.nD),
      A m g c (0 : Fin 2) = m ((c.tc : Thread Cert.Kernel.nD Cert.Kernel.τ).loc Cert.Kernel.main_arg0)) :
    Cert.frame_Kernel :=
  fun m g _ => (θ_run Cert.Kernel.defs _ _).mono (fun _ h c => (h c (0 : Fin 2)).trans (hx m g c)) (hrun m g)

/-- The same form at the idealized kernel, met by its run and its input window's final contents. -/
theorem frame_pi_of
    (A : (m : (ℓ : Loc Cert.KernelIdeal.nD Cert.KernelIdeal.τ Cert.KernelIdeal.sig) → Buf (Elt Ideal) ℓ) → (g : Dev Cert.KernelIdeal.nD → PrngReg) → (c : Dev Cert.KernelIdeal.nD) →
      (w : Fin Cert.KernelIdeal.cfg0.W) → Buf (Elt Ideal) ((Cert.KernelIdeal.cfg0.win w).arr.view.loc (c : Thread Cert.KernelIdeal.nD Cert.KernelIdeal.τ)))
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩
        (fun r => ∀ (c : Dev Cert.KernelIdeal.nD) (w : Fin Cert.KernelIdeal.cfg0.W), r.2.mem ((Cert.KernelIdeal.cfg0.win w).arr.view.loc (c : Thread Cert.KernelIdeal.nD Cert.KernelIdeal.τ)) = A m g c w))
    (hx : ∀ (m : (ℓ : Loc Cert.KernelIdeal.nD Cert.KernelIdeal.τ Cert.KernelIdeal.sig) → Buf (Elt Ideal) ℓ) (g : Dev Cert.KernelIdeal.nD → PrngReg) (c : Dev Cert.KernelIdeal.nD),
      A m g c (0 : Fin 2) = m ((c.tc : Thread Cert.KernelIdeal.nD Cert.KernelIdeal.τ).loc Cert.KernelIdeal.main_arg0)) :
    Cert.frame_KernelIdeal :=
  fun m g _ => (θ_run Cert.KernelIdeal.defs _ _).mono (fun _ h c => (h c (0 : Fin 2)).trans (hx m g c)) (hrun m g)

example
    (hbody : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), BodyObligation (Cert.KernelIdeal.Proto.dats (F := Ideal) m ρ 0 c) (Cert.KernelIdeal.defs₀ (F := Ideal)) Cert.KernelIdeal.Proto.𝒱₀ () Set.univ) :
    Cert.frame_KernelIdeal :=
  frame_pi_of Cert.KernelIdeal.Proto.finalA (fun m g => Cert.KernelIdeal.Proto.run_main m g (hbody m g)) Cert.KernelIdeal.Proto.finalA_x

/-- info: 'Cert.Proof.Claims.frame_pi' depends on axioms: [propext, Classical.choice, Quot.sound] -/
#guard_msgs in #print axioms frame_pi
/-- info: 'Cert.Proof.Claims.frame_ri' depends on axioms: [propext, Classical.choice, Quot.sound] -/
#guard_msgs in #print axioms frame_ri
/-- info: 'Cert.Proof.Claims.algebraic' depends on axioms: [propext, Classical.choice, Quot.sound] -/
#guard_msgs in #print axioms algebraic
/-- info: 'Cert.Proof.Claims.frame_p' depends on axioms: [propext, Classical.choice, Quot.sound] -/
#guard_msgs in #print axioms frame_p

end Cert.Proof.Claims

end
-- ==== Proof.lean ====
/-
  The sixteen-device exchange `tanh s · s · s + max(s,0)³` of the column-block sums, against its one-device reference.

  Each device holds 512 rows of an 8192 × 256 array. Device `c` collects rows `32·c … 32·c+31` of every device's block
  (slot `d` of its receive buffer from device `d`), sums the sixteen slots and applies the function pointwise: that is
  its chunk, rows `32·c …` of the reference's `f (Σ_d T[512·d + r, ·])`. Every device then collects all sixteen chunks, so
  each ends holding the whole result (Proof/Spec.lean, Proof/Bridge.lean: the sum over the sixteen slots is the
  reference's sum over the sixteen row blocks, term by term; no other law is used).

  The three frames and the kernel's side of the value claim come from one run of the program under the schedule of
  Proof/Proto.lean: an entry handshake on the barrier cells (fifteen signals out, fifteen in), then two all-to-all
  exchanges over send and receive cells whose landings hand over the written part at its final contents
  (Proof/LaunchRun.lean for the launch, Proof/BodyAll.lean for one device's body). The word-level program is the same text,
  and its frame is the same run read at the word-level values (Proof/Bits/). The reference's frame and value are its
  generated run (Proof/Gen/ReferenceIdeal/Run.lean, Read.lean). Nothing was rewritten by the idealization, so the
  preservation conjunct is trivial.
-/
import proofs.«900783_g7700000000000784_dist_f_of_ar_i_m512_n256_v7x_i16_f32_1_alg».proof.Defs
import proofs.«900783_g7700000000000784_dist_f_of_ar_i_m512_n256_v7x_i16_f32_1_alg».proof.Proof.Gen.Kernel
import proofs.«900783_g7700000000000784_dist_f_of_ar_i_m512_n256_v7x_i16_f32_1_alg».proof.Proof.Gen.Kernel.Skeleton
import proofs.«900783_g7700000000000784_dist_f_of_ar_i_m512_n256_v7x_i16_f32_1_alg».proof.Proof.Gen.Kernel.Launch
import proofs.«900783_g7700000000000784_dist_f_of_ar_i_m512_n256_v7x_i16_f32_1_alg».proof.Proof.Gen.Kernel.Points
import proofs.«900783_g7700000000000784_dist_f_of_ar_i_m512_n256_v7x_i16_f32_1_alg».proof.Proof.Gen.Kernel.Frame
import proofs.«900783_g7700000000000784_dist_f_of_ar_i_m512_n256_v7x_i16_f32_1_alg».proof.Proof.Gen.KernelIdeal
import proofs.«900783_g7700000000000784_dist_f_of_ar_i_m512_n256_v7x_i16_f32_1_alg».proof.Proof.Gen.KernelIdeal.Skeleton
import proofs.«900783_g7700000000000784_dist_f_of_ar_i_m512_n256_v7x_i16_f32_1_alg».proof.Proof.Gen.KernelIdeal.Launch
import proofs.«900783_g7700000000000784_dist_f_of_ar_i_m512_n256_v7x_i16_f32_1_alg».proof.Proof.Gen.KernelIdeal.Points
import proofs.«900783_g7700000000000784_dist_f_of_ar_i_m512_n256_v7x_i16_f32_1_alg».proof.Proof.Gen.KernelIdeal.Frame
import proofs.«900783_g7700000000000784_dist_f_of_ar_i_m512_n256_v7x_i16_f32_1_alg».proof.Proof.Gen.ReferenceIdeal
import proofs.«900783_g7700000000000784_dist_f_of_ar_i_m512_n256_v7x_i16_f32_1_alg».proof.Proof.Gen.Pre_finite_inputs_Kernel
import proofs.«900783_g7700000000000784_dist_f_of_ar_i_m512_n256_v7x_i16_f32_1_alg».proof.Proof.Gen.Pre_finite_inputs_ReferenceIdeal
import proofs.«900783_g7700000000000784_dist_f_of_ar_i_m512_n256_v7x_i16_f32_1_alg».proof.Proof.BodyAll
import proofs.«900783_g7700000000000784_dist_f_of_ar_i_m512_n256_v7x_i16_f32_1_alg».proof.Proof.Bits.BodyAll
import proofs.«900783_g7700000000000784_dist_f_of_ar_i_m512_n256_v7x_i16_f32_1_alg».proof.Proof.Bits.LaunchRun
import proofs.«900783_g7700000000000784_dist_f_of_ar_i_m512_n256_v7x_i16_f32_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    Claims.frame_p (Cert.Kernel.Proto.finalA (F := Bits))
      (fun m g => Cert.Kernel.Proto.run_main m g (fun c => Cert.Kernel.Proto.body_obligation m g c))
      (fun m g c => Cert.Kernel.Proto.finalA_x m g c),
    Claims.frame_pi (fun m ρ c => Cert.KernelIdeal.Proto.body_obligation m ρ c),
    Claims.frame_ri,
    Claims.preserves,
    Claims.algebraic (fun m ρ c => Cert.KernelIdeal.Proto.body_obligation m ρ c)⟩

end Cert.Proof

end
